-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_v102) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x3 : Shape := ⟨3, ![8, 1024, 3]⟩
abbrev S8x1024 : Shape := ⟨2, ![8, 1024]⟩
abbrev S_ : Shape := ⟨0, ![]⟩

class Facts : Prop where
  bcast_S_S8x1024x3 : S_.BroadcastsInDim S8x1024x3 (![] : Fin 0 → Fin S8x1024x3.rank)
  reducesTo_S8x1024x3_S_d0_1_2 : S8x1024x3.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg5 : FVec F S8x1024x3 .f32) (main_v13 : IVec S_ 1) (main_v16 : IVec S8x1024x3 1) : IVec S_ 1 :=
  let main_c_5 : IVec S_ 1 := constantI S_ 1 1#1
  let main_v17 : IVec S_ 1 := (fun x v => Host.reduce IntOp.andi x v reducesTo_S8x1024x3_S_d0_1_2 h_S_) main_v16 main_c_5
  let main_v18 : IVec S_ 1 := andi main_v13 main_v17
  let main_v19 : FVec F S8x1024x3 .f32 := Host.absf main_arg5
  let main_cst_6 : FVec F S_ .f32 := constant S_ .f32 0x7F800000#32
  let main_v20 : FVec F S8x1024x3 .f32 := broadcastInDim S8x1024x3 ![] bcast_S_S8x1024x3 main_cst_6
  let main_v21 : IVec S8x1024x3 1 := cmpf .olt main_v19 main_v20
  let main_c_7 : IVec S_ 1 := constantI S_ 1 1#1
  let main_v22 : IVec S_ 1 := (fun x v => Host.reduce IntOp.andi x v reducesTo_S8x1024x3_S_d0_1_2 h_S_) main_v21 main_c_7
  let main_v23 : IVec S_ 1 := andi main_v18 main_v22
  main_v23

def fn {F : FTy → Type} [FloatOps F] (main_arg0 : FVec F S8x1024x3 .f32) (main_arg1 : IVec S8x1024 1) (main_arg2 : FVec F S8x1024 .f32) (main_arg3 : FVec F S8x1024 .f32) (main_arg4 : FVec F S8x1024x3 .f32) (main_arg5 : FVec F S8x1024x3 .f32) : IVec S_ 1 :=
  let main_v0 : FVec F S8x1024x3 .f32 := Host.absf main_arg0
  let main_cst : FVec F S_ .f32 := constant S_ .f32 0x7F800000#32
  let main_v1 : FVec F S8x1024x3 .f32 := broadcastInDim S8x1024x3 ![] bcast_S_S8x1024x3 main_cst
  let main_v2 : IVec S8x1024x3 1 := cmpf .olt main_v0 main_v1
  let main_c : IVec S_ 1 := constantI S_ 1 1#1
  let main_v3 : IVec S_ 1 := (fun x v => Host.reduce IntOp.andi x v reducesTo_S8x1024x3_S_d0_1_2 h_S_) main_v2 main_c
  let main_v4 : FVec F S8x1024 .f32 := Host.absf main_arg2
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S8x1024 .f32 := Host.absf main_arg3
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_v14 : FVec F S8x1024x3 .f32 := Host.absf main_arg4
  let main_cst_4 : FVec F S_ .f32 := constant S_ .f32 0x7F800000#32
  let main_v15 : FVec F S8x1024x3 .f32 := broadcastInDim S8x1024x3 ![] bcast_S_S8x1024x3 main_cst_4
  let main_v16 : IVec S8x1024x3 1 := cmpf .olt main_v14 main_v15
  fn_part1 (F := F) main_arg5 main_v13 main_v16
-- ==== Kernel.lean ====
abbrev S8x1024x3 : Shape := ⟨3, ![8, 1024, 3]⟩
abbrev S8x1024 : Shape := ⟨2, ![8, 1024]⟩
abbrev S8x128x3 : Shape := ⟨3, ![8, 128, 3]⟩
abbrev S8x128 : Shape := ⟨2, ![8, 128]⟩
abbrev S8x128x1 : Shape := ⟨3, ![8, 128, 1]⟩
abbrev S8x1x128 : Shape := ⟨3, ![8, 1, 128]⟩
abbrev S8x128x128 : Shape := ⟨3, ![8, 128, 128]⟩

abbrev nBuf : Space → Nat
  | .hbm => 11
  | .vmem => 32
  | .smem => 0
  | _ => 0

abbrev bufTy : (tb : Table) → Fin (tcTables nBuf tb) → BufTy
  | .hbm, ⟨0, _⟩ => ⟨S8x1024x3, .f32⟩
  | .hbm, ⟨1, _⟩ => ⟨S8x1024, .i1⟩
  | .hbm, ⟨2, _⟩ => ⟨S8x1024, .f32⟩
  | .hbm, ⟨3, _⟩ => ⟨S8x1024, .f32⟩
  | .hbm, ⟨4, _⟩ => ⟨S8x1024x3, .f32⟩
  | .hbm, ⟨5, _⟩ => ⟨S8x1024x3, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024x3, .f32⟩
  | .hbm, ⟨10, _⟩ => ⟨S8x1024x3, .f32⟩
  | .local _ .vmem, ⟨0, _⟩ => ⟨S8x128x3, .f32⟩
  | .local _ .vmem, ⟨1, _⟩ => ⟨S8x128x3, .f32⟩
  | .local _ .vmem, ⟨2, _⟩ => ⟨S8x128, .f32⟩
  | .local _ .vmem, ⟨3, _⟩ => ⟨S8x128, .f32⟩
  | .local _ .vmem, ⟨4, _⟩ => ⟨S8x128x3, .f32⟩
  | .local _ .vmem, ⟨5, _⟩ => ⟨S8x128x3, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128x3, .f32⟩
  | .local _ .vmem, ⟨13, _⟩ => ⟨S8x128x3, .f32⟩
  | .local _ .vmem, ⟨14, _⟩ => ⟨S8x128x3, .f32⟩
  | .local _ .vmem, ⟨15, _⟩ => ⟨S8x128x3, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S8x128x3, .f32⟩
  | .local _ .vmem, ⟨21, _⟩ => ⟨S8x128x3, .f32⟩
  | .local _ .vmem, ⟨22, _⟩ => ⟨S8x128x3, .f32⟩
  | .local _ .vmem, ⟨23, _⟩ => ⟨S8x128x3, .f32⟩
  | .local _ .vmem, ⟨24, _⟩ => ⟨S8x128, .f32⟩
  | .local _ .vmem, ⟨25, _⟩ => ⟨S8x128, .f32⟩
  | .local _ .vmem, ⟨26, _⟩ => ⟨S8x128, .f32⟩
  | .local _ .vmem, ⟨27, _⟩ => ⟨S8x128, .f32⟩
  | .local _ .vmem, ⟨28, _⟩ => ⟨S8x128, .f32⟩
  | .local _ .vmem, ⟨29, _⟩ => ⟨S8x128, .f32⟩
  | .local _ .vmem, ⟨30, _⟩ => ⟨S8x128, .f32⟩
  | .local _ .vmem, ⟨31, _⟩ => ⟨S8x128, .f32⟩
  | _, _ => ⟨S8x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v217 : BitVec 1 := Scalar.cmpi .eq arg1 c7_i32
  let v218 : BitVec 32 := Scalar.extui v217
  let c0_i32_102 : BitVec 32 := 0#32
  let v219 : BitVec 1 := Scalar.cmpi .ne v218 c0_i32_102
  v219

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S8x128x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S8x128x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x128x3 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8x128x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x128x3_S8x128x1_0_0_0 : ∀ a, (![0, 0, 0] : Fin 3 → Nat) a + S8x128x1.size a ≤ S8x128x3.size a
  h_S8x128x1 : 0 < S8x128x1.numel
  shapeCasts_S8x128x1_S8x128 : S8x128x1.ShapeCasts S8x128
  inb_S8x128x3_S8x128x1_0_0_1 : ∀ a, (![0, 0, 1] : Fin 3 → Nat) a + S8x128x1.size a ≤ S8x128x3.size a
  inb_S8x128x3_S8x128x1_0_0_2 : ∀ a, (![0, 0, 2] : Fin 3 → Nat) a + S8x128x1.size a ≤ S8x128x3.size a
  shapeCasts_S8x128_S8x128x1 : S8x128.ShapeCasts S8x128x1
  shapeCasts_S8x128_S8x1x128 : S8x128.ShapeCasts S8x1x128
  broadcasts_S8x128x1_S8x128x128 : S8x128x1.Broadcasts S8x128x128
  broadcasts_S8x1x128_S8x128x128 : S8x1x128.Broadcasts S8x128x128
  natLt_1_32 : 1 < 32
  reduces_S8x128x128_S8x128 : S8x128x128.Reduces [2] S8x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x3.size a ≤ S8x1024x3.size a
  hwx0_0 : ∀ i : grid0.Coords, EltTy.bits .f32 = 32 ∨ (Rect.block (s := S8x1024x3) S8x128x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x1024.size a
  hwx0_1 : ∀ i : grid0.Coords, EltTy.bits .f32 = 32 ∨ (Rect.block (s := S8x1024) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x3.size a ≤ S8x1024x3.size a
  hwx0_2 : ∀ i : grid0.Coords, EltTy.bits .f32 = 32 ∨ (Rect.block (s := S8x1024x3) S8x128x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x1024.size a
  hwx0_3 : ∀ i : grid0.Coords, EltTy.bits .f32 = 32 ∨ (Rect.block (s := S8x1024) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x1024.size a
  hwx0_4 : ∀ i : grid0.Coords, EltTy.bits .f32 = 32 ∨ (Rect.block (s := S8x1024) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x1024.size a
  hwx0_5 : ∀ i : grid0.Coords, EltTy.bits .f32 = 32 ∨ (Rect.block (s := S8x1024) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128x3.size a ≤ S8x1024x3.size a
  hwx0_6 : ∀ i : grid0.Coords, EltTy.bits .f32 = 32 ∨ (Rect.block (s := S8x1024x3) S8x128x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128x3.size a ≤ S8x1024x3.size a
  hwx0_7 : ∀ i : grid0.Coords, EltTy.bits .f32 = 32 ∨ (Rect.block (s := S8x1024x3) S8x128x3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S8x1024.size a
  hwx0_8 : ∀ i : grid0.Coords, EltTy.bits .f32 = 32 ∨ (Rect.block (s := S8x1024) S8x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x128.size a ≤ S8x1024.size a
  hwx0_9 : ∀ i : grid0.Coords, EltTy.bits .f32 = 32 ∨ (Rect.block (s := S8x1024) S8x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x128x3.size a ≤ S8x1024x3.size a
  hwx0_10 : ∀ i : grid0.Coords, EltTy.bits .f32 = 32 ∨ (Rect.block (s := S8x1024x3) S8x128x3.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x128x3.size a ≤ S8x1024x3.size a
  hwx0_11 : ∀ i : grid0.Coords, EltTy.bits .f32 = 32 ∨ (Rect.block (s := S8x1024x3) S8x128x3.size (cc0_transform_11 i) (hinb0_11 i)).WholeWords (EltTy.packing .f32)

variable [Facts₀]

abbrev win0_0 : Pipeline.Window sig grid0 :=
  Pipeline.Window.ofSpec (Memref.whole main_arg0) S8x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8x128x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S8x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S8x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S8x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S8x128x3.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S8x128x3.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S8x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S8x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_2) S8x128x3.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_3) S8x128x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | 10 => fun i => !(k0_cond2 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S8x1024x3 : Shape := ⟨3, ![8, 1024, 3]⟩
abbrev S8x1024 : Shape := ⟨2, ![8, 1024]⟩
abbrev S8x1024x1x3 : Shape := ⟨4, ![8, 1024, 1, 3]⟩
abbrev S8x1x1024x3 : Shape := ⟨4, ![8, 1, 1024, 3]⟩
abbrev S8x1024x1024x3 : Shape := ⟨4, ![8, 1024, 1024, 3]⟩
abbrev S_ : Shape := ⟨0, ![]⟩
abbrev S8x1024x1024 : Shape := ⟨3, ![8, 1024, 1024]⟩
abbrev S8x1024x1024x1 : Shape := ⟨4, ![8, 1024, 1024, 1]⟩
abbrev S8x1024x1 : Shape := ⟨3, ![8, 1024, 1]⟩
abbrev S8x1x1024 : Shape := ⟨3, ![8, 1, 1024]⟩

abbrev nBuf : Space → Nat
  | .hbm => 133
  | .vmem => 0
  | .smem => 0
  | _ => 0

abbrev hbmTy0_0 (i : Nat) : BufTy := match i % 128 with
  | 0 => ⟨S8x1024x3, .f32⟩
  | 1 => ⟨S8x1024, .i1⟩
  | 2 => ⟨S8x1024, .f32⟩
  | 3 => ⟨S8x1024, .f32⟩
  | 4 => ⟨S8x1024x3, .f32⟩
  | 5 => ⟨S8x1024x3, .f32⟩
  | 6 => ⟨S8x1024x1x3, .f32⟩
  | 7 => ⟨S8x1x1024x3, .f32⟩
  | 8 => ⟨S8x1024x1024x3, .f32⟩
  | 9 => ⟨S8x1024x1024x3, .f32⟩
  | 10 => ⟨S8x1024x1024x3, .f32⟩
  | 11 => ⟨S8x1024x1024x3, .f32⟩
  | 12 => ⟨S_, .f32⟩
  | 13 => ⟨S8x1024x1024, .f32⟩
  | 14 => ⟨S_, .f32⟩
  | 15 => ⟨S8x1024x1024, .f32⟩
  | 16 => ⟨S8x1024x1024, .f32⟩
  | 17 => ⟨S8x1024x1024, .f32⟩
  | 18 => ⟨S_, .f32⟩
  | 19 => ⟨S8x1024x1024, .f32⟩
  | 20 => ⟨S8x1024x1024, .f32⟩
  | 21 => ⟨S8x1024x1024x1, .f32⟩
  | 22 => ⟨S8x1024x1024x3, .f32⟩
  | 23 => ⟨S8x1024x1024x3, .f32⟩
  | 24 => ⟨S8x1024x1, .i1⟩
  | 25 => ⟨S8x1x1024, .i1⟩
  | 26 => ⟨S8x1024x1024, .i1⟩
  | 27 => ⟨S8x1024x1024, .i1⟩
  | 28 => ⟨S8x1024x1024, .i1⟩
  | 29 => ⟨S_, .f32⟩
  | 30 => ⟨S8x1024x1024, .f32⟩
  | 31 => ⟨S8x1024x1024, .i1⟩
  | 32 => ⟨S8x1024x1024, .i1⟩
  | 33 => ⟨S_, .f32⟩
  | 34 => ⟨S8x1024x1024, .f32⟩
  | 35 => ⟨S8x1024x1024, .i1⟩
  | 36 => ⟨S8x1024x1024, .i1⟩
  | 37 => ⟨S8x1024x1024, .f32⟩
  | 38 => ⟨S_, .f32⟩
  | 39 => ⟨S8x1024x1024, .f32⟩
  | 40 => ⟨S8x1024x1024, .f32⟩
  | 41 => ⟨S8x1024x1024, .f32⟩
  | 42 => ⟨S_, .f32⟩
  | 43 => ⟨S8x1024x1024, .f32⟩
  | 44 => ⟨S8x1024x1024, .f32⟩
  | 45 => ⟨S_, .f32⟩
  | 46 => ⟨S8x1024x1024, .f32⟩
  | 47 => ⟨S8x1024x1024, .f32⟩
  | 48 => ⟨S_, .f32⟩
  | 49 => ⟨S8x1024x1024, .f32⟩
  | 50 => ⟨S8x1024x1024, .f32⟩
  | 51 => ⟨S8x1024x1024, .f32⟩
  | 52 => ⟨S_, .f32⟩
  | 53 => ⟨S8x1024x1024, .f32⟩
  | 54 => ⟨S8x1024x1024, .f32⟩
  | 55 => ⟨S_, .f32⟩
  | 56 => ⟨S8x1024x1024, .f32⟩
  | 57 => ⟨S8x1024x1024, .f32⟩
  | 58 => ⟨S_, .f32⟩
  | 59 => ⟨S8x1024x1024, .f32⟩
  | 60 => ⟨S8x1024x1024, .i1⟩
  | 61 => ⟨S8x1024x1024, .f32⟩
  | 62 => ⟨S8x1024x1024, .f32⟩
  | 63 => ⟨S8x1024x1024, .f32⟩
  | 64 => ⟨S8x1024x1024, .f32⟩
  | 65 => ⟨S_, .f32⟩
  | 66 => ⟨S8x1024x1024, .f32⟩
  | 67 => ⟨S8x1024x1024, .f32⟩
  | 68 => ⟨S8x1024x1024, .f32⟩
  | 69 => ⟨S_, .f32⟩
  | 70 => ⟨S8x1024x1024, .f32⟩
  | 71 => ⟨S8x1024x1024, .f32⟩
  | 72 => ⟨S8x1024x1024, .f32⟩
  | 73 => ⟨S8x1024x1024, .f32⟩
  | 74 => ⟨S8x1x1024, .f32⟩
  | 75 => ⟨S8x1x1024, .f32⟩
  | 76 => ⟨S8x1024x1024, .f32⟩
  | 77 => ⟨S8x1024x1024, .f32⟩
  | 78 => ⟨S8x1024x1024, .f32⟩
  | 79 => ⟨S8x1024x1024, .f32⟩
  | 80 => ⟨S8x1024x1024, .f32⟩
  | 81 => ⟨S_, .f32⟩
  | 82 => ⟨S8x1024, .f32⟩
  | 83 => ⟨S8x1024x1024, .f32⟩
  | 84 => ⟨S8x1024x1024, .f32⟩
  | 85 => ⟨S_, .f32⟩
  | 86 => ⟨S8x1024, .f32⟩
  | 87 => ⟨S8x1024x1024, .f32⟩
  | 88 => ⟨S8x1024x1024, .f32⟩
  | 89 => ⟨S8x1024x1024x1, .f32⟩
  | 90 => ⟨S8x1024x1024x3, .f32⟩
  | 91 => ⟨S8x1024x1024x3, .f32⟩
  | 92 => ⟨S_, .f32⟩
  | 93 => ⟨S8x1024x3, .f32⟩
  | 94 => ⟨S8x1024x1024, .f32⟩
  | 95 => ⟨S8x1024x1024, .f32⟩
  | 96 => ⟨S8x1024x1024x1, .f32⟩
  | 97 => ⟨S8x1024x1024x3, .f32⟩
  | 98 => ⟨S8x1024x1024x3, .f32⟩
  | 99 => ⟨S_, .f32⟩
  | 100 => ⟨S8x1024x3, .f32⟩
  | 101 => ⟨S8x1x1024x3, .f32⟩
  | 102 => ⟨S8x1024x1024x3, .f32⟩
  | 103 => ⟨S8x1024x1024x3, .f32⟩
  | 104 => ⟨S_, .f32⟩
  | 105 => ⟨S8x1024x1024, .f32⟩
  | 106 => ⟨S8x1x1024x3, .f32⟩
  | 107 => ⟨S8x1024x1024x3, .f32⟩
  | 108 => ⟨S8x1024x1024x3, .f32⟩
  | 109 => ⟨S_, .f32⟩
  | 110 => ⟨S8x1024x1024, .f32⟩
  | 111 => ⟨S8x1024x1024, .f32⟩
  | 112 => ⟨S_, .f32⟩
  | 113 => ⟨S8x1024, .f32⟩
  | 114 => ⟨S8x1024x1024, .f32⟩
  | 115 => ⟨S_, .f32⟩
  | 116 => ⟨S8x1024, .f32⟩
  | 117 => ⟨S8x1024x1024, .f32⟩
  | 118 => ⟨S8x1024x1024x1, .f32⟩
  | 119 => ⟨S8x1024x1024x3, .f32⟩
  | 120 => ⟨S8x1024x1024x3, .f32⟩
  | 121 => ⟨S_, .f32⟩
  | 122 => ⟨S8x1024x3, .f32⟩
  | 123 => ⟨S8x1024x1024, .f32⟩
  | 124 => ⟨S8x1024x1024x1, .f32⟩
  | 125 => ⟨S8x1024x1024x3, .f32⟩
  | 126 => ⟨S8x1024x1024x3, .f32⟩
  | 127 => ⟨S_, .f32⟩
  | _ => ⟨S8x1024x3, .f32⟩

abbrev hbmTy0_1 (i : Nat) : BufTy := match i % 128 with
  | 0 => ⟨S8x1024x3, .f32⟩
  | 1 => ⟨S8x1024, .f32⟩
  | 2 => ⟨S8x1024, .f32⟩
  | 3 => ⟨S8x1024x3, .f32⟩
  | 4 => ⟨S8x1024x3, .f32⟩
  | _ => ⟨S8x1024x3, .f32⟩

abbrev hbmTy (i : Nat) : BufTy := match i / 128 with
  | 0 => hbmTy0_0 i
  | 1 => hbmTy0_1 i
  | _ => ⟨S8x1024x3, .f32⟩

abbrev bufTy : (tb : Table) → Fin (tcTables nBuf tb) → BufTy
  | .hbm, ⟨i, _⟩ => hbmTy i
  | _, _ => ⟨S8x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_15 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_16 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_17 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_18 : Ref sig .tc := ⟨.hbm, 109, rfl⟩
abbrev main_v84 : Ref sig .tc := ⟨.hbm, 110, rfl⟩
abbrev main_v85 : Ref sig .tc := ⟨.hbm, 111, rfl⟩
abbrev main_cst_19 : Ref sig .tc := ⟨.hbm, 112, rfl⟩
abbrev main_v86 : Ref sig .tc := ⟨.hbm, 113, rfl⟩
abbrev main_v87 : Ref sig .tc := ⟨.hbm, 114, rfl⟩
abbrev main_cst_20 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_21 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_22 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩

abbrev nD : Nat := 1
abbrev τ : Topo := Topo.v7x

variable {F : FTy → Type} [FloatOps F]

class Facts₀ : Prop where
  bcast_S8x1024x3_S8x1024x1x3_0_1_3 : S8x1024x3.BroadcastsInDim S8x1024x1x3 (![0, 1, 3] : Fin 3 → Fin S8x1024x1x3.rank)
  bcast_S8x1024x3_S8x1x1024x3_0_2_3 : S8x1024x3.BroadcastsInDim S8x1x1024x3 (![0, 2, 3] : Fin 3 → Fin S8x1x1024x3.rank)
  bcast_S8x1024x1x3_S8x1024x1024x3_0_1_2_3 : S8x1024x1x3.BroadcastsInDim S8x1024x1024x3 (![0, 1, 2, 3] : Fin 4 → Fin S8x1024x1024x3.rank)
  bcast_S8x1x1024x3_S8x1024x1024x3_0_1_2_3 : S8x1x1024x3.BroadcastsInDim S8x1024x1024x3 (![0, 1, 2, 3] : Fin 4 → Fin S8x1024x1024x3.rank)
  reducesTo_S8x1024x1024x3_S8x1024x1024_d3 : S8x1024x1024x3.ReducesTo [3] S8x1024x1024
  h_S_ : 0 < S_.numel
  bcast_S_S8x1024x1024 : S_.BroadcastsInDim S8x1024x1024 (![] : Fin 0 → Fin S8x1024x1024.rank)
  bcast_S8x1024x1024_S8x1024x1024x1_0_1_2 : S8x1024x1024.BroadcastsInDim S8x1024x1024x1 (![0, 1, 2] : Fin 3 → Fin S8x1024x1024x1.rank)
  bcast_S8x1024x1024x1_S8x1024x1024x3_0_1_2_3 : S8x1024x1024x1.BroadcastsInDim S8x1024x1024x3 (![0, 1, 2, 3] : Fin 4 → Fin S8x1024x1024x3.rank)
  bcast_S8x1024_S8x1024x1_0_1 : S8x1024.BroadcastsInDim S8x1024x1 (![0, 1] : Fin 2 → Fin S8x1024x1.rank)
  bcast_S8x1024_S8x1x1024_0_2 : S8x1024.BroadcastsInDim S8x1x1024 (![0, 2] : Fin 2 → Fin S8x1x1024.rank)
  bcast_S8x1024x1_S8x1024x1024_0_1_2 : S8x1024x1.BroadcastsInDim S8x1024x1024 (![0, 1, 2] : Fin 3 → Fin S8x1024x1024.rank)
  bcast_S8x1x1024_S8x1024x1024_0_1_2 : S8x1x1024.BroadcastsInDim S8x1024x1024 (![0, 1, 2] : Fin 3 → Fin S8x1024x1024.rank)
  reducesTo_S8x1024x1024_S8x1024_d2 : S8x1024x1024.ReducesTo [2] S8x1024
  reducesTo_S8x1024x1024x3_S8x1024x3_d2 : S8x1024x1024x3.ReducesTo [2] S8x1024x3

variable [Facts₀]

class Facts : Prop extends Facts₀ where

variable [Facts]
-- ==== Proof.Spec.lean ====
/-
  What the pairwise multipole-field kernel and its reference both compute, written once over the extended reals.

  For a batch b and two rows i (query) and j (key) of the 1024, with positions P, the 0/1 float row mask M, a scalar
  charge array s and a dipole array μ:
    r_k   = P[b,i,k] − P[b,j,k]                       (k = 0, 1, 2)
    d     = √ max(r_0² + r_1² + r_2², 1e-16)          the safe distance
    u_k   = r_k · (1 / max(d, 1e-8))                  the unit vector
    w     = ½(cos(π·d/5) + 1)·[d ≤ 5] · (M[b,i]·M[b,j]·[d > 1e-8]·[d ≤ 5]) · exp(−½ (d/0.6)²)
    ρ     = 1 / √(d² + 0.0225)                        the softened inverse distance
    w1 = w·ρ,  w2 = w1·ρ,  w3 = w2·ρ
    μ·u   = μ[b,j,0]·u_0 + μ[b,j,1]·u_1 + μ[b,j,2]·u_2
  The potential at (b,i) is  Σ_j w1·s[b,j] + Σ_j w2·(μ·u),  and component c of the field at (b,i) is
  Σ_j (w2·s[b,j])·u_c + Σ_j (w3·(μ·u))·u_c.  The four results are the potential and field for the charge pair
  (q, μ_q) and for the pair (m, μ_m). Every literal is kept as the extended real its binary word denotes.
-/
import Idealize.ShloMosaic.PureOps.Ideal
import Idealize.ShloMosaic.Lib.ValueIdx

noncomputable section

open scoped BigOperators

namespace Cert.Spec

open Idealize.ShloMosaic Idealize.ShloMosaic.ValueIdx

/-- The shape of the position and dipole arrays, and of the row arrays. -/
abbrev SP : Shape := ⟨3, ![8, 1024, 3]⟩
abbrev SR : Shape := ⟨2, ![8, 1024]⟩

/-! ## The literals, each the value of its binary word -/

def cTiny : EReal := Ideal.ofBits .f32 0x24E69595#32
def cEps : EReal := Ideal.ofBits .f32 0x322BCC77#32
def cOne : EReal := Ideal.ofBits .f32 0x3F800000#32
def cCut : EReal := Ideal.ofBits .f32 0x40A00000#32
def cSoft : EReal := Ideal.ofBits .f32 0x3CB851EC#32
def cPi : EReal := Ideal.ofBits .f32 0x40490FDB#32
def cHalf : EReal := Ideal.ofBits .f32 0x3F000000#32
def cSig : EReal := Ideal.ofBits .f32 0x3F19999A#32
def cNegHalf : EReal := Ideal.ofBits .f32 0xBF000000#32

/-- A one-bit word as the real 0 or 1. -/
def b2f (x : BitVec 1) : EReal := if x = 1#1 then 1 else 0

/-! ## One pair of rows -/

/-- The safe distance from the three coordinate differences. -/
def dist (rx ry rz : EReal) : EReal := Ideal.sqrt (max ((rx * rx + ry * ry) + rz * rz) cTiny)

/-- The reciprocal of the distance clamped away from zero. -/
def invd (d : EReal) : EReal := Ideal.div cOne (max d cEps)

/-- The softened inverse distance. -/
def invr (d : EReal) : EReal := Ideal.div cOne (Ideal.sqrt (d * d + cSoft))

/-- The pair weight: cosine cutoff, pair mask (row masks `vi`, `vj` as 0/1 reals, not the row itself, inside the
    cutoff) and the Gaussian. -/
def wgt (d vi vj : EReal) : EReal :=
  (((cHalf * (Ideal.cos (cPi * Ideal.div d cCut) + cOne)) * b2f (Ideal.cmp .ole d cCut))
      * (((vi * vj) * b2f (Ideal.cmp .ogt d cEps)) * b2f (Ideal.cmp .ole d cCut)))
    * Ideal.exp (cNegHalf * (Ideal.div d cSig * Ideal.div d cSig))

section Pair

variable (P : SP.Idx → EReal) (M : SR.Idx → EReal)

/-- Coordinate `k` of the difference of rows `i` and `j`. -/
def rr (b : Fin 8) (i j : Fin 1024) (k : Fin 3) : EReal := P (ix3 b i k) - P (ix3 b j k)
/-- Their safe distance. -/
def dd (b : Fin 8) (i j : Fin 1024) : EReal := dist (rr P b i j 0) (rr P b i j 1) (rr P b i j 2)
/-- Coordinate `k` of the unit vector. -/
def uu (b : Fin 8) (i j : Fin 1024) (k : Fin 3) : EReal := rr P b i j k * invd (dd P b i j)
/-- The pair weight times one, two and three softened inverse distances. -/
def w1 (b : Fin 8) (i j : Fin 1024) : EReal := wgt (dd P b i j) (M (ix2 b i)) (M (ix2 b j)) * invr (dd P b i j)
def w2 (b : Fin 8) (i j : Fin 1024) : EReal := w1 P M b i j * invr (dd P b i j)
def w3 (b : Fin 8) (i j : Fin 1024) : EReal := w2 P M b i j * invr (dd P b i j)
/-- The key row's dipole against the unit vector. -/
def dotu (μ : SP.Idx → EReal) (b : Fin 8) (i j : Fin 1024) : EReal :=
  (μ (ix3 b j 0) * uu P b i j 0 + μ (ix3 b j 1) * uu P b i j 1) + μ (ix3 b j 2) * uu P b i j 2

/-- The monopole and dipole terms of the potential, for one key row. -/
def potMono (s : SR.Idx → EReal) (b : Fin 8) (i j : Fin 1024) : EReal := w1 P M b i j * s (ix2 b j)
def potDip (μ : SP.Idx → EReal) (b : Fin 8) (i j : Fin 1024) : EReal := w2 P M b i j * dotu P μ b i j
/-- The monopole and dipole terms of component `k` of the field, for one key row. -/
def fldMono (s : SR.Idx → EReal) (b : Fin 8) (i j : Fin 1024) (k : Fin 3) : EReal := (w2 P M b i j * s (ix2 b j)) * uu P b i j k
def fldDip (μ : SP.Idx → EReal) (b : Fin 8) (i j : Fin 1024) (k : Fin 3) : EReal := (w3 P M b i j * dotu P μ b i j) * uu P b i j k

/-- The potential array: at (b, i) the sum over all key rows of the monopole terms plus that of the dipole terms. -/
def pot (s : SR.Idx → EReal) (μ : SP.Idx → EReal) : SR.Idx → EReal := fun y =>
  (∑ j : Fin 1024, potMono P M s (y 0) (y 1) j) + ∑ j : Fin 1024, potDip P M μ (y 0) (y 1) j

/-- The field array: at (b, i, k) likewise. -/
def fld (s : SR.Idx → EReal) (μ : SP.Idx → EReal) : SP.Idx → EReal := fun y =>
  (∑ j : Fin 1024, fldMono P M s (y 0) (y 1) j (y 2)) + ∑ j : Fin 1024, fldDip P M μ (y 0) (y 1) j (y 2)

end Pair

/-- The float row mask of a one-bit row mask. -/
def maskF (mk : SR.Idx → BitVec 1) : SR.Idx → EReal := fun y => b2f (mk y)

end Cert.Spec

end
-- ==== Proof.SpecLaws.lean ====
/-
  The scalar and summation laws both value sides need, over the extended reals: the one-bit word as 0 or 1, the
  literals one and the small positive clamp, a quotient by the clamped distance as a product by its reciprocal, the
  three-term and the tiled regrouping of a sum, the running sum over the eight key tiles, and the two conversions of a
  one-bit word to a float.
-/
import proofs.«173063_j80805514707451_1_alg».proof.Proof.Spec
import Idealize.ShloMosaic.PureOps.Ideal.Laws
import Mathlib.Algebra.BigOperators.Fin
import Mathlib.Logic.Equiv.Fin.Basic

noncomputable section

open scoped BigOperators

namespace Cert.Spec

open Idealize.ShloMosaic Idealize.ShloMosaic.ValueIdx

/-! ## The one-bit word as a real -/

/-- A one-bit word is the word 0 or the word 1. -/
theorem bit_cases : ∀ a : BitVec 1, a = 0#1 ∨ a = 1#1 := by decide

@[simp] theorem b2f_zero : b2f 0#1 = 0 := by
  unfold b2f
  rw [if_neg (by decide)]

@[simp] theorem b2f_one : b2f 1#1 = 1 := by
  unfold b2f
  rw [if_pos rfl]

theorem b2f_and (a b : BitVec 1) : b2f (a &&& b) = b2f a * b2f b := by
  rcases bit_cases a with rfl | rfl <;> rcases bit_cases b with rfl | rfl
  · rw [show (0#1 &&& 0#1 : BitVec 1) = 0#1 by decide, b2f_zero, mul_zero]
  · rw [show (0#1 &&& 1#1 : BitVec 1) = 0#1 by decide, b2f_zero, b2f_one, zero_mul]
  · rw [show (1#1 &&& 0#1 : BitVec 1) = 0#1 by decide, b2f_zero, b2f_one, mul_zero]
  · rw [show (1#1 &&& 1#1 : BitVec 1) = 1#1 by decide, b2f_one, mul_one]

theorem b2f_mul_self (a : BitVec 1) : b2f a * b2f a = b2f a := by
  rcases bit_cases a with rfl | rfl
  · rw [b2f_zero, mul_zero]
  · rw [b2f_one, mul_one]

/-! ## The literals -/

/-- The word 0x3F800000 denotes 1. -/
theorem cOne_eq : cOne = 1 := by
  rw [show (1 : EReal) = ((1 : ℝ) : EReal) by norm_cast]
  simp [cOne, Ideal.ofBits, Ideal.ieee, -EReal.coe_mul]; norm_num

/-- The word 0x322BCC77 denotes a positive real. -/
theorem cEps_pos : (0 : EReal) < cEps := by
  simp [cEps, Ideal.ofBits, Ideal.ieee, -EReal.coe_mul]

theorem max_cEps_ne_zero (d : EReal) : max d cEps ≠ 0 :=
  (lt_of_lt_of_le cEps_pos (le_max_right d cEps)).ne'

/-- The reference divides by the clamped distance; the kernel multiplies by its reciprocal. -/
theorem div_max_eq_mul_invd (r d : EReal) : Ideal.div r (max d cEps) = r * invd d := by
  unfold invd Ideal.div
  rw [if_neg (max_cEps_ne_zero d), if_neg (max_cEps_ne_zero d), cOne_eq, one_mul]

theorem zero_word : Ideal.ofBits .f32 0x00000000#32 = (0 : EReal) := Ideal.ofBits_zero_f32

/-! ## Sums -/

theorem sum_fin3 (f : Fin 3 → EReal) : (0 : EReal) + ∑ k : Fin 3, f k = (f 0 + f 1) + f 2 := by
  rw [Fin.sum_univ_three, zero_add]

/-- A sum over the 1024 rows as eight tiles of 128 consecutive rows. -/
theorem sum_tiles (f : Fin 1024 → EReal) :
    ∑ j : Fin 1024, f j = ∑ J : Fin 8, ∑ q : Fin 128, f ⟨128 * J.val + q.val, by omega⟩ := by
  let g : Fin (8 * 128) → EReal := f
  have h1 : ∑ j : Fin (8 * 128), g j = ∑ p : Fin 8 × Fin 128, g (finProdFinEquiv p) :=
    (Equiv.sum_comp finProdFinEquiv g).symm
  have h2 : ∑ j : Fin 1024, f j = ∑ j : Fin (8 * 128), g j := rfl
  rw [h2, h1, Fintype.sum_prod_type]
  refine Finset.sum_congr rfl fun J _ => Finset.sum_congr rfl fun q _ => ?_
  show f (finProdFinEquiv (J, q)) = f ⟨128 * J.val + q.val, by omega⟩
  congr 1
  apply Fin.ext
  show q.val + 128 * J.val = 128 * J.val + q.val
  omega

/-- the kernel's running sum: cleared and then increased once per key tile by that tile's two partial sums -/
def accum (a d : Fin 8 → EReal) : (n : ℕ) → n < 8 → EReal
  | 0, h => (0 : EReal) + (a ⟨0, h⟩ + d ⟨0, h⟩)
  | n + 1, h => accum a d n (Nat.lt_of_succ_lt h) + (a ⟨n + 1, h⟩ + d ⟨n + 1, h⟩)

theorem accum_last (a d : Fin 8 → EReal) : accum a d 7 (by omega) = (∑ J : Fin 8, a J) + ∑ J : Fin 8, d J := by
  rw [Fin.sum_univ_eight, Fin.sum_univ_eight]
  show ((((((((0 : EReal) + (a 0 + d 0)) + (a 1 + d 1)) + (a 2 + d 2)) + (a 3 + d 3)) + (a 4 + d 4)) + (a 5 + d 5))
      + (a 6 + d 6)) + (a 7 + d 7) = _
  rw [zero_add]
  ac_rfl

/-! ## The two conversions of a one-bit word to a float -/

/-- On one word: zero-extended to 32 bits and converted signed, a bit is the real 0 or 1. -/
theorem sitofp_setWidth_eq_b2f (x : BitVec 1) :
    FloatOps.sitofp (F := Ideal) .f32 (x.setWidth 32) = b2f x := by
  show ((((x.setWidth 32).toInt : ℤ) : ℝ) : EReal) = b2f x
  rcases bit_cases x with rfl | rfl
  · rw [b2f_zero, show ((0#1 : BitVec 1).setWidth 32).toInt = 0 by decide]; norm_cast
  · rw [b2f_one, show ((1#1 : BitVec 1).setWidth 32).toInt = 1 by decide]; norm_cast

/-- On one word: converted unsigned, a bit is the real 0 or 1. -/
theorem uitofp_eq_b2f (x : BitVec 1) : FloatOps.uitofp (F := Ideal) .f32 x = b2f x := by
  show (((x.toNat : ℕ) : ℝ) : EReal) = b2f x
  rcases bit_cases x with rfl | rfl
  · rw [b2f_zero, show (0#1 : BitVec 1).toNat = 0 by decide]; norm_cast
  · rw [b2f_one, show (1#1 : BitVec 1).toNat = 1 by decide]; norm_cast

/-- The kernel's conversion of a one-bit vector, read at an index. -/
theorem sitofp_extui_apply {S : Shape} (v : IVec S 1) (h : 1 < 32) (i : S.Idx) :
    (sitofp .f32 (extui 32 v h) : FVec Ideal S .f32) i = b2f (v i) :=
  sitofp_setWidth_eq_b2f (v i)

/-- The host's conversion of a one-bit array, read at an index. -/
theorem uitofp_apply {S : Shape} (v : IVec S 1) (i : S.Idx) :
    (uitofp .f32 v : FVec Ideal S .f32) i = b2f (v i) :=
  uitofp_eq_b2f (v i)

end Cert.Spec

end
-- ==== Proof.RefPair.lean ====
/-
  The reference program's pair quantities, each read at one pair of rows: the safe distance, the unit vector, the
  pair weight times one, two and three softened inverse distances, and a dipole against the unit vector. Each stage of
  the reference, at an index built from explicit coordinates, is the corresponding quantity of the specification.
-/
import proofs.«173063_j80805514707451_1_alg».proof.Proof.Spec
import proofs.«173063_j80805514707451_1_alg».proof.Proof.SpecLaws
import proofs.«173063_j80805514707451_1_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The coordinate differences and the distance -/

/-- The difference stage at a pair of rows and a coordinate. -/
theorem v4_at (x0 : (⟨S8x1024x3, .f32⟩ : BufTy).Contents (Elt Ideal)) (b : Fin 8) (i j : Fin 1024) (k : Fin 3) :
    val_main_v4 (F := Ideal) x0 (ix4 b i j k) = Cert.Spec.rr x0 b i j k := by
  have h2 : idx_main_v0 (idx_main_v2 (ix4 b i j k)) = ix3 b i k := by
    funext a; match a with | ⟨0, _⟩ => rfl | ⟨1, _⟩ => rfl | ⟨2, _⟩ => rfl
  have h3 : idx_main_v1 (idx_main_v3 (ix4 b i j k)) = ix3 b j k := by
    funext a; match a with | ⟨0, _⟩ => rfl | ⟨1, _⟩ => rfl | ⟨2, _⟩ => rfl
  rw [val_main_v4_apply, val_main_v2_apply, val_main_v3_apply, val_main_v0_apply, val_main_v1_apply, h2, h3]
  rfl

/-- The index the sum over the three coordinates reads. -/
theorem idx6 (b : Fin 8) (i j : Fin 1024) (k : Fin 3) : idx_main_v6 (ix3 b i j) k = ix4 b i j k := by
  funext a; match a with | ⟨0, _⟩ => rfl | ⟨1, _⟩ => rfl | ⟨2, _⟩ => rfl | ⟨3, _⟩ => rfl

/-- The squared length of the difference. -/
theorem v6_at (x0 : (⟨S8x1024x3, .f32⟩ : BufTy).Contents (Elt Ideal)) (b : Fin 8) (i j : Fin 1024) :
    val_main_v6 (F := Ideal) x0 (ix3 b i j)
      = (Cert.Spec.rr x0 b i j 0 * Cert.Spec.rr x0 b i j 0 + Cert.Spec.rr x0 b i j 1 * Cert.Spec.rr x0 b i j 1)
        + Cert.Spec.rr x0 b i j 2 * Cert.Spec.rr x0 b i j 2 := by
  rw [val_main_v6_apply, val_main_cst_apply]
  refine ((congrArg (· + _) Cert.Spec.zero_word).trans (Cert.Spec.sum_fin3 _)).trans ?_
  simp only [idx6, val_main_v5_apply, v4_at, Ideal.mulf_def]

/-- The distance stage at a pair of rows is the specification's safe distance. -/
theorem v9_at (x0 : (⟨S8x1024x3, .f32⟩ : BufTy).Contents (Elt Ideal)) (b : Fin 8) (i j : Fin 1024) :
    val_main_v9 (F := Ideal) x0 (ix3 b i j) = Cert.Spec.dd x0 b i j := by
  rw [val_main_v9_apply, val_main_v8_apply, v6_at, val_main_v7_apply, val_main_cst_0_apply]
  rfl

/-! ## The unit vector -/

/-- The index the broadcast of the clamped distance along the coordinate axis reads. -/
theorem idx13 (b : Fin 8) (i j : Fin 1024) (k : Fin 3) : idx_main_v12 (idx_main_v13 (ix4 b i j k)) = ix3 b i j := by
  funext a; match a with | ⟨0, _⟩ => rfl | ⟨1, _⟩ => rfl | ⟨2, _⟩ => rfl

/-- The unit-vector stage: the reference's quotient by the clamped distance is the product by its reciprocal. -/
theorem v14_at (x0 : (⟨S8x1024x3, .f32⟩ : BufTy).Contents (Elt Ideal)) (b : Fin 8) (i j : Fin 1024) (k : Fin 3) :
    val_main_v14 (F := Ideal) x0 (ix4 b i j k) = Cert.Spec.uu x0 b i j k := by
  rw [val_main_v14_apply, v4_at, val_main_v13_apply, val_main_v12_apply, idx13, val_main_v11_apply, v9_at,
    val_main_v10_apply, val_main_cst_1_apply]
  exact Cert.Spec.div_max_eq_mul_invd _ _

/-! ## The softened inverse distance -/

/-- The softened inverse distance stage. -/
theorem v31_at (x0 : (⟨S8x1024x3, .f32⟩ : BufTy).Contents (Elt Ideal)) (b : Fin 8) (i j : Fin 1024) :
    val_main_v31 (F := Ideal) x0 (ix3 b i j) = Cert.Spec.invr (Cert.Spec.dd x0 b i j) := by
  rw [val_main_v31_apply, val_main_v30_apply, val_main_cst_5_apply, val_main_v29_apply, val_main_v28_apply,
    val_main_v26_apply, v9_at, val_main_v27_apply, val_main_cst_4_apply]
  rfl

/-! ## The pair weight -/

/-- The query row's mask word. -/
theorem v17_at (x1 : (⟨S8x1024, .i1⟩ : BufTy).Contents (Elt Ideal)) (b : Fin 8) (i j : Fin 1024) :
    val_main_v17 (F := Ideal) x1 (ix3 b i j) = x1 (ix2 b i) := by
  have h : idx_main_v15 (idx_main_v17 (ix3 b i j)) = ix2 b i := by
    funext a; match a with | ⟨0, _⟩ => rfl | ⟨1, _⟩ => rfl
  rw [val_main_v17_apply, val_main_v15_apply, h]

/-- The key row's mask word. -/
theorem v18_at (x1 : (⟨S8x1024, .i1⟩ : BufTy).Contents (Elt Ideal)) (b : Fin 8) (i j : Fin 1024) :
    val_main_v18 (F := Ideal) x1 (ix3 b i j) = x1 (ix2 b j) := by
  have h : idx_main_v16 (idx_main_v18 (ix3 b i j)) = ix2 b j := by
    funext a; match a with | ⟨0, _⟩ => rfl | ⟨1, _⟩ => rfl
  rw [val_main_v18_apply, val_main_v16_apply, h]

/-- The pair mask as a product of 0/1 reals. -/
theorem v45_at (x0 : (⟨S8x1024x3, .f32⟩ : BufTy).Contents (Elt Ideal)) (x1 : (⟨S8x1024, .i1⟩ : BufTy).Contents (Elt Ideal))
    (b : Fin 8) (i j : Fin 1024) :
    val_main_v45 (F := Ideal) x0 x1 (ix3 b i j)
      = ((Cert.Spec.maskF x1 (ix2 b i) * Cert.Spec.maskF x1 (ix2 b j))
          * Cert.Spec.b2f (Ideal.cmp .ogt (Cert.Spec.dd x0 b i j) Cert.Spec.cEps))
        * Cert.Spec.b2f (Ideal.cmp .ole (Cert.Spec.dd x0 b i j) Cert.Spec.cCut) := by
  rw [val_main_v45_apply, val_main_v25_apply, val_main_v22_apply, val_main_v19_apply, v17_at, v18_at,
    val_main_v21_apply, val_main_v24_apply, v9_at, val_main_v20_apply, val_main_cst_2_apply, val_main_v23_apply,
    val_main_cst_3_apply, Cert.Spec.uitofp_eq_b2f]
  refine (Cert.Spec.b2f_and _ _).trans ?_
  refine congrArg (· * _) ?_
  refine (Cert.Spec.b2f_and _ _).trans ?_
  refine congrArg (· * _) ?_
  exact Cert.Spec.b2f_and _ _

/-- The cosine cutoff with its own indicator. -/
theorem v44_at (x0 : (⟨S8x1024x3, .f32⟩ : BufTy).Contents (Elt Ideal)) (b : Fin 8) (i j : Fin 1024) :
    val_main_v44 (F := Ideal) x0 (ix3 b i j)
      = (Cert.Spec.cHalf * (Ideal.cos (Cert.Spec.cPi * Ideal.div (Cert.Spec.dd x0 b i j) Cert.Spec.cCut) + Cert.Spec.cOne))
        * Cert.Spec.b2f (Ideal.cmp .ole (Cert.Spec.dd x0 b i j) Cert.Spec.cCut) := by
  rw [val_main_v44_apply, val_main_v40_apply, val_main_v39_apply, val_main_cst_9_apply, val_main_v38_apply,
    val_main_v36_apply, val_main_v35_apply, val_main_v34_apply, val_main_cst_7_apply, val_main_v33_apply, v9_at,
    val_main_v32_apply, val_main_cst_6_apply, val_main_v37_apply, val_main_cst_8_apply, val_main_v43_apply,
    val_main_v42_apply, v9_at, val_main_v41_apply, val_main_cst_10_apply, Cert.Spec.uitofp_eq_b2f]
  rfl

/-- The Gaussian. -/
theorem v52_at (x0 : (⟨S8x1024x3, .f32⟩ : BufTy).Contents (Elt Ideal)) (b : Fin 8) (i j : Fin 1024) :
    val_main_v52 (F := Ideal) x0 (ix3 b i j)
      = Ideal.exp (Cert.Spec.cNegHalf * (Ideal.div (Cert.Spec.dd x0 b i j) Cert.Spec.cSig * Ideal.div (Cert.Spec.dd x0 b i j) Cert.Spec.cSig)) := by
  rw [val_main_v52_apply, val_main_v51_apply, val_main_v50_apply, val_main_cst_12_apply, val_main_v49_apply,
    val_main_v48_apply, v9_at, val_main_v47_apply, val_main_cst_11_apply]
  rfl

/-- The pair weight stage. -/
theorem v53_at (x0 : (⟨S8x1024x3, .f32⟩ : BufTy).Contents (Elt Ideal)) (x1 : (⟨S8x1024, .i1⟩ : BufTy).Contents (Elt Ideal))
    (b : Fin 8) (i j : Fin 1024) :
    val_main_v53 (F := Ideal) x0 x1 (ix3 b i j)
      = Cert.Spec.wgt (Cert.Spec.dd x0 b i j) (Cert.Spec.maskF x1 (ix2 b i)) (Cert.Spec.maskF x1 (ix2 b j)) := by
  rw [val_main_v53_apply, val_main_v46_apply, v44_at, v45_at, v52_at]
  rfl

/-- The weight times one softened inverse distance. -/
theorem v56_at (x0 : (⟨S8x1024x3, .f32⟩ : BufTy).Contents (Elt Ideal)) (x1 : (⟨S8x1024, .i1⟩ : BufTy).Contents (Elt Ideal))
    (b : Fin 8) (i j : Fin 1024) :
    val_main_v56 (F := Ideal) x0 x1 (ix3 b i j) = Cert.Spec.w1 x0 (Cert.Spec.maskF x1) b i j := by
  rw [val_main_v56_apply, v53_at, v31_at]
  rfl

/-- The weight times two softened inverse distances. -/
theorem v57_at (x0 : (⟨S8x1024x3, .f32⟩ : BufTy).Contents (Elt Ideal)) (x1 : (⟨S8x1024, .i1⟩ : BufTy).Contents (Elt Ideal))
    (b : Fin 8) (i j : Fin 1024) :
    val_main_v57 (F := Ideal) x0 x1 (ix3 b i j) = Cert.Spec.w2 x0 (Cert.Spec.maskF x1) b i j := by
  rw [val_main_v57_apply, v56_at, v31_at]
  rfl

/-- The weight times three softened inverse distances. -/
theorem v58_at (x0 : (⟨S8x1024x3, .f32⟩ : BufTy).Contents (Elt Ideal)) (x1 : (⟨S8x1024, .i1⟩ : BufTy).Contents (Elt Ideal))
    (b : Fin 8) (i j : Fin 1024) :
    val_main_v58 (F := Ideal) x0 x1 (ix3 b i j) = Cert.Spec.w3 x0 (Cert.Spec.maskF x1) b i j := by
  rw [val_main_v58_apply, v57_at, v31_at]
  rfl

/-! ## A dipole against the unit vector -/

/-- The index the sum over the three coordinates of a dipole product reads. -/
theorem idx80 (b : Fin 8) (i j : Fin 1024) (k : Fin 3) : idx_main_v80 (ix3 b i j) k = ix4 b i j k := by
  funext a; match a with | ⟨0, _⟩ => rfl | ⟨1, _⟩ => rfl | ⟨2, _⟩ => rfl | ⟨3, _⟩ => rfl

/-- The same for the second dipole array. -/
theorem idx84 (b : Fin 8) (i j : Fin 1024) (k : Fin 3) : idx_main_v84 (ix3 b i j) k = ix4 b i j k := by
  funext a; match a with | ⟨0, _⟩ => rfl | ⟨1, _⟩ => rfl | ⟨2, _⟩ => rfl | ⟨3, _⟩ => rfl

/-- The key row's first dipole array, broadcast over the query rows. -/
theorem v78_at (x4 : (⟨S8x1024x3, .f32⟩ : BufTy).Contents (Elt Ideal)) (b : Fin 8) (i j : Fin 1024) (k : Fin 3) :
    val_main_v78 (F := Ideal) x4 (ix4 b i j k) = x4 (ix3 b j k) := by
  have h : idx_main_v77 (idx_main_v78 (ix4 b i j k)) = ix3 b j k := by
    funext a; match a with | ⟨0, _⟩ => rfl | ⟨1, _⟩ => rfl | ⟨2, _⟩ => rfl
  rw [val_main_v78_apply, val_main_v77_apply, h]

/-- The key row's second dipole array, broadcast over the query rows. -/
theorem v82_at (x5 : (⟨S8x1024x3, .f32⟩ : BufTy).Contents (Elt Ideal)) (b : Fin 8) (i j : Fin 1024) (k : Fin 3) :
    val_main_v82 (F := Ideal) x5 (ix4 b i j k) = x5 (ix3 b j k) := by
  have h : idx_main_v81 (idx_main_v82 (ix4 b i j k)) = ix3 b j k := by
    funext a; match a with | ⟨0, _⟩ => rfl | ⟨1, _⟩ => rfl | ⟨2, _⟩ => rfl
  rw [val_main_v82_apply, val_main_v81_apply, h]

/-- The first dipole array against the unit vector. -/
theorem v80_at (x0 x4 : (⟨S8x1024x3, .f32⟩ : BufTy).Contents (Elt Ideal)) (b : Fin 8) (i j : Fin 1024) :
    val_main_v80 (F := Ideal) x0 x4 (ix3 b i j) = Cert.Spec.dotu x0 x4 b i j := by
  rw [val_main_v80_apply, val_main_cst_17_apply]
  refine ((congrArg (· + _) Cert.Spec.zero_word).trans (Cert.Spec.sum_fin3 _)).trans ?_
  simp only [idx80, val_main_v79_apply, v78_at, v14_at, Ideal.mulf_def]
  rfl

/-- The second dipole array against the unit vector. -/
theorem v84_at (x0 x5 : (⟨S8x1024x3, .f32⟩ : BufTy).Contents (Elt Ideal)) (b : Fin 8) (i j : Fin 1024) :
    val_main_v84 (F := Ideal) x0 x5 (ix3 b i j) = Cert.Spec.dotu x0 x5 b i j := by
  rw [val_main_v84_apply, val_main_cst_18_apply]
  refine ((congrArg (· + _) Cert.Spec.zero_word).trans (Cert.Spec.sum_fin3 _)).trans ?_
  simp only [idx84, val_main_v83_apply, v82_at, v14_at, Ideal.mulf_def]
  rfl

end Cert.ReferenceIdeal.RefValue

end
-- ==== Proof.RefPot.lean ====
/-
  The reference program's two potentials. Each is, at a batch and a query row, the sum over the key rows of the monopole
  terms plus the sum over the key rows of the dipole terms; the reference forms each sum from the zero word, and that word
  is the real zero.
-/
import proofs.«173063_j80805514707451_1_alg».proof.Proof.SpecLaws
import proofs.«173063_j80805514707451_1_alg».proof.Proof.RefPair

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The key row's scalar charge, broadcast over the query rows -/

/-- The first charge array at a pair of rows is its value at the key row. -/
theorem v59_at (x2 : (⟨S8x1024, .f32⟩ : BufTy).Contents (Elt Ideal)) (b : Fin 8) (i j : Fin 1024) :
    val_main_v59 (F := Ideal) x2 (ix3 b i j) = x2 (ix2 b j) := by
  have h : idx_main_v54 (idx_main_v59 (ix3 b i j)) = ix2 b j := by
    funext a; match a with | ⟨0, _⟩ => rfl | ⟨1, _⟩ => rfl
  rw [val_main_v59_apply, val_main_v54_apply, h]

/-- The second charge array at a pair of rows is its value at the key row. -/
theorem v62_at (x3 : (⟨S8x1024, .f32⟩ : BufTy).Contents (Elt Ideal)) (b : Fin 8) (i j : Fin 1024) :
    val_main_v62 (F := Ideal) x3 (ix3 b i j) = x3 (ix2 b j) := by
  have h : idx_main_v55 (idx_main_v62 (ix3 b i j)) = ix2 b j := by
    funext a; match a with | ⟨0, _⟩ => rfl | ⟨1, _⟩ => rfl
  rw [val_main_v62_apply, val_main_v55_apply, h]

/-! ## The index a sum over the key rows reads -/

theorem idx61 (b : Fin 8) (i j : Fin 1024) : idx_main_v61 (ix2 b i) j = ix3 b i j := by
  funext a; match a with | ⟨0, _⟩ => rfl | ⟨1, _⟩ => rfl | ⟨2, _⟩ => rfl

theorem idx64 (b : Fin 8) (i j : Fin 1024) : idx_main_v64 (ix2 b i) j = ix3 b i j := by
  funext a; match a with | ⟨0, _⟩ => rfl | ⟨1, _⟩ => rfl | ⟨2, _⟩ => rfl

theorem idx86 (b : Fin 8) (i j : Fin 1024) : idx_main_v86 (ix2 b i) j = ix3 b i j := by
  funext a; match a with | ⟨0, _⟩ => rfl | ⟨1, _⟩ => rfl | ⟨2, _⟩ => rfl

theorem idx88 (b : Fin 8) (i j : Fin 1024) : idx_main_v88 (ix2 b i) j = ix3 b i j := by
  funext a; match a with | ⟨0, _⟩ => rfl | ⟨1, _⟩ => rfl | ⟨2, _⟩ => rfl

/-! ## The four sums over the key rows -/

/-- The monopole sum of the first potential. -/
theorem v61_at (x0 : (⟨S8x1024x3, .f32⟩ : BufTy).Contents (Elt Ideal)) (x1 : (⟨S8x1024, .i1⟩ : BufTy).Contents (Elt Ideal))
    (x2 : (⟨S8x1024, .f32⟩ : BufTy).Contents (Elt Ideal)) (b : Fin 8) (i : Fin 1024) :
    val_main_v61 (F := Ideal) x0 x1 x2 (ix2 b i) = ∑ j : Fin 1024, Cert.Spec.potMono x0 (Cert.Spec.maskF x1) x2 b i j := by
  rw [val_main_v61_apply, val_main_cst_13_apply]
  refine ((congrArg (· + _) Cert.Spec.zero_word).trans (zero_add _)).trans ?_
  refine Finset.sum_congr rfl fun j _ => ?_
  rw [idx61, val_main_v60_apply, v56_at, v59_at]
  rfl

/-- The monopole sum of the second potential. -/
theorem v64_at (x0 : (⟨S8x1024x3, .f32⟩ : BufTy).Contents (Elt Ideal)) (x1 : (⟨S8x1024, .i1⟩ : BufTy).Contents (Elt Ideal))
    (x3 : (⟨S8x1024, .f32⟩ : BufTy).Contents (Elt Ideal)) (b : Fin 8) (i : Fin 1024) :
    val_main_v64 (F := Ideal) x0 x1 x3 (ix2 b i) = ∑ j : Fin 1024, Cert.Spec.potMono x0 (Cert.Spec.maskF x1) x3 b i j := by
  rw [val_main_v64_apply, val_main_cst_14_apply]
  refine ((congrArg (· + _) Cert.Spec.zero_word).trans (zero_add _)).trans ?_
  refine Finset.sum_congr rfl fun j _ => ?_
  rw [idx64, val_main_v63_apply, v56_at, v62_at]
  rfl

/-- The dipole sum of the first potential. -/
theorem v86_at (x0 : (⟨S8x1024x3, .f32⟩ : BufTy).Contents (Elt Ideal)) (x1 : (⟨S8x1024, .i1⟩ : BufTy).Contents (Elt Ideal))
    (x4 : (⟨S8x1024x3, .f32⟩ : BufTy).Contents (Elt Ideal)) (b : Fin 8) (i : Fin 1024) :
    val_main_v86 (F := Ideal) x0 x1 x4 (ix2 b i) = ∑ j : Fin 1024, Cert.Spec.potDip x0 (Cert.Spec.maskF x1) x4 b i j := by
  rw [val_main_v86_apply, val_main_cst_19_apply]
  refine ((congrArg (· + _) Cert.Spec.zero_word).trans (zero_add _)).trans ?_
  refine Finset.sum_congr rfl fun j _ => ?_
  rw [idx86, val_main_v85_apply, v57_at, v80_at]
  rfl

/-- The dipole sum of the second potential. -/
theorem v88_at (x0 : (⟨S8x1024x3, .f32⟩ : BufTy).Contents (Elt Ideal)) (x1 : (⟨S8x1024, .i1⟩ : BufTy).Contents (Elt Ideal))
    (x5 : (⟨S8x1024x3, .f32⟩ : BufTy).Contents (Elt Ideal)) (b : Fin 8) (i : Fin 1024) :
    val_main_v88 (F := Ideal) x0 x1 x5 (ix2 b i) = ∑ j : Fin 1024, Cert.Spec.potDip x0 (Cert.Spec.maskF x1) x5 b i j := by
  rw [val_main_v88_apply, val_main_cst_20_apply]
  refine ((congrArg (· + _) Cert.Spec.zero_word).trans (zero_add _)).trans ?_
  refine Finset.sum_congr rfl fun j _ => ?_
  rw [idx88, val_main_v87_apply, v57_at, v84_at]
  rfl

/-! ## The two potentials -/

/-- The reference's first potential is the specification's, for the first charge and dipole arrays. -/
theorem v99_eq (x0 : (⟨S8x1024x3, .f32⟩ : BufTy).Contents (Elt Ideal)) (x1 : (⟨S8x1024, .i1⟩ : BufTy).Contents (Elt Ideal))
    (x2 : (⟨S8x1024, .f32⟩ : BufTy).Contents (Elt Ideal)) (x4 : (⟨S8x1024x3, .f32⟩ : BufTy).Contents (Elt Ideal)) :
    val_main_v99 (F := Ideal) x0 x1 x2 x4 = Cert.Spec.pot x0 (Cert.Spec.maskF x1) x2 x4 := by
  funext y
  obtain ⟨b, i, rfl⟩ : ∃ (b : Fin 8) (i : Fin 1024), y = ix2 b i := ⟨y 0, y 1, eq_ix2 y⟩
  rw [val_main_v99_apply, v61_at, v86_at]
  rfl

/-- The reference's second potential is the specification's, for the second charge and dipole arrays. -/
theorem v100_eq (x0 : (⟨S8x1024x3, .f32⟩ : BufTy).Contents (Elt Ideal)) (x1 : (⟨S8x1024, .i1⟩ : BufTy).Contents (Elt Ideal))
    (x3 : (⟨S8x1024, .f32⟩ : BufTy).Contents (Elt Ideal)) (x5 : (⟨S8x1024x3, .f32⟩ : BufTy).Contents (Elt Ideal)) :
    val_main_v100 (F := Ideal) x0 x1 x3 x5 = Cert.Spec.pot x0 (Cert.Spec.maskF x1) x3 x5 := by
  funext y
  obtain ⟨b, i, rfl⟩ : ∃ (b : Fin 8) (i : Fin 1024), y = ix2 b i := ⟨y 0, y 1, eq_ix2 y⟩
  rw [val_main_v100_apply, v64_at, v88_at]
  rfl

end Cert.ReferenceIdeal.RefValue

end
-- ==== Proof.RefFld.lean ====
/-
  The reference's two field results are the specification's field.

  Component k of the field at (b, i) is, in the reference, the sum over the key rows j — a host sum that starts from
  the zero word — of (w2·s[b,j])·u_k, plus the like sum of (w3·(μ·u))·u_k. Each product is read at one index
  (b, i, j, k): the row factor is a [8,1024,1024] array broadcast over k, the unit vector is read where it stands.
  The shared stages (the unit vector, the weights w2 and w3, the dipole's product with the unit vector) are cited at
  an index from the module of the shared stages.
-/
import proofs.«173063_j80805514707451_1_alg».proof.Proof.Gen.ReferenceIdeal.Read
import proofs.«173063_j80805514707451_1_alg».proof.Proof.Spec
import proofs.«173063_j80805514707451_1_alg».proof.Proof.RefPair
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.TcCoe Idealize.SL.Sem
  Idealize.ShloMosaic.StableHlo Idealize.ShloMosaic.ValueIdx

/-- One key row's monopole term of the field for the first charges: the reference's product, read at (b, i, j, k). -/
theorem v69_at (x0 : (⟨S8x1024x3, .f32⟩ : BufTy).Contents (Elt Ideal)) (x1 : (⟨S8x1024, .i1⟩ : BufTy).Contents (Elt Ideal)) (x2 : (⟨S8x1024, .f32⟩ : BufTy).Contents (Elt Ideal)) (b : Fin 8) (i j : Fin 1024) (k : Fin 3) :
    val_main_v69 (F := Ideal) x0 x1 x2 (ix4 b i j k) = Cert.Spec.fldMono x0 (Cert.Spec.maskF x1) x2 b i j k := by
  have h1 : idx_main_v67 (idx_main_v68 (ix4 b i j k)) = ix3 b i j :=
    funext fun a => Fin.ext (by match a with | ⟨0, _⟩ => rfl | ⟨1, _⟩ => rfl | ⟨2, _⟩ => rfl)
  have h2 : idx_main_v54 (idx_main_v65 (ix3 b i j)) = ix2 b j :=
    funext fun a => Fin.ext (by match a with | ⟨0, _⟩ => rfl | ⟨1, _⟩ => rfl)
  rw [val_main_v69_apply, val_main_v68_apply, val_main_v67_apply, h1, val_main_v66_apply,
    val_main_v65_apply, val_main_v54_apply, h2, v57_at, v14_at]
  rfl

/-- The reference's sum over the key rows of those terms, from the zero word. -/
theorem v70_at (x0 : (⟨S8x1024x3, .f32⟩ : BufTy).Contents (Elt Ideal)) (x1 : (⟨S8x1024, .i1⟩ : BufTy).Contents (Elt Ideal)) (x2 : (⟨S8x1024, .f32⟩ : BufTy).Contents (Elt Ideal)) (b : Fin 8) (i : Fin 1024) (k : Fin 3) :
    val_main_v70 (F := Ideal) x0 x1 x2 (ix3 b i k) = ∑ j : Fin 1024, Cert.Spec.fldMono x0 (Cert.Spec.maskF x1) x2 b i j k := by
  rw [val_main_v70_apply, val_main_cst_15_apply, Ideal.ofBits_def, Ideal.ofBits_zero_f32, zero_add]
  refine Finset.sum_congr rfl fun j _ => ?_
  have h : idx_main_v70 (ix3 b i k) j = ix4 b i j k :=
    funext fun a => Fin.ext (by match a with | ⟨0, _⟩ => rfl | ⟨1, _⟩ => rfl | ⟨2, _⟩ => rfl | ⟨3, _⟩ => rfl)
  rw [h, v69_at]

/-- One key row's dipole term of the field for the first dipoles, read at (b, i, j, k). -/
theorem v92_at (x0 : (⟨S8x1024x3, .f32⟩ : BufTy).Contents (Elt Ideal)) (x1 : (⟨S8x1024, .i1⟩ : BufTy).Contents (Elt Ideal)) (x4 : (⟨S8x1024x3, .f32⟩ : BufTy).Contents (Elt Ideal)) (b : Fin 8) (i j : Fin 1024) (k : Fin 3) :
    val_main_v92 (F := Ideal) x0 x1 x4 (ix4 b i j k) = Cert.Spec.fldDip x0 (Cert.Spec.maskF x1) x4 b i j k := by
  have h1 : idx_main_v90 (idx_main_v91 (ix4 b i j k)) = ix3 b i j :=
    funext fun a => Fin.ext (by match a with | ⟨0, _⟩ => rfl | ⟨1, _⟩ => rfl | ⟨2, _⟩ => rfl)
  rw [val_main_v92_apply, val_main_v91_apply, val_main_v90_apply, h1, val_main_v89_apply,
    v58_at, v80_at, v14_at]
  rfl

/-- The reference's sum over the key rows of those terms, from the zero word. -/
theorem v93_at (x0 : (⟨S8x1024x3, .f32⟩ : BufTy).Contents (Elt Ideal)) (x1 : (⟨S8x1024, .i1⟩ : BufTy).Contents (Elt Ideal)) (x4 : (⟨S8x1024x3, .f32⟩ : BufTy).Contents (Elt Ideal)) (b : Fin 8) (i : Fin 1024) (k : Fin 3) :
    val_main_v93 (F := Ideal) x0 x1 x4 (ix3 b i k) = ∑ j : Fin 1024, Cert.Spec.fldDip x0 (Cert.Spec.maskF x1) x4 b i j k := by
  rw [val_main_v93_apply, val_main_cst_21_apply, Ideal.ofBits_def, Ideal.ofBits_zero_f32, zero_add]
  refine Finset.sum_congr rfl fun j _ => ?_
  have h : idx_main_v93 (ix3 b i k) j = ix4 b i j k :=
    funext fun a => Fin.ext (by match a with | ⟨0, _⟩ => rfl | ⟨1, _⟩ => rfl | ⟨2, _⟩ => rfl | ⟨3, _⟩ => rfl)
  rw [h, v92_at]

/-- The first field result is the specification's field. -/
theorem v101_eq (x0 : (⟨S8x1024x3, .f32⟩ : BufTy).Contents (Elt Ideal)) (x1 : (⟨S8x1024, .i1⟩ : BufTy).Contents (Elt Ideal)) (x2 : (⟨S8x1024, .f32⟩ : BufTy).Contents (Elt Ideal)) (x4 : (⟨S8x1024x3, .f32⟩ : BufTy).Contents (Elt Ideal)) :
    val_main_v101 (F := Ideal) x0 x1 x2 x4 = Cert.Spec.fld x0 (Cert.Spec.maskF x1) x2 x4 := by
  funext y
  obtain ⟨b, i, k, rfl⟩ : ∃ (b : Fin 8) (i : Fin 1024) (k : Fin 3), y = ix3 b i k := ⟨y 0, y 1, y 2, eq_ix3 y⟩
  rw [val_main_v101_apply, v70_at, v93_at, Ideal.addf_def]
  rfl

/-- One key row's monopole term of the field for the second charges: the reference's product, read at (b, i, j, k). -/
theorem v75_at (x0 : (⟨S8x1024x3, .f32⟩ : BufTy).Contents (Elt Ideal)) (x1 : (⟨S8x1024, .i1⟩ : BufTy).Contents (Elt Ideal)) (x3 : (⟨S8x1024, .f32⟩ : BufTy).Contents (Elt Ideal)) (b : Fin 8) (i j : Fin 1024) (k : Fin 3) :
    val_main_v75 (F := Ideal) x0 x1 x3 (ix4 b i j k) = Cert.Spec.fldMono x0 (Cert.Spec.maskF x1) x3 b i j k := by
  have h1 : idx_main_v73 (idx_main_v74 (ix4 b i j k)) = ix3 b i j :=
    funext fun a => Fin.ext (by match a with | ⟨0, _⟩ => rfl | ⟨1, _⟩ => rfl | ⟨2, _⟩ => rfl)
  have h2 : idx_main_v55 (idx_main_v71 (ix3 b i j)) = ix2 b j :=
    funext fun a => Fin.ext (by match a with | ⟨0, _⟩ => rfl | ⟨1, _⟩ => rfl)
  rw [val_main_v75_apply, val_main_v74_apply, val_main_v73_apply, h1, val_main_v72_apply,
    val_main_v71_apply, val_main_v55_apply, h2, v57_at, v14_at]
  rfl

/-- The reference's sum over the key rows of those terms, from the zero word. -/
theorem v76_at (x0 : (⟨S8x1024x3, .f32⟩ : BufTy).Contents (Elt Ideal)) (x1 : (⟨S8x1024, .i1⟩ : BufTy).Contents (Elt Ideal)) (x3 : (⟨S8x1024, .f32⟩ : BufTy).Contents (Elt Ideal)) (b : Fin 8) (i : Fin 1024) (k : Fin 3) :
    val_main_v76 (F := Ideal) x0 x1 x3 (ix3 b i k) = ∑ j : Fin 1024, Cert.Spec.fldMono x0 (Cert.Spec.maskF x1) x3 b i j k := by
  rw [val_main_v76_apply, val_main_cst_16_apply, Ideal.ofBits_def, Ideal.ofBits_zero_f32, zero_add]
  refine Finset.sum_congr rfl fun j _ => ?_
  have h : idx_main_v76 (ix3 b i k) j = ix4 b i j k :=
    funext fun a => Fin.ext (by match a with | ⟨0, _⟩ => rfl | ⟨1, _⟩ => rfl | ⟨2, _⟩ => rfl | ⟨3, _⟩ => rfl)
  rw [h, v75_at]

/-- One key row's dipole term of the field for the second dipoles, read at (b, i, j, k). -/
theorem v97_at (x0 : (⟨S8x1024x3, .f32⟩ : BufTy).Contents (Elt Ideal)) (x1 : (⟨S8x1024, .i1⟩ : BufTy).Contents (Elt Ideal)) (x5 : (⟨S8x1024x3, .f32⟩ : BufTy).Contents (Elt Ideal)) (b : Fin 8) (i j : Fin 1024) (k : Fin 3) :
    val_main_v97 (F := Ideal) x0 x1 x5 (ix4 b i j k) = Cert.Spec.fldDip x0 (Cert.Spec.maskF x1) x5 b i j k := by
  have h1 : idx_main_v95 (idx_main_v96 (ix4 b i j k)) = ix3 b i j :=
    funext fun a => Fin.ext (by match a with | ⟨0, _⟩ => rfl | ⟨1, _⟩ => rfl | ⟨2, _⟩ => rfl)
  rw [val_main_v97_apply, val_main_v96_apply, val_main_v95_apply, h1, val_main_v94_apply,
    v58_at, v84_at, v14_at]
  rfl

/-- The reference's sum over the key rows of those terms, from the zero word. -/
theorem v98_at (x0 : (⟨S8x1024x3, .f32⟩ : BufTy).Contents (Elt Ideal)) (x1 : (⟨S8x1024, .i1⟩ : BufTy).Contents (Elt Ideal)) (x5 : (⟨S8x1024x3, .f32⟩ : BufTy).Contents (Elt Ideal)) (b : Fin 8) (i : Fin 1024) (k : Fin 3) :
    val_main_v98 (F := Ideal) x0 x1 x5 (ix3 b i k) = ∑ j : Fin 1024, Cert.Spec.fldDip x0 (Cert.Spec.maskF x1) x5 b i j k := by
  rw [val_main_v98_apply, val_main_cst_22_apply, Ideal.ofBits_def, Ideal.ofBits_zero_f32, zero_add]
  refine Finset.sum_congr rfl fun j _ => ?_
  have h : idx_main_v98 (ix3 b i k) j = ix4 b i j k :=
    funext fun a => Fin.ext (by match a with | ⟨0, _⟩ => rfl | ⟨1, _⟩ => rfl | ⟨2, _⟩ => rfl | ⟨3, _⟩ => rfl)
  rw [h, v97_at]

/-- The second field result is the specification's field. -/
theorem v102_eq (x0 : (⟨S8x1024x3, .f32⟩ : BufTy).Contents (Elt Ideal)) (x1 : (⟨S8x1024, .i1⟩ : BufTy).Contents (Elt Ideal)) (x3 : (⟨S8x1024, .f32⟩ : BufTy).Contents (Elt Ideal)) (x5 : (⟨S8x1024x3, .f32⟩ : BufTy).Contents (Elt Ideal)) :
    val_main_v102 (F := Ideal) x0 x1 x3 x5 = Cert.Spec.fld x0 (Cert.Spec.maskF x1) x3 x5 := by
  funext y
  obtain ⟨b, i, k, rfl⟩ : ∃ (b : Fin 8) (i : Fin 1024) (k : Fin 3), y = ix3 b i k := ⟨y 0, y 1, y 2, eq_ix3 y⟩
  rw [val_main_v102_apply, v76_at, v98_at, Ideal.addf_def]
  rfl

end Cert.ReferenceIdeal.RefValue

end
-- ==== Proof.RefRun.lean ====
/-
  The reference program's run with its four results read as the specification's arrays: every weakly fair execution
  terminates with the two potentials and the two fields of the argument arrays, and the arguments unchanged.
-/
import proofs.«173063_j80805514707451_1_alg».proof.Proof.Gen.ReferenceIdeal.Run
import proofs.«173063_j80805514707451_1_alg».proof.Proof.Gen.ReferenceIdeal.Read
import proofs.«173063_j80805514707451_1_alg».proof.Proof.RefPot
import proofs.«173063_j80805514707451_1_alg».proof.Proof.RefFld

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo

/-- The reference ends with the potential and the field of the charge pair (argument arrays 2 and 4) and of the pair
    (3 and 5), over the positions (array 0) and the row mask (array 1), and leaves its six arguments as they were. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v99) = Cert.Spec.pot (m ((c.tc : Thread nD τ).loc main_arg0)) (Cert.Spec.maskF (m ((c.tc : Thread nD τ).loc main_arg1))) (m ((c.tc : Thread nD τ).loc main_arg2)) (m ((c.tc : Thread nD τ).loc main_arg4))
      ∧ r.2.mem ((c.tc : Thread nD τ).loc main_v100) = Cert.Spec.pot (m ((c.tc : Thread nD τ).loc main_arg0)) (Cert.Spec.maskF (m ((c.tc : Thread nD τ).loc main_arg1))) (m ((c.tc : Thread nD τ).loc main_arg3)) (m ((c.tc : Thread nD τ).loc main_arg5))
      ∧ r.2.mem ((c.tc : Thread nD τ).loc main_v101) = Cert.Spec.fld (m ((c.tc : Thread nD τ).loc main_arg0)) (Cert.Spec.maskF (m ((c.tc : Thread nD τ).loc main_arg1))) (m ((c.tc : Thread nD τ).loc main_arg2)) (m ((c.tc : Thread nD τ).loc main_arg4))
      ∧ r.2.mem ((c.tc : Thread nD τ).loc main_v102) = Cert.Spec.fld (m ((c.tc : Thread nD τ).loc main_arg0)) (Cert.Spec.maskF (m ((c.tc : Thread nD τ).loc main_arg1))) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c).1.trans ((val_main_v99_eq m c).trans (v99_eq _ _ _ _)),
        (h c).2.1.trans ((val_main_v100_eq m c).trans (v100_eq _ _ _ _)),
        (h c).2.2.1.trans ((val_main_v101_eq m c).trans (v101_eq _ _ _ _)),
        (h c).2.2.2.1.trans ((val_main_v102_eq m c).trans (v102_eq _ _ _ _)),
        (h c).2.2.2.2⟩)
    (Cert.ReferenceIdeal.Value.run (F := Ideal) m ρ)

end Cert.ReferenceIdeal.RefValue

end
-- ==== Proof.FrameKernel.Base.lean ====
/-
  The pairwise multipole-field kernel runs on an 8 × 8 grid of points (i, j): point (i, j) reads the 128 query
  rows of tile i (positions and the 0/1 row mask) and the 128 key rows of tile j (positions, mask, the two scalar
  charges and the two dipole arrays), and adds tile j's contribution to eight running sums kept in scratch
  (two potentials and the three components of two fields), which it clears at j = 0 and copies into the four
  results' blocks at j = 7. Positions and mask are each handed to the kernel twice (once by query tile, once by
  key tile), so two windows read one array.

  This module fixes what the whole frame argument is stated over: the contents V of the arrays when the region
  is entered (after the one host operation that turns the boolean mask into 0/1 floats), a window's block at a
  point, that an input window's buffer holds its block at every point whether or not it was fetched there, the
  two branch conditions in closed form (j = 0 is t % 8 = 0, j = 7 is t % 8 = 7 for the point number t = 8 i + j),
  where the four result windows are idle, the staging and scratch memrefs by name, the shares at which the
  twice-read arrays are split between their two windows, and the kernel's eight scratch buffers as the only
  scoped buffers beside the staging buffers.
-/
import proofs.«173063_j80805514707451_1_alg».proof.Proof.Gen.Kernel.Launch
import proofs.«173063_j80805514707451_1_alg».proof.Proof.Gen.Kernel.Skeleton
import proofs.«173063_j80805514707451_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the mask's conversion to floats. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is the conversion, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The conversion writes only its own result: `main_arg0` is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))
/-- The conversion writes only its own result: `main_arg1` is found as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))
/-- The conversion writes only its own result: `main_arg2` is found as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))
/-- The conversion writes only its own result: `main_arg3` is found as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))
/-- The conversion writes only its own result: `main_arg4` is found as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))
/-- The conversion writes only its own result: `main_arg5` is found as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, fetched there or not, for any proof data whose
    array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, fetched there or not, for any proof data whose
    array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, fetched there or not, for any proof data whose
    array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, fetched there or not, for any proof data whose
    array is `V`'s and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, fetched there or not, for any proof data whose
    array is `V`'s and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point, fetched there or not, for any proof data whose
    array is `V`'s and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point, fetched there or not, for any proof data whose
    array is `V`'s and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's buffer holds its block at every point, fetched there or not, for any proof data whose
    array is `V`'s and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions -/

/-- The first branch (clear the running sums) is taken where the key-tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (copy the running sums into the results' blocks) is taken where it is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Result window 8 is idle, and not written back, exactly where the second branch is not taken. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
/-- Result window 9 is idle, and not written back, exactly where the second branch is not taken. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel
/-- Result window 10 is idle, and not written back, exactly where the second branch is not taken. -/
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel
/-- Result window 11 is idle, and not written back, exactly where the second branch is not taken. -/
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11 : ∀ t : Fin cfg0.N, cond0_1 (grid0.coords t) → cfg0.idle 11 (grid0.coords t) = false := by decide +kernel

/-! ## The staging and scratch memrefs -/

abbrev ms0_0 (t : Fin cfg0.N) : Memref sig .tc .vmem S8x128x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128x3 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128x3 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x128x3 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x128x3 .f32 := win0_11.stage (cfg0.slots t 11)
abbrev hs0_11 (t : Fin cfg0.N) : (ms0_11 t).IsWhole := hstage0_11 ((cfg0.slots t 11).cast nbuf0_11)
/-- The eight scratch operands (the running sums), as memrefs and as views. -/
abbrev scM0_0 : Memref sig .tc .vmem S8x128 .f32 := Memref.whole cc0_scratch0
abbrev VS0_0 : View sig .tc .vmem S8x128 .f32 := scM0_0.view
abbrev scM0_1 : Memref sig .tc .vmem S8x128 .f32 := Memref.whole cc0_scratch1
abbrev VS0_1 : View sig .tc .vmem S8x128 .f32 := scM0_1.view
abbrev scM0_2 : Memref sig .tc .vmem S8x128 .f32 := Memref.whole cc0_scratch2
abbrev VS0_2 : View sig .tc .vmem S8x128 .f32 := scM0_2.view
abbrev scM0_3 : Memref sig .tc .vmem S8x128 .f32 := Memref.whole cc0_scratch3
abbrev VS0_3 : View sig .tc .vmem S8x128 .f32 := scM0_3.view
abbrev scM0_4 : Memref sig .tc .vmem S8x128 .f32 := Memref.whole cc0_scratch4
abbrev VS0_4 : View sig .tc .vmem S8x128 .f32 := scM0_4.view
abbrev scM0_5 : Memref sig .tc .vmem S8x128 .f32 := Memref.whole cc0_scratch5
abbrev VS0_5 : View sig .tc .vmem S8x128 .f32 := scM0_5.view
abbrev scM0_6 : Memref sig .tc .vmem S8x128 .f32 := Memref.whole cc0_scratch6
abbrev VS0_6 : View sig .tc .vmem S8x128 .f32 := scM0_6.view
abbrev scM0_7 : Memref sig .tc .vmem S8x128 .f32 := Memref.whole cc0_scratch7
abbrev VS0_7 : View sig .tc .vmem S8x128 .f32 := scM0_7.view
/-- One staging buffer of each result window, through which its contents are stated. -/
abbrev VO0_8 : View sig .tc .vmem S8x128 .f32 := (Memref.whole cc0_stg8_0 : Memref sig .tc .vmem S8x128 .f32).view
abbrev VO0_9 : View sig .tc .vmem S8x128 .f32 := (Memref.whole cc0_stg9_0 : Memref sig .tc .vmem S8x128 .f32).view
abbrev VO0_10 : View sig .tc .vmem S8x128x3 .f32 := (Memref.whole cc0_stg10_0 : Memref sig .tc .vmem S8x128x3 .f32).view
abbrev VO0_11 : View sig .tc .vmem S8x128x3 .f32 := (Memref.whole cc0_stg11_0 : Memref sig .tc .vmem S8x128x3 .f32).view

/-! ## The region invariant's ground form, and the shares -/

/-- The scoped buffers that are no staging buffer are the eight scratch operands, each owned at some contents. -/
theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) := by
  rw [scopedRest0_eq]; simp only [scM0_0, scM0_1, scM0_2, scM0_3, scM0_4, scM0_5, scM0_6, scM0_7, owns_whole]; try rfl

/-- The share of its array each input window holds: the positions are read by windows 0 and 2 and the float mask
    by windows 1 and 3, so each of those holds a half; every other array has one window, which holds it whole. -/
def qShare : Fin 12 → PosShare TreeShare
  | ⟨0, _⟩ => fullShare.left
  | ⟨1, _⟩ => fullShare.left
  | ⟨2, _⟩ => fullShare.right
  | ⟨3, _⟩ => fullShare.right
  | _ => fullShare

end Cert.Kernel.Fr

end
-- ==== Proof.FrameKernel.RunA.lean ====
/-
  The kernel body at a point whose key tile is the first (j = 0): it clears the eight running sums, adds this tile's eight contributions, and stores nothing into the result blocks. On whole memrefs — the eight input blocks at their contents, the four result buffers at any contents (handed back untouched), the eight scratch buffers at anything — it runs to a state with the inputs and results as they were and each scratch buffer holding what its stores left, as a list of pieces (last store first) that the run itself finds.
-/
import proofs.«173063_j80805514707451_1_alg».proof.Proof.FrameKernel.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : cond0_0 i) (hc1 : ¬cond0_1 i)
    (x0 : Vec F S8x128x3 .f32) (x1 : Vec F S8x128 .f32) (x2 : Vec F S8x128x3 .f32) (x3 : Vec F S8x128 .f32) (x4 : Vec F S8x128 .f32) (x5 : Vec F S8x128 .f32) (x6 : Vec F S8x128x3 .f32) (x7 : Vec F S8x128x3 .f32) :
    Σ' (L8 : List (View.Piece (Elt F) S8x128 .f32)) (L9 : List (View.Piece (Elt F) S8x128 .f32)) (L10 : List (View.Piece (Elt F) S8x128x3 .f32)) (L11 : List (View.Piece (Elt F) S8x128x3 .f32)) (LS0 : List (View.Piece (Elt F) S8x128 .f32)) (LS1 : List (View.Piece (Elt F) S8x128 .f32)) (LS2 : List (View.Piece (Elt F) S8x128 .f32)) (LS3 : List (View.Piece (Elt F) S8x128 .f32)) (LS4 : List (View.Piece (Elt F) S8x128 .f32)) (LS5 : List (View.Piece (Elt F) S8x128 .f32)) (LS6 : List (View.Piece (Elt F) S8x128 .f32)), { LS7 : List (View.Piece (Elt F) S8x128 .f32) //
      ∀ (xi8 : Vec F S8x128 .f32) (xi9 : Vec F S8x128 .f32) (xi10 : Vec F S8x128x3 .f32) (xi11 : Vec F S8x128x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xi8 ∗ owns (c : Thread nD τ) arg11 fullShare xi9 ∗ owns (c : Thread nD τ) arg12 fullShare xi10 ∗ owns (c : Thread nD τ) arg13 fullShare xi11
            ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ owns (c : Thread nD τ) arg10 fullShare xi8 ∗ owns (c : Thread nD τ) arg11 fullShare xi9 ∗ owns (c : Thread nD τ) arg12 fullShare xi10 ∗ owns (c : Thread nD τ) arg13 fullShare xi11
                ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5) ∗ (∃ f, arg20.view.loc (c : Thread nD τ) ↦[arg20.view.set]{fullShare} arg20.view.writes (Elt F) f LS6) ∗ (∃ f, arg21.view.loc (c : Thread nD τ) ↦[arg21.view.set]{fullShare} arg21.view.writes (Elt F) f LS7)) -∗ K ⟨⟩))
          ⊢ wp frame (wpE (defs₀ (F := F)) Variants.none c none) E (cc0__mp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨[], [], [], [], ?_, ?_, ?_, ?_, ?_, ?_, ?_, ?_, fun xi8 xi9 xi10 xi11 E K => ?run⟩
  case run =>
    simp only [cc0__mp_kernel_eq_skeleton]; unfold cc0__mp_kernel_skel
    simp only [k0_part1_eq_skeleton, k0_part3_eq_skeleton, k0_part4_eq_skeleton, k0_part5_eq_skeleton,
      k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7

end Cert.Kernel.Fr

end
-- ==== Proof.FrameKernel.RunB.lean ====
/-
  The kernel body at a point whose key tile is neither the first nor the last (0 < j < 7): it adds this tile's eight contributions to the running sums and stores nothing into the result blocks. The scratch buffers come in at the contents the point before left; the pieces each ends with are found by the run.
-/
import proofs.«173063_j80805514707451_1_alg».proof.Proof.FrameKernel.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : ¬cond0_1 i)
    (x0 : Vec F S8x128x3 .f32) (x1 : Vec F S8x128 .f32) (x2 : Vec F S8x128x3 .f32) (x3 : Vec F S8x128 .f32) (x4 : Vec F S8x128 .f32) (x5 : Vec F S8x128 .f32) (x6 : Vec F S8x128x3 .f32) (x7 : Vec F S8x128x3 .f32)
    (xs0 : Vec F S8x128 .f32) (xs1 : Vec F S8x128 .f32) (xs2 : Vec F S8x128 .f32) (xs3 : Vec F S8x128 .f32) (xs4 : Vec F S8x128 .f32) (xs5 : Vec F S8x128 .f32) (xs6 : Vec F S8x128 .f32) (xs7 : Vec F S8x128 .f32) :
    Σ' (L8 : List (View.Piece (Elt F) S8x128 .f32)) (L9 : List (View.Piece (Elt F) S8x128 .f32)) (L10 : List (View.Piece (Elt F) S8x128x3 .f32)) (L11 : List (View.Piece (Elt F) S8x128x3 .f32)) (LS0 : List (View.Piece (Elt F) S8x128 .f32)) (LS1 : List (View.Piece (Elt F) S8x128 .f32)) (LS2 : List (View.Piece (Elt F) S8x128 .f32)) (LS3 : List (View.Piece (Elt F) S8x128 .f32)) (LS4 : List (View.Piece (Elt F) S8x128 .f32)) (LS5 : List (View.Piece (Elt F) S8x128 .f32)) (LS6 : List (View.Piece (Elt F) S8x128 .f32)), { LS7 : List (View.Piece (Elt F) S8x128 .f32) //
      ∀ (xi8 : Vec F S8x128 .f32) (xi9 : Vec F S8x128 .f32) (xi10 : Vec F S8x128x3 .f32) (xi11 : Vec F S8x128x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xi8 ∗ owns (c : Thread nD τ) arg11 fullShare xi9 ∗ owns (c : Thread nD τ) arg12 fullShare xi10 ∗ owns (c : Thread nD τ) arg13 fullShare xi11
            ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ owns (c : Thread nD τ) arg19 fullShare xs5 ∗ owns (c : Thread nD τ) arg20 fullShare xs6 ∗ owns (c : Thread nD τ) arg21 fullShare xs7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ owns (c : Thread nD τ) arg10 fullShare xi8 ∗ owns (c : Thread nD τ) arg11 fullShare xi9 ∗ owns (c : Thread nD τ) arg12 fullShare xi10 ∗ owns (c : Thread nD τ) arg13 fullShare xi11
                ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5) ∗ (∃ f, arg20.view.loc (c : Thread nD τ) ↦[arg20.view.set]{fullShare} arg20.view.writes (Elt F) f LS6) ∗ (∃ f, arg21.view.loc (c : Thread nD τ) ↦[arg21.view.set]{fullShare} arg21.view.writes (Elt F) f LS7)) -∗ K ⟨⟩))
          ⊢ wp frame (wpE (defs₀ (F := F)) Variants.none c none) E (cc0__mp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨[], [], [], [], ?_, ?_, ?_, ?_, ?_, ?_, ?_, ?_, fun xi8 xi9 xi10 xi11 E K => ?run⟩
  case run =>
    simp only [cc0__mp_kernel_eq_skeleton]; unfold cc0__mp_kernel_skel
    simp only [k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1; obtain rfl := harg16.eq_unread hfs2; obtain rfl := harg17.eq_unread hfs3; obtain rfl := harg18.eq_unread hfs4; obtain rfl := harg19.eq_unread hfs5; obtain rfl := harg20.eq_unread hfs6; obtain rfl := harg21.eq_unread hfs7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7

end Cert.Kernel.Fr

end
-- ==== Proof.FrameKernel.RunC.lean ====
/-
  The kernel body at a point whose key tile is the last (j = 7): it adds this tile's eight contributions to the running sums and then copies the eight sums into the four result blocks (two planes, and the three components of each of two fields). The result buffers come in at anything and end with the pieces the run finds.
-/
import proofs.«173063_j80805514707451_1_alg».proof.Proof.FrameKernel.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : cond0_1 i)
    (x0 : Vec F S8x128x3 .f32) (x1 : Vec F S8x128 .f32) (x2 : Vec F S8x128x3 .f32) (x3 : Vec F S8x128 .f32) (x4 : Vec F S8x128 .f32) (x5 : Vec F S8x128 .f32) (x6 : Vec F S8x128x3 .f32) (x7 : Vec F S8x128x3 .f32)
    (xs0 : Vec F S8x128 .f32) (xs1 : Vec F S8x128 .f32) (xs2 : Vec F S8x128 .f32) (xs3 : Vec F S8x128 .f32) (xs4 : Vec F S8x128 .f32) (xs5 : Vec F S8x128 .f32) (xs6 : Vec F S8x128 .f32) (xs7 : Vec F S8x128 .f32) :
    Σ' (L8 : List (View.Piece (Elt F) S8x128 .f32)) (L9 : List (View.Piece (Elt F) S8x128 .f32)) (L10 : List (View.Piece (Elt F) S8x128x3 .f32)) (L11 : List (View.Piece (Elt F) S8x128x3 .f32)) (LS0 : List (View.Piece (Elt F) S8x128 .f32)) (LS1 : List (View.Piece (Elt F) S8x128 .f32)) (LS2 : List (View.Piece (Elt F) S8x128 .f32)) (LS3 : List (View.Piece (Elt F) S8x128 .f32)) (LS4 : List (View.Piece (Elt F) S8x128 .f32)) (LS5 : List (View.Piece (Elt F) S8x128 .f32)) (LS6 : List (View.Piece (Elt F) S8x128 .f32)), { LS7 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ owns (c : Thread nD τ) arg19 fullShare xs5 ∗ owns (c : Thread nD τ) arg20 fullShare xs6 ∗ owns (c : Thread nD τ) arg21 fullShare xs7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)
                ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5) ∗ (∃ f, arg20.view.loc (c : Thread nD τ) ↦[arg20.view.set]{fullShare} arg20.view.writes (Elt F) f LS6) ∗ (∃ f, arg21.view.loc (c : Thread nD τ) ↦[arg21.view.set]{fullShare} arg21.view.writes (Elt F) f LS7)) -∗ K ⟨⟩))
          ⊢ wp frame (wpE (defs₀ (F := F)) Variants.none c none) E (cc0__mp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, ?_, ?_, ?_, fun E K => ?run⟩
  case run =>
    simp only [cc0__mp_kernel_eq_skeleton]; unfold cc0__mp_kernel_skel
    simp only [k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg14.eq_unread hfs0; obtain rfl := harg15.eq_unread hfs1; obtain rfl := harg16.eq_unread hfs2; obtain rfl := harg17.eq_unread hfs3; obtain rfl := harg18.eq_unread hfs4; obtain rfl := harg19.eq_unread hfs5; obtain rfl := harg20.eq_unread hfs6; obtain rfl := harg21.eq_unread hfs7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7

end Cert.Kernel.Fr

end
-- ==== Proof.FrameKernel.Data.lean ====
/-
  What the eight running sums and the four result blocks hold after each grid point, and the proof data of the
  pipeline built from it.

  A point t = 8 i + j of the 64 falls in one of three cases: j = 0 (t % 8 = 0: the sums are cleared, then increased),
  0 < j < 7 (increased), j = 7 (t % 8 = 7: increased, then copied into the result blocks). The body's run in each
  case ends with every scratch buffer at the pieces its stores left; read back, those pieces are what the buffer
  holds (they cover it). `scAt` follows the eight sums point by point: the case's contents, computed from the
  point's eight input blocks and — except when the sums were just cleared — from what the point before left.
  A result window's buffer matters only at the points j = 7, where it holds the pieces of the copy.
  The proof data: every array as the region finds it; each input's buffer left at its block; each result's at the
  copy; between points the eight scratch buffers at `scAt`; the twice-read arrays held in halves; nothing owed.
-/
import proofs.«173063_j80805514707451_1_alg».proof.Proof.FrameKernel.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of the eight scratch buffers (the running sums). -/
structure Scr (F : FTy → Type) [FloatOps F] where
  s0 : Vec F S8x128 .f32
  s1 : Vec F S8x128 .f32
  s2 : Vec F S8x128 .f32
  s3 : Vec F S8x128 .f32
  s4 : Vec F S8x128 .f32
  s5 : Vec F S8x128 .f32
  s6 : Vec F S8x128 .f32
  s7 : Vec F S8x128 .f32

variable (m : (ℓ : Loc nD τ sig) → Buf (Elt F) ℓ) (ρ : Dev nD → PrngReg)

/-! ## The three runs at a point's memrefs and blocks -/

/-- The run of case j = 0 at point `t`. -/
def runA (c : Dev nD) (t : Fin cfg0.N) (h0 : t.val % 8 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => by have := (hcond0_1 t).mp h; omega) (iblk m c 0 t) (iblk m c 1 t) (iblk m c 2 t) (iblk m c 3 t) (iblk m c 4 t) (iblk m c 5 t) (iblk m c 6 t) (iblk m c 7 t)
/-- The run of case 0 < j < 7 at point `t`, the sums coming in at `xs`. -/
def runB (c : Dev nD) (t : Fin cfg0.N) (h0 : ¬t.val % 8 = 0) (h1 : ¬t.val % 8 = 7) (xs : Scr F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) xs.s0 xs.s1 xs.s2 xs.s3 xs.s4 xs.s5 xs.s6 xs.s7
/-- The run of case j = 7 at point `t`, the sums coming in at `xs`. -/
def runC (c : Dev nD) (t : Fin cfg0.N) (h1 : t.val % 8 = 7) (xs : Scr F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => by have := (hcond0_0 t).mp h; omega) ((hcond0_1 t).mpr h1) (iblk m c 0 t) (iblk m c 1 t) (iblk m c 2 t) (iblk m c 3 t) (iblk m c 4 t) (iblk m c 5 t) (iblk m c 6 t) (iblk m c 7 t) xs.s0 xs.s1 xs.s2 xs.s3 xs.s4 xs.s5 xs.s6 xs.s7

/-! ## What each case leaves in the scratch buffers and the result blocks -/

/-- Running sum 0 after a point of case j = 0: its pieces read back. -/
def soutA0 (c : Dev nD) (t : Fin cfg0.N) (h0 : t.val % 8 = 0) : Vec F S8x128 .f32 :=
  VS0_0.read (Elt F) (VS0_0.writes (Elt F) VS0_0.junk (runA m c t h0).2.2.2.2.1)
def soutB0 (c : Dev nD) (t : Fin cfg0.N) (h0 : ¬t.val % 8 = 0) (h1 : ¬t.val % 8 = 7) (xs : Scr F) : Vec F S8x128 .f32 :=
  VS0_0.read (Elt F) (VS0_0.writes (Elt F) VS0_0.junk (runB m c t h0 h1 xs).2.2.2.2.1)
def soutC0 (c : Dev nD) (t : Fin cfg0.N) (h1 : t.val % 8 = 7) (xs : Scr F) : Vec F S8x128 .f32 :=
  VS0_0.read (Elt F) (VS0_0.writes (Elt F) VS0_0.junk (runC m c t h1 xs).2.2.2.2.1)
/-- Running sum 1 after a point of case j = 0: its pieces read back. -/
def soutA1 (c : Dev nD) (t : Fin cfg0.N) (h0 : t.val % 8 = 0) : Vec F S8x128 .f32 :=
  VS0_1.read (Elt F) (VS0_1.writes (Elt F) VS0_1.junk (runA m c t h0).2.2.2.2.2.1)
def soutB1 (c : Dev nD) (t : Fin cfg0.N) (h0 : ¬t.val % 8 = 0) (h1 : ¬t.val % 8 = 7) (xs : Scr F) : Vec F S8x128 .f32 :=
  VS0_1.read (Elt F) (VS0_1.writes (Elt F) VS0_1.junk (runB m c t h0 h1 xs).2.2.2.2.2.1)
def soutC1 (c : Dev nD) (t : Fin cfg0.N) (h1 : t.val % 8 = 7) (xs : Scr F) : Vec F S8x128 .f32 :=
  VS0_1.read (Elt F) (VS0_1.writes (Elt F) VS0_1.junk (runC m c t h1 xs).2.2.2.2.2.1)
/-- Running sum 2 after a point of case j = 0: its pieces read back. -/
def soutA2 (c : Dev nD) (t : Fin cfg0.N) (h0 : t.val % 8 = 0) : Vec F S8x128 .f32 :=
  VS0_2.read (Elt F) (VS0_2.writes (Elt F) VS0_2.junk (runA m c t h0).2.2.2.2.2.2.1)
def soutB2 (c : Dev nD) (t : Fin cfg0.N) (h0 : ¬t.val % 8 = 0) (h1 : ¬t.val % 8 = 7) (xs : Scr F) : Vec F S8x128 .f32 :=
  VS0_2.read (Elt F) (VS0_2.writes (Elt F) VS0_2.junk (runB m c t h0 h1 xs).2.2.2.2.2.2.1)
def soutC2 (c : Dev nD) (t : Fin cfg0.N) (h1 : t.val % 8 = 7) (xs : Scr F) : Vec F S8x128 .f32 :=
  VS0_2.read (Elt F) (VS0_2.writes (Elt F) VS0_2.junk (runC m c t h1 xs).2.2.2.2.2.2.1)
/-- Running sum 3 after a point of case j = 0: its pieces read back. -/
def soutA3 (c : Dev nD) (t : Fin cfg0.N) (h0 : t.val % 8 = 0) : Vec F S8x128 .f32 :=
  VS0_3.read (Elt F) (VS0_3.writes (Elt F) VS0_3.junk (runA m c t h0).2.2.2.2.2.2.2.1)
def soutB3 (c : Dev nD) (t : Fin cfg0.N) (h0 : ¬t.val % 8 = 0) (h1 : ¬t.val % 8 = 7) (xs : Scr F) : Vec F S8x128 .f32 :=
  VS0_3.read (Elt F) (VS0_3.writes (Elt F) VS0_3.junk (runB m c t h0 h1 xs).2.2.2.2.2.2.2.1)
def soutC3 (c : Dev nD) (t : Fin cfg0.N) (h1 : t.val % 8 = 7) (xs : Scr F) : Vec F S8x128 .f32 :=
  VS0_3.read (Elt F) (VS0_3.writes (Elt F) VS0_3.junk (runC m c t h1 xs).2.2.2.2.2.2.2.1)
/-- Running sum 4 after a point of case j = 0: its pieces read back. -/
def soutA4 (c : Dev nD) (t : Fin cfg0.N) (h0 : t.val % 8 = 0) : Vec F S8x128 .f32 :=
  VS0_4.read (Elt F) (VS0_4.writes (Elt F) VS0_4.junk (runA m c t h0).2.2.2.2.2.2.2.2.1)
def soutB4 (c : Dev nD) (t : Fin cfg0.N) (h0 : ¬t.val % 8 = 0) (h1 : ¬t.val % 8 = 7) (xs : Scr F) : Vec F S8x128 .f32 :=
  VS0_4.read (Elt F) (VS0_4.writes (Elt F) VS0_4.junk (runB m c t h0 h1 xs).2.2.2.2.2.2.2.2.1)
def soutC4 (c : Dev nD) (t : Fin cfg0.N) (h1 : t.val % 8 = 7) (xs : Scr F) : Vec F S8x128 .f32 :=
  VS0_4.read (Elt F) (VS0_4.writes (Elt F) VS0_4.junk (runC m c t h1 xs).2.2.2.2.2.2.2.2.1)
/-- Running sum 5 after a point of case j = 0: its pieces read back. -/
def soutA5 (c : Dev nD) (t : Fin cfg0.N) (h0 : t.val % 8 = 0) : Vec F S8x128 .f32 :=
  VS0_5.read (Elt F) (VS0_5.writes (Elt F) VS0_5.junk (runA m c t h0).2.2.2.2.2.2.2.2.2.1)
def soutB5 (c : Dev nD) (t : Fin cfg0.N) (h0 : ¬t.val % 8 = 0) (h1 : ¬t.val % 8 = 7) (xs : Scr F) : Vec F S8x128 .f32 :=
  VS0_5.read (Elt F) (VS0_5.writes (Elt F) VS0_5.junk (runB m c t h0 h1 xs).2.2.2.2.2.2.2.2.2.1)
def soutC5 (c : Dev nD) (t : Fin cfg0.N) (h1 : t.val % 8 = 7) (xs : Scr F) : Vec F S8x128 .f32 :=
  VS0_5.read (Elt F) (VS0_5.writes (Elt F) VS0_5.junk (runC m c t h1 xs).2.2.2.2.2.2.2.2.2.1)
/-- Running sum 6 after a point of case j = 0: its pieces read back. -/
def soutA6 (c : Dev nD) (t : Fin cfg0.N) (h0 : t.val % 8 = 0) : Vec F S8x128 .f32 :=
  VS0_6.read (Elt F) (VS0_6.writes (Elt F) VS0_6.junk (runA m c t h0).2.2.2.2.2.2.2.2.2.2.1)
def soutB6 (c : Dev nD) (t : Fin cfg0.N) (h0 : ¬t.val % 8 = 0) (h1 : ¬t.val % 8 = 7) (xs : Scr F) : Vec F S8x128 .f32 :=
  VS0_6.read (Elt F) (VS0_6.writes (Elt F) VS0_6.junk (runB m c t h0 h1 xs).2.2.2.2.2.2.2.2.2.2.1)
def soutC6 (c : Dev nD) (t : Fin cfg0.N) (h1 : t.val % 8 = 7) (xs : Scr F) : Vec F S8x128 .f32 :=
  VS0_6.read (Elt F) (VS0_6.writes (Elt F) VS0_6.junk (runC m c t h1 xs).2.2.2.2.2.2.2.2.2.2.1)
/-- Running sum 7 after a point of case j = 0: its pieces read back. -/
def soutA7 (c : Dev nD) (t : Fin cfg0.N) (h0 : t.val % 8 = 0) : Vec F S8x128 .f32 :=
  VS0_7.read (Elt F) (VS0_7.writes (Elt F) VS0_7.junk (runA m c t h0).2.2.2.2.2.2.2.2.2.2.2.1)
def soutB7 (c : Dev nD) (t : Fin cfg0.N) (h0 : ¬t.val % 8 = 0) (h1 : ¬t.val % 8 = 7) (xs : Scr F) : Vec F S8x128 .f32 :=
  VS0_7.read (Elt F) (VS0_7.writes (Elt F) VS0_7.junk (runB m c t h0 h1 xs).2.2.2.2.2.2.2.2.2.2.2.1)
def soutC7 (c : Dev nD) (t : Fin cfg0.N) (h1 : t.val % 8 = 7) (xs : Scr F) : Vec F S8x128 .f32 :=
  VS0_7.read (Elt F) (VS0_7.writes (Elt F) VS0_7.junk (runC m c t h1 xs).2.2.2.2.2.2.2.2.2.2.2.1)

/-- The eight sums after a point of each case. -/
def soutA (c : Dev nD) (t : Fin cfg0.N) (h0 : t.val % 8 = 0) : Scr F := ⟨soutA0 m c t h0, soutA1 m c t h0, soutA2 m c t h0, soutA3 m c t h0, soutA4 m c t h0, soutA5 m c t h0, soutA6 m c t h0, soutA7 m c t h0⟩
def soutB (c : Dev nD) (t : Fin cfg0.N) (h0 : ¬t.val % 8 = 0) (h1 : ¬t.val % 8 = 7) (xs : Scr F) : Scr F := ⟨soutB0 m c t h0 h1 xs, soutB1 m c t h0 h1 xs, soutB2 m c t h0 h1 xs, soutB3 m c t h0 h1 xs, soutB4 m c t h0 h1 xs, soutB5 m c t h0 h1 xs, soutB6 m c t h0 h1 xs, soutB7 m c t h0 h1 xs⟩
def soutC (c : Dev nD) (t : Fin cfg0.N) (h1 : t.val % 8 = 7) (xs : Scr F) : Scr F := ⟨soutC0 m c t h1 xs, soutC1 m c t h1 xs, soutC2 m c t h1 xs, soutC3 m c t h1 xs, soutC4 m c t h1 xs, soutC5 m c t h1 xs, soutC6 m c t h1 xs, soutC7 m c t h1 xs⟩

/-- The four result blocks after a point of case j = 7: the pieces of the copy read back. -/
def outC8 (c : Dev nD) (t : Fin cfg0.N) (h1 : t.val % 8 = 7) (xs : Scr F) : Vec F S8x128 .f32 :=
  VO0_8.read (Elt F) (VO0_8.writes (Elt F) VO0_8.junk (runC m c t h1 xs).1)
def outC9 (c : Dev nD) (t : Fin cfg0.N) (h1 : t.val % 8 = 7) (xs : Scr F) : Vec F S8x128 .f32 :=
  VO0_9.read (Elt F) (VO0_9.writes (Elt F) VO0_9.junk (runC m c t h1 xs).2.1)
def outC10 (c : Dev nD) (t : Fin cfg0.N) (h1 : t.val % 8 = 7) (xs : Scr F) : Vec F S8x128x3 .f32 :=
  VO0_10.read (Elt F) (VO0_10.writes (Elt F) VO0_10.junk (runC m c t h1 xs).2.2.1)
def outC11 (c : Dev nD) (t : Fin cfg0.N) (h1 : t.val % 8 = 7) (xs : Scr F) : Vec F S8x128x3 .f32 :=
  VO0_11.read (Elt F) (VO0_11.writes (Elt F) VO0_11.junk (runC m c t h1 xs).2.2.2.1)

/-! ## The pieces cover their buffers -/

theorem scoverA0 (c : Dev nD) (t : Fin cfg0.N) (h0 : t.val % 8 = 0) (y : S8x128.Idx) :
    ∃ pc ∈ (runA m c t h0).2.2.2.2.1, y ∈ pc.1.set :=
  View.cover_of_tiledL (runA m c t h0).2.2.2.2.1 S8x128.size (by sl_kernel_rfl) y
theorem scoverB0 (c : Dev nD) (t : Fin cfg0.N) (h0 : ¬t.val % 8 = 0) (h1 : ¬t.val % 8 = 7) (xs : Scr F) (y : S8x128.Idx) :
    ∃ pc ∈ (runB m c t h0 h1 xs).2.2.2.2.1, y ∈ pc.1.set :=
  View.cover_of_tiledL (runB m c t h0 h1 xs).2.2.2.2.1 S8x128.size (by sl_kernel_rfl) y
theorem scoverC0 (c : Dev nD) (t : Fin cfg0.N) (h1 : t.val % 8 = 7) (xs : Scr F) (y : S8x128.Idx) :
    ∃ pc ∈ (runC m c t h1 xs).2.2.2.2.1, y ∈ pc.1.set :=
  View.cover_of_tiledL (runC m c t h1 xs).2.2.2.2.1 S8x128.size (by sl_kernel_rfl) y
theorem scoverA1 (c : Dev nD) (t : Fin cfg0.N) (h0 : t.val % 8 = 0) (y : S8x128.Idx) :
    ∃ pc ∈ (runA m c t h0).2.2.2.2.2.1, y ∈ pc.1.set :=
  View.cover_of_tiledL (runA m c t h0).2.2.2.2.2.1 S8x128.size (by sl_kernel_rfl) y
theorem scoverB1 (c : Dev nD) (t : Fin cfg0.N) (h0 : ¬t.val % 8 = 0) (h1 : ¬t.val % 8 = 7) (xs : Scr F) (y : S8x128.Idx) :
    ∃ pc ∈ (runB m c t h0 h1 xs).2.2.2.2.2.1, y ∈ pc.1.set :=
  View.cover_of_tiledL (runB m c t h0 h1 xs).2.2.2.2.2.1 S8x128.size (by sl_kernel_rfl) y
theorem scoverC1 (c : Dev nD) (t : Fin cfg0.N) (h1 : t.val % 8 = 7) (xs : Scr F) (y : S8x128.Idx) :
    ∃ pc ∈ (runC m c t h1 xs).2.2.2.2.2.1, y ∈ pc.1.set :=
  View.cover_of_tiledL (runC m c t h1 xs).2.2.2.2.2.1 S8x128.size (by sl_kernel_rfl) y
theorem scoverA2 (c : Dev nD) (t : Fin cfg0.N) (h0 : t.val % 8 = 0) (y : S8x128.Idx) :
    ∃ pc ∈ (runA m c t h0).2.2.2.2.2.2.1, y ∈ pc.1.set :=
  View.cover_of_tiledL (runA m c t h0).2.2.2.2.2.2.1 S8x128.size (by sl_kernel_rfl) y
theorem scoverB2 (c : Dev nD) (t : Fin cfg0.N) (h0 : ¬t.val % 8 = 0) (h1 : ¬t.val % 8 = 7) (xs : Scr F) (y : S8x128.Idx) :
    ∃ pc ∈ (runB m c t h0 h1 xs).2.2.2.2.2.2.1, y ∈ pc.1.set :=
  View.cover_of_tiledL (runB m c t h0 h1 xs).2.2.2.2.2.2.1 S8x128.size (by sl_kernel_rfl) y
theorem scoverC2 (c : Dev nD) (t : Fin cfg0.N) (h1 : t.val % 8 = 7) (xs : Scr F) (y : S8x128.Idx) :
    ∃ pc ∈ (runC m c t h1 xs).2.2.2.2.2.2.1, y ∈ pc.1.set :=
  View.cover_of_tiledL (runC m c t h1 xs).2.2.2.2.2.2.1 S8x128.size (by sl_kernel_rfl) y
theorem scoverA3 (c : Dev nD) (t : Fin cfg0.N) (h0 : t.val % 8 = 0) (y : S8x128.Idx) :
    ∃ pc ∈ (runA m c t h0).2.2.2.2.2.2.2.1, y ∈ pc.1.set :=
  View.cover_of_tiledL (runA m c t h0).2.2.2.2.2.2.2.1 S8x128.size (by sl_kernel_rfl) y
theorem scoverB3 (c : Dev nD) (t : Fin cfg0.N) (h0 : ¬t.val % 8 = 0) (h1 : ¬t.val % 8 = 7) (xs : Scr F) (y : S8x128.Idx) :
    ∃ pc ∈ (runB m c t h0 h1 xs).2.2.2.2.2.2.2.1, y ∈ pc.1.set :=
  View.cover_of_tiledL (runB m c t h0 h1 xs).2.2.2.2.2.2.2.1 S8x128.size (by sl_kernel_rfl) y
theorem scoverC3 (c : Dev nD) (t : Fin cfg0.N) (h1 : t.val % 8 = 7) (xs : Scr F) (y : S8x128.Idx) :
    ∃ pc ∈ (runC m c t h1 xs).2.2.2.2.2.2.2.1, y ∈ pc.1.set :=
  View.cover_of_tiledL (runC m c t h1 xs).2.2.2.2.2.2.2.1 S8x128.size (by sl_kernel_rfl) y
theorem scoverA4 (c : Dev nD) (t : Fin cfg0.N) (h0 : t.val % 8 = 0) (y : S8x128.Idx) :
    ∃ pc ∈ (runA m c t h0).2.2.2.2.2.2.2.2.1, y ∈ pc.1.set :=
  View.cover_of_tiledL (runA m c t h0).2.2.2.2.2.2.2.2.1 S8x128.size (by sl_kernel_rfl) y
theorem scoverB4 (c : Dev nD) (t : Fin cfg0.N) (h0 : ¬t.val % 8 = 0) (h1 : ¬t.val % 8 = 7) (xs : Scr F) (y : S8x128.Idx) :
    ∃ pc ∈ (runB m c t h0 h1 xs).2.2.2.2.2.2.2.2.1, y ∈ pc.1.set :=
  View.cover_of_tiledL (runB m c t h0 h1 xs).2.2.2.2.2.2.2.2.1 S8x128.size (by sl_kernel_rfl) y
theorem scoverC4 (c : Dev nD) (t : Fin cfg0.N) (h1 : t.val % 8 = 7) (xs : Scr F) (y : S8x128.Idx) :
    ∃ pc ∈ (runC m c t h1 xs).2.2.2.2.2.2.2.2.1, y ∈ pc.1.set :=
  View.cover_of_tiledL (runC m c t h1 xs).2.2.2.2.2.2.2.2.1 S8x128.size (by sl_kernel_rfl) y
theorem scoverA5 (c : Dev nD) (t : Fin cfg0.N) (h0 : t.val % 8 = 0) (y : S8x128.Idx) :
    ∃ pc ∈ (runA m c t h0).2.2.2.2.2.2.2.2.2.1, y ∈ pc.1.set :=
  View.cover_of_tiledL (runA m c t h0).2.2.2.2.2.2.2.2.2.1 S8x128.size (by sl_kernel_rfl) y
theorem scoverB5 (c : Dev nD) (t : Fin cfg0.N) (h0 : ¬t.val % 8 = 0) (h1 : ¬t.val % 8 = 7) (xs : Scr F) (y : S8x128.Idx) :
    ∃ pc ∈ (runB m c t h0 h1 xs).2.2.2.2.2.2.2.2.2.1, y ∈ pc.1.set :=
  View.cover_of_tiledL (runB m c t h0 h1 xs).2.2.2.2.2.2.2.2.2.1 S8x128.size (by sl_kernel_rfl) y
theorem scoverC5 (c : Dev nD) (t : Fin cfg0.N) (h1 : t.val % 8 = 7) (xs : Scr F) (y : S8x128.Idx) :
    ∃ pc ∈ (runC m c t h1 xs).2.2.2.2.2.2.2.2.2.1, y ∈ pc.1.set :=
  View.cover_of_tiledL (runC m c t h1 xs).2.2.2.2.2.2.2.2.2.1 S8x128.size (by sl_kernel_rfl) y
theorem scoverA6 (c : Dev nD) (t : Fin cfg0.N) (h0 : t.val % 8 = 0) (y : S8x128.Idx) :
    ∃ pc ∈ (runA m c t h0).2.2.2.2.2.2.2.2.2.2.1, y ∈ pc.1.set :=
  View.cover_of_tiledL (runA m c t h0).2.2.2.2.2.2.2.2.2.2.1 S8x128.size (by sl_kernel_rfl) y
theorem scoverB6 (c : Dev nD) (t : Fin cfg0.N) (h0 : ¬t.val % 8 = 0) (h1 : ¬t.val % 8 = 7) (xs : Scr F) (y : S8x128.Idx) :
    ∃ pc ∈ (runB m c t h0 h1 xs).2.2.2.2.2.2.2.2.2.2.1, y ∈ pc.1.set :=
  View.cover_of_tiledL (runB m c t h0 h1 xs).2.2.2.2.2.2.2.2.2.2.1 S8x128.size (by sl_kernel_rfl) y
theorem scoverC6 (c : Dev nD) (t : Fin cfg0.N) (h1 : t.val % 8 = 7) (xs : Scr F) (y : S8x128.Idx) :
    ∃ pc ∈ (runC m c t h1 xs).2.2.2.2.2.2.2.2.2.2.1, y ∈ pc.1.set :=
  View.cover_of_tiledL (runC m c t h1 xs).2.2.2.2.2.2.2.2.2.2.1 S8x128.size (by sl_kernel_rfl) y
theorem scoverA7 (c : Dev nD) (t : Fin cfg0.N) (h0 : t.val % 8 = 0) (y : S8x128.Idx) :
    ∃ pc ∈ (runA m c t h0).2.2.2.2.2.2.2.2.2.2.2.1, y ∈ pc.1.set :=
  View.cover_of_tiledL (runA m c t h0).2.2.2.2.2.2.2.2.2.2.2.1 S8x128.size (by sl_kernel_rfl) y
theorem scoverB7 (c : Dev nD) (t : Fin cfg0.N) (h0 : ¬t.val % 8 = 0) (h1 : ¬t.val % 8 = 7) (xs : Scr F) (y : S8x128.Idx) :
    ∃ pc ∈ (runB m c t h0 h1 xs).2.2.2.2.2.2.2.2.2.2.2.1, y ∈ pc.1.set :=
  View.cover_of_tiledL (runB m c t h0 h1 xs).2.2.2.2.2.2.2.2.2.2.2.1 S8x128.size (by sl_kernel_rfl) y
theorem scoverC7 (c : Dev nD) (t : Fin cfg0.N) (h1 : t.val % 8 = 7) (xs : Scr F) (y : S8x128.Idx) :
    ∃ pc ∈ (runC m c t h1 xs).2.2.2.2.2.2.2.2.2.2.2.1, y ∈ pc.1.set :=
  View.cover_of_tiledL (runC m c t h1 xs).2.2.2.2.2.2.2.2.2.2.2.1 S8x128.size (by sl_kernel_rfl) y
theorem coverC8 (c : Dev nD) (t : Fin cfg0.N) (h1 : t.val % 8 = 7) (xs : Scr F) (y : S8x128.Idx) :
    ∃ pc ∈ (runC m c t h1 xs).1, y ∈ pc.1.set :=
  View.cover_of_tiledL (runC m c t h1 xs).1 S8x128.size (by sl_kernel_rfl) y
theorem coverC9 (c : Dev nD) (t : Fin cfg0.N) (h1 : t.val % 8 = 7) (xs : Scr F) (y : S8x128.Idx) :
    ∃ pc ∈ (runC m c t h1 xs).2.1, y ∈ pc.1.set :=
  View.cover_of_tiledL (runC m c t h1 xs).2.1 S8x128.size (by sl_kernel_rfl) y
theorem coverC10 (c : Dev nD) (t : Fin cfg0.N) (h1 : t.val % 8 = 7) (xs : Scr F) (y : S8x128x3.Idx) :
    ∃ pc ∈ (runC m c t h1 xs).2.2.1, y ∈ pc.1.set :=
  View.cover_of_tiledL (runC m c t h1 xs).2.2.1 S8x128x1.size (by sl_kernel_rfl) y
theorem coverC11 (c : Dev nD) (t : Fin cfg0.N) (h1 : t.val % 8 = 7) (xs : Scr F) (y : S8x128x3.Idx) :
    ∃ pc ∈ (runC m c t h1 xs).2.2.2.1, y ∈ pc.1.set :=
  View.cover_of_tiledL (runC m c t h1 xs).2.2.2.1 S8x128x1.size (by sl_kernel_rfl) y

/-! ## The running sums, point by point -/

/-- The eight sums after the body at position `n`. -/
def scAt (c : Dev nD) : (n : ℕ) → n < cfg0.N → Scr F
  | 0, hn => soutA m c ⟨0, hn⟩ (Nat.zero_mod 8)
  | n + 1, hn =>
    if h0 : (n + 1) % 8 = 0 then soutA m c ⟨n + 1, hn⟩ h0
    else if h1 : (n + 1) % 8 = 7 then soutC m c ⟨n + 1, hn⟩ h1 (scAt c n (Nat.lt_of_succ_lt hn))
    else soutB m c ⟨n + 1, hn⟩ h0 h1 (scAt c n (Nat.lt_of_succ_lt hn))

/-- What the point before `t` left (the point itself not the first). -/
abbrev scPrev (c : Dev nD) (t : Fin cfg0.N) : Scr F := scAt m c (t.val - 1) (Nat.lt_of_le_of_lt (Nat.sub_le _ _) t.isLt)

theorem scAt_A (c : Dev nD) (t : Fin cfg0.N) (h0 : t.val % 8 = 0) : scAt m c t.val t.isLt = soutA m c t h0 := by
  obtain ⟨n, hn⟩ := t
  cases n with
  | zero => exact rfl
  | succ n => exact (dif_pos h0).trans rfl
theorem scAt_B (c : Dev nD) (t : Fin cfg0.N) (h0 : ¬t.val % 8 = 0) (h1 : ¬t.val % 8 = 7) :
    scAt m c t.val t.isLt = soutB m c t h0 h1 (scPrev m c t) := by
  obtain ⟨n, hn⟩ := t
  cases n with
  | zero => exact absurd (Nat.zero_mod 8) h0
  | succ n => exact (dif_neg h0).trans ((dif_neg h1).trans rfl)
theorem scAt_C (c : Dev nD) (t : Fin cfg0.N) (h1 : t.val % 8 = 7) :
    scAt m c t.val t.isLt = soutC m c t h1 (scPrev m c t) := by
  obtain ⟨n, hn⟩ := t
  cases n with
  | zero => exact absurd (show 0 % 8 = 7 from h1) (by decide)
  | succ n =>
    have h0 : ¬(n + 1) % 8 = 0 := fun h => by
      have h1' : (n + 1) % 8 = 7 := h1
      omega
    exact (dif_neg h0).trans ((dif_pos h1).trans rfl)

/-- The four result blocks after the body at point `t`: the copy where j = 7, nothing that is read elsewhere. -/
def outAt8 (c : Dev nD) (t : Fin cfg0.N) : Vec F S8x128 .f32 :=
  if h1 : t.val % 8 = 7 then outC8 m c t h1 (scPrev m c t) else VO0_8.read (Elt F) VO0_8.junk
def outAt9 (c : Dev nD) (t : Fin cfg0.N) : Vec F S8x128 .f32 :=
  if h1 : t.val % 8 = 7 then outC9 m c t h1 (scPrev m c t) else VO0_9.read (Elt F) VO0_9.junk
def outAt10 (c : Dev nD) (t : Fin cfg0.N) : Vec F S8x128x3 .f32 :=
  if h1 : t.val % 8 = 7 then outC10 m c t h1 (scPrev m c t) else VO0_10.read (Elt F) VO0_10.junk
def outAt11 (c : Dev nD) (t : Fin cfg0.N) : Vec F S8x128x3 .f32 :=
  if h1 : t.val % 8 = 7 then outC11 m c t h1 (scPrev m c t) else VO0_11.read (Elt F) VO0_11.junk

theorem outAt8_C (c : Dev nD) (t : Fin cfg0.N) (h1 : t.val % 8 = 7) : outAt8 m c t = outC8 m c t h1 (scPrev m c t) := dif_pos h1
theorem outAt9_C (c : Dev nD) (t : Fin cfg0.N) (h1 : t.val % 8 = 7) : outAt9 m c t = outC9 m c t h1 (scPrev m c t) := dif_pos h1
theorem outAt10_C (c : Dev nD) (t : Fin cfg0.N) (h1 : t.val % 8 = 7) : outAt10 m c t = outC10 m c t h1 (scPrev m c t) := dif_pos h1
theorem outAt11_C (c : Dev nD) (t : Fin cfg0.N) (h1 : t.val % 8 = 7) : outAt11 m c t = outC11 m c t h1 (scPrev m c t) := dif_pos h1

/-! ## The invariant between points -/

/-- Before the first point the scratch buffers hold anything; after point `n` they hold `scAt` there. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare (scAt m c n hn).s0 ∗ owns (c : Thread nD τ) scM0_1 fullShare (scAt m c n hn).s1 ∗ owns (c : Thread nD τ) scM0_2 fullShare (scAt m c n hn).s2 ∗ owns (c : Thread nD τ) scM0_3 fullShare (scAt m c n hn).s3 ∗ owns (c : Thread nD τ) scM0_4 fullShare (scAt m c n hn).s4 ∗ owns (c : Thread nD τ) scM0_5 fullShare (scAt m c n hn).s5 ∗ owns (c : Thread nD τ) scM0_6 fullShare (scAt m c n hn).s6 ∗ owns (c : Thread nD τ) scM0_7 fullShare (scAt m c n hn).s7)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = iprop(owns (c : Thread nD τ) scM0_0 fullShare (scAt m c n hn).s0 ∗ owns (c : Thread nD τ) scM0_1 fullShare (scAt m c n hn).s1 ∗ owns (c : Thread nD τ) scM0_2 fullShare (scAt m c n hn).s2 ∗ owns (c : Thread nD τ) scM0_3 fullShare (scAt m c n hn).s3 ∗ owns (c : Thread nD τ) scM0_4 fullShare (scAt m c n hn).s4 ∗ owns (c : Thread nD τ) scM0_5 fullShare (scAt m c n hn).s5 ∗ owns (c : Thread nD τ) scM0_6 fullShare (scAt m c n hn).s6 ∗ owns (c : Thread nD τ) scM0_7 fullShare (scAt m c n hn).s7) := rfl
theorem PhiS_pos (c : Dev nD) (n : ℕ) (h : n ≤ cfg0.N) (hz : n ≠ 0) :
    PhiS m c n h = iprop(owns (c : Thread nD τ) scM0_0 fullShare (scAt m c (n - 1) (by omega)).s0 ∗ owns (c : Thread nD τ) scM0_1 fullShare (scAt m c (n - 1) (by omega)).s1 ∗ owns (c : Thread nD τ) scM0_2 fullShare (scAt m c (n - 1) (by omega)).s2 ∗ owns (c : Thread nD τ) scM0_3 fullShare (scAt m c (n - 1) (by omega)).s3 ∗ owns (c : Thread nD τ) scM0_4 fullShare (scAt m c (n - 1) (by omega)).s4 ∗ owns (c : Thread nD τ) scM0_5 fullShare (scAt m c (n - 1) (by omega)).s5 ∗ owns (c : Thread nD τ) scM0_6 fullShare (scAt m c (n - 1) (by omega)).s6 ∗ owns (c : Thread nD τ) scM0_7 fullShare (scAt m c (n - 1) (by omega)).s7) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt8 m c t
    | ⟨9, _⟩ => outAt9 m c t
    | ⟨10, _⟩ => outAt10 m c t
    | ⟨11, _⟩ => outAt11 m c t
  Φ t := PhiS m c t.val (Nat.le_of_lt_succ t.isLt)
  q := qShare
  owed _ := 0

theorem A_eq (c : Dev nD) (w : Fin cfg0.W) : (dats m 0 c).A w = V m c (Pipeline.arrRef spec0 w) := by
  dsimp only [dats]
theorem q_eq (c : Dev nD) : (dats m 0 c).q = qShare := rfl
theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt8 m c t := by dsimp only [dats]
theorem after0_9 (c : Dev nD) (t : Fin cfg0.N) : (dats m 0 c).after 9 t = outAt9 m c t := by dsimp only [dats]
theorem after0_10 (c : Dev nD) (t : Fin cfg0.N) : (dats m 0 c).after 10 t = outAt10 m c t := by dsimp only [dats]
theorem after0_11 (c : Dev nD) (t : Fin cfg0.N) : (dats m 0 c).after 11 t = outAt11 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

end Cert.Kernel.Fr

end
-- ==== Proof.FrameKernel.Split.lean ====
/-
  The positions are read by windows 0 and 2 and the float mask by windows 1 and 3, so the twelve windows stand on ten
  buffers. This module proves the one entailment the frame run for shared arrays asks of the certificate: the ten
  buffers behind the windows' arrays, each whole at the full share at its contents when the region is entered, make the
  proof data's twelve arrays at entry — the positions' and the mask's buffers each divided in two halves, the left for
  the lower-numbered of the two windows that read it, the right for the other; every other buffer handed whole to its
  one window.
-/
import proofs.«173063_j80805514707451_1_alg».proof.Proof.FrameKernel.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The ten distinct buffers behind the twelve windows' arrays. -/
theorem arrRefs_eq : Finset.univ.image (Pipeline.arrRef spec0)
    = [main_arg0, main_call0_v0, main_arg2, main_arg3, main_arg4, main_arg5, main_v0_0, main_v0_1, main_v0_2, main_v0_3].toFinset := by decide

/-- The buffers behind the windows' arrays, conjoined one by one, each whole at the full share at the contents the
    region finds: the positions, the float mask, the four other inputs, the four results. -/
theorem arrBufs0_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_call0_v0) ↦{fullShare} V m c main_call0_v0) ∗ (((c.tc : Thread nD τ).loc main_arg2) ↦{fullShare} V m c main_arg2) ∗ (((c.tc : Thread nD τ).loc main_arg3) ↦{fullShare} V m c main_arg3) ∗ (((c.tc : Thread nD τ).loc main_arg4) ↦{fullShare} V m c main_arg4) ∗ (((c.tc : Thread nD τ).loc main_arg5) ↦{fullShare} V m c main_arg5) ∗ (((c.tc : Thread nD τ).loc main_v0_0) ↦{fullShare} V m c main_v0_0) ∗ (((c.tc : Thread nD τ).loc main_v0_1) ↦{fullShare} V m c main_v0_1) ∗ (((c.tc : Thread nD τ).loc main_v0_2) ↦{fullShare} V m c main_v0_2) ∗ (((c.tc : Thread nD τ).loc main_v0_3) ↦{fullShare} V m c main_v0_3)) := by
  unfold Pipeline.arrBufs
  exact bigSep_eq_bigSepL_of_eq _ arrRefs_eq (by decide) _

/-- The proof data's arrays, each window's array a whole buffer at the contents the region finds. -/
theorem arrays_eq_shares {c : Dev nD} (dat : Dat τ (Elt F) Unit ℕ (UR sig nD τ) ℕ cfg0 c)
    (G : (w : Fin cfg0.W) → Buf (Elt F) ((cfg0.win w).arr.view.loc (c.tc : Thread nD τ)))
    (hG : ∀ w, G w = V m c (Pipeline.arrRef spec0 w)) :
    dat.arrays G = bigSep Finset.univ fun w : Fin 12 =>
      ((((c.tc : Thread nD τ).loc (Pipeline.arrRef spec0 w)) ↦{dat.share w} V m c (Pipeline.arrRef spec0 w)) : sProp 𝕄) := by
  unfold Dat.arrays
  exact bigSep_congr fun w _ => by rw [(arr_whole0 w).set_eq_univ, hG]

/-- The shares the proof data lend: the halves on the twice-read arrays, the full share elsewhere (an output window
    holds the full share whatever the data name). -/
theorem share_of_qShare {c : Dev nD} (dat : Dat τ (Elt F) Unit ℕ (UR sig nD τ) ℕ cfg0 c) (hq : dat.q = qShare) :
    dat.share 0 = fullShare.left ∧ dat.share 1 = fullShare.left ∧ dat.share 2 = fullShare.right ∧ dat.share 3 = fullShare.right
      ∧ dat.share 4 = fullShare ∧ dat.share 5 = fullShare ∧ dat.share 6 = fullShare ∧ dat.share 7 = fullShare
      ∧ dat.share 8 = fullShare ∧ dat.share 9 = fullShare ∧ dat.share 10 = fullShare ∧ dat.share 11 = fullShare := by
  unfold Dat.share; rw [hq]
  refine ⟨rfl, rfl, rfl, rfl, rfl, rfl, rfl, rfl, rfl, rfl, rfl, rfl⟩

/-- The ten buffers behind the arrays make the proof data's twelve arrays at entry: the positions' buffer and the float
    mask's are each divided in their two halves, one for each of the two windows that read them; every other buffer
    goes whole to its one window. -/
theorem arrays_of_arrBufs {c : Dev nD} (dat : Dat τ (Elt F) Unit ℕ (UR sig nD τ) ℕ cfg0 c) (hq : dat.q = qShare)
    (G : (w : Fin cfg0.W) → Buf (Elt F) ((cfg0.win w).arr.view.loc (c.tc : Thread nD τ)))
    (hG : ∀ w, G w = V m c (Pipeline.arrRef spec0 w)) :
    (Pipeline.arrBufs (Ix := Unit) (Name := ℕ) (U := UR sig nD τ) (Lvl := ℕ) spec0 c (V m c) : sProp 𝕄) ⊢ dat.arrays G := by
  obtain ⟨s0, s1, s2, s3, s4, s5, s6, s7, s8, s9, s10, s11⟩ := share_of_qShare dat hq
  rw [arrays_eq_shares m dat G hG, bigSep_W0, s0, s1, s2, s3, s4, s5, s6, s7, s8, s9, s10, s11, arrBufs0_eq]
  iintro ⟨H0, H1, H4, H5, H6, H7, H8, H9, H10, H11⟩
  ihave H0 := (pointsTo_share (PosShare.mem_left_op_right fullShare)).1 $$ H0
  icases H0 with ⟨H0, H2⟩
  ihave H1 := (pointsTo_share (PosShare.mem_left_op_right fullShare)).1 $$ H1
  icases H1 with ⟨H1, H3⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.Kernel.Fr

end
-- ==== Proof.LibSharedFrame.lean ====
/-
  The frame run of a one-region pipeline program whose windows may SHARE ARRAYS.

  The library's own frame run asks the windows' arrays to be pairwise distinct, so that each array's buffer is
  one window's whole, at the full share. A kernel handed ONE array through several input windows has no such fact: the
  array's buffer must be divided among the windows that read it. This file states the frame run for that case: in
  place of "every window lends the full share" and "the entry arrays are the contents at the region's entry", the
  certificate proves ONE entailment, from the buffers behind the arrays (each once, whole, at the full share, at the
  entry contents) to the proof data's arrays at entry, each window at the share its datum names.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

namespace Pipeline

open Idealize.ShloMosaic.Rounds

namespace SharedFrame

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- THE FRAME RUN with a TRACKING invariant, for a pipeline whose windows may SHARE ARRAYS (the windows' facts
    without the distinctness of the arrays, `WinFacts₀`) and whose body draws no random numbers. `hbody` is the body
    obligation at every point; `howed` says the data owe nothing; `hmain` is the program's shape, holding the unscoped
    buffers at `V` when it reaches the region. `hsplit` says how the buffers behind the arrays — each ONCE, whole, at
    the full share, at its contents `V c` — make the proof data's arrays at entry: an array read by several input
    windows divided among them, each window at the share its datum names. The data's `Φ` is any invariant stated
    point by point over the core's scoped buffers that are no staging buffer: those, at some contents each, yield it
    before point 0 (`hin`), and it yields them back after the last point (`hout`). The generator register is let go
    at the region's entry and plays no part. Concludes `FramePost`: every window's array holds the datum's
    `arrAt … N` (windows on one array so hold the same contents), every unscoped buffer that is no window's array what
    it held at the region's entry. -/
theorem θ_run_frame_track_shared
    (cfgs : P → Cfg sig Λ₀) (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (Ix := Unit) (Name := ℕ) (U := UR sig nD τ) (Lvl := ℕ) (cfgs p).spec c (V c) : sProp 𝕄)
      ⊢ (dats p c).arrays ((dats p c).arrAt · 0))
    (hin : ∀ c, (scopedRest (Ix := Unit) (Name := ℕ) (U := UR sig nD τ) (Lvl := ℕ) (Val := Val) (cfgs p).spec c : sProp 𝕄) ⊢ (dats p c).Φ 0)
    (hout : ∀ c, (dats p c).Φ (Fin.last (cfgs p).N) ⊢ (scopedRest (Ix := Unit) (Name := ℕ) (U := UR sig nD τ) (Lvl := ℕ) (Val := Val) (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr
      · iempintro
      · iexact HU)
    (hin := fun c => (show iprop(emp ∗ scopedRest (Ix := Unit) (Name := ℕ) (U := UR sig nD τ) (Lvl := ℕ) (Val := Val) (cfgs p).spec c) ⊢
        (scopedRest (Ix := Unit) (Name := ℕ) (U := UR sig nD τ) (Lvl := ℕ) (Val := Val) (cfgs p).spec c : sProp 𝕄) from by
        iintro ⟨-, H⟩; iexact H).trans (hin c))
    (hout := fun c => (hout c).trans (by
      iintro H
      isplitr
      · iempintro
      · iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end SharedFrame

end Pipeline

end Idealize.ShloMosaic

end
-- ==== Proof.FrameKernel.Body.lean ====
/-
  The frame of the pairwise multipole-field kernel: at every one of the 64 points the body, called with the invariant
  between points, what the core owes and the twelve windows' current buffers, runs to the invariant at the next point, the
  same debt and every buffer at what the proof data say it leaves; the launch around the region; and what the six
  program arguments hold at the end.

  A point t = 8 i + j is in one of three cases. At j = 0 the eight running sums come in at anything (before the very
  first point they are the launch's scoped buffers at some contents; later they are what the point before left, which
  is forgotten) and go out at the pieces the run's stores left, read back; the four result buffers are idle and are handed
  back as found. At 0 < j < 7 the sums come in at what the point before left and go out at this point's pieces; the
  results are idle again. At j = 7 the sums do the same and the four result buffers, found at anything, go out at the pieces
  of the copy. In every case the eight input buffers hold their blocks before and after. The pieces cover their buffers,
  so reading them back does not depend on what the buffer held.

  Before the first point the invariant is the scoped buffers that are no staging buffer at some contents each, and after
  the last it yields them back by forgetting the sums. The ten buffers behind the twelve windows' arrays make the proof
  data's arrays at entry. The positions' array (argument 0) and the four other input arrays (arguments 2 to 5) are input
  windows' arrays, never written, so they end as launched; the boolean mask (argument 1) is no window's array and bypasses
  the region.
-/
import proofs.«173063_j80805514707451_1_alg».proof.Proof.FrameKernel.Data
import proofs.«173063_j80805514707451_1_alg».proof.Proof.FrameKernel.Split
import proofs.«173063_j80805514707451_1_alg».proof.Proof.LibSharedFrame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`: the invariant, what the core owes, and each window's current buffer at
    what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What it returns: the invariant at the next point, the same debt, and each current buffer at what the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- At any position the invariant yields the eight running sums' buffers, each at some contents: before the first point
    it is them; later the named sums are forgotten. -/
theorem PhiS_forget (c : Dev nD) (n : ℕ) (h : n ≤ cfg0.N) :
    PhiS m c n h ⊢ (iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) : sProp 𝕄) := by
  by_cases hz : n = 0
  · rw [PhiS_zero m c n h hz, scopedRest0_owns]
    try exact Idealize.SL.BI.Entails.refl _
  · rw [PhiS_pos m c n h hz]
    iintro ⟨HS0, HS1, HS2, HS3, HS4, HS5, HS6, HS7⟩
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7

set_option maxHeartbeats 4000000 in
/-- The body at a point with j = 0. The sums' buffers come in at anything and leave at the pieces of this point's stores
    read back; the result buffers are idle and are handed back as found. -/
theorem sound_body_A (c : Dev nD) (t : Fin cfg0.N) (h0 : t.val % 8 = 0) :
    bodyPre m c t ⊢ wp frame (wpE (defs₀ (F := F)) Variants.none c none) Set.univ (bodyAt0 t) (fun _ => bodyPost m c t) := by
  have h1 : ¬t.val % 8 = 7 := by omega
  have hc1 : ¬cond0_1 (grid0.coords t) := fun h => h1 ((hcond0_1 t).mp h)
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ, scAt_A m c t h0, PhiS_castSucc m c t]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [Dat.leavesExact_idle (dats m 0 c) 8 t (idleAt0_8 t hc1) (noFlush0_8 t hc1)]
  rw [Dat.leavesExact_idle (dats m 0 c) 9 t (idleAt0_9 t hc1) (noFlush0_9 t hc1)]
  rw [Dat.leavesExact_idle (dats m 0 c) 10 t (idleAt0_10 t hc1) (noFlush0_10 t hc1)]
  rw [Dat.leavesExact_idle (dats m 0 c) 11 t (idleAt0_11 t hc1) (noFlush0_11 t hc1)]
  dsimp only [soutA]
  unfold soutA0 soutA1 soutA2 soutA3 soutA4 soutA5 soutA6 soutA7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave HΦ := (PhiS_forget m c t.val (Nat.le_of_lt t.isLt)) $$ HΦ
  icases HΦ with ⟨HS0, HS1, HS2, HS3, HS4, HS5, HS6, HS7⟩
  iapply ((runA m c t h0).2.2.2.2.2.2.2.2.2.2.2.2 ((dats m 0 c).before 8 t d8) ((dats m 0 c).before 9 t d9) ((dats m 0 c).before 10 t d10) ((dats m 0 c).before 11 t d11) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, ⟨%e0, HS0⟩, ⟨%e1, HS1⟩, ⟨%e2, HS2⟩, ⟨%e3, HS3⟩, ⟨%e4, HS4⟩, ⟨%e5, HS5⟩, ⟨%e6, HS6⟩, ⟨%e7, HS7⟩⟩
  isplitl [HS0 HS1 HS2 HS3 HS4 HS5 HS6 HS7]
  · isplitl [HS0]
    · unfold owns; iexists _; isplitr
      swap; · iexact HS0
      ipureintro; exact View.read_writes_of_cover _ _ _ _ _ (scoverA0 m c t h0)
    isplitl [HS1]
    · unfold owns; iexists _; isplitr
      swap; · iexact HS1
      ipureintro; exact View.read_writes_of_cover _ _ _ _ _ (scoverA1 m c t h0)
    isplitl [HS2]
    · unfold owns; iexists _; isplitr
      swap; · iexact HS2
      ipureintro; exact View.read_writes_of_cover _ _ _ _ _ (scoverA2 m c t h0)
    isplitl [HS3]
    · unfold owns; iexists _; isplitr
      swap; · iexact HS3
      ipureintro; exact View.read_writes_of_cover _ _ _ _ _ (scoverA3 m c t h0)
    isplitl [HS4]
    · unfold owns; iexists _; isplitr
      swap; · iexact HS4
      ipureintro; exact View.read_writes_of_cover _ _ _ _ _ (scoverA4 m c t h0)
    isplitl [HS5]
    · unfold owns; iexists _; isplitr
      swap; · iexact HS5
      ipureintro; exact View.read_writes_of_cover _ _ _ _ _ (scoverA5 m c t h0)
    isplitl [HS6]
    · unfold owns; iexists _; isplitr
      swap; · iexact HS6
      ipureintro; exact View.read_writes_of_cover _ _ _ _ _ (scoverA6 m c t h0)
    unfold owns; iexists _; isplitr
    swap; · iexact HS7
    ipureintro; exact View.read_writes_of_cover _ _ _ _ _ (scoverA7 m c t h0)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  isplitl [H9]; · iexists d9; iexact H9
  isplitl [H10]; · iexists d10; iexact H10
  iexists d11; iexact H11

set_option maxHeartbeats 4000000 in
/-- The body at a point with 0 < j < 7. The sums' buffers come in at what the point before left and leave at the pieces of
    this point's stores read back; the result buffers are idle and are handed back as found. -/
theorem sound_body_B (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  have hz : t.val ≠ 0 := by omega
  have hc1 : ¬cond0_1 (grid0.coords t) := fun h => h1 ((hcond0_1 t).mp h)
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ, scAt_B m c t h0 h1, PhiS_castSucc m c t,
    PhiS_pos m c _ _ hz]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [Dat.leavesExact_idle (dats m 0 c) 8 t (idleAt0_8 t hc1) (noFlush0_8 t hc1)]
  rw [Dat.leavesExact_idle (dats m 0 c) 9 t (idleAt0_9 t hc1) (noFlush0_9 t hc1)]
  rw [Dat.leavesExact_idle (dats m 0 c) 10 t (idleAt0_10 t hc1) (noFlush0_10 t hc1)]
  rw [Dat.leavesExact_idle (dats m 0 c) 11 t (idleAt0_11 t hc1) (noFlush0_11 t hc1)]
  dsimp only [soutB]
  unfold soutB0 soutB1 soutB2 soutB3 soutB4 soutB5 soutB6 soutB7
  iintro ⟨⟨HS0, HS1, HS2, HS3, HS4, HS5, HS6, HS7⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runB m c t h0 h1 (scPrev m c t)).2.2.2.2.2.2.2.2.2.2.2.2 ((dats m 0 c).before 8 t d8) ((dats m 0 c).before 9 t d9) ((dats m 0 c).before 10 t d10) ((dats m 0 c).before 11 t d11) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, ⟨%e0, HS0⟩, ⟨%e1, HS1⟩, ⟨%e2, HS2⟩, ⟨%e3, HS3⟩, ⟨%e4, HS4⟩, ⟨%e5, HS5⟩, ⟨%e6, HS6⟩, ⟨%e7, HS7⟩⟩
  isplitl [HS0 HS1 HS2 HS3 HS4 HS5 HS6 HS7]
  · isplitl [HS0]
    · unfold owns; iexists _; isplitr
      swap; · iexact HS0
      ipureintro; exact View.read_writes_of_cover _ _ _ _ _ (scoverB0 m c t h0 h1 (scPrev m c t))
    isplitl [HS1]
    · unfold owns; iexists _; isplitr
      swap; · iexact HS1
      ipureintro; exact View.read_writes_of_cover _ _ _ _ _ (scoverB1 m c t h0 h1 (scPrev m c t))
    isplitl [HS2]
    · unfold owns; iexists _; isplitr
      swap; · iexact HS2
      ipureintro; exact View.read_writes_of_cover _ _ _ _ _ (scoverB2 m c t h0 h1 (scPrev m c t))
    isplitl [HS3]
    · unfold owns; iexists _; isplitr
      swap; · iexact HS3
      ipureintro; exact View.read_writes_of_cover _ _ _ _ _ (scoverB3 m c t h0 h1 (scPrev m c t))
    isplitl [HS4]
    · unfold owns; iexists _; isplitr
      swap; · iexact HS4
      ipureintro; exact View.read_writes_of_cover _ _ _ _ _ (scoverB4 m c t h0 h1 (scPrev m c t))
    isplitl [HS5]
    · unfold owns; iexists _; isplitr
      swap; · iexact HS5
      ipureintro; exact View.read_writes_of_cover _ _ _ _ _ (scoverB5 m c t h0 h1 (scPrev m c t))
    isplitl [HS6]
    · unfold owns; iexists _; isplitr
      swap; · iexact HS6
      ipureintro; exact View.read_writes_of_cover _ _ _ _ _ (scoverB6 m c t h0 h1 (scPrev m c t))
    unfold owns; iexists _; isplitr
    swap; · iexact HS7
    ipureintro; exact View.read_writes_of_cover _ _ _ _ _ (scoverB7 m c t h0 h1 (scPrev m c t))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  isplitl [H9]; · iexists d9; iexact H9
  isplitl [H10]; · iexists d10; iexact H10
  iexists d11; iexact H11

set_option maxHeartbeats 4000000 in
/-- The body at a point with j = 7. The sums' buffers come in at what the point before left and leave at the pieces of
    this point's stores read back; the four result buffers, found at anything, leave at the pieces of the copy read back. -/
theorem sound_body_C (c : Dev nD) (t : Fin cfg0.N) (h1 : t.val % 8 = 7) :
    bodyPre m c t ⊢ wp frame (wpE (defs₀ (F := F)) Variants.none c none) Set.univ (bodyAt0 t) (fun _ => bodyPost m c t) := by
  have hz : t.val ≠ 0 := by omega
  have hc1 : cond0_1 (grid0.coords t) := (hcond0_1 t).mpr h1
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ, scAt_C m c t h1, PhiS_castSucc m c t,
    PhiS_pos m c _ _ hz]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t hc1], after0_8, outAt8_C m c t h1]
  rw [show (dats m 0 c).leavesExact 9 t = owns (c : Thread nD τ) (ms0_9 t) fullShare ((dats m 0 c).after 9 t) from by
    unfold Dat.leavesExact; rw [liveAt0_9 t hc1], after0_9, outAt9_C m c t h1]
  rw [show (dats m 0 c).leavesExact 10 t = owns (c : Thread nD τ) (ms0_10 t) fullShare ((dats m 0 c).after 10 t) from by
    unfold Dat.leavesExact; rw [liveAt0_10 t hc1], after0_10, outAt10_C m c t h1]
  rw [show (dats m 0 c).leavesExact 11 t = owns (c : Thread nD τ) (ms0_11 t) fullShare ((dats m 0 c).after 11 t) from by
    unfold Dat.leavesExact; rw [liveAt0_11 t hc1], after0_11, outAt11_C m c t h1]
  dsimp only [soutC]
  unfold soutC0 soutC1 soutC2 soutC3 soutC4 soutC5 soutC6 soutC7 outC8 outC9 outC10 outC11
  iintro ⟨⟨HS0, HS1, HS2, HS3, HS4, HS5, HS6, HS7⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runC m c t h1 (scPrev m c t)).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, ⟨%o8, H8⟩, ⟨%o9, H9⟩, ⟨%o10, H10⟩, ⟨%o11, H11⟩, ⟨%e0, HS0⟩, ⟨%e1, HS1⟩, ⟨%e2, HS2⟩, ⟨%e3, HS3⟩, ⟨%e4, HS4⟩, ⟨%e5, HS5⟩, ⟨%e6, HS6⟩, ⟨%e7, HS7⟩⟩
  isplitl [HS0 HS1 HS2 HS3 HS4 HS5 HS6 HS7]
  · isplitl [HS0]
    · unfold owns; iexists _; isplitr
      swap; · iexact HS0
      ipureintro; exact View.read_writes_of_cover _ _ _ _ _ (scoverC0 m c t h1 (scPrev m c t))
    isplitl [HS1]
    · unfold owns; iexists _; isplitr
      swap; · iexact HS1
      ipureintro; exact View.read_writes_of_cover _ _ _ _ _ (scoverC1 m c t h1 (scPrev m c t))
    isplitl [HS2]
    · unfold owns; iexists _; isplitr
      swap; · iexact HS2
      ipureintro; exact View.read_writes_of_cover _ _ _ _ _ (scoverC2 m c t h1 (scPrev m c t))
    isplitl [HS3]
    · unfold owns; iexists _; isplitr
      swap; · iexact HS3
      ipureintro; exact View.read_writes_of_cover _ _ _ _ _ (scoverC3 m c t h1 (scPrev m c t))
    isplitl [HS4]
    · unfold owns; iexists _; isplitr
      swap; · iexact HS4
      ipureintro; exact View.read_writes_of_cover _ _ _ _ _ (scoverC4 m c t h1 (scPrev m c t))
    isplitl [HS5]
    · unfold owns; iexists _; isplitr
      swap; · iexact HS5
      ipureintro; exact View.read_writes_of_cover _ _ _ _ _ (scoverC5 m c t h1 (scPrev m c t))
    isplitl [HS6]
    · unfold owns; iexists _; isplitr
      swap; · iexact HS6
      ipureintro; exact View.read_writes_of_cover _ _ _ _ _ (scoverC6 m c t h1 (scPrev m c t))
    unfold owns; iexists _; isplitr
    swap; · iexact HS7
    ipureintro; exact View.read_writes_of_cover _ _ _ _ _ (scoverC7 m c t h1 (scPrev m c t))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverC8 m c t h1 (scPrev m c t))
  isplitl [H9]
  · unfold owns; iexists _; isplitr
    swap; · iexact H9
    ipureintro; exact View.read_writes_of_cover _ _ _ _ _ (coverC9 m c t h1 (scPrev m c t))
  isplitl [H10]
  · unfold owns; iexists _; isplitr
    swap; · iexact H10
    ipureintro; exact View.read_writes_of_cover _ _ _ _ _ (coverC10 m c t h1 (scPrev m c t))
  unfold owns; iexists _; isplitr
  swap; · iexact H11
  ipureintro; exact View.read_writes_of_cover _ _ _ _ _ (coverC11 m c t h1 (scPrev m c t))

/-- The body at any point: the point is in one of the three cases. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_body_A m c t h0
  · by_cases h1 : t.val % 8 = 7
    · exact sound_body_C m c t h1
    · exact sound_body_B m c t h0 h1

/-- The body obligation, at every point. -/
theorem body_obligation (c : Dev nD) : BodyObligation (dats (F := F) m 0 c) (defs₀ (F := F)) Variants.none () Set.univ := fun t => by
  rw [bigSep_W0, bigSep_W0]
  exact sound_body m c t

/-! ## The invariant at the region's two ends, and the arrays at entry -/

/-- The scoped buffers that are no staging buffer, at some contents each, are the invariant before the first point. -/
theorem hin (c : Dev nD) : Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives them back: the sums' named contents are forgotten. -/
theorem hout (c : Dev nD) : (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c (Fin.last cfg0.N).val (Nat.le_of_lt_succ (Fin.last cfg0.N).isLt) from rfl,
    scopedRest0_owns]
  exact PhiS_forget m c _ _

/-- The ten buffers behind the arrays, whole at what the region finds, make the proof data's twelve arrays at entry. -/
theorem hsplit (c : Dev nD) : Pipeline.arrBufs (Ix := Unit) (Name := ℕ) (U := UR sig nD τ) (Lvl := ℕ) spec0 c (V m c) ⊢ (dats m 0 c).arrays ((dats m 0 c).arrAt · 0) :=
  arrays_of_arrBufs m (dats m 0 c) (q_eq m c) _ (fun w => (show (dats m 0 c).arrAt w 0 = (dats m 0 c).A w from rfl).trans (A_eq m c w))

/-! ## The run and the frame -/

set_option backward.isDefEq.respectTransparency.types false in
/-- From any memory with zero counters every weakly fair execution of the program on the TensorCores terminates, and in
    every final state each window's array holds what the proof data compute for it after the last point and every other
    unscoped buffer what it held when the region was entered. -/
theorem run_main : θ_run defs (onTc (τ := τ) (main (F := F))) (s₀ m ρ) (Pipeline.FramePost cfgs (dats m) 0 (V m)) :=
  Pipeline.SharedFrame.θ_run_frame_track_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (hin m) (hout m)

/-- The frame: the six arguments of the program end as launched. The positions and the four other input arrays are input
    windows' arrays, which no write-back touches; the boolean mask is no window's array and bypasses the region; the one
    host operation before the region writes none of the six. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).1 4).trans (((dats m 0 c).arrAt_in 4 rfl _).trans ((A_eq m c 4).trans (V_main_arg2 m c))),
     ((h c).1 5).trans (((dats m 0 c).arrAt_in 5 rfl _).trans ((A_eq m c 5).trans (V_main_arg3 m c))),
     ((h c).1 6).trans (((dats m 0 c).arrAt_in 6 rfl _).trans ((A_eq m c 6).trans (V_main_arg4 m c))),
     ((h c).1 7).trans (((dats m 0 c).arrAt_in 7 rfl _).trans ((A_eq m c 7).trans (V_main_arg5 m c)))⟩) (run_main m ρ)

end Cert.Kernel.Fr

end
-- ==== Proof.FrameKernelIdeal.Base.lean ====
/-
  The pairwise multipole-field kernel runs on an 8 × 8 grid of points (i, j): point (i, j) reads the 128 query
  rows of tile i (positions and the 0/1 row mask) and the 128 key rows of tile j (positions, mask, the two scalar
  charges and the two dipole arrays), and adds tile j's contribution to eight running sums kept in scratch
  (two potentials and the three components of two fields), which it clears at j = 0 and copies into the four
  results' blocks at j = 7. Positions and mask are each handed to the kernel twice (once by query tile, once by
  key tile), so two windows read one array.

  This module fixes what the whole frame argument is stated over: the contents V of the arrays when the region
  is entered (after the one host operation that turns the boolean mask into 0/1 floats), a window's block at a
  point, that an input window's buffer holds its block at every point whether or not it was fetched there, the
  two branch conditions in closed form (j = 0 is t % 8 = 0, j = 7 is t % 8 = 7 for the point number t = 8 i + j),
  where the four result windows are idle, the staging and scratch memrefs by name, the shares at which the
  twice-read arrays are split between their two windows, and the kernel's eight scratch buffers as the only
  scoped buffers beside the staging buffers.
-/
import proofs.«173063_j80805514707451_1_alg».proof.Proof.Gen.KernelIdeal.Launch
import proofs.«173063_j80805514707451_1_alg».proof.Proof.Gen.KernelIdeal.Skeleton
import proofs.«173063_j80805514707451_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the mask's conversion to floats. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is the conversion, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The conversion writes only its own result: `main_arg0` is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))
/-- The conversion writes only its own result: `main_arg1` is found as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))
/-- The conversion writes only its own result: `main_arg2` is found as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))
/-- The conversion writes only its own result: `main_arg3` is found as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))
/-- The conversion writes only its own result: `main_arg4` is found as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))
/-- The conversion writes only its own result: `main_arg5` is found as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, fetched there or not, for any proof data whose
    array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, fetched there or not, for any proof data whose
    array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, fetched there or not, for any proof data whose
    array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, fetched there or not, for any proof data whose
    array is `V`'s and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, fetched there or not, for any proof data whose
    array is `V`'s and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point, fetched there or not, for any proof data whose
    array is `V`'s and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point, fetched there or not, for any proof data whose
    array is `V`'s and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's buffer holds its block at every point, fetched there or not, for any proof data whose
    array is `V`'s and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions -/

/-- The first branch (clear the running sums) is taken where the key-tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (copy the running sums into the results' blocks) is taken where it is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Result window 8 is idle, and not written back, exactly where the second branch is not taken. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
/-- Result window 9 is idle, and not written back, exactly where the second branch is not taken. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel
/-- Result window 10 is idle, and not written back, exactly where the second branch is not taken. -/
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel
/-- Result window 11 is idle, and not written back, exactly where the second branch is not taken. -/
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11 : ∀ t : Fin cfg0.N, cond0_1 (grid0.coords t) → cfg0.idle 11 (grid0.coords t) = false := by decide +kernel

/-! ## The staging and scratch memrefs -/

abbrev ms0_0 (t : Fin cfg0.N) : Memref sig .tc .vmem S8x128x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128x3 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128x3 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x128x3 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x128x3 .f32 := win0_11.stage (cfg0.slots t 11)
abbrev hs0_11 (t : Fin cfg0.N) : (ms0_11 t).IsWhole := hstage0_11 ((cfg0.slots t 11).cast nbuf0_11)
/-- The eight scratch operands (the running sums), as memrefs and as views. -/
abbrev scM0_0 : Memref sig .tc .vmem S8x128 .f32 := Memref.whole cc0_scratch0
abbrev VS0_0 : View sig .tc .vmem S8x128 .f32 := scM0_0.view
abbrev scM0_1 : Memref sig .tc .vmem S8x128 .f32 := Memref.whole cc0_scratch1
abbrev VS0_1 : View sig .tc .vmem S8x128 .f32 := scM0_1.view
abbrev scM0_2 : Memref sig .tc .vmem S8x128 .f32 := Memref.whole cc0_scratch2
abbrev VS0_2 : View sig .tc .vmem S8x128 .f32 := scM0_2.view
abbrev scM0_3 : Memref sig .tc .vmem S8x128 .f32 := Memref.whole cc0_scratch3
abbrev VS0_3 : View sig .tc .vmem S8x128 .f32 := scM0_3.view
abbrev scM0_4 : Memref sig .tc .vmem S8x128 .f32 := Memref.whole cc0_scratch4
abbrev VS0_4 : View sig .tc .vmem S8x128 .f32 := scM0_4.view
abbrev scM0_5 : Memref sig .tc .vmem S8x128 .f32 := Memref.whole cc0_scratch5
abbrev VS0_5 : View sig .tc .vmem S8x128 .f32 := scM0_5.view
abbrev scM0_6 : Memref sig .tc .vmem S8x128 .f32 := Memref.whole cc0_scratch6
abbrev VS0_6 : View sig .tc .vmem S8x128 .f32 := scM0_6.view
abbrev scM0_7 : Memref sig .tc .vmem S8x128 .f32 := Memref.whole cc0_scratch7
abbrev VS0_7 : View sig .tc .vmem S8x128 .f32 := scM0_7.view
/-- One staging buffer of each result window, through which its contents are stated. -/
abbrev VO0_8 : View sig .tc .vmem S8x128 .f32 := (Memref.whole cc0_stg8_0 : Memref sig .tc .vmem S8x128 .f32).view
abbrev VO0_9 : View sig .tc .vmem S8x128 .f32 := (Memref.whole cc0_stg9_0 : Memref sig .tc .vmem S8x128 .f32).view
abbrev VO0_10 : View sig .tc .vmem S8x128x3 .f32 := (Memref.whole cc0_stg10_0 : Memref sig .tc .vmem S8x128x3 .f32).view
abbrev VO0_11 : View sig .tc .vmem S8x128x3 .f32 := (Memref.whole cc0_stg11_0 : Memref sig .tc .vmem S8x128x3 .f32).view

/-! ## The region invariant's ground form, and the shares -/

/-- The scoped buffers that are no staging buffer are the eight scratch operands, each owned at some contents. -/
theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) := by
  rw [scopedRest0_eq]; simp only [scM0_0, scM0_1, scM0_2, scM0_3, scM0_4, scM0_5, scM0_6, scM0_7, owns_whole]; try rfl

/-- The share of its array each input window holds: the positions are read by windows 0 and 2 and the float mask
    by windows 1 and 3, so each of those holds a half; every other array has one window, which holds it whole. -/
def qShare : Fin 12 → PosShare TreeShare
  | ⟨0, _⟩ => fullShare.left
  | ⟨1, _⟩ => fullShare.left
  | ⟨2, _⟩ => fullShare.right
  | ⟨3, _⟩ => fullShare.right
  | _ => fullShare

end Cert.KernelIdeal.Fr

end
-- ==== Proof.FrameKernelIdeal.RunA.lean ====
/-
  The kernel body at a point whose key tile is the first (j = 0): it clears the eight running sums, adds this tile's eight contributions, and stores nothing into the result blocks. On whole memrefs — the eight input blocks at their contents, the four result buffers at any contents (handed back untouched), the eight scratch buffers at anything — it runs to a state with the inputs and results as they were and each scratch buffer holding what its stores left, as a list of pieces (last store first) that the run itself finds.
-/
import proofs.«173063_j80805514707451_1_alg».proof.Proof.FrameKernelIdeal.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : cond0_0 i) (hc1 : ¬cond0_1 i)
    (x0 : Vec F S8x128x3 .f32) (x1 : Vec F S8x128 .f32) (x2 : Vec F S8x128x3 .f32) (x3 : Vec F S8x128 .f32) (x4 : Vec F S8x128 .f32) (x5 : Vec F S8x128 .f32) (x6 : Vec F S8x128x3 .f32) (x7 : Vec F S8x128x3 .f32) :
    Σ' (L8 : List (View.Piece (Elt F) S8x128 .f32)) (L9 : List (View.Piece (Elt F) S8x128 .f32)) (L10 : List (View.Piece (Elt F) S8x128x3 .f32)) (L11 : List (View.Piece (Elt F) S8x128x3 .f32)) (LS0 : List (View.Piece (Elt F) S8x128 .f32)) (LS1 : List (View.Piece (Elt F) S8x128 .f32)) (LS2 : List (View.Piece (Elt F) S8x128 .f32)) (LS3 : List (View.Piece (Elt F) S8x128 .f32)) (LS4 : List (View.Piece (Elt F) S8x128 .f32)) (LS5 : List (View.Piece (Elt F) S8x128 .f32)) (LS6 : List (View.Piece (Elt F) S8x128 .f32)), { LS7 : List (View.Piece (Elt F) S8x128 .f32) //
      ∀ (xi8 : Vec F S8x128 .f32) (xi9 : Vec F S8x128 .f32) (xi10 : Vec F S8x128x3 .f32) (xi11 : Vec F S8x128x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xi8 ∗ owns (c : Thread nD τ) arg11 fullShare xi9 ∗ owns (c : Thread nD τ) arg12 fullShare xi10 ∗ owns (c : Thread nD τ) arg13 fullShare xi11
            ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ owns (c : Thread nD τ) arg10 fullShare xi8 ∗ owns (c : Thread nD τ) arg11 fullShare xi9 ∗ owns (c : Thread nD τ) arg12 fullShare xi10 ∗ owns (c : Thread nD τ) arg13 fullShare xi11
                ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5) ∗ (∃ f, arg20.view.loc (c : Thread nD τ) ↦[arg20.view.set]{fullShare} arg20.view.writes (Elt F) f LS6) ∗ (∃ f, arg21.view.loc (c : Thread nD τ) ↦[arg21.view.set]{fullShare} arg21.view.writes (Elt F) f LS7)) -∗ K ⟨⟩))
          ⊢ wp frame (wpE (defs₀ (F := F)) Variants.none c none) E (cc0__mp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨[], [], [], [], ?_, ?_, ?_, ?_, ?_, ?_, ?_, ?_, fun xi8 xi9 xi10 xi11 E K => ?run⟩
  case run =>
    simp only [cc0__mp_kernel_eq_skeleton]; unfold cc0__mp_kernel_skel
    simp only [k0_part1_eq_skeleton, k0_part3_eq_skeleton, k0_part4_eq_skeleton, k0_part5_eq_skeleton,
      k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7

end Cert.KernelIdeal.Fr

end
-- ==== Proof.FrameKernelIdeal.RunB.lean ====
/-
  The kernel body at a point whose key tile is neither the first nor the last (0 < j < 7): it adds this tile's eight contributions to the running sums and stores nothing into the result blocks. The scratch buffers come in at the contents the point before left; the pieces each ends with are found by the run.
-/
import proofs.«173063_j80805514707451_1_alg».proof.Proof.FrameKernelIdeal.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : ¬cond0_1 i)
    (x0 : Vec F S8x128x3 .f32) (x1 : Vec F S8x128 .f32) (x2 : Vec F S8x128x3 .f32) (x3 : Vec F S8x128 .f32) (x4 : Vec F S8x128 .f32) (x5 : Vec F S8x128 .f32) (x6 : Vec F S8x128x3 .f32) (x7 : Vec F S8x128x3 .f32)
    (xs0 : Vec F S8x128 .f32) (xs1 : Vec F S8x128 .f32) (xs2 : Vec F S8x128 .f32) (xs3 : Vec F S8x128 .f32) (xs4 : Vec F S8x128 .f32) (xs5 : Vec F S8x128 .f32) (xs6 : Vec F S8x128 .f32) (xs7 : Vec F S8x128 .f32) :
    Σ' (L8 : List (View.Piece (Elt F) S8x128 .f32)) (L9 : List (View.Piece (Elt F) S8x128 .f32)) (L10 : List (View.Piece (Elt F) S8x128x3 .f32)) (L11 : List (View.Piece (Elt F) S8x128x3 .f32)) (LS0 : List (View.Piece (Elt F) S8x128 .f32)) (LS1 : List (View.Piece (Elt F) S8x128 .f32)) (LS2 : List (View.Piece (Elt F) S8x128 .f32)) (LS3 : List (View.Piece (Elt F) S8x128 .f32)) (LS4 : List (View.Piece (Elt F) S8x128 .f32)) (LS5 : List (View.Piece (Elt F) S8x128 .f32)) (LS6 : List (View.Piece (Elt F) S8x128 .f32)), { LS7 : List (View.Piece (Elt F) S8x128 .f32) //
      ∀ (xi8 : Vec F S8x128 .f32) (xi9 : Vec F S8x128 .f32) (xi10 : Vec F S8x128x3 .f32) (xi11 : Vec F S8x128x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xi8 ∗ owns (c : Thread nD τ) arg11 fullShare xi9 ∗ owns (c : Thread nD τ) arg12 fullShare xi10 ∗ owns (c : Thread nD τ) arg13 fullShare xi11
            ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ owns (c : Thread nD τ) arg19 fullShare xs5 ∗ owns (c : Thread nD τ) arg20 fullShare xs6 ∗ owns (c : Thread nD τ) arg21 fullShare xs7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ owns (c : Thread nD τ) arg10 fullShare xi8 ∗ owns (c : Thread nD τ) arg11 fullShare xi9 ∗ owns (c : Thread nD τ) arg12 fullShare xi10 ∗ owns (c : Thread nD τ) arg13 fullShare xi11
                ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5) ∗ (∃ f, arg20.view.loc (c : Thread nD τ) ↦[arg20.view.set]{fullShare} arg20.view.writes (Elt F) f LS6) ∗ (∃ f, arg21.view.loc (c : Thread nD τ) ↦[arg21.view.set]{fullShare} arg21.view.writes (Elt F) f LS7)) -∗ K ⟨⟩))
          ⊢ wp frame (wpE (defs₀ (F := F)) Variants.none c none) E (cc0__mp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨[], [], [], [], ?_, ?_, ?_, ?_, ?_, ?_, ?_, ?_, fun xi8 xi9 xi10 xi11 E K => ?run⟩
  case run =>
    simp only [cc0__mp_kernel_eq_skeleton]; unfold cc0__mp_kernel_skel
    simp only [k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1; obtain rfl := harg16.eq_unread hfs2; obtain rfl := harg17.eq_unread hfs3; obtain rfl := harg18.eq_unread hfs4; obtain rfl := harg19.eq_unread hfs5; obtain rfl := harg20.eq_unread hfs6; obtain rfl := harg21.eq_unread hfs7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7

end Cert.KernelIdeal.Fr

end
-- ==== Proof.FrameKernelIdeal.RunC.lean ====
/-
  The kernel body at a point whose key tile is the last (j = 7): it adds this tile's eight contributions to the running sums and then copies the eight sums into the four result blocks (two planes, and the three components of each of two fields). The result buffers come in at anything and end with the pieces the run finds.
-/
import proofs.«173063_j80805514707451_1_alg».proof.Proof.FrameKernelIdeal.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : cond0_1 i)
    (x0 : Vec F S8x128x3 .f32) (x1 : Vec F S8x128 .f32) (x2 : Vec F S8x128x3 .f32) (x3 : Vec F S8x128 .f32) (x4 : Vec F S8x128 .f32) (x5 : Vec F S8x128 .f32) (x6 : Vec F S8x128x3 .f32) (x7 : Vec F S8x128x3 .f32)
    (xs0 : Vec F S8x128 .f32) (xs1 : Vec F S8x128 .f32) (xs2 : Vec F S8x128 .f32) (xs3 : Vec F S8x128 .f32) (xs4 : Vec F S8x128 .f32) (xs5 : Vec F S8x128 .f32) (xs6 : Vec F S8x128 .f32) (xs7 : Vec F S8x128 .f32) :
    Σ' (L8 : List (View.Piece (Elt F) S8x128 .f32)) (L9 : List (View.Piece (Elt F) S8x128 .f32)) (L10 : List (View.Piece (Elt F) S8x128x3 .f32)) (L11 : List (View.Piece (Elt F) S8x128x3 .f32)) (LS0 : List (View.Piece (Elt F) S8x128 .f32)) (LS1 : List (View.Piece (Elt F) S8x128 .f32)) (LS2 : List (View.Piece (Elt F) S8x128 .f32)) (LS3 : List (View.Piece (Elt F) S8x128 .f32)) (LS4 : List (View.Piece (Elt F) S8x128 .f32)) (LS5 : List (View.Piece (Elt F) S8x128 .f32)) (LS6 : List (View.Piece (Elt F) S8x128 .f32)), { LS7 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ owns (c : Thread nD τ) arg19 fullShare xs5 ∗ owns (c : Thread nD τ) arg20 fullShare xs6 ∗ owns (c : Thread nD τ) arg21 fullShare xs7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)
                ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5) ∗ (∃ f, arg20.view.loc (c : Thread nD τ) ↦[arg20.view.set]{fullShare} arg20.view.writes (Elt F) f LS6) ∗ (∃ f, arg21.view.loc (c : Thread nD τ) ↦[arg21.view.set]{fullShare} arg21.view.writes (Elt F) f LS7)) -∗ K ⟨⟩))
          ⊢ wp frame (wpE (defs₀ (F := F)) Variants.none c none) E (cc0__mp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, ?_, ?_, ?_, fun E K => ?run⟩
  case run =>
    simp only [cc0__mp_kernel_eq_skeleton]; unfold cc0__mp_kernel_skel
    simp only [k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg14.eq_unread hfs0; obtain rfl := harg15.eq_unread hfs1; obtain rfl := harg16.eq_unread hfs2; obtain rfl := harg17.eq_unread hfs3; obtain rfl := harg18.eq_unread hfs4; obtain rfl := harg19.eq_unread hfs5; obtain rfl := harg20.eq_unread hfs6; obtain rfl := harg21.eq_unread hfs7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7

end Cert.KernelIdeal.Fr

end
-- ==== Proof.FrameKernelIdeal.Data.lean ====
/-
  What the eight running sums and the four result blocks hold after each grid point, and the proof data of the
  pipeline built from it.

  A point t = 8 i + j of the 64 falls in one of three cases: j = 0 (t % 8 = 0: the sums are cleared, then increased),
  0 < j < 7 (increased), j = 7 (t % 8 = 7: increased, then copied into the result blocks). The body's run in each
  case ends with every scratch buffer at the pieces its stores left; read back, those pieces are what the buffer
  holds (they cover it). `scAt` follows the eight sums point by point: the case's contents, computed from the
  point's eight input blocks and — except when the sums were just cleared — from what the point before left.
  A result window's buffer matters only at the points j = 7, where it holds the pieces of the copy.
  The proof data: every array as the region finds it; each input's buffer left at its block; each result's at the
  copy; between points the eight scratch buffers at `scAt`; the twice-read arrays held in halves; nothing owed.
-/
import proofs.«173063_j80805514707451_1_alg».proof.Proof.FrameKernelIdeal.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of the eight scratch buffers (the running sums). -/
structure Scr (F : FTy → Type) [FloatOps F] where
  s0 : Vec F S8x128 .f32
  s1 : Vec F S8x128 .f32
  s2 : Vec F S8x128 .f32
  s3 : Vec F S8x128 .f32
  s4 : Vec F S8x128 .f32
  s5 : Vec F S8x128 .f32
  s6 : Vec F S8x128 .f32
  s7 : Vec F S8x128 .f32

variable (m : (ℓ : Loc nD τ sig) → Buf (Elt F) ℓ) (ρ : Dev nD → PrngReg)

/-! ## The three runs at a point's memrefs and blocks -/

/-- The run of case j = 0 at point `t`. -/
def runA (c : Dev nD) (t : Fin cfg0.N) (h0 : t.val % 8 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => by have := (hcond0_1 t).mp h; omega) (iblk m c 0 t) (iblk m c 1 t) (iblk m c 2 t) (iblk m c 3 t) (iblk m c 4 t) (iblk m c 5 t) (iblk m c 6 t) (iblk m c 7 t)
/-- The run of case 0 < j < 7 at point `t`, the sums coming in at `xs`. -/
def runB (c : Dev nD) (t : Fin cfg0.N) (h0 : ¬t.val % 8 = 0) (h1 : ¬t.val % 8 = 7) (xs : Scr F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) xs.s0 xs.s1 xs.s2 xs.s3 xs.s4 xs.s5 xs.s6 xs.s7
/-- The run of case j = 7 at point `t`, the sums coming in at `xs`. -/
def runC (c : Dev nD) (t : Fin cfg0.N) (h1 : t.val % 8 = 7) (xs : Scr F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => by have := (hcond0_0 t).mp h; omega) ((hcond0_1 t).mpr h1) (iblk m c 0 t) (iblk m c 1 t) (iblk m c 2 t) (iblk m c 3 t) (iblk m c 4 t) (iblk m c 5 t) (iblk m c 6 t) (iblk m c 7 t) xs.s0 xs.s1 xs.s2 xs.s3 xs.s4 xs.s5 xs.s6 xs.s7

/-! ## What each case leaves in the scratch buffers and the result blocks -/

/-- Running sum 0 after a point of case j = 0: its pieces read back. -/
def soutA0 (c : Dev nD) (t : Fin cfg0.N) (h0 : t.val % 8 = 0) : Vec F S8x128 .f32 :=
  VS0_0.read (Elt F) (VS0_0.writes (Elt F) VS0_0.junk (runA m c t h0).2.2.2.2.1)
def soutB0 (c : Dev nD) (t : Fin cfg0.N) (h0 : ¬t.val % 8 = 0) (h1 : ¬t.val % 8 = 7) (xs : Scr F) : Vec F S8x128 .f32 :=
  VS0_0.read (Elt F) (VS0_0.writes (Elt F) VS0_0.junk (runB m c t h0 h1 xs).2.2.2.2.1)
def soutC0 (c : Dev nD) (t : Fin cfg0.N) (h1 : t.val % 8 = 7) (xs : Scr F) : Vec F S8x128 .f32 :=
  VS0_0.read (Elt F) (VS0_0.writes (Elt F) VS0_0.junk (runC m c t h1 xs).2.2.2.2.1)
/-- Running sum 1 after a point of case j = 0: its pieces read back. -/
def soutA1 (c : Dev nD) (t : Fin cfg0.N) (h0 : t.val % 8 = 0) : Vec F S8x128 .f32 :=
  VS0_1.read (Elt F) (VS0_1.writes (Elt F) VS0_1.junk (runA m c t h0).2.2.2.2.2.1)
def soutB1 (c : Dev nD) (t : Fin cfg0.N) (h0 : ¬t.val % 8 = 0) (h1 : ¬t.val % 8 = 7) (xs : Scr F) : Vec F S8x128 .f32 :=
  VS0_1.read (Elt F) (VS0_1.writes (Elt F) VS0_1.junk (runB m c t h0 h1 xs).2.2.2.2.2.1)
def soutC1 (c : Dev nD) (t : Fin cfg0.N) (h1 : t.val % 8 = 7) (xs : Scr F) : Vec F S8x128 .f32 :=
  VS0_1.read (Elt F) (VS0_1.writes (Elt F) VS0_1.junk (runC m c t h1 xs).2.2.2.2.2.1)
/-- Running sum 2 after a point of case j = 0: its pieces read back. -/
def soutA2 (c : Dev nD) (t : Fin cfg0.N) (h0 : t.val % 8 = 0) : Vec F S8x128 .f32 :=
  VS0_2.read (Elt F) (VS0_2.writes (Elt F) VS0_2.junk (runA m c t h0).2.2.2.2.2.2.1)
def soutB2 (c : Dev nD) (t : Fin cfg0.N) (h0 : ¬t.val % 8 = 0) (h1 : ¬t.val % 8 = 7) (xs : Scr F) : Vec F S8x128 .f32 :=
  VS0_2.read (Elt F) (VS0_2.writes (Elt F) VS0_2.junk (runB m c t h0 h1 xs).2.2.2.2.2.2.1)
def soutC2 (c : Dev nD) (t : Fin cfg0.N) (h1 : t.val % 8 = 7) (xs : Scr F) : Vec F S8x128 .f32 :=
  VS0_2.read (Elt F) (VS0_2.writes (Elt F) VS0_2.junk (runC m c t h1 xs).2.2.2.2.2.2.1)
/-- Running sum 3 after a point of case j = 0: its pieces read back. -/
def soutA3 (c : Dev nD) (t : Fin cfg0.N) (h0 : t.val % 8 = 0) : Vec F S8x128 .f32 :=
  VS0_3.read (Elt F) (VS0_3.writes (Elt F) VS0_3.junk (runA m c t h0).2.2.2.2.2.2.2.1)
def soutB3 (c : Dev nD) (t : Fin cfg0.N) (h0 : ¬t.val % 8 = 0) (h1 : ¬t.val % 8 = 7) (xs : Scr F) : Vec F S8x128 .f32 :=
  VS0_3.read (Elt F) (VS0_3.writes (Elt F) VS0_3.junk (runB m c t h0 h1 xs).2.2.2.2.2.2.2.1)
def soutC3 (c : Dev nD) (t : Fin cfg0.N) (h1 : t.val % 8 = 7) (xs : Scr F) : Vec F S8x128 .f32 :=
  VS0_3.read (Elt F) (VS0_3.writes (Elt F) VS0_3.junk (runC m c t h1 xs).2.2.2.2.2.2.2.1)
/-- Running sum 4 after a point of case j = 0: its pieces read back. -/
def soutA4 (c : Dev nD) (t : Fin cfg0.N) (h0 : t.val % 8 = 0) : Vec F S8x128 .f32 :=
  VS0_4.read (Elt F) (VS0_4.writes (Elt F) VS0_4.junk (runA m c t h0).2.2.2.2.2.2.2.2.1)
def soutB4 (c : Dev nD) (t : Fin cfg0.N) (h0 : ¬t.val % 8 = 0) (h1 : ¬t.val % 8 = 7) (xs : Scr F) : Vec F S8x128 .f32 :=
  VS0_4.read (Elt F) (VS0_4.writes (Elt F) VS0_4.junk (runB m c t h0 h1 xs).2.2.2.2.2.2.2.2.1)
def soutC4 (c : Dev nD) (t : Fin cfg0.N) (h1 : t.val % 8 = 7) (xs : Scr F) : Vec F S8x128 .f32 :=
  VS0_4.read (Elt F) (VS0_4.writes (Elt F) VS0_4.junk (runC m c t h1 xs).2.2.2.2.2.2.2.2.1)
/-- Running sum 5 after a point of case j = 0: its pieces read back. -/
def soutA5 (c : Dev nD) (t : Fin cfg0.N) (h0 : t.val % 8 = 0) : Vec F S8x128 .f32 :=
  VS0_5.read (Elt F) (VS0_5.writes (Elt F) VS0_5.junk (runA m c t h0).2.2.2.2.2.2.2.2.2.1)
def soutB5 (c : Dev nD) (t : Fin cfg0.N) (h0 : ¬t.val % 8 = 0) (h1 : ¬t.val % 8 = 7) (xs : Scr F) : Vec F S8x128 .f32 :=
  VS0_5.read (Elt F) (VS0_5.writes (Elt F) VS0_5.junk (runB m c t h0 h1 xs).2.2.2.2.2.2.2.2.2.1)
def soutC5 (c : Dev nD) (t : Fin cfg0.N) (h1 : t.val % 8 = 7) (xs : Scr F) : Vec F S8x128 .f32 :=
  VS0_5.read (Elt F) (VS0_5.writes (Elt F) VS0_5.junk (runC m c t h1 xs).2.2.2.2.2.2.2.2.2.1)
/-- Running sum 6 after a point of case j = 0: its pieces read back. -/
def soutA6 (c : Dev nD) (t : Fin cfg0.N) (h0 : t.val % 8 = 0) : Vec F S8x128 .f32 :=
  VS0_6.read (Elt F) (VS0_6.writes (Elt F) VS0_6.junk (runA m c t h0).2.2.2.2.2.2.2.2.2.2.1)
def soutB6 (c : Dev nD) (t : Fin cfg0.N) (h0 : ¬t.val % 8 = 0) (h1 : ¬t.val % 8 = 7) (xs : Scr F) : Vec F S8x128 .f32 :=
  VS0_6.read (Elt F) (VS0_6.writes (Elt F) VS0_6.junk (runB m c t h0 h1 xs).2.2.2.2.2.2.2.2.2.2.1)
def soutC6 (c : Dev nD) (t : Fin cfg0.N) (h1 : t.val % 8 = 7) (xs : Scr F) : Vec F S8x128 .f32 :=
  VS0_6.read (Elt F) (VS0_6.writes (Elt F) VS0_6.junk (runC m c t h1 xs).2.2.2.2.2.2.2.2.2.2.1)
/-- Running sum 7 after a point of case j = 0: its pieces read back. -/
def soutA7 (c : Dev nD) (t : Fin cfg0.N) (h0 : t.val % 8 = 0) : Vec F S8x128 .f32 :=
  VS0_7.read (Elt F) (VS0_7.writes (Elt F) VS0_7.junk (runA m c t h0).2.2.2.2.2.2.2.2.2.2.2.1)
def soutB7 (c : Dev nD) (t : Fin cfg0.N) (h0 : ¬t.val % 8 = 0) (h1 : ¬t.val % 8 = 7) (xs : Scr F) : Vec F S8x128 .f32 :=
  VS0_7.read (Elt F) (VS0_7.writes (Elt F) VS0_7.junk (runB m c t h0 h1 xs).2.2.2.2.2.2.2.2.2.2.2.1)
def soutC7 (c : Dev nD) (t : Fin cfg0.N) (h1 : t.val % 8 = 7) (xs : Scr F) : Vec F S8x128 .f32 :=
  VS0_7.read (Elt F) (VS0_7.writes (Elt F) VS0_7.junk (runC m c t h1 xs).2.2.2.2.2.2.2.2.2.2.2.1)

/-- The eight sums after a point of each case. -/
def soutA (c : Dev nD) (t : Fin cfg0.N) (h0 : t.val % 8 = 0) : Scr F := ⟨soutA0 m c t h0, soutA1 m c t h0, soutA2 m c t h0, soutA3 m c t h0, soutA4 m c t h0, soutA5 m c t h0, soutA6 m c t h0, soutA7 m c t h0⟩
def soutB (c : Dev nD) (t : Fin cfg0.N) (h0 : ¬t.val % 8 = 0) (h1 : ¬t.val % 8 = 7) (xs : Scr F) : Scr F := ⟨soutB0 m c t h0 h1 xs, soutB1 m c t h0 h1 xs, soutB2 m c t h0 h1 xs, soutB3 m c t h0 h1 xs, soutB4 m c t h0 h1 xs, soutB5 m c t h0 h1 xs, soutB6 m c t h0 h1 xs, soutB7 m c t h0 h1 xs⟩
def soutC (c : Dev nD) (t : Fin cfg0.N) (h1 : t.val % 8 = 7) (xs : Scr F) : Scr F := ⟨soutC0 m c t h1 xs, soutC1 m c t h1 xs, soutC2 m c t h1 xs, soutC3 m c t h1 xs, soutC4 m c t h1 xs, soutC5 m c t h1 xs, soutC6 m c t h1 xs, soutC7 m c t h1 xs⟩

/-- The four result blocks after a point of case j = 7: the pieces of the copy read back. -/
def outC8 (c : Dev nD) (t : Fin cfg0.N) (h1 : t.val % 8 = 7) (xs : Scr F) : Vec F S8x128 .f32 :=
  VO0_8.read (Elt F) (VO0_8.writes (Elt F) VO0_8.junk (runC m c t h1 xs).1)
def outC9 (c : Dev nD) (t : Fin cfg0.N) (h1 : t.val % 8 = 7) (xs : Scr F) : Vec F S8x128 .f32 :=
  VO0_9.read (Elt F) (VO0_9.writes (Elt F) VO0_9.junk (runC m c t h1 xs).2.1)
def outC10 (c : Dev nD) (t : Fin cfg0.N) (h1 : t.val % 8 = 7) (xs : Scr F) : Vec F S8x128x3 .f32 :=
  VO0_10.read (Elt F) (VO0_10.writes (Elt F) VO0_10.junk (runC m c t h1 xs).2.2.1)
def outC11 (c : Dev nD) (t : Fin cfg0.N) (h1 : t.val % 8 = 7) (xs : Scr F) : Vec F S8x128x3 .f32 :=
  VO0_11.read (Elt F) (VO0_11.writes (Elt F) VO0_11.junk (runC m c t h1 xs).2.2.2.1)

/-! ## The pieces cover their buffers -/

theorem scoverA0 (c : Dev nD) (t : Fin cfg0.N) (h0 : t.val % 8 = 0) (y : S8x128.Idx) :
    ∃ pc ∈ (runA m c t h0).2.2.2.2.1, y ∈ pc.1.set :=
  View.cover_of_tiledL (runA m c t h0).2.2.2.2.1 S8x128.size (by sl_kernel_rfl) y
theorem scoverB0 (c : Dev nD) (t : Fin cfg0.N) (h0 : ¬t.val % 8 = 0) (h1 : ¬t.val % 8 = 7) (xs : Scr F) (y : S8x128.Idx) :
    ∃ pc ∈ (runB m c t h0 h1 xs).2.2.2.2.1, y ∈ pc.1.set :=
  View.cover_of_tiledL (runB m c t h0 h1 xs).2.2.2.2.1 S8x128.size (by sl_kernel_rfl) y
theorem scoverC0 (c : Dev nD) (t : Fin cfg0.N) (h1 : t.val % 8 = 7) (xs : Scr F) (y : S8x128.Idx) :
    ∃ pc ∈ (runC m c t h1 xs).2.2.2.2.1, y ∈ pc.1.set :=
  View.cover_of_tiledL (runC m c t h1 xs).2.2.2.2.1 S8x128.size (by sl_kernel_rfl) y
theorem scoverA1 (c : Dev nD) (t : Fin cfg0.N) (h0 : t.val % 8 = 0) (y : S8x128.Idx) :
    ∃ pc ∈ (runA m c t h0).2.2.2.2.2.1, y ∈ pc.1.set :=
  View.cover_of_tiledL (runA m c t h0).2.2.2.2.2.1 S8x128.size (by sl_kernel_rfl) y
theorem scoverB1 (c : Dev nD) (t : Fin cfg0.N) (h0 : ¬t.val % 8 = 0) (h1 : ¬t.val % 8 = 7) (xs : Scr F) (y : S8x128.Idx) :
    ∃ pc ∈ (runB m c t h0 h1 xs).2.2.2.2.2.1, y ∈ pc.1.set :=
  View.cover_of_tiledL (runB m c t h0 h1 xs).2.2.2.2.2.1 S8x128.size (by sl_kernel_rfl) y
theorem scoverC1 (c : Dev nD) (t : Fin cfg0.N) (h1 : t.val % 8 = 7) (xs : Scr F) (y : S8x128.Idx) :
    ∃ pc ∈ (runC m c t h1 xs).2.2.2.2.2.1, y ∈ pc.1.set :=
  View.cover_of_tiledL (runC m c t h1 xs).2.2.2.2.2.1 S8x128.size (by sl_kernel_rfl) y
theorem scoverA2 (c : Dev nD) (t : Fin cfg0.N) (h0 : t.val % 8 = 0) (y : S8x128.Idx) :
    ∃ pc ∈ (runA m c t h0).2.2.2.2.2.2.1, y ∈ pc.1.set :=
  View.cover_of_tiledL (runA m c t h0).2.2.2.2.2.2.1 S8x128.size (by sl_kernel_rfl) y
theorem scoverB2 (c : Dev nD) (t : Fin cfg0.N) (h0 : ¬t.val % 8 = 0) (h1 : ¬t.val % 8 = 7) (xs : Scr F) (y : S8x128.Idx) :
    ∃ pc ∈ (runB m c t h0 h1 xs).2.2.2.2.2.2.1, y ∈ pc.1.set :=
  View.cover_of_tiledL (runB m c t h0 h1 xs).2.2.2.2.2.2.1 S8x128.size (by sl_kernel_rfl) y
theorem scoverC2 (c : Dev nD) (t : Fin cfg0.N) (h1 : t.val % 8 = 7) (xs : Scr F) (y : S8x128.Idx) :
    ∃ pc ∈ (runC m c t h1 xs).2.2.2.2.2.2.1, y ∈ pc.1.set :=
  View.cover_of_tiledL (runC m c t h1 xs).2.2.2.2.2.2.1 S8x128.size (by sl_kernel_rfl) y
theorem scoverA3 (c : Dev nD) (t : Fin cfg0.N) (h0 : t.val % 8 = 0) (y : S8x128.Idx) :
    ∃ pc ∈ (runA m c t h0).2.2.2.2.2.2.2.1, y ∈ pc.1.set :=
  View.cover_of_tiledL (runA m c t h0).2.2.2.2.2.2.2.1 S8x128.size (by sl_kernel_rfl) y
theorem scoverB3 (c : Dev nD) (t : Fin cfg0.N) (h0 : ¬t.val % 8 = 0) (h1 : ¬t.val % 8 = 7) (xs : Scr F) (y : S8x128.Idx) :
    ∃ pc ∈ (runB m c t h0 h1 xs).2.2.2.2.2.2.2.1, y ∈ pc.1.set :=
  View.cover_of_tiledL (runB m c t h0 h1 xs).2.2.2.2.2.2.2.1 S8x128.size (by sl_kernel_rfl) y
theorem scoverC3 (c : Dev nD) (t : Fin cfg0.N) (h1 : t.val % 8 = 7) (xs : Scr F) (y : S8x128.Idx) :
    ∃ pc ∈ (runC m c t h1 xs).2.2.2.2.2.2.2.1, y ∈ pc.1.set :=
  View.cover_of_tiledL (runC m c t h1 xs).2.2.2.2.2.2.2.1 S8x128.size (by sl_kernel_rfl) y
theorem scoverA4 (c : Dev nD) (t : Fin cfg0.N) (h0 : t.val % 8 = 0) (y : S8x128.Idx) :
    ∃ pc ∈ (runA m c t h0).2.2.2.2.2.2.2.2.1, y ∈ pc.1.set :=
  View.cover_of_tiledL (runA m c t h0).2.2.2.2.2.2.2.2.1 S8x128.size (by sl_kernel_rfl) y
theorem scoverB4 (c : Dev nD) (t : Fin cfg0.N) (h0 : ¬t.val % 8 = 0) (h1 : ¬t.val % 8 = 7) (xs : Scr F) (y : S8x128.Idx) :
    ∃ pc ∈ (runB m c t h0 h1 xs).2.2.2.2.2.2.2.2.1, y ∈ pc.1.set :=
  View.cover_of_tiledL (runB m c t h0 h1 xs).2.2.2.2.2.2.2.2.1 S8x128.size (by sl_kernel_rfl) y
theorem scoverC4 (c : Dev nD) (t : Fin cfg0.N) (h1 : t.val % 8 = 7) (xs : Scr F) (y : S8x128.Idx) :
    ∃ pc ∈ (runC m c t h1 xs).2.2.2.2.2.2.2.2.1, y ∈ pc.1.set :=
  View.cover_of_tiledL (runC m c t h1 xs).2.2.2.2.2.2.2.2.1 S8x128.size (by sl_kernel_rfl) y
theorem scoverA5 (c : Dev nD) (t : Fin cfg0.N) (h0 : t.val % 8 = 0) (y : S8x128.Idx) :
    ∃ pc ∈ (runA m c t h0).2.2.2.2.2.2.2.2.2.1, y ∈ pc.1.set :=
  View.cover_of_tiledL (runA m c t h0).2.2.2.2.2.2.2.2.2.1 S8x128.size (by sl_kernel_rfl) y
theorem scoverB5 (c : Dev nD) (t : Fin cfg0.N) (h0 : ¬t.val % 8 = 0) (h1 : ¬t.val % 8 = 7) (xs : Scr F) (y : S8x128.Idx) :
    ∃ pc ∈ (runB m c t h0 h1 xs).2.2.2.2.2.2.2.2.2.1, y ∈ pc.1.set :=
  View.cover_of_tiledL (runB m c t h0 h1 xs).2.2.2.2.2.2.2.2.2.1 S8x128.size (by sl_kernel_rfl) y
theorem scoverC5 (c : Dev nD) (t : Fin cfg0.N) (h1 : t.val % 8 = 7) (xs : Scr F) (y : S8x128.Idx) :
    ∃ pc ∈ (runC m c t h1 xs).2.2.2.2.2.2.2.2.2.1, y ∈ pc.1.set :=
  View.cover_of_tiledL (runC m c t h1 xs).2.2.2.2.2.2.2.2.2.1 S8x128.size (by sl_kernel_rfl) y
theorem scoverA6 (c : Dev nD) (t : Fin cfg0.N) (h0 : t.val % 8 = 0) (y : S8x128.Idx) :
    ∃ pc ∈ (runA m c t h0).2.2.2.2.2.2.2.2.2.2.1, y ∈ pc.1.set :=
  View.cover_of_tiledL (runA m c t h0).2.2.2.2.2.2.2.2.2.2.1 S8x128.size (by sl_kernel_rfl) y
theorem scoverB6 (c : Dev nD) (t : Fin cfg0.N) (h0 : ¬t.val % 8 = 0) (h1 : ¬t.val % 8 = 7) (xs : Scr F) (y : S8x128.Idx) :
    ∃ pc ∈ (runB m c t h0 h1 xs).2.2.2.2.2.2.2.2.2.2.1, y ∈ pc.1.set :=
  View.cover_of_tiledL (runB m c t h0 h1 xs).2.2.2.2.2.2.2.2.2.2.1 S8x128.size (by sl_kernel_rfl) y
theorem scoverC6 (c : Dev nD) (t : Fin cfg0.N) (h1 : t.val % 8 = 7) (xs : Scr F) (y : S8x128.Idx) :
    ∃ pc ∈ (runC m c t h1 xs).2.2.2.2.2.2.2.2.2.2.1, y ∈ pc.1.set :=
  View.cover_of_tiledL (runC m c t h1 xs).2.2.2.2.2.2.2.2.2.2.1 S8x128.size (by sl_kernel_rfl) y
theorem scoverA7 (c : Dev nD) (t : Fin cfg0.N) (h0 : t.val % 8 = 0) (y : S8x128.Idx) :
    ∃ pc ∈ (runA m c t h0).2.2.2.2.2.2.2.2.2.2.2.1, y ∈ pc.1.set :=
  View.cover_of_tiledL (runA m c t h0).2.2.2.2.2.2.2.2.2.2.2.1 S8x128.size (by sl_kernel_rfl) y
theorem scoverB7 (c : Dev nD) (t : Fin cfg0.N) (h0 : ¬t.val % 8 = 0) (h1 : ¬t.val % 8 = 7) (xs : Scr F) (y : S8x128.Idx) :
    ∃ pc ∈ (runB m c t h0 h1 xs).2.2.2.2.2.2.2.2.2.2.2.1, y ∈ pc.1.set :=
  View.cover_of_tiledL (runB m c t h0 h1 xs).2.2.2.2.2.2.2.2.2.2.2.1 S8x128.size (by sl_kernel_rfl) y
theorem scoverC7 (c : Dev nD) (t : Fin cfg0.N) (h1 : t.val % 8 = 7) (xs : Scr F) (y : S8x128.Idx) :
    ∃ pc ∈ (runC m c t h1 xs).2.2.2.2.2.2.2.2.2.2.2.1, y ∈ pc.1.set :=
  View.cover_of_tiledL (runC m c t h1 xs).2.2.2.2.2.2.2.2.2.2.2.1 S8x128.size (by sl_kernel_rfl) y
theorem coverC8 (c : Dev nD) (t : Fin cfg0.N) (h1 : t.val % 8 = 7) (xs : Scr F) (y : S8x128.Idx) :
    ∃ pc ∈ (runC m c t h1 xs).1, y ∈ pc.1.set :=
  View.cover_of_tiledL (runC m c t h1 xs).1 S8x128.size (by sl_kernel_rfl) y
theorem coverC9 (c : Dev nD) (t : Fin cfg0.N) (h1 : t.val % 8 = 7) (xs : Scr F) (y : S8x128.Idx) :
    ∃ pc ∈ (runC m c t h1 xs).2.1, y ∈ pc.1.set :=
  View.cover_of_tiledL (runC m c t h1 xs).2.1 S8x128.size (by sl_kernel_rfl) y
theorem coverC10 (c : Dev nD) (t : Fin cfg0.N) (h1 : t.val % 8 = 7) (xs : Scr F) (y : S8x128x3.Idx) :
    ∃ pc ∈ (runC m c t h1 xs).2.2.1, y ∈ pc.1.set :=
  View.cover_of_tiledL (runC m c t h1 xs).2.2.1 S8x128x1.size (by sl_kernel_rfl) y
theorem coverC11 (c : Dev nD) (t : Fin cfg0.N) (h1 : t.val % 8 = 7) (xs : Scr F) (y : S8x128x3.Idx) :
    ∃ pc ∈ (runC m c t h1 xs).2.2.2.1, y ∈ pc.1.set :=
  View.cover_of_tiledL (runC m c t h1 xs).2.2.2.1 S8x128x1.size (by sl_kernel_rfl) y

/-! ## The running sums, point by point -/

/-- The eight sums after the body at position `n`. -/
def scAt (c : Dev nD) : (n : ℕ) → n < cfg0.N → Scr F
  | 0, hn => soutA m c ⟨0, hn⟩ (Nat.zero_mod 8)
  | n + 1, hn =>
    if h0 : (n + 1) % 8 = 0 then soutA m c ⟨n + 1, hn⟩ h0
    else if h1 : (n + 1) % 8 = 7 then soutC m c ⟨n + 1, hn⟩ h1 (scAt c n (Nat.lt_of_succ_lt hn))
    else soutB m c ⟨n + 1, hn⟩ h0 h1 (scAt c n (Nat.lt_of_succ_lt hn))

/-- What the point before `t` left (the point itself not the first). -/
abbrev scPrev (c : Dev nD) (t : Fin cfg0.N) : Scr F := scAt m c (t.val - 1) (Nat.lt_of_le_of_lt (Nat.sub_le _ _) t.isLt)

theorem scAt_A (c : Dev nD) (t : Fin cfg0.N) (h0 : t.val % 8 = 0) : scAt m c t.val t.isLt = soutA m c t h0 := by
  obtain ⟨n, hn⟩ := t
  cases n with
  | zero => exact rfl
  | succ n => exact (dif_pos h0).trans rfl
theorem scAt_B (c : Dev nD) (t : Fin cfg0.N) (h0 : ¬t.val % 8 = 0) (h1 : ¬t.val % 8 = 7) :
    scAt m c t.val t.isLt = soutB m c t h0 h1 (scPrev m c t) := by
  obtain ⟨n, hn⟩ := t
  cases n with
  | zero => exact absurd (Nat.zero_mod 8) h0
  | succ n => exact (dif_neg h0).trans ((dif_neg h1).trans rfl)
theorem scAt_C (c : Dev nD) (t : Fin cfg0.N) (h1 : t.val % 8 = 7) :
    scAt m c t.val t.isLt = soutC m c t h1 (scPrev m c t) := by
  obtain ⟨n, hn⟩ := t
  cases n with
  | zero => exact absurd (show 0 % 8 = 7 from h1) (by decide)
  | succ n =>
    have h0 : ¬(n + 1) % 8 = 0 := fun h => by
      have h1' : (n + 1) % 8 = 7 := h1
      omega
    exact (dif_neg h0).trans ((dif_pos h1).trans rfl)

/-- The four result blocks after the body at point `t`: the copy where j = 7, nothing that is read elsewhere. -/
def outAt8 (c : Dev nD) (t : Fin cfg0.N) : Vec F S8x128 .f32 :=
  if h1 : t.val % 8 = 7 then outC8 m c t h1 (scPrev m c t) else VO0_8.read (Elt F) VO0_8.junk
def outAt9 (c : Dev nD) (t : Fin cfg0.N) : Vec F S8x128 .f32 :=
  if h1 : t.val % 8 = 7 then outC9 m c t h1 (scPrev m c t) else VO0_9.read (Elt F) VO0_9.junk
def outAt10 (c : Dev nD) (t : Fin cfg0.N) : Vec F S8x128x3 .f32 :=
  if h1 : t.val % 8 = 7 then outC10 m c t h1 (scPrev m c t) else VO0_10.read (Elt F) VO0_10.junk
def outAt11 (c : Dev nD) (t : Fin cfg0.N) : Vec F S8x128x3 .f32 :=
  if h1 : t.val % 8 = 7 then outC11 m c t h1 (scPrev m c t) else VO0_11.read (Elt F) VO0_11.junk

theorem outAt8_C (c : Dev nD) (t : Fin cfg0.N) (h1 : t.val % 8 = 7) : outAt8 m c t = outC8 m c t h1 (scPrev m c t) := dif_pos h1
theorem outAt9_C (c : Dev nD) (t : Fin cfg0.N) (h1 : t.val % 8 = 7) : outAt9 m c t = outC9 m c t h1 (scPrev m c t) := dif_pos h1
theorem outAt10_C (c : Dev nD) (t : Fin cfg0.N) (h1 : t.val % 8 = 7) : outAt10 m c t = outC10 m c t h1 (scPrev m c t) := dif_pos h1
theorem outAt11_C (c : Dev nD) (t : Fin cfg0.N) (h1 : t.val % 8 = 7) : outAt11 m c t = outC11 m c t h1 (scPrev m c t) := dif_pos h1

/-! ## The invariant between points -/

/-- Before the first point the scratch buffers hold anything; after point `n` they hold `scAt` there. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare (scAt m c n hn).s0 ∗ owns (c : Thread nD τ) scM0_1 fullShare (scAt m c n hn).s1 ∗ owns (c : Thread nD τ) scM0_2 fullShare (scAt m c n hn).s2 ∗ owns (c : Thread nD τ) scM0_3 fullShare (scAt m c n hn).s3 ∗ owns (c : Thread nD τ) scM0_4 fullShare (scAt m c n hn).s4 ∗ owns (c : Thread nD τ) scM0_5 fullShare (scAt m c n hn).s5 ∗ owns (c : Thread nD τ) scM0_6 fullShare (scAt m c n hn).s6 ∗ owns (c : Thread nD τ) scM0_7 fullShare (scAt m c n hn).s7)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = iprop(owns (c : Thread nD τ) scM0_0 fullShare (scAt m c n hn).s0 ∗ owns (c : Thread nD τ) scM0_1 fullShare (scAt m c n hn).s1 ∗ owns (c : Thread nD τ) scM0_2 fullShare (scAt m c n hn).s2 ∗ owns (c : Thread nD τ) scM0_3 fullShare (scAt m c n hn).s3 ∗ owns (c : Thread nD τ) scM0_4 fullShare (scAt m c n hn).s4 ∗ owns (c : Thread nD τ) scM0_5 fullShare (scAt m c n hn).s5 ∗ owns (c : Thread nD τ) scM0_6 fullShare (scAt m c n hn).s6 ∗ owns (c : Thread nD τ) scM0_7 fullShare (scAt m c n hn).s7) := rfl
theorem PhiS_pos (c : Dev nD) (n : ℕ) (h : n ≤ cfg0.N) (hz : n ≠ 0) :
    PhiS m c n h = iprop(owns (c : Thread nD τ) scM0_0 fullShare (scAt m c (n - 1) (by omega)).s0 ∗ owns (c : Thread nD τ) scM0_1 fullShare (scAt m c (n - 1) (by omega)).s1 ∗ owns (c : Thread nD τ) scM0_2 fullShare (scAt m c (n - 1) (by omega)).s2 ∗ owns (c : Thread nD τ) scM0_3 fullShare (scAt m c (n - 1) (by omega)).s3 ∗ owns (c : Thread nD τ) scM0_4 fullShare (scAt m c (n - 1) (by omega)).s4 ∗ owns (c : Thread nD τ) scM0_5 fullShare (scAt m c (n - 1) (by omega)).s5 ∗ owns (c : Thread nD τ) scM0_6 fullShare (scAt m c (n - 1) (by omega)).s6 ∗ owns (c : Thread nD τ) scM0_7 fullShare (scAt m c (n - 1) (by omega)).s7) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt8 m c t
    | ⟨9, _⟩ => outAt9 m c t
    | ⟨10, _⟩ => outAt10 m c t
    | ⟨11, _⟩ => outAt11 m c t
  Φ t := PhiS m c t.val (Nat.le_of_lt_succ t.isLt)
  q := qShare
  owed _ := 0

theorem A_eq (c : Dev nD) (w : Fin cfg0.W) : (dats m 0 c).A w = V m c (Pipeline.arrRef spec0 w) := by
  dsimp only [dats]
theorem q_eq (c : Dev nD) : (dats m 0 c).q = qShare := rfl
theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt8 m c t := by dsimp only [dats]
theorem after0_9 (c : Dev nD) (t : Fin cfg0.N) : (dats m 0 c).after 9 t = outAt9 m c t := by dsimp only [dats]
theorem after0_10 (c : Dev nD) (t : Fin cfg0.N) : (dats m 0 c).after 10 t = outAt10 m c t := by dsimp only [dats]
theorem after0_11 (c : Dev nD) (t : Fin cfg0.N) : (dats m 0 c).after 11 t = outAt11 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

end Cert.KernelIdeal.Fr

end
-- ==== Proof.FrameKernelIdeal.Split.lean ====
/-
  The positions are read by windows 0 and 2 and the float mask by windows 1 and 3, so the twelve windows stand on ten
  buffers. This module proves the one entailment the frame run for shared arrays asks of the certificate: the ten
  buffers behind the windows' arrays, each whole at the full share at its contents when the region is entered, make the
  proof data's twelve arrays at entry — the positions' and the mask's buffers each divided in two halves, the left for
  the lower-numbered of the two windows that read it, the right for the other; every other buffer handed whole to its
  one window.
-/
import proofs.«173063_j80805514707451_1_alg».proof.Proof.FrameKernelIdeal.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The ten distinct buffers behind the twelve windows' arrays. -/
theorem arrRefs_eq : Finset.univ.image (Pipeline.arrRef spec0)
    = [main_arg0, main_call0_v0, main_arg2, main_arg3, main_arg4, main_arg5, main_v0_0, main_v0_1, main_v0_2, main_v0_3].toFinset := by decide

/-- The buffers behind the windows' arrays, conjoined one by one, each whole at the full share at the contents the
    region finds: the positions, the float mask, the four other inputs, the four results. -/
theorem arrBufs0_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_call0_v0) ↦{fullShare} V m c main_call0_v0) ∗ (((c.tc : Thread nD τ).loc main_arg2) ↦{fullShare} V m c main_arg2) ∗ (((c.tc : Thread nD τ).loc main_arg3) ↦{fullShare} V m c main_arg3) ∗ (((c.tc : Thread nD τ).loc main_arg4) ↦{fullShare} V m c main_arg4) ∗ (((c.tc : Thread nD τ).loc main_arg5) ↦{fullShare} V m c main_arg5) ∗ (((c.tc : Thread nD τ).loc main_v0_0) ↦{fullShare} V m c main_v0_0) ∗ (((c.tc : Thread nD τ).loc main_v0_1) ↦{fullShare} V m c main_v0_1) ∗ (((c.tc : Thread nD τ).loc main_v0_2) ↦{fullShare} V m c main_v0_2) ∗ (((c.tc : Thread nD τ).loc main_v0_3) ↦{fullShare} V m c main_v0_3)) := by
  unfold Pipeline.arrBufs
  exact bigSep_eq_bigSepL_of_eq _ arrRefs_eq (by decide) _

/-- The proof data's arrays, each window's array a whole buffer at the contents the region finds. -/
theorem arrays_eq_shares {c : Dev nD} (dat : Dat τ (Elt F) Unit ℕ (UR sig nD τ) ℕ cfg0 c)
    (G : (w : Fin cfg0.W) → Buf (Elt F) ((cfg0.win w).arr.view.loc (c.tc : Thread nD τ)))
    (hG : ∀ w, G w = V m c (Pipeline.arrRef spec0 w)) :
    dat.arrays G = bigSep Finset.univ fun w : Fin 12 =>
      ((((c.tc : Thread nD τ).loc (Pipeline.arrRef spec0 w)) ↦{dat.share w} V m c (Pipeline.arrRef spec0 w)) : sProp 𝕄) := by
  unfold Dat.arrays
  exact bigSep_congr fun w _ => by rw [(arr_whole0 w).set_eq_univ, hG]

/-- The shares the proof data lend: the halves on the twice-read arrays, the full share elsewhere (an output window
    holds the full share whatever the data name). -/
theorem share_of_qShare {c : Dev nD} (dat : Dat τ (Elt F) Unit ℕ (UR sig nD τ) ℕ cfg0 c) (hq : dat.q = qShare) :
    dat.share 0 = fullShare.left ∧ dat.share 1 = fullShare.left ∧ dat.share 2 = fullShare.right ∧ dat.share 3 = fullShare.right
      ∧ dat.share 4 = fullShare ∧ dat.share 5 = fullShare ∧ dat.share 6 = fullShare ∧ dat.share 7 = fullShare
      ∧ dat.share 8 = fullShare ∧ dat.share 9 = fullShare ∧ dat.share 10 = fullShare ∧ dat.share 11 = fullShare := by
  unfold Dat.share; rw [hq]
  refine ⟨rfl, rfl, rfl, rfl, rfl, rfl, rfl, rfl, rfl, rfl, rfl, rfl⟩

/-- The ten buffers behind the arrays make the proof data's twelve arrays at entry: the positions' buffer and the float
    mask's are each divided in their two halves, one for each of the two windows that read them; every other buffer
    goes whole to its one window. -/
theorem arrays_of_arrBufs {c : Dev nD} (dat : Dat τ (Elt F) Unit ℕ (UR sig nD τ) ℕ cfg0 c) (hq : dat.q = qShare)
    (G : (w : Fin cfg0.W) → Buf (Elt F) ((cfg0.win w).arr.view.loc (c.tc : Thread nD τ)))
    (hG : ∀ w, G w = V m c (Pipeline.arrRef spec0 w)) :
    (Pipeline.arrBufs (Ix := Unit) (Name := ℕ) (U := UR sig nD τ) (Lvl := ℕ) spec0 c (V m c) : sProp 𝕄) ⊢ dat.arrays G := by
  obtain ⟨s0, s1, s2, s3, s4, s5, s6, s7, s8, s9, s10, s11⟩ := share_of_qShare dat hq
  rw [arrays_eq_shares m dat G hG, bigSep_W0, s0, s1, s2, s3, s4, s5, s6, s7, s8, s9, s10, s11, arrBufs0_eq]
  iintro ⟨H0, H1, H4, H5, H6, H7, H8, H9, H10, H11⟩
  ihave H0 := (pointsTo_share (PosShare.mem_left_op_right fullShare)).1 $$ H0
  icases H0 with ⟨H0, H2⟩
  ihave H1 := (pointsTo_share (PosShare.mem_left_op_right fullShare)).1 $$ H1
  icases H1 with ⟨H1, H3⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.KernelIdeal.Fr

end
-- ==== Proof.FrameKernelIdeal.Body.lean ====
/-
  The frame of the pairwise multipole-field kernel: at every one of the 64 points the body, called with the invariant
  between points, what the core owes and the twelve windows' current buffers, runs to the invariant at the next point, the
  same debt and every buffer at what the proof data say it leaves; the launch around the region; and what the six
  program arguments hold at the end.

  A point t = 8 i + j is in one of three cases. At j = 0 the eight running sums come in at anything (before the very
  first point they are the launch's scoped buffers at some contents; later they are what the point before left, which
  is forgotten) and go out at the pieces the run's stores left, read back; the four result buffers are idle and are handed
  back as found. At 0 < j < 7 the sums come in at what the point before left and go out at this point's pieces; the
  results are idle again. At j = 7 the sums do the same and the four result buffers, found at anything, go out at the pieces
  of the copy. In every case the eight input buffers hold their blocks before and after. The pieces cover their buffers,
  so reading them back does not depend on what the buffer held.

  Before the first point the invariant is the scoped buffers that are no staging buffer at some contents each, and after
  the last it yields them back by forgetting the sums. The ten buffers behind the twelve windows' arrays make the proof
  data's arrays at entry. The positions' array (argument 0) and the four other input arrays (arguments 2 to 5) are input
  windows' arrays, never written, so they end as launched; the boolean mask (argument 1) is no window's array and bypasses
  the region.
-/
import proofs.«173063_j80805514707451_1_alg».proof.Proof.FrameKernelIdeal.Data
import proofs.«173063_j80805514707451_1_alg».proof.Proof.FrameKernelIdeal.Split
import proofs.«173063_j80805514707451_1_alg».proof.Proof.LibSharedFrame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`: the invariant, what the core owes, and each window's current buffer at
    what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What it returns: the invariant at the next point, the same debt, and each current buffer at what the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- At any position the invariant yields the eight running sums' buffers, each at some contents: before the first point
    it is them; later the named sums are forgotten. -/
theorem PhiS_forget (c : Dev nD) (n : ℕ) (h : n ≤ cfg0.N) :
    PhiS m c n h ⊢ (iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) : sProp 𝕄) := by
  by_cases hz : n = 0
  · rw [PhiS_zero m c n h hz, scopedRest0_owns]
    try exact Idealize.SL.BI.Entails.refl _
  · rw [PhiS_pos m c n h hz]
    iintro ⟨HS0, HS1, HS2, HS3, HS4, HS5, HS6, HS7⟩
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7

set_option maxHeartbeats 4000000 in
/-- The body at a point with j = 0. The sums' buffers come in at anything and leave at the pieces of this point's stores
    read back; the result buffers are idle and are handed back as found. -/
theorem sound_body_A (c : Dev nD) (t : Fin cfg0.N) (h0 : t.val % 8 = 0) :
    bodyPre m c t ⊢ wp frame (wpE (defs₀ (F := F)) Variants.none c none) Set.univ (bodyAt0 t) (fun _ => bodyPost m c t) := by
  have h1 : ¬t.val % 8 = 7 := by omega
  have hc1 : ¬cond0_1 (grid0.coords t) := fun h => h1 ((hcond0_1 t).mp h)
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ, scAt_A m c t h0, PhiS_castSucc m c t]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [Dat.leavesExact_idle (dats m 0 c) 8 t (idleAt0_8 t hc1) (noFlush0_8 t hc1)]
  rw [Dat.leavesExact_idle (dats m 0 c) 9 t (idleAt0_9 t hc1) (noFlush0_9 t hc1)]
  rw [Dat.leavesExact_idle (dats m 0 c) 10 t (idleAt0_10 t hc1) (noFlush0_10 t hc1)]
  rw [Dat.leavesExact_idle (dats m 0 c) 11 t (idleAt0_11 t hc1) (noFlush0_11 t hc1)]
  dsimp only [soutA]
  unfold soutA0 soutA1 soutA2 soutA3 soutA4 soutA5 soutA6 soutA7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave HΦ := (PhiS_forget m c t.val (Nat.le_of_lt t.isLt)) $$ HΦ
  icases HΦ with ⟨HS0, HS1, HS2, HS3, HS4, HS5, HS6, HS7⟩
  iapply ((runA m c t h0).2.2.2.2.2.2.2.2.2.2.2.2 ((dats m 0 c).before 8 t d8) ((dats m 0 c).before 9 t d9) ((dats m 0 c).before 10 t d10) ((dats m 0 c).before 11 t d11) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, ⟨%e0, HS0⟩, ⟨%e1, HS1⟩, ⟨%e2, HS2⟩, ⟨%e3, HS3⟩, ⟨%e4, HS4⟩, ⟨%e5, HS5⟩, ⟨%e6, HS6⟩, ⟨%e7, HS7⟩⟩
  isplitl [HS0 HS1 HS2 HS3 HS4 HS5 HS6 HS7]
  · isplitl [HS0]
    · unfold owns; iexists _; isplitr
      swap; · iexact HS0
      ipureintro; exact View.read_writes_of_cover _ _ _ _ _ (scoverA0 m c t h0)
    isplitl [HS1]
    · unfold owns; iexists _; isplitr
      swap; · iexact HS1
      ipureintro; exact View.read_writes_of_cover _ _ _ _ _ (scoverA1 m c t h0)
    isplitl [HS2]
    · unfold owns; iexists _; isplitr
      swap; · iexact HS2
      ipureintro; exact View.read_writes_of_cover _ _ _ _ _ (scoverA2 m c t h0)
    isplitl [HS3]
    · unfold owns; iexists _; isplitr
      swap; · iexact HS3
      ipureintro; exact View.read_writes_of_cover _ _ _ _ _ (scoverA3 m c t h0)
    isplitl [HS4]
    · unfold owns; iexists _; isplitr
      swap; · iexact HS4
      ipureintro; exact View.read_writes_of_cover _ _ _ _ _ (scoverA4 m c t h0)
    isplitl [HS5]
    · unfold owns; iexists _; isplitr
      swap; · iexact HS5
      ipureintro; exact View.read_writes_of_cover _ _ _ _ _ (scoverA5 m c t h0)
    isplitl [HS6]
    · unfold owns; iexists _; isplitr
      swap; · iexact HS6
      ipureintro; exact View.read_writes_of_cover _ _ _ _ _ (scoverA6 m c t h0)
    unfold owns; iexists _; isplitr
    swap; · iexact HS7
    ipureintro; exact View.read_writes_of_cover _ _ _ _ _ (scoverA7 m c t h0)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  isplitl [H9]; · iexists d9; iexact H9
  isplitl [H10]; · iexists d10; iexact H10
  iexists d11; iexact H11

set_option maxHeartbeats 4000000 in
/-- The body at a point with 0 < j < 7. The sums' buffers come in at what the point before left and leave at the pieces of
    this point's stores read back; the result buffers are idle and are handed back as found. -/
theorem sound_body_B (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  have hz : t.val ≠ 0 := by omega
  have hc1 : ¬cond0_1 (grid0.coords t) := fun h => h1 ((hcond0_1 t).mp h)
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ, scAt_B m c t h0 h1, PhiS_castSucc m c t,
    PhiS_pos m c _ _ hz]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [Dat.leavesExact_idle (dats m 0 c) 8 t (idleAt0_8 t hc1) (noFlush0_8 t hc1)]
  rw [Dat.leavesExact_idle (dats m 0 c) 9 t (idleAt0_9 t hc1) (noFlush0_9 t hc1)]
  rw [Dat.leavesExact_idle (dats m 0 c) 10 t (idleAt0_10 t hc1) (noFlush0_10 t hc1)]
  rw [Dat.leavesExact_idle (dats m 0 c) 11 t (idleAt0_11 t hc1) (noFlush0_11 t hc1)]
  dsimp only [soutB]
  unfold soutB0 soutB1 soutB2 soutB3 soutB4 soutB5 soutB6 soutB7
  iintro ⟨⟨HS0, HS1, HS2, HS3, HS4, HS5, HS6, HS7⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runB m c t h0 h1 (scPrev m c t)).2.2.2.2.2.2.2.2.2.2.2.2 ((dats m 0 c).before 8 t d8) ((dats m 0 c).before 9 t d9) ((dats m 0 c).before 10 t d10) ((dats m 0 c).before 11 t d11) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, ⟨%e0, HS0⟩, ⟨%e1, HS1⟩, ⟨%e2, HS2⟩, ⟨%e3, HS3⟩, ⟨%e4, HS4⟩, ⟨%e5, HS5⟩, ⟨%e6, HS6⟩, ⟨%e7, HS7⟩⟩
  isplitl [HS0 HS1 HS2 HS3 HS4 HS5 HS6 HS7]
  · isplitl [HS0]
    · unfold owns; iexists _; isplitr
      swap; · iexact HS0
      ipureintro; exact View.read_writes_of_cover _ _ _ _ _ (scoverB0 m c t h0 h1 (scPrev m c t))
    isplitl [HS1]
    · unfold owns; iexists _; isplitr
      swap; · iexact HS1
      ipureintro; exact View.read_writes_of_cover _ _ _ _ _ (scoverB1 m c t h0 h1 (scPrev m c t))
    isplitl [HS2]
    · unfold owns; iexists _; isplitr
      swap; · iexact HS2
      ipureintro; exact View.read_writes_of_cover _ _ _ _ _ (scoverB2 m c t h0 h1 (scPrev m c t))
    isplitl [HS3]
    · unfold owns; iexists _; isplitr
      swap; · iexact HS3
      ipureintro; exact View.read_writes_of_cover _ _ _ _ _ (scoverB3 m c t h0 h1 (scPrev m c t))
    isplitl [HS4]
    · unfold owns; iexists _; isplitr
      swap; · iexact HS4
      ipureintro; exact View.read_writes_of_cover _ _ _ _ _ (scoverB4 m c t h0 h1 (scPrev m c t))
    isplitl [HS5]
    · unfold owns; iexists _; isplitr
      swap; · iexact HS5
      ipureintro; exact View.read_writes_of_cover _ _ _ _ _ (scoverB5 m c t h0 h1 (scPrev m c t))
    isplitl [HS6]
    · unfold owns; iexists _; isplitr
      swap; · iexact HS6
      ipureintro; exact View.read_writes_of_cover _ _ _ _ _ (scoverB6 m c t h0 h1 (scPrev m c t))
    unfold owns; iexists _; isplitr
    swap; · iexact HS7
    ipureintro; exact View.read_writes_of_cover _ _ _ _ _ (scoverB7 m c t h0 h1 (scPrev m c t))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  isplitl [H9]; · iexists d9; iexact H9
  isplitl [H10]; · iexists d10; iexact H10
  iexists d11; iexact H11

set_option maxHeartbeats 4000000 in
/-- The body at a point with j = 7. The sums' buffers come in at what the point before left and leave at the pieces of
    this point's stores read back; the four result buffers, found at anything, leave at the pieces of the copy read back. -/
theorem sound_body_C (c : Dev nD) (t : Fin cfg0.N) (h1 : t.val % 8 = 7) :
    bodyPre m c t ⊢ wp frame (wpE (defs₀ (F := F)) Variants.none c none) Set.univ (bodyAt0 t) (fun _ => bodyPost m c t) := by
  have hz : t.val ≠ 0 := by omega
  have hc1 : cond0_1 (grid0.coords t) := (hcond0_1 t).mpr h1
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ, scAt_C m c t h1, PhiS_castSucc m c t,
    PhiS_pos m c _ _ hz]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t hc1], after0_8, outAt8_C m c t h1]
  rw [show (dats m 0 c).leavesExact 9 t = owns (c : Thread nD τ) (ms0_9 t) fullShare ((dats m 0 c).after 9 t) from by
    unfold Dat.leavesExact; rw [liveAt0_9 t hc1], after0_9, outAt9_C m c t h1]
  rw [show (dats m 0 c).leavesExact 10 t = owns (c : Thread nD τ) (ms0_10 t) fullShare ((dats m 0 c).after 10 t) from by
    unfold Dat.leavesExact; rw [liveAt0_10 t hc1], after0_10, outAt10_C m c t h1]
  rw [show (dats m 0 c).leavesExact 11 t = owns (c : Thread nD τ) (ms0_11 t) fullShare ((dats m 0 c).after 11 t) from by
    unfold Dat.leavesExact; rw [liveAt0_11 t hc1], after0_11, outAt11_C m c t h1]
  dsimp only [soutC]
  unfold soutC0 soutC1 soutC2 soutC3 soutC4 soutC5 soutC6 soutC7 outC8 outC9 outC10 outC11
  iintro ⟨⟨HS0, HS1, HS2, HS3, HS4, HS5, HS6, HS7⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runC m c t h1 (scPrev m c t)).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, ⟨%o8, H8⟩, ⟨%o9, H9⟩, ⟨%o10, H10⟩, ⟨%o11, H11⟩, ⟨%e0, HS0⟩, ⟨%e1, HS1⟩, ⟨%e2, HS2⟩, ⟨%e3, HS3⟩, ⟨%e4, HS4⟩, ⟨%e5, HS5⟩, ⟨%e6, HS6⟩, ⟨%e7, HS7⟩⟩
  isplitl [HS0 HS1 HS2 HS3 HS4 HS5 HS6 HS7]
  · isplitl [HS0]
    · unfold owns; iexists _; isplitr
      swap; · iexact HS0
      ipureintro; exact View.read_writes_of_cover _ _ _ _ _ (scoverC0 m c t h1 (scPrev m c t))
    isplitl [HS1]
    · unfold owns; iexists _; isplitr
      swap; · iexact HS1
      ipureintro; exact View.read_writes_of_cover _ _ _ _ _ (scoverC1 m c t h1 (scPrev m c t))
    isplitl [HS2]
    · unfold owns; iexists _; isplitr
      swap; · iexact HS2
      ipureintro; exact View.read_writes_of_cover _ _ _ _ _ (scoverC2 m c t h1 (scPrev m c t))
    isplitl [HS3]
    · unfold owns; iexists _; isplitr
      swap; · iexact HS3
      ipureintro; exact View.read_writes_of_cover _ _ _ _ _ (scoverC3 m c t h1 (scPrev m c t))
    isplitl [HS4]
    · unfold owns; iexists _; isplitr
      swap; · iexact HS4
      ipureintro; exact View.read_writes_of_cover _ _ _ _ _ (scoverC4 m c t h1 (scPrev m c t))
    isplitl [HS5]
    · unfold owns; iexists _; isplitr
      swap; · iexact HS5
      ipureintro; exact View.read_writes_of_cover _ _ _ _ _ (scoverC5 m c t h1 (scPrev m c t))
    isplitl [HS6]
    · unfold owns; iexists _; isplitr
      swap; · iexact HS6
      ipureintro; exact View.read_writes_of_cover _ _ _ _ _ (scoverC6 m c t h1 (scPrev m c t))
    unfold owns; iexists _; isplitr
    swap; · iexact HS7
    ipureintro; exact View.read_writes_of_cover _ _ _ _ _ (scoverC7 m c t h1 (scPrev m c t))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverC8 m c t h1 (scPrev m c t))
  isplitl [H9]
  · unfold owns; iexists _; isplitr
    swap; · iexact H9
    ipureintro; exact View.read_writes_of_cover _ _ _ _ _ (coverC9 m c t h1 (scPrev m c t))
  isplitl [H10]
  · unfold owns; iexists _; isplitr
    swap; · iexact H10
    ipureintro; exact View.read_writes_of_cover _ _ _ _ _ (coverC10 m c t h1 (scPrev m c t))
  unfold owns; iexists _; isplitr
  swap; · iexact H11
  ipureintro; exact View.read_writes_of_cover _ _ _ _ _ (coverC11 m c t h1 (scPrev m c t))

/-- The body at any point: the point is in one of the three cases. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_body_A m c t h0
  · by_cases h1 : t.val % 8 = 7
    · exact sound_body_C m c t h1
    · exact sound_body_B m c t h0 h1

/-- The body obligation, at every point. -/
theorem body_obligation (c : Dev nD) : BodyObligation (dats (F := F) m 0 c) (defs₀ (F := F)) Variants.none () Set.univ := fun t => by
  rw [bigSep_W0, bigSep_W0]
  exact sound_body m c t

/-! ## The invariant at the region's two ends, and the arrays at entry -/

/-- The scoped buffers that are no staging buffer, at some contents each, are the invariant before the first point. -/
theorem hin (c : Dev nD) : Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives them back: the sums' named contents are forgotten. -/
theorem hout (c : Dev nD) : (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c (Fin.last cfg0.N).val (Nat.le_of_lt_succ (Fin.last cfg0.N).isLt) from rfl,
    scopedRest0_owns]
  exact PhiS_forget m c _ _

/-- The ten buffers behind the arrays, whole at what the region finds, make the proof data's twelve arrays at entry. -/
theorem hsplit (c : Dev nD) : Pipeline.arrBufs (Ix := Unit) (Name := ℕ) (U := UR sig nD τ) (Lvl := ℕ) spec0 c (V m c) ⊢ (dats m 0 c).arrays ((dats m 0 c).arrAt · 0) :=
  arrays_of_arrBufs m (dats m 0 c) (q_eq m c) _ (fun w => (show (dats m 0 c).arrAt w 0 = (dats m 0 c).A w from rfl).trans (A_eq m c w))

/-! ## The run and the frame -/

set_option backward.isDefEq.respectTransparency.types false in
/-- From any memory with zero counters every weakly fair execution of the program on the TensorCores terminates, and in
    every final state each window's array holds what the proof data compute for it after the last point and every other
    unscoped buffer what it held when the region was entered. -/
theorem run_main : θ_run defs (onTc (τ := τ) (main (F := F))) (s₀ m ρ) (Pipeline.FramePost cfgs (dats m) 0 (V m)) :=
  Pipeline.SharedFrame.θ_run_frame_track_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (hin m) (hout m)

/-- The frame: the six arguments of the program end as launched. The positions and the four other input arrays are input
    windows' arrays, which no write-back touches; the boolean mask is no window's array and bypasses the region; the one
    host operation before the region writes none of the six. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).1 4).trans (((dats m 0 c).arrAt_in 4 rfl _).trans ((A_eq m c 4).trans (V_main_arg2 m c))),
     ((h c).1 5).trans (((dats m 0 c).arrAt_in 5 rfl _).trans ((A_eq m c 5).trans (V_main_arg3 m c))),
     ((h c).1 6).trans (((dats m 0 c).arrAt_in 6 rfl _).trans ((A_eq m c 6).trans (V_main_arg4 m c))),
     ((h c).1 7).trans (((dats m 0 c).arrAt_in 7 rfl _).trans ((A_eq m c 7).trans (V_main_arg5 m c)))⟩) (run_main m ρ)

end Cert.KernelIdeal.Fr

end
-- ==== Proof.FrameKernelIdeal.Tile.lean ====
/-
  The arithmetic of one tile pair, as the composition of the named payloads: from the sixteen loaded vectors to the
  sixteen lane reductions (a monopole and a dipole sum for each of the eight running sums).
-/
import proofs.«173063_j80805514707451_1_alg».proof.Proof.Gen.KernelIdeal.Skeleton

noncomputable section

namespace Cert.KernelIdeal.Fr

open Idealize.ShloMosaic Idealize.SL.Sem
open Cert.KernelIdeal Cert.KernelIdeal.Gen

variable {F : FTy → Type} [FloatOps F]

/-- The sixteen vectors one tile pair loads: the three coordinate planes of the query positions (v3 v5 v7) and of the
    key positions (v9 v11 v13), the query and key row masks (v15 v17), the two key charge rows (v19 v20), and the
    three planes of each of the two key dipole blocks (v21 v23 v25 and v27 v29 v31). -/
structure Loads (F : FTy → Type) [FloatOps F] where
  v3 : Vec F S8x128x1 .f32
  v5 : Vec F S8x128x1 .f32
  v7 : Vec F S8x128x1 .f32
  v9 : Vec F S8x128x1 .f32
  v11 : Vec F S8x128x1 .f32
  v13 : Vec F S8x128x1 .f32
  v15 : Vec F S8x128 .f32
  v17 : Vec F S8x128 .f32
  v19 : Vec F S8x128 .f32
  v20 : Vec F S8x128 .f32
  v21 : Vec F S8x128x1 .f32
  v23 : Vec F S8x128x1 .f32
  v25 : Vec F S8x128x1 .f32
  v27 : Vec F S8x128x1 .f32
  v29 : Vec F S8x128x1 .f32
  v31 : Vec F S8x128x1 .f32

/-! ## The planes as rows -/

/-- The query coordinates x, y, z as [8,128] rows. -/
def qx (l : Loads F) : FVec F S8x128 .f32 := k0_pay20 l.v3
def qy (l : Loads F) : FVec F S8x128 .f32 := k0_pay21 l.v5
def qz (l : Loads F) : FVec F S8x128 .f32 := k0_pay22 l.v7
/-- The key coordinates x, y, z as [8,128] rows. -/
def kx (l : Loads F) : FVec F S8x128 .f32 := k0_pay23 l.v9
def ky (l : Loads F) : FVec F S8x128 .f32 := k0_pay24 l.v11
def kz (l : Loads F) : FVec F S8x128 .f32 := k0_pay25 l.v13
/-- The query and key row masks. -/
def qmask (l : Loads F) : FVec F S8x128 .f32 := k0_pay26 l.v15
def kmask (l : Loads F) : FVec F S8x128 .f32 := k0_pay27 l.v17
/-- The first key dipole's x, y, z rows. -/
def muqx (l : Loads F) : FVec F S8x128 .f32 := k0_pay28 l.v21
def muqy (l : Loads F) : FVec F S8x128 .f32 := k0_pay29 l.v23
def muqz (l : Loads F) : FVec F S8x128 .f32 := k0_pay30 l.v25
/-- The second key dipole's x, y, z rows. -/
def mumx (l : Loads F) : FVec F S8x128 .f32 := k0_pay31 l.v27
def mumy (l : Loads F) : FVec F S8x128 .f32 := k0_pay32 l.v29
def mumz (l : Loads F) : FVec F S8x128 .f32 := k0_pay33 l.v31

/-! ## The pair quantities, each an [8,128,128] vector (batch, query row, key row) -/

/-- The safe distance. -/
def distance (l : Loads F) : FVec F S8x128x128 .f32 := k0_pay37 (qx l) (qy l) (qz l) (kx l) (ky l) (kz l)
/-- The unit vector's coordinates. -/
def unitx (l : Loads F) : FVec F S8x128x128 .f32 := k0_pay39 (qx l) (qy l) (qz l) (kx l) (ky l) (kz l)
def unity (l : Loads F) : FVec F S8x128x128 .f32 := k0_pay40 (qx l) (qy l) (qz l) (kx l) (ky l) (kz l)
def unitz (l : Loads F) : FVec F S8x128x128 .f32 := k0_pay41 (qx l) (qy l) (qz l) (kx l) (ky l) (kz l)
/-- The product of the two row masks. -/
def maskprod (l : Loads F) : FVec F S8x128x128 .f32 := k0_pay42 (qmask l) (kmask l)
/-- The pair weight times two and three softened inverse distances. -/
def weight2 (l : Loads F) : FVec F S8x128x128 .f32 := k0_pay45 (distance l) (maskprod l)
def weight3 (l : Loads F) : FVec F S8x128x128 .f32 := k0_pay46 (distance l) (maskprod l)
/-- The second weight times the first charge; the second charge spread over the query rows. -/
def weight2q (l : Loads F) : FVec F S8x128x128 .f32 := k0_pay51 l.v19 (distance l) (maskprod l)
def chargem (l : Loads F) : FVec F S8x128x128 .f32 := k0_pay52 l.v20
/-- The third weight times the second dipole against the unit vector, and that times the unit vector's x. -/
def weight3mum (l : Loads F) : FVec F S8x128x128 .f32 :=
  k0_pay65 (mumx l) (mumy l) (mumz l) (unitx l) (unity l) (unitz l) (weight3 l)
def weight3mumx (l : Loads F) : FVec F S8x128x128 .f32 :=
  k0_pay69 (mumx l) (mumy l) (mumz l) (unitx l) (unity l) (unitz l) (weight3 l)

/-! ## The sixteen reductions over the key rows -/

/-- Potential of the first pair: monopole and dipole sums. -/
def mono0 (l : Loads F) : FVec F S8x128 .f32 := k0_pay49 l.v19 (distance l) (maskprod l)
def dip0 (l : Loads F) : FVec F S8x128 .f32 :=
  k0_pay62 (muqx l) (muqy l) (muqz l) (unitx l) (unity l) (unitz l) (weight2 l)
/-- Potential of the second pair. -/
def mono1 (l : Loads F) : FVec F S8x128 .f32 := k0_pay50 l.v20 (distance l) (maskprod l)
def dip1 (l : Loads F) : FVec F S8x128 .f32 :=
  k0_pay63 (mumx l) (mumy l) (mumz l) (unitx l) (unity l) (unitz l) (weight2 l)
/-- Field of the first pair, components x, y, z. -/
def mono2 (l : Loads F) : FVec F S8x128 .f32 := k0_pay54 (unitx l) (weight2q l)
def mono3 (l : Loads F) : FVec F S8x128 .f32 := k0_pay55 (unity l) (weight2q l)
def mono4 (l : Loads F) : FVec F S8x128 .f32 := k0_pay56 (unitz l) (weight2q l)
def dip2 (l : Loads F) : FVec F S8x128 .f32 :=
  k0_pay66 (muqx l) (muqy l) (muqz l) (unitx l) (unity l) (unitz l) (weight3 l)
def dip3 (l : Loads F) : FVec F S8x128 .f32 :=
  k0_pay67 (muqx l) (muqy l) (muqz l) (unitx l) (unity l) (unitz l) (weight3 l)
def dip4 (l : Loads F) : FVec F S8x128 .f32 :=
  k0_pay68 (muqx l) (muqy l) (muqz l) (unitx l) (unity l) (unitz l) (weight3 l)
/-- Field of the second pair, components x, y, z. -/
def mono5 (l : Loads F) : FVec F S8x128 .f32 := k0_pay57 (unitx l) (weight2 l) (chargem l)
def mono6 (l : Loads F) : FVec F S8x128 .f32 := k0_pay58 (unity l) (weight2 l) (chargem l)
def mono7 (l : Loads F) : FVec F S8x128 .f32 := k0_pay59 (unitz l) (weight2 l) (chargem l)
def dip5 (l : Loads F) : FVec F S8x128 .f32 := k0_pay70 (weight3mumx l)
def dip6 (l : Loads F) : FVec F S8x128 .f32 := k0_pay71 (unity l) (weight3mum l)
def dip7 (l : Loads F) : FVec F S8x128 .f32 := k0_pay72 (unitz l) (weight3mum l)

/-! ## The cleared running sum -/

/-- What the clearing branch stores into each running sum: the zero vector. -/
def zeroS : FVec F S8x128 .f32 := k0_pay7

theorem pay8_eq_zeroS : (k0_pay8 : FVec F S8x128 .f32) = zeroS := rfl
theorem pay9_eq_zeroS : (k0_pay9 : FVec F S8x128 .f32) = zeroS := rfl
theorem pay10_eq_zeroS : (k0_pay10 : FVec F S8x128 .f32) = zeroS := rfl
theorem pay11_eq_zeroS : (k0_pay11 : FVec F S8x128 .f32) = zeroS := rfl
theorem pay12_eq_zeroS : (k0_pay12 : FVec F S8x128 .f32) = zeroS := rfl
theorem pay13_eq_zeroS : (k0_pay13 : FVec F S8x128 .f32) = zeroS := rfl
theorem pay19_pay14_eq_zeroS : (k0_pay19 k0_pay14 : FVec F S8x128 .f32) = zeroS := rfl

end Cert.KernelIdeal.Fr

end
-- ==== Proof.FrameKernelIdeal.Pieces.lean ====
/-
  What the runs' found pieces are. At a point t the body loads sixteen vectors off its eight input blocks (the three
  coordinate planes of the query and key positions, the two row masks, the two charge rows, the three planes of the
  two dipole blocks); from them it forms, for each running sum k, a monopole and a dipole lane reduction, and stores
  into scratch buffer k the sum  s + (mono_k + dip_k)  of what the buffer held (s: what the point before left, or
  the zero vector the first key tile has just stored). Read back through the one covering store, running sum k
  after the point is that payload; at the last key tile the four result blocks are copies of the eight running sums
  (two whole blocks, and three planes each of the two three-plane blocks).
-/
import proofs.«173063_j80805514707451_1_alg».proof.Proof.FrameKernelIdeal.Data
import proofs.«173063_j80805514707451_1_alg».proof.Proof.FrameKernelIdeal.Tile
import Idealize.ShloMosaic.Lib.Pipeline.Value
import Idealize.ShloMosaic.Lib.Tactic
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The stored payload of each running sum: what the buffer held plus the tile's monopole and dipole sums -/

abbrev upd0 (a d : FVec F S8x128 .f32) (s : Vec F S8x128 .f32) : FVec F S8x128 .f32 := k0_pay73 a d s
abbrev upd1 (a d : FVec F S8x128 .f32) (s : Vec F S8x128 .f32) : FVec F S8x128 .f32 := k0_pay74 a d s
abbrev upd2 (a d : FVec F S8x128 .f32) (s : Vec F S8x128 .f32) : FVec F S8x128 .f32 := k0_pay75 a d s
abbrev upd3 (a d : FVec F S8x128 .f32) (s : Vec F S8x128 .f32) : FVec F S8x128 .f32 := k0_pay76 a d s
abbrev upd4 (a d : FVec F S8x128 .f32) (s : Vec F S8x128 .f32) : FVec F S8x128 .f32 := k0_pay1 (k0_pay77 a d s)
abbrev upd5 (a d : FVec F S8x128 .f32) (s : Vec F S8x128 .f32) : FVec F S8x128 .f32 := k0_pay2 a d s
abbrev upd6 (a d : FVec F S8x128 .f32) (s : Vec F S8x128 .f32) : FVec F S8x128 .f32 := k0_pay3 a d s
abbrev upd7 (a d : FVec F S8x128 .f32) (s : Vec F S8x128 .f32) : FVec F S8x128 .f32 := k0_pay4 a d s

/-! ## Small facts about offsets, whole buffers and the unit axis -/

theorem offs2_zero : (![0, 0] : Fin 2 → Nat) = fun _ => 0 := funext fun a => by fin_cases a <;> rfl

/-- A whole buffer holding `X` reads back `X`. -/
theorem read_whole_unread (b : Ref sig .tc) (h : (Memref.whole b).IsWhole) (X : b.ty.shape.Idx → Elt F b.ty.elt) :
    (View.whole b).read (Elt F) (h.unread X) = X := h.read_unread X

/-- An [8,128] vector cast to [8,128,1] reads, at (b, p, 0), the operand at (b, p). -/
theorem shapeCast_plane_apply {α : Type} (x : S8x128.Idx → α) (h : S8x128.ShapeCasts S8x128x1) (b : Fin 8) (p : Fin 128) (u : Fin 1) :
    shapeCast S8x128x1 x h (ix3 b p u) = x (ix2 b p) :=
  shapeCast_apply x h _ _ (by
    have hu : u.val = 0 := by omega
    rw [Shape.rowMajor_val_two, Shape.rowMajor_val_three]
    show b.val * 128 + p.val = (b.val * 128 + p.val) * 1 + u.val
    omega)

variable (m : (ℓ : Loc nD τ sig) → Buf (Elt F) ℓ)

/-! ## The sixteen loads -/

/-- The sixteen vectors the body loads at point `t`: the coordinate planes of the query block and of the key block,
    the two row masks, the two charge rows, and the planes of the two dipole blocks, each read off its window's block. -/
def loadsAt (c : Dev nD) (t : Fin cfg0.N) : Loads F where
  v3 := View.ld (iblk m c 0 t : Vec F S8x128x3 .f32) (Rect.unit (s := S8x128x3) ![0, 0, 0] S8x128x1.size inb_S8x128x3_S8x128x1_0_0_0)
  v5 := View.ld (iblk m c 0 t : Vec F S8x128x3 .f32) (Rect.unit (s := S8x128x3) ![0, 0, 1] S8x128x1.size inb_S8x128x3_S8x128x1_0_0_1)
  v7 := View.ld (iblk m c 0 t : Vec F S8x128x3 .f32) (Rect.unit (s := S8x128x3) ![0, 0, 2] S8x128x1.size inb_S8x128x3_S8x128x1_0_0_2)
  v9 := View.ld (iblk m c 2 t : Vec F S8x128x3 .f32) (Rect.unit (s := S8x128x3) ![0, 0, 0] S8x128x1.size inb_S8x128x3_S8x128x1_0_0_0)
  v11 := View.ld (iblk m c 2 t : Vec F S8x128x3 .f32) (Rect.unit (s := S8x128x3) ![0, 0, 1] S8x128x1.size inb_S8x128x3_S8x128x1_0_0_1)
  v13 := View.ld (iblk m c 2 t : Vec F S8x128x3 .f32) (Rect.unit (s := S8x128x3) ![0, 0, 2] S8x128x1.size inb_S8x128x3_S8x128x1_0_0_2)
  v15 := iblk m c 1 t
  v17 := iblk m c 3 t
  v19 := iblk m c 4 t
  v20 := iblk m c 5 t
  v21 := View.ld (iblk m c 6 t : Vec F S8x128x3 .f32) (Rect.unit (s := S8x128x3) ![0, 0, 0] S8x128x1.size inb_S8x128x3_S8x128x1_0_0_0)
  v23 := View.ld (iblk m c 6 t : Vec F S8x128x3 .f32) (Rect.unit (s := S8x128x3) ![0, 0, 1] S8x128x1.size inb_S8x128x3_S8x128x1_0_0_1)
  v25 := View.ld (iblk m c 6 t : Vec F S8x128x3 .f32) (Rect.unit (s := S8x128x3) ![0, 0, 2] S8x128x1.size inb_S8x128x3_S8x128x1_0_0_2)
  v27 := View.ld (iblk m c 7 t : Vec F S8x128x3 .f32) (Rect.unit (s := S8x128x3) ![0, 0, 0] S8x128x1.size inb_S8x128x3_S8x128x1_0_0_0)
  v29 := View.ld (iblk m c 7 t : Vec F S8x128x3 .f32) (Rect.unit (s := S8x128x3) ![0, 0, 1] S8x128x1.size inb_S8x128x3_S8x128x1_0_0_1)
  v31 := View.ld (iblk m c 7 t : Vec F S8x128x3 .f32) (Rect.unit (s := S8x128x3) ![0, 0, 2] S8x128x1.size inb_S8x128x3_S8x128x1_0_0_2)

theorem loadsAt_v3 (c : Dev nD) (t : Fin cfg0.N) (b : Fin 8) (p : Fin 128) :
    (loadsAt m c t).v3 (ix3 b p 0) = iblk m c 0 t (ix3 b p 0) := by
  show (iblk m c 0 t : Vec F S8x128x3 .f32) ((Rect.unit (s := S8x128x3) ![0, 0, 0] S8x128x1.size inb_S8x128x3_S8x128x1_0_0_0).toLoadRect.idx (ix3 b p 0)) = _
  congr 1
  funext a
  match a with
  | ⟨0, _⟩ => exact Fin.ext (by show 0 + 1 * b.val = b.val; omega)
  | ⟨1, _⟩ => exact Fin.ext (by show 0 + 1 * p.val = p.val; omega)
  | ⟨2, _⟩ => exact Fin.ext (by show 0 + 1 * 0 = 0; omega)
theorem loadsAt_v5 (c : Dev nD) (t : Fin cfg0.N) (b : Fin 8) (p : Fin 128) :
    (loadsAt m c t).v5 (ix3 b p 0) = iblk m c 0 t (ix3 b p 1) := by
  show (iblk m c 0 t : Vec F S8x128x3 .f32) ((Rect.unit (s := S8x128x3) ![0, 0, 1] S8x128x1.size inb_S8x128x3_S8x128x1_0_0_1).toLoadRect.idx (ix3 b p 0)) = _
  congr 1
  funext a
  match a with
  | ⟨0, _⟩ => exact Fin.ext (by show 0 + 1 * b.val = b.val; omega)
  | ⟨1, _⟩ => exact Fin.ext (by show 0 + 1 * p.val = p.val; omega)
  | ⟨2, _⟩ => exact Fin.ext (by show 1 + 1 * 0 = 1; omega)
theorem loadsAt_v7 (c : Dev nD) (t : Fin cfg0.N) (b : Fin 8) (p : Fin 128) :
    (loadsAt m c t).v7 (ix3 b p 0) = iblk m c 0 t (ix3 b p 2) := by
  show (iblk m c 0 t : Vec F S8x128x3 .f32) ((Rect.unit (s := S8x128x3) ![0, 0, 2] S8x128x1.size inb_S8x128x3_S8x128x1_0_0_2).toLoadRect.idx (ix3 b p 0)) = _
  congr 1
  funext a
  match a with
  | ⟨0, _⟩ => exact Fin.ext (by show 0 + 1 * b.val = b.val; omega)
  | ⟨1, _⟩ => exact Fin.ext (by show 0 + 1 * p.val = p.val; omega)
  | ⟨2, _⟩ => exact Fin.ext (by show 2 + 1 * 0 = 2; omega)
theorem loadsAt_v9 (c : Dev nD) (t : Fin cfg0.N) (b : Fin 8) (q : Fin 128) :
    (loadsAt m c t).v9 (ix3 b q 0) = iblk m c 2 t (ix3 b q 0) := by
  show (iblk m c 2 t : Vec F S8x128x3 .f32) ((Rect.unit (s := S8x128x3) ![0, 0, 0] S8x128x1.size inb_S8x128x3_S8x128x1_0_0_0).toLoadRect.idx (ix3 b q 0)) = _
  congr 1
  funext a
  match a with
  | ⟨0, _⟩ => exact Fin.ext (by show 0 + 1 * b.val = b.val; omega)
  | ⟨1, _⟩ => exact Fin.ext (by show 0 + 1 * q.val = q.val; omega)
  | ⟨2, _⟩ => exact Fin.ext (by show 0 + 1 * 0 = 0; omega)
theorem loadsAt_v11 (c : Dev nD) (t : Fin cfg0.N) (b : Fin 8) (q : Fin 128) :
    (loadsAt m c t).v11 (ix3 b q 0) = iblk m c 2 t (ix3 b q 1) := by
  show (iblk m c 2 t : Vec F S8x128x3 .f32) ((Rect.unit (s := S8x128x3) ![0, 0, 1] S8x128x1.size inb_S8x128x3_S8x128x1_0_0_1).toLoadRect.idx (ix3 b q 0)) = _
  congr 1
  funext a
  match a with
  | ⟨0, _⟩ => exact Fin.ext (by show 0 + 1 * b.val = b.val; omega)
  | ⟨1, _⟩ => exact Fin.ext (by show 0 + 1 * q.val = q.val; omega)
  | ⟨2, _⟩ => exact Fin.ext (by show 1 + 1 * 0 = 1; omega)
theorem loadsAt_v13 (c : Dev nD) (t : Fin cfg0.N) (b : Fin 8) (q : Fin 128) :
    (loadsAt m c t).v13 (ix3 b q 0) = iblk m c 2 t (ix3 b q 2) := by
  show (iblk m c 2 t : Vec F S8x128x3 .f32) ((Rect.unit (s := S8x128x3) ![0, 0, 2] S8x128x1.size inb_S8x128x3_S8x128x1_0_0_2).toLoadRect.idx (ix3 b q 0)) = _
  congr 1
  funext a
  match a with
  | ⟨0, _⟩ => exact Fin.ext (by show 0 + 1 * b.val = b.val; omega)
  | ⟨1, _⟩ => exact Fin.ext (by show 0 + 1 * q.val = q.val; omega)
  | ⟨2, _⟩ => exact Fin.ext (by show 2 + 1 * 0 = 2; omega)
theorem loadsAt_v15 (c : Dev nD) (t : Fin cfg0.N) (b : Fin 8) (p : Fin 128) :
    (loadsAt m c t).v15 (ix2 b p) = iblk m c 1 t (ix2 b p) := rfl
theorem loadsAt_v17 (c : Dev nD) (t : Fin cfg0.N) (b : Fin 8) (q : Fin 128) :
    (loadsAt m c t).v17 (ix2 b q) = iblk m c 3 t (ix2 b q) := rfl
theorem loadsAt_v19 (c : Dev nD) (t : Fin cfg0.N) (b : Fin 8) (q : Fin 128) :
    (loadsAt m c t).v19 (ix2 b q) = iblk m c 4 t (ix2 b q) := rfl
theorem loadsAt_v20 (c : Dev nD) (t : Fin cfg0.N) (b : Fin 8) (q : Fin 128) :
    (loadsAt m c t).v20 (ix2 b q) = iblk m c 5 t (ix2 b q) := rfl
theorem loadsAt_v21 (c : Dev nD) (t : Fin cfg0.N) (b : Fin 8) (q : Fin 128) :
    (loadsAt m c t).v21 (ix3 b q 0) = iblk m c 6 t (ix3 b q 0) := by
  show (iblk m c 6 t : Vec F S8x128x3 .f32) ((Rect.unit (s := S8x128x3) ![0, 0, 0] S8x128x1.size inb_S8x128x3_S8x128x1_0_0_0).toLoadRect.idx (ix3 b q 0)) = _
  congr 1
  funext a
  match a with
  | ⟨0, _⟩ => exact Fin.ext (by show 0 + 1 * b.val = b.val; omega)
  | ⟨1, _⟩ => exact Fin.ext (by show 0 + 1 * q.val = q.val; omega)
  | ⟨2, _⟩ => exact Fin.ext (by show 0 + 1 * 0 = 0; omega)
theorem loadsAt_v23 (c : Dev nD) (t : Fin cfg0.N) (b : Fin 8) (q : Fin 128) :
    (loadsAt m c t).v23 (ix3 b q 0) = iblk m c 6 t (ix3 b q 1) := by
  show (iblk m c 6 t : Vec F S8x128x3 .f32) ((Rect.unit (s := S8x128x3) ![0, 0, 1] S8x128x1.size inb_S8x128x3_S8x128x1_0_0_1).toLoadRect.idx (ix3 b q 0)) = _
  congr 1
  funext a
  match a with
  | ⟨0, _⟩ => exact Fin.ext (by show 0 + 1 * b.val = b.val; omega)
  | ⟨1, _⟩ => exact Fin.ext (by show 0 + 1 * q.val = q.val; omega)
  | ⟨2, _⟩ => exact Fin.ext (by show 1 + 1 * 0 = 1; omega)
theorem loadsAt_v25 (c : Dev nD) (t : Fin cfg0.N) (b : Fin 8) (q : Fin 128) :
    (loadsAt m c t).v25 (ix3 b q 0) = iblk m c 6 t (ix3 b q 2) := by
  show (iblk m c 6 t : Vec F S8x128x3 .f32) ((Rect.unit (s := S8x128x3) ![0, 0, 2] S8x128x1.size inb_S8x128x3_S8x128x1_0_0_2).toLoadRect.idx (ix3 b q 0)) = _
  congr 1
  funext a
  match a with
  | ⟨0, _⟩ => exact Fin.ext (by show 0 + 1 * b.val = b.val; omega)
  | ⟨1, _⟩ => exact Fin.ext (by show 0 + 1 * q.val = q.val; omega)
  | ⟨2, _⟩ => exact Fin.ext (by show 2 + 1 * 0 = 2; omega)
theorem loadsAt_v27 (c : Dev nD) (t : Fin cfg0.N) (b : Fin 8) (q : Fin 128) :
    (loadsAt m c t).v27 (ix3 b q 0) = iblk m c 7 t (ix3 b q 0) := by
  show (iblk m c 7 t : Vec F S8x128x3 .f32) ((Rect.unit (s := S8x128x3) ![0, 0, 0] S8x128x1.size inb_S8x128x3_S8x128x1_0_0_0).toLoadRect.idx (ix3 b q 0)) = _
  congr 1
  funext a
  match a with
  | ⟨0, _⟩ => exact Fin.ext (by show 0 + 1 * b.val = b.val; omega)
  | ⟨1, _⟩ => exact Fin.ext (by show 0 + 1 * q.val = q.val; omega)
  | ⟨2, _⟩ => exact Fin.ext (by show 0 + 1 * 0 = 0; omega)
theorem loadsAt_v29 (c : Dev nD) (t : Fin cfg0.N) (b : Fin 8) (q : Fin 128) :
    (loadsAt m c t).v29 (ix3 b q 0) = iblk m c 7 t (ix3 b q 1) := by
  show (iblk m c 7 t : Vec F S8x128x3 .f32) ((Rect.unit (s := S8x128x3) ![0, 0, 1] S8x128x1.size inb_S8x128x3_S8x128x1_0_0_1).toLoadRect.idx (ix3 b q 0)) = _
  congr 1
  funext a
  match a with
  | ⟨0, _⟩ => exact Fin.ext (by show 0 + 1 * b.val = b.val; omega)
  | ⟨1, _⟩ => exact Fin.ext (by show 0 + 1 * q.val = q.val; omega)
  | ⟨2, _⟩ => exact Fin.ext (by show 1 + 1 * 0 = 1; omega)
theorem loadsAt_v31 (c : Dev nD) (t : Fin cfg0.N) (b : Fin 8) (q : Fin 128) :
    (loadsAt m c t).v31 (ix3 b q 0) = iblk m c 7 t (ix3 b q 2) := by
  show (iblk m c 7 t : Vec F S8x128x3 .f32) ((Rect.unit (s := S8x128x3) ![0, 0, 2] S8x128x1.size inb_S8x128x3_S8x128x1_0_0_2).toLoadRect.idx (ix3 b q 0)) = _
  congr 1
  funext a
  match a with
  | ⟨0, _⟩ => exact Fin.ext (by show 0 + 1 * b.val = b.val; omega)
  | ⟨1, _⟩ => exact Fin.ext (by show 0 + 1 * q.val = q.val; omega)
  | ⟨2, _⟩ => exact Fin.ext (by show 2 + 1 * 0 = 2; omega)

/-! ## Three plane stores into an [8,128,3] block -/

theorem plane0_emb (b : Fin 8) (p : Fin 128) : (Rect.unit (s := S8x128x3) ![0, 0, 0] S8x128x1.size inb_S8x128x3_S8x128x1_0_0_0).emb (ix3 b p 0) = ix3 b p 0 := by
  funext a
  match a with
  | ⟨0, _⟩ => exact Fin.ext (by show 0 + 1 * b.val = b.val; omega)
  | ⟨1, _⟩ => exact Fin.ext (by show 0 + 1 * p.val = p.val; omega)
  | ⟨2, _⟩ => exact Fin.ext (by show 0 + 1 * 0 = 0; omega)
theorem plane1_emb (b : Fin 8) (p : Fin 128) : (Rect.unit (s := S8x128x3) ![0, 0, 1] S8x128x1.size inb_S8x128x3_S8x128x1_0_0_1).emb (ix3 b p 0) = ix3 b p 1 := by
  funext a
  match a with
  | ⟨0, _⟩ => exact Fin.ext (by show 0 + 1 * b.val = b.val; omega)
  | ⟨1, _⟩ => exact Fin.ext (by show 0 + 1 * p.val = p.val; omega)
  | ⟨2, _⟩ => exact Fin.ext (by show 1 + 1 * 0 = 1; omega)
theorem plane2_emb (b : Fin 8) (p : Fin 128) : (Rect.unit (s := S8x128x3) ![0, 0, 2] S8x128x1.size inb_S8x128x3_S8x128x1_0_0_2).emb (ix3 b p 0) = ix3 b p 2 := by
  funext a
  match a with
  | ⟨0, _⟩ => exact Fin.ext (by show 0 + 1 * b.val = b.val; omega)
  | ⟨1, _⟩ => exact Fin.ext (by show 0 + 1 * p.val = p.val; omega)
  | ⟨2, _⟩ => exact Fin.ext (by show 2 + 1 * 0 = 2; omega)

/-- Three plane stores, one per last coordinate, leave at (b, p, k) the k-th payload at (b, p, 0). -/
theorem canon_planes (w0 w1 w2 : S8x128x1.Idx → Elt F .f32) (b : Fin 8) (p : Fin 128) :
    View.canon [(⟨(Rect.unit (s := S8x128x3) ![0, 0, 2] S8x128x1.size inb_S8x128x3_S8x128x1_0_0_2), w2⟩ : View.Piece (Elt F) S8x128x3 .f32), (⟨(Rect.unit (s := S8x128x3) ![0, 0, 1] S8x128x1.size inb_S8x128x3_S8x128x1_0_0_1), w1⟩ : View.Piece (Elt F) S8x128x3 .f32), (⟨(Rect.unit (s := S8x128x3) ![0, 0, 0] S8x128x1.size inb_S8x128x3_S8x128x1_0_0_0), w0⟩ : View.Piece (Elt F) S8x128x3 .f32)] (ix3 b p 0) = w0 (ix3 b p 0)
    ∧ View.canon [(⟨(Rect.unit (s := S8x128x3) ![0, 0, 2] S8x128x1.size inb_S8x128x3_S8x128x1_0_0_2), w2⟩ : View.Piece (Elt F) S8x128x3 .f32), (⟨(Rect.unit (s := S8x128x3) ![0, 0, 1] S8x128x1.size inb_S8x128x3_S8x128x1_0_0_1), w1⟩ : View.Piece (Elt F) S8x128x3 .f32), (⟨(Rect.unit (s := S8x128x3) ![0, 0, 0] S8x128x1.size inb_S8x128x3_S8x128x1_0_0_0), w0⟩ : View.Piece (Elt F) S8x128x3 .f32)] (ix3 b p 1) = w1 (ix3 b p 0)
    ∧ View.canon [(⟨(Rect.unit (s := S8x128x3) ![0, 0, 2] S8x128x1.size inb_S8x128x3_S8x128x1_0_0_2), w2⟩ : View.Piece (Elt F) S8x128x3 .f32), (⟨(Rect.unit (s := S8x128x3) ![0, 0, 1] S8x128x1.size inb_S8x128x3_S8x128x1_0_0_1), w1⟩ : View.Piece (Elt F) S8x128x3 .f32), (⟨(Rect.unit (s := S8x128x3) ![0, 0, 0] S8x128x1.size inb_S8x128x3_S8x128x1_0_0_0), w0⟩ : View.Piece (Elt F) S8x128x3 .f32)] (ix3 b p 2) = w2 (ix3 b p 0) := by
  have n02 : (ix3 b p 0 : S8x128x3.Idx) ∉ (Rect.unit (s := S8x128x3) ![0, 0, 2] S8x128x1.size inb_S8x128x3_S8x128x1_0_0_2).set :=
    fun h => absurd ((Rect.mem_set_unit.mp h) 2).1 (by show ¬ ((2 : Nat) ≤ 0); omega)
  have n01 : (ix3 b p 0 : S8x128x3.Idx) ∉ (Rect.unit (s := S8x128x3) ![0, 0, 1] S8x128x1.size inb_S8x128x3_S8x128x1_0_0_1).set :=
    fun h => absurd ((Rect.mem_set_unit.mp h) 2).1 (by show ¬ ((1 : Nat) ≤ 0); omega)
  have n12 : (ix3 b p 1 : S8x128x3.Idx) ∉ (Rect.unit (s := S8x128x3) ![0, 0, 2] S8x128x1.size inb_S8x128x3_S8x128x1_0_0_2).set :=
    fun h => absurd ((Rect.mem_set_unit.mp h) 2).1 (by show ¬ ((2 : Nat) ≤ 1); omega)
  have e0 := View.canon_cons_emb (Val := Elt F) (Rect.unit (s := S8x128x3) ![0, 0, 0] S8x128x1.size inb_S8x128x3_S8x128x1_0_0_0) w0 [] (ix3 b p 0)
  have e1 := View.canon_cons_emb (Val := Elt F) (Rect.unit (s := S8x128x3) ![0, 0, 1] S8x128x1.size inb_S8x128x3_S8x128x1_0_0_1) w1 [(⟨(Rect.unit (s := S8x128x3) ![0, 0, 0] S8x128x1.size inb_S8x128x3_S8x128x1_0_0_0), w0⟩ : View.Piece (Elt F) S8x128x3 .f32)] (ix3 b p 0)
  have e2 := View.canon_cons_emb (Val := Elt F) (Rect.unit (s := S8x128x3) ![0, 0, 2] S8x128x1.size inb_S8x128x3_S8x128x1_0_0_2) w2 [(⟨(Rect.unit (s := S8x128x3) ![0, 0, 1] S8x128x1.size inb_S8x128x3_S8x128x1_0_0_1), w1⟩ : View.Piece (Elt F) S8x128x3 .f32), (⟨(Rect.unit (s := S8x128x3) ![0, 0, 0] S8x128x1.size inb_S8x128x3_S8x128x1_0_0_0), w0⟩ : View.Piece (Elt F) S8x128x3 .f32)] (ix3 b p 0)
  rw [plane0_emb] at e0
  rw [plane1_emb] at e1
  rw [plane2_emb] at e2
  exact ⟨(View.canon_cons_of_not_mem (⟨(Rect.unit (s := S8x128x3) ![0, 0, 2] S8x128x1.size inb_S8x128x3_S8x128x1_0_0_2), w2⟩ : View.Piece (Elt F) S8x128x3 .f32) [(⟨(Rect.unit (s := S8x128x3) ![0, 0, 1] S8x128x1.size inb_S8x128x3_S8x128x1_0_0_1), w1⟩ : View.Piece (Elt F) S8x128x3 .f32), (⟨(Rect.unit (s := S8x128x3) ![0, 0, 0] S8x128x1.size inb_S8x128x3_S8x128x1_0_0_0), w0⟩ : View.Piece (Elt F) S8x128x3 .f32)] n02).trans
      ((View.canon_cons_of_not_mem (⟨(Rect.unit (s := S8x128x3) ![0, 0, 1] S8x128x1.size inb_S8x128x3_S8x128x1_0_0_1), w1⟩ : View.Piece (Elt F) S8x128x3 .f32) [(⟨(Rect.unit (s := S8x128x3) ![0, 0, 0] S8x128x1.size inb_S8x128x3_S8x128x1_0_0_0), w0⟩ : View.Piece (Elt F) S8x128x3 .f32)] n01).trans e0),
    (View.canon_cons_of_not_mem (⟨(Rect.unit (s := S8x128x3) ![0, 0, 2] S8x128x1.size inb_S8x128x3_S8x128x1_0_0_2), w2⟩ : View.Piece (Elt F) S8x128x3 .f32) [(⟨(Rect.unit (s := S8x128x3) ![0, 0, 1] S8x128x1.size inb_S8x128x3_S8x128x1_0_0_1), w1⟩ : View.Piece (Elt F) S8x128x3 .f32), (⟨(Rect.unit (s := S8x128x3) ![0, 0, 0] S8x128x1.size inb_S8x128x3_S8x128x1_0_0_0), w0⟩ : View.Piece (Elt F) S8x128x3 .f32)] n12).trans e1, e2⟩

/-! ## The running sums after a point of each case -/

set_option maxHeartbeats 4000000 in
theorem soutB0_eq (c : Dev nD) (t : Fin cfg0.N) (h0 : ¬t.val % 8 = 0) (h1 : ¬t.val % 8 = 7) (xs : Scr F) :
    soutB0 m c t h0 h1 xs = upd0 (mono0 (loadsAt m c t)) (dip0 (loadsAt m c t)) xs.s0 := by
  unfold soutB0
  rw [View.read_writes_eq_canon _ _ _ (scoverB0 m c t h0 h1 xs)]
  unfold runB kernelRun0_B
  dsimp only
  sl_unfold_words
  rw [View.canon_unit_zero offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd0, View.readAt_eq_ld, Memref.IsWhole.read_unread, read_whole_unread, View.ld_unit_zero (S := S8x128) offs2_zero]
  rfl
set_option maxHeartbeats 4000000 in
theorem soutB1_eq (c : Dev nD) (t : Fin cfg0.N) (h0 : ¬t.val % 8 = 0) (h1 : ¬t.val % 8 = 7) (xs : Scr F) :
    soutB1 m c t h0 h1 xs = upd1 (mono1 (loadsAt m c t)) (dip1 (loadsAt m c t)) xs.s1 := by
  unfold soutB1
  rw [View.read_writes_eq_canon _ _ _ (scoverB1 m c t h0 h1 xs)]
  unfold runB kernelRun0_B
  dsimp only
  sl_unfold_words
  rw [View.canon_unit_zero offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd1, View.readAt_eq_ld, Memref.IsWhole.read_unread, read_whole_unread, View.ld_unit_zero (S := S8x128) offs2_zero]
  rfl
set_option maxHeartbeats 4000000 in
theorem soutB2_eq (c : Dev nD) (t : Fin cfg0.N) (h0 : ¬t.val % 8 = 0) (h1 : ¬t.val % 8 = 7) (xs : Scr F) :
    soutB2 m c t h0 h1 xs = upd2 (mono2 (loadsAt m c t)) (dip2 (loadsAt m c t)) xs.s2 := by
  unfold soutB2
  rw [View.read_writes_eq_canon _ _ _ (scoverB2 m c t h0 h1 xs)]
  unfold runB kernelRun0_B
  dsimp only
  sl_unfold_words
  rw [View.canon_unit_zero offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd2, View.readAt_eq_ld, Memref.IsWhole.read_unread, read_whole_unread, View.ld_unit_zero (S := S8x128) offs2_zero]
  rfl
set_option maxHeartbeats 4000000 in
theorem soutB3_eq (c : Dev nD) (t : Fin cfg0.N) (h0 : ¬t.val % 8 = 0) (h1 : ¬t.val % 8 = 7) (xs : Scr F) :
    soutB3 m c t h0 h1 xs = upd3 (mono3 (loadsAt m c t)) (dip3 (loadsAt m c t)) xs.s3 := by
  unfold soutB3
  rw [View.read_writes_eq_canon _ _ _ (scoverB3 m c t h0 h1 xs)]
  unfold runB kernelRun0_B
  dsimp only
  sl_unfold_words
  rw [View.canon_unit_zero offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd3, View.readAt_eq_ld, Memref.IsWhole.read_unread, read_whole_unread, View.ld_unit_zero (S := S8x128) offs2_zero]
  rfl
set_option maxHeartbeats 4000000 in
theorem soutB4_eq (c : Dev nD) (t : Fin cfg0.N) (h0 : ¬t.val % 8 = 0) (h1 : ¬t.val % 8 = 7) (xs : Scr F) :
    soutB4 m c t h0 h1 xs = upd4 (mono4 (loadsAt m c t)) (dip4 (loadsAt m c t)) xs.s4 := by
  unfold soutB4
  rw [View.read_writes_eq_canon _ _ _ (scoverB4 m c t h0 h1 xs)]
  unfold runB kernelRun0_B
  dsimp only
  sl_unfold_words
  rw [View.canon_unit_zero offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd4, View.readAt_eq_ld, Memref.IsWhole.read_unread, read_whole_unread, View.ld_unit_zero (S := S8x128) offs2_zero]
  rfl
set_option maxHeartbeats 4000000 in
theorem soutB5_eq (c : Dev nD) (t : Fin cfg0.N) (h0 : ¬t.val % 8 = 0) (h1 : ¬t.val % 8 = 7) (xs : Scr F) :
    soutB5 m c t h0 h1 xs = upd5 (mono5 (loadsAt m c t)) (dip5 (loadsAt m c t)) xs.s5 := by
  unfold soutB5
  rw [View.read_writes_eq_canon _ _ _ (scoverB5 m c t h0 h1 xs)]
  unfold runB kernelRun0_B
  dsimp only
  sl_unfold_words
  rw [View.canon_unit_zero offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd5, View.readAt_eq_ld, Memref.IsWhole.read_unread, read_whole_unread, View.ld_unit_zero (S := S8x128) offs2_zero]
  rfl
set_option maxHeartbeats 4000000 in
theorem soutB6_eq (c : Dev nD) (t : Fin cfg0.N) (h0 : ¬t.val % 8 = 0) (h1 : ¬t.val % 8 = 7) (xs : Scr F) :
    soutB6 m c t h0 h1 xs = upd6 (mono6 (loadsAt m c t)) (dip6 (loadsAt m c t)) xs.s6 := by
  unfold soutB6
  rw [View.read_writes_eq_canon _ _ _ (scoverB6 m c t h0 h1 xs)]
  unfold runB kernelRun0_B
  dsimp only
  sl_unfold_words
  rw [View.canon_unit_zero offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd6, View.readAt_eq_ld, Memref.IsWhole.read_unread, read_whole_unread, View.ld_unit_zero (S := S8x128) offs2_zero]
  rfl
set_option maxHeartbeats 4000000 in
theorem soutB7_eq (c : Dev nD) (t : Fin cfg0.N) (h0 : ¬t.val % 8 = 0) (h1 : ¬t.val % 8 = 7) (xs : Scr F) :
    soutB7 m c t h0 h1 xs = upd7 (mono7 (loadsAt m c t)) (dip7 (loadsAt m c t)) xs.s7 := by
  unfold soutB7
  rw [View.read_writes_eq_canon _ _ _ (scoverB7 m c t h0 h1 xs)]
  unfold runB kernelRun0_B
  dsimp only
  sl_unfold_words
  rw [View.canon_unit_zero offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd7, View.readAt_eq_ld, Memref.IsWhole.read_unread, read_whole_unread, View.ld_unit_zero (S := S8x128) offs2_zero]
  rfl
set_option maxHeartbeats 4000000 in
theorem soutC0_eq (c : Dev nD) (t : Fin cfg0.N) (h1 : t.val % 8 = 7) (xs : Scr F) :
    soutC0 m c t h1 xs = upd0 (mono0 (loadsAt m c t)) (dip0 (loadsAt m c t)) xs.s0 := by
  unfold soutC0
  rw [View.read_writes_eq_canon _ _ _ (scoverC0 m c t h1 xs)]
  unfold runC kernelRun0_C
  dsimp only
  sl_unfold_words
  rw [View.canon_unit_zero offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd0, View.readAt_eq_ld, Memref.IsWhole.read_unread, read_whole_unread, View.ld_unit_zero (S := S8x128) offs2_zero]
  rfl
set_option maxHeartbeats 4000000 in
theorem soutC1_eq (c : Dev nD) (t : Fin cfg0.N) (h1 : t.val % 8 = 7) (xs : Scr F) :
    soutC1 m c t h1 xs = upd1 (mono1 (loadsAt m c t)) (dip1 (loadsAt m c t)) xs.s1 := by
  unfold soutC1
  rw [View.read_writes_eq_canon _ _ _ (scoverC1 m c t h1 xs)]
  unfold runC kernelRun0_C
  dsimp only
  sl_unfold_words
  rw [View.canon_unit_zero offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd1, View.readAt_eq_ld, Memref.IsWhole.read_unread, read_whole_unread, View.ld_unit_zero (S := S8x128) offs2_zero]
  rfl
set_option maxHeartbeats 4000000 in
theorem soutC2_eq (c : Dev nD) (t : Fin cfg0.N) (h1 : t.val % 8 = 7) (xs : Scr F) :
    soutC2 m c t h1 xs = upd2 (mono2 (loadsAt m c t)) (dip2 (loadsAt m c t)) xs.s2 := by
  unfold soutC2
  rw [View.read_writes_eq_canon _ _ _ (scoverC2 m c t h1 xs)]
  unfold runC kernelRun0_C
  dsimp only
  sl_unfold_words
  rw [View.canon_unit_zero offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd2, View.readAt_eq_ld, Memref.IsWhole.read_unread, read_whole_unread, View.ld_unit_zero (S := S8x128) offs2_zero]
  rfl
set_option maxHeartbeats 4000000 in
theorem soutC3_eq (c : Dev nD) (t : Fin cfg0.N) (h1 : t.val % 8 = 7) (xs : Scr F) :
    soutC3 m c t h1 xs = upd3 (mono3 (loadsAt m c t)) (dip3 (loadsAt m c t)) xs.s3 := by
  unfold soutC3
  rw [View.read_writes_eq_canon _ _ _ (scoverC3 m c t h1 xs)]
  unfold runC kernelRun0_C
  dsimp only
  sl_unfold_words
  rw [View.canon_unit_zero offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd3, View.readAt_eq_ld, Memref.IsWhole.read_unread, read_whole_unread, View.ld_unit_zero (S := S8x128) offs2_zero]
  rfl
set_option maxHeartbeats 4000000 in
theorem soutC4_eq (c : Dev nD) (t : Fin cfg0.N) (h1 : t.val % 8 = 7) (xs : Scr F) :
    soutC4 m c t h1 xs = upd4 (mono4 (loadsAt m c t)) (dip4 (loadsAt m c t)) xs.s4 := by
  unfold soutC4
  rw [View.read_writes_eq_canon _ _ _ (scoverC4 m c t h1 xs)]
  unfold runC kernelRun0_C
  dsimp only
  sl_unfold_words
  rw [View.canon_unit_zero offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd4, View.readAt_eq_ld, Memref.IsWhole.read_unread, read_whole_unread, View.ld_unit_zero (S := S8x128) offs2_zero]
  rfl
set_option maxHeartbeats 4000000 in
theorem soutC5_eq (c : Dev nD) (t : Fin cfg0.N) (h1 : t.val % 8 = 7) (xs : Scr F) :
    soutC5 m c t h1 xs = upd5 (mono5 (loadsAt m c t)) (dip5 (loadsAt m c t)) xs.s5 := by
  unfold soutC5
  rw [View.read_writes_eq_canon _ _ _ (scoverC5 m c t h1 xs)]
  unfold runC kernelRun0_C
  dsimp only
  sl_unfold_words
  rw [View.canon_unit_zero offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd5, View.readAt_eq_ld, Memref.IsWhole.read_unread, read_whole_unread, View.ld_unit_zero (S := S8x128) offs2_zero]
  rfl
set_option maxHeartbeats 4000000 in
theorem soutC6_eq (c : Dev nD) (t : Fin cfg0.N) (h1 : t.val % 8 = 7) (xs : Scr F) :
    soutC6 m c t h1 xs = upd6 (mono6 (loadsAt m c t)) (dip6 (loadsAt m c t)) xs.s6 := by
  unfold soutC6
  rw [View.read_writes_eq_canon _ _ _ (scoverC6 m c t h1 xs)]
  unfold runC kernelRun0_C
  dsimp only
  sl_unfold_words
  rw [View.canon_unit_zero offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd6, View.readAt_eq_ld, Memref.IsWhole.read_unread, read_whole_unread, View.ld_unit_zero (S := S8x128) offs2_zero]
  rfl
set_option maxHeartbeats 4000000 in
theorem soutC7_eq (c : Dev nD) (t : Fin cfg0.N) (h1 : t.val % 8 = 7) (xs : Scr F) :
    soutC7 m c t h1 xs = upd7 (mono7 (loadsAt m c t)) (dip7 (loadsAt m c t)) xs.s7 := by
  unfold soutC7
  rw [View.read_writes_eq_canon _ _ _ (scoverC7 m c t h1 xs)]
  unfold runC kernelRun0_C
  dsimp only
  sl_unfold_words
  rw [View.canon_unit_zero offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd7, View.readAt_eq_ld, Memref.IsWhole.read_unread, read_whole_unread, View.ld_unit_zero (S := S8x128) offs2_zero]
  rfl
set_option maxHeartbeats 4000000 in
theorem soutA0_eq (c : Dev nD) (t : Fin cfg0.N) (h0 : t.val % 8 = 0) :
    soutA0 m c t h0 = upd0 (mono0 (loadsAt m c t)) (dip0 (loadsAt m c t)) zeroS := by
  unfold soutA0
  rw [View.read_writes_eq_canon _ _ _ (scoverA0 m c t h0)]
  unfold runA kernelRun0_A
  dsimp only
  sl_unfold_words
  rw [View.canon_cons_unit_zero (S := S8x128) offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd0, zeroS, pay8_eq_zeroS, pay9_eq_zeroS, pay10_eq_zeroS, pay11_eq_zeroS, pay12_eq_zeroS, pay13_eq_zeroS, pay19_pay14_eq_zeroS, View.readAt_eq_ld, Memref.IsWhole.read_unread, read_whole_unread, View.ld_unit_zero (S := S8x128) offs2_zero, View.readCov_unit_zero (S := S8x128) _ offs2_zero]
  rfl
set_option maxHeartbeats 4000000 in
theorem soutA1_eq (c : Dev nD) (t : Fin cfg0.N) (h0 : t.val % 8 = 0) :
    soutA1 m c t h0 = upd1 (mono1 (loadsAt m c t)) (dip1 (loadsAt m c t)) zeroS := by
  unfold soutA1
  rw [View.read_writes_eq_canon _ _ _ (scoverA1 m c t h0)]
  unfold runA kernelRun0_A
  dsimp only
  sl_unfold_words
  rw [View.canon_cons_unit_zero (S := S8x128) offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd1, zeroS, pay8_eq_zeroS, pay9_eq_zeroS, pay10_eq_zeroS, pay11_eq_zeroS, pay12_eq_zeroS, pay13_eq_zeroS, pay19_pay14_eq_zeroS, View.readAt_eq_ld, Memref.IsWhole.read_unread, read_whole_unread, View.ld_unit_zero (S := S8x128) offs2_zero, View.readCov_unit_zero (S := S8x128) _ offs2_zero]
  rfl
set_option maxHeartbeats 4000000 in
theorem soutA2_eq (c : Dev nD) (t : Fin cfg0.N) (h0 : t.val % 8 = 0) :
    soutA2 m c t h0 = upd2 (mono2 (loadsAt m c t)) (dip2 (loadsAt m c t)) zeroS := by
  unfold soutA2
  rw [View.read_writes_eq_canon _ _ _ (scoverA2 m c t h0)]
  unfold runA kernelRun0_A
  dsimp only
  sl_unfold_words
  rw [View.canon_cons_unit_zero (S := S8x128) offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd2, zeroS, pay8_eq_zeroS, pay9_eq_zeroS, pay10_eq_zeroS, pay11_eq_zeroS, pay12_eq_zeroS, pay13_eq_zeroS, pay19_pay14_eq_zeroS, View.readAt_eq_ld, Memref.IsWhole.read_unread, read_whole_unread, View.ld_unit_zero (S := S8x128) offs2_zero, View.readCov_unit_zero (S := S8x128) _ offs2_zero]
  rfl
set_option maxHeartbeats 4000000 in
theorem soutA3_eq (c : Dev nD) (t : Fin cfg0.N) (h0 : t.val % 8 = 0) :
    soutA3 m c t h0 = upd3 (mono3 (loadsAt m c t)) (dip3 (loadsAt m c t)) zeroS := by
  unfold soutA3
  rw [View.read_writes_eq_canon _ _ _ (scoverA3 m c t h0)]
  unfold runA kernelRun0_A
  dsimp only
  sl_unfold_words
  rw [View.canon_cons_unit_zero (S := S8x128) offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd3, zeroS, pay8_eq_zeroS, pay9_eq_zeroS, pay10_eq_zeroS, pay11_eq_zeroS, pay12_eq_zeroS, pay13_eq_zeroS, pay19_pay14_eq_zeroS, View.readAt_eq_ld, Memref.IsWhole.read_unread, read_whole_unread, View.ld_unit_zero (S := S8x128) offs2_zero, View.readCov_unit_zero (S := S8x128) _ offs2_zero]
  rfl
set_option maxHeartbeats 4000000 in
theorem soutA4_eq (c : Dev nD) (t : Fin cfg0.N) (h0 : t.val % 8 = 0) :
    soutA4 m c t h0 = upd4 (mono4 (loadsAt m c t)) (dip4 (loadsAt m c t)) zeroS := by
  unfold soutA4
  rw [View.read_writes_eq_canon _ _ _ (scoverA4 m c t h0)]
  unfold runA kernelRun0_A
  dsimp only
  sl_unfold_words
  rw [View.canon_cons_unit_zero (S := S8x128) offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd4, zeroS, pay8_eq_zeroS, pay9_eq_zeroS, pay10_eq_zeroS, pay11_eq_zeroS, pay12_eq_zeroS, pay13_eq_zeroS, pay19_pay14_eq_zeroS, View.readAt_eq_ld, Memref.IsWhole.read_unread, read_whole_unread, View.ld_unit_zero (S := S8x128) offs2_zero, View.readCov_unit_zero (S := S8x128) _ offs2_zero]
  rfl
set_option maxHeartbeats 4000000 in
theorem soutA5_eq (c : Dev nD) (t : Fin cfg0.N) (h0 : t.val % 8 = 0) :
    soutA5 m c t h0 = upd5 (mono5 (loadsAt m c t)) (dip5 (loadsAt m c t)) zeroS := by
  unfold soutA5
  rw [View.read_writes_eq_canon _ _ _ (scoverA5 m c t h0)]
  unfold runA kernelRun0_A
  dsimp only
  sl_unfold_words
  rw [View.canon_cons_unit_zero (S := S8x128) offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd5, zeroS, pay8_eq_zeroS, pay9_eq_zeroS, pay10_eq_zeroS, pay11_eq_zeroS, pay12_eq_zeroS, pay13_eq_zeroS, pay19_pay14_eq_zeroS, View.readAt_eq_ld, Memref.IsWhole.read_unread, read_whole_unread, View.ld_unit_zero (S := S8x128) offs2_zero, View.readCov_unit_zero (S := S8x128) _ offs2_zero]
  rfl
set_option maxHeartbeats 4000000 in
theorem soutA6_eq (c : Dev nD) (t : Fin cfg0.N) (h0 : t.val % 8 = 0) :
    soutA6 m c t h0 = upd6 (mono6 (loadsAt m c t)) (dip6 (loadsAt m c t)) zeroS := by
  unfold soutA6
  rw [View.read_writes_eq_canon _ _ _ (scoverA6 m c t h0)]
  unfold runA kernelRun0_A
  dsimp only
  sl_unfold_words
  rw [View.canon_cons_unit_zero (S := S8x128) offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd6, zeroS, pay8_eq_zeroS, pay9_eq_zeroS, pay10_eq_zeroS, pay11_eq_zeroS, pay12_eq_zeroS, pay13_eq_zeroS, pay19_pay14_eq_zeroS, View.readAt_eq_ld, Memref.IsWhole.read_unread, read_whole_unread, View.ld_unit_zero (S := S8x128) offs2_zero, View.readCov_unit_zero (S := S8x128) _ offs2_zero]
  rfl
set_option maxHeartbeats 4000000 in
theorem soutA7_eq (c : Dev nD) (t : Fin cfg0.N) (h0 : t.val % 8 = 0) :
    soutA7 m c t h0 = upd7 (mono7 (loadsAt m c t)) (dip7 (loadsAt m c t)) zeroS := by
  unfold soutA7
  rw [View.read_writes_eq_canon _ _ _ (scoverA7 m c t h0)]
  unfold runA kernelRun0_A
  dsimp only
  sl_unfold_words
  rw [View.canon_cons_unit_zero (S := S8x128) offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd7, zeroS, pay8_eq_zeroS, pay9_eq_zeroS, pay10_eq_zeroS, pay11_eq_zeroS, pay12_eq_zeroS, pay13_eq_zeroS, pay19_pay14_eq_zeroS, View.readAt_eq_ld, Memref.IsWhole.read_unread, read_whole_unread, View.ld_unit_zero (S := S8x128) offs2_zero, View.readCov_unit_zero (S := S8x128) _ offs2_zero]
  rfl

/-! ## The result blocks after a point of the last key tile -/

set_option maxHeartbeats 4000000 in
theorem outC8_eq (c : Dev nD) (t : Fin cfg0.N) (h1 : t.val % 8 = 7) (xs : Scr F) :
    outC8 m c t h1 xs = soutC0 m c t h1 xs := by
  have e : outC8 m c t h1 xs = View.canon (runC m c t h1 xs).1 := by
    unfold outC8; exact View.read_writes_eq_canon _ _ _ (coverC8 m c t h1 xs)
  rw [e, soutC0_eq]
  unfold runC kernelRun0_C
  dsimp only
  sl_unfold_words
  rw [View.canon_unit_zero offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd0, View.readAt_eq_ld, Memref.IsWhole.read_unread, read_whole_unread, View.ld_unit_zero (S := S8x128) offs2_zero, View.readCov_unit_zero (S := S8x128) _ offs2_zero]
  rfl
set_option maxHeartbeats 4000000 in
theorem outC9_eq (c : Dev nD) (t : Fin cfg0.N) (h1 : t.val % 8 = 7) (xs : Scr F) :
    outC9 m c t h1 xs = soutC1 m c t h1 xs := by
  have e : outC9 m c t h1 xs = View.canon (runC m c t h1 xs).2.1 := by
    unfold outC9; exact View.read_writes_eq_canon _ _ _ (coverC9 m c t h1 xs)
  rw [e, soutC1_eq]
  unfold runC kernelRun0_C
  dsimp only
  sl_unfold_words
  rw [View.canon_unit_zero offs2_zero]
  simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd1, View.readAt_eq_ld, Memref.IsWhole.read_unread, read_whole_unread, View.ld_unit_zero (S := S8x128) offs2_zero, View.readCov_unit_zero (S := S8x128) _ offs2_zero]
  rfl
set_option maxHeartbeats 4000000 in
theorem outC10_at (c : Dev nD) (t : Fin cfg0.N) (h1 : t.val % 8 = 7) (xs : Scr F) (b : Fin 8) (p : Fin 128) :
    outC10 m c t h1 xs (ix3 b p 0) = soutC2 m c t h1 xs (ix2 b p) ∧ outC10 m c t h1 xs (ix3 b p 1) = soutC3 m c t h1 xs (ix2 b p)
      ∧ outC10 m c t h1 xs (ix3 b p 2) = soutC4 m c t h1 xs (ix2 b p) := by
  have e : outC10 m c t h1 xs = View.canon (runC m c t h1 xs).2.2.1 := by
    unfold outC10; exact View.read_writes_eq_canon _ _ _ (coverC10 m c t h1 xs)
  have e' : View.canon (runC m c t h1 xs).2.2.1 = View.canon [(⟨(Rect.unit (s := S8x128x3) ![0, 0, 2] S8x128x1.size inb_S8x128x3_S8x128x1_0_0_2), k0_pay17 (soutC4 m c t h1 xs)⟩ : View.Piece (Elt F) S8x128x3 .f32), (⟨(Rect.unit (s := S8x128x3) ![0, 0, 1] S8x128x1.size inb_S8x128x3_S8x128x1_0_0_1), k0_pay16 (soutC3 m c t h1 xs)⟩ : View.Piece (Elt F) S8x128x3 .f32), (⟨(Rect.unit (s := S8x128x3) ![0, 0, 0] S8x128x1.size inb_S8x128x3_S8x128x1_0_0_0), k0_pay15 (soutC2 m c t h1 xs)⟩ : View.Piece (Elt F) S8x128x3 .f32)] := by
    rw [soutC2_eq, soutC3_eq, soutC4_eq]
    unfold runC kernelRun0_C
    dsimp only
    sl_unfold_words
    simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd2, upd3, upd4, View.readAt_eq_ld, Memref.IsWhole.read_unread, read_whole_unread, View.ld_unit_zero (S := S8x128) offs2_zero, View.readCov_unit_zero (S := S8x128) _ offs2_zero]
    rfl
  rw [e, e']
  obtain ⟨q0, q1, q2⟩ := canon_planes (k0_pay15 (soutC2 m c t h1 xs)) (k0_pay16 (soutC3 m c t h1 xs)) (k0_pay17 (soutC4 m c t h1 xs)) b p
  exact ⟨q0.trans (shapeCast_plane_apply (soutC2 m c t h1 xs) shapeCasts_S8x128_S8x128x1 b p 0), q1.trans (shapeCast_plane_apply (soutC3 m c t h1 xs) shapeCasts_S8x128_S8x128x1 b p 0), q2.trans (shapeCast_plane_apply (soutC4 m c t h1 xs) shapeCasts_S8x128_S8x128x1 b p 0)⟩
set_option maxHeartbeats 4000000 in
theorem outC11_at (c : Dev nD) (t : Fin cfg0.N) (h1 : t.val % 8 = 7) (xs : Scr F) (b : Fin 8) (p : Fin 128) :
    outC11 m c t h1 xs (ix3 b p 0) = soutC5 m c t h1 xs (ix2 b p) ∧ outC11 m c t h1 xs (ix3 b p 1) = soutC6 m c t h1 xs (ix2 b p)
      ∧ outC11 m c t h1 xs (ix3 b p 2) = soutC7 m c t h1 xs (ix2 b p) := by
  have e : outC11 m c t h1 xs = View.canon (runC m c t h1 xs).2.2.2.1 := by
    unfold outC11; exact View.read_writes_eq_canon _ _ _ (coverC11 m c t h1 xs)
  have e' : View.canon (runC m c t h1 xs).2.2.2.1 = View.canon [(⟨(Rect.unit (s := S8x128x3) ![0, 0, 2] S8x128x1.size inb_S8x128x3_S8x128x1_0_0_2), k0_pay6 (soutC7 m c t h1 xs)⟩ : View.Piece (Elt F) S8x128x3 .f32), (⟨(Rect.unit (s := S8x128x3) ![0, 0, 1] S8x128x1.size inb_S8x128x3_S8x128x1_0_0_1), k0_pay5 (soutC6 m c t h1 xs)⟩ : View.Piece (Elt F) S8x128x3 .f32), (⟨(Rect.unit (s := S8x128x3) ![0, 0, 0] S8x128x1.size inb_S8x128x3_S8x128x1_0_0_0), k0_pay18 (soutC5 m c t h1 xs)⟩ : View.Piece (Elt F) S8x128x3 .f32)] := by
    rw [soutC5_eq, soutC6_eq, soutC7_eq]
    unfold runC kernelRun0_C
    dsimp only
    sl_unfold_words
    simp only [mono0, dip0, mono1, dip1, mono2, dip2, mono3, dip3, mono4, dip4, mono5, dip5, mono6, dip6, mono7, dip7, distance, unitx, unity, unitz, maskprod, weight2, weight3, weight2q, chargem, weight3mum, weight3mumx, qx, qy, qz, kx, ky, kz, qmask, kmask, muqx, muqy, muqz, mumx, mumy, mumz, loadsAt, upd5, upd6, upd7, View.readAt_eq_ld, Memref.IsWhole.read_unread, read_whole_unread, View.ld_unit_zero (S := S8x128) offs2_zero, View.readCov_unit_zero (S := S8x128) _ offs2_zero]
    rfl
  rw [e, e']
  obtain ⟨q0, q1, q2⟩ := canon_planes (k0_pay18 (soutC5 m c t h1 xs)) (k0_pay5 (soutC6 m c t h1 xs)) (k0_pay6 (soutC7 m c t h1 xs)) b p
  exact ⟨q0.trans (shapeCast_plane_apply (soutC5 m c t h1 xs) shapeCasts_S8x128_S8x128x1 b p 0), q1.trans (shapeCast_plane_apply (soutC6 m c t h1 xs) shapeCasts_S8x128_S8x128x1 b p 0), q2.trans (shapeCast_plane_apply (soutC7 m c t h1 xs) shapeCasts_S8x128_S8x128x1 b p 0)⟩

/-! ## The stored payload at an index, over the extended reals -/

section AtIdeal

theorem upd0_apply (a d : FVec Ideal S8x128 .f32) (s : Vec Ideal S8x128 .f32) (i : S8x128.Idx) :
    upd0 a d s i = s i + (a i + d i) := by
  show shapeCast S8x128 (addf s (addf a d)) shapeCasts_S8x128_S8x128 i = _
  rw [shapeCast_self]; rfl
theorem upd1_apply (a d : FVec Ideal S8x128 .f32) (s : Vec Ideal S8x128 .f32) (i : S8x128.Idx) :
    upd1 a d s i = s i + (a i + d i) := by
  show shapeCast S8x128 (addf s (addf a d)) shapeCasts_S8x128_S8x128 i = _
  rw [shapeCast_self]; rfl
theorem upd2_apply (a d : FVec Ideal S8x128 .f32) (s : Vec Ideal S8x128 .f32) (i : S8x128.Idx) :
    upd2 a d s i = s i + (a i + d i) := by
  show shapeCast S8x128 (addf s (addf a d)) shapeCasts_S8x128_S8x128 i = _
  rw [shapeCast_self]; rfl
theorem upd3_apply (a d : FVec Ideal S8x128 .f32) (s : Vec Ideal S8x128 .f32) (i : S8x128.Idx) :
    upd3 a d s i = s i + (a i + d i) := by
  show shapeCast S8x128 (addf s (addf a d)) shapeCasts_S8x128_S8x128 i = _
  rw [shapeCast_self]; rfl
theorem upd4_apply (a d : FVec Ideal S8x128 .f32) (s : Vec Ideal S8x128 .f32) (i : S8x128.Idx) :
    upd4 a d s i = s i + (a i + d i) := by
  show shapeCast S8x128 (addf s (addf a d)) shapeCasts_S8x128_S8x128 i = _
  rw [shapeCast_self]; rfl
theorem upd5_apply (a d : FVec Ideal S8x128 .f32) (s : Vec Ideal S8x128 .f32) (i : S8x128.Idx) :
    upd5 a d s i = s i + (a i + d i) := by
  show shapeCast S8x128 (addf s (addf a d)) shapeCasts_S8x128_S8x128 i = _
  rw [shapeCast_self]; rfl
theorem upd6_apply (a d : FVec Ideal S8x128 .f32) (s : Vec Ideal S8x128 .f32) (i : S8x128.Idx) :
    upd6 a d s i = s i + (a i + d i) := by
  show shapeCast S8x128 (addf s (addf a d)) shapeCasts_S8x128_S8x128 i = _
  rw [shapeCast_self]; rfl
theorem upd7_apply (a d : FVec Ideal S8x128 .f32) (s : Vec Ideal S8x128 .f32) (i : S8x128.Idx) :
    upd7 a d s i = s i + (a i + d i) := by
  show shapeCast S8x128 (addf s (addf a d)) shapeCasts_S8x128_S8x128 i = _
  rw [shapeCast_self]; rfl

end AtIdeal

end Cert.KernelIdeal.Fr

end
-- ==== Proof.FrameKernelIdeal.Blocks.lean ====
/-
  The windows' blocks as rows of the arrays. Point t = 8 i + j of the 8 × 8 grid reads the 128 query rows of tile
  i = t / 8 and the 128 key rows of tile j = t % 8: row p of a query window's block is row 128 i + p of its array, row q
  of a key window's block is row 128 j + q, and the batch and component coordinates pass through. The positions and
  the four charge arrays are found as launched; the float mask is the host's conversion of the launched one-bit mask,
  so that read at an index it is 1 where the bit is set and 0 elsewhere. The four result windows move with the query
  tile: the block of point t is rows 128 i … 128 i + 127 of the result array.
-/
import proofs.«173063_j80805514707451_1_alg».proof.Proof.FrameKernelIdeal.Base
import proofs.«173063_j80805514707451_1_alg».proof.Proof.Spec
import proofs.«173063_j80805514707451_1_alg».proof.Proof.SpecLaws
import Idealize.ShloMosaic.Lib.ValueIdx
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- A point's number is below 64 (the grid is 8 × 8). -/
theorem pt_lt (t : Fin cfg0.N) : t.val < 64 := lt_of_lt_of_eq t.isLt N_0

/-! ## The index maps in closed form

Point t = 8 i + j has query tile i = t / 8 and key tile j = t % 8. Every window's block index is 0 on the batch axis
(and on the component axis, where there is one) and the point's query or key tile on the row axis. -/
theorem index0_0 : ∀ t : Fin cfg0.N, win0_0.index t (0 : Fin 3) = 0 ∧ win0_0.index t (1 : Fin 3) = t.val / 8 ∧ win0_0.index t (2 : Fin 3) = 0 :=
  (by decide +kernel : ∀ t : Fin grid0.N, _)
theorem index0_1 : ∀ t : Fin cfg0.N, win0_1.index t (0 : Fin 2) = 0 ∧ win0_1.index t (1 : Fin 2) = t.val / 8 :=
  (by decide +kernel : ∀ t : Fin grid0.N, _)
theorem index0_2 : ∀ t : Fin cfg0.N, win0_2.index t (0 : Fin 3) = 0 ∧ win0_2.index t (1 : Fin 3) = t.val % 8 ∧ win0_2.index t (2 : Fin 3) = 0 :=
  (by decide +kernel : ∀ t : Fin grid0.N, _)
theorem index0_3 : ∀ t : Fin cfg0.N, win0_3.index t (0 : Fin 2) = 0 ∧ win0_3.index t (1 : Fin 2) = t.val % 8 :=
  (by decide +kernel : ∀ t : Fin grid0.N, _)
theorem index0_4 : ∀ t : Fin cfg0.N, win0_4.index t (0 : Fin 2) = 0 ∧ win0_4.index t (1 : Fin 2) = t.val % 8 :=
  (by decide +kernel : ∀ t : Fin grid0.N, _)
theorem index0_5 : ∀ t : Fin cfg0.N, win0_5.index t (0 : Fin 2) = 0 ∧ win0_5.index t (1 : Fin 2) = t.val % 8 :=
  (by decide +kernel : ∀ t : Fin grid0.N, _)
theorem index0_6 : ∀ t : Fin cfg0.N, win0_6.index t (0 : Fin 3) = 0 ∧ win0_6.index t (1 : Fin 3) = t.val % 8 ∧ win0_6.index t (2 : Fin 3) = 0 :=
  (by decide +kernel : ∀ t : Fin grid0.N, _)
theorem index0_7 : ∀ t : Fin cfg0.N, win0_7.index t (0 : Fin 3) = 0 ∧ win0_7.index t (1 : Fin 3) = t.val % 8 ∧ win0_7.index t (2 : Fin 3) = 0 :=
  (by decide +kernel : ∀ t : Fin grid0.N, _)
theorem index0_8 : ∀ t : Fin cfg0.N, win0_8.index t (0 : Fin 2) = 0 ∧ win0_8.index t (1 : Fin 2) = t.val / 8 :=
  (by decide +kernel : ∀ t : Fin grid0.N, _)
theorem index0_9 : ∀ t : Fin cfg0.N, win0_9.index t (0 : Fin 2) = 0 ∧ win0_9.index t (1 : Fin 2) = t.val / 8 :=
  (by decide +kernel : ∀ t : Fin grid0.N, _)
theorem index0_10 : ∀ t : Fin cfg0.N, win0_10.index t (0 : Fin 3) = 0 ∧ win0_10.index t (1 : Fin 3) = t.val / 8 ∧ win0_10.index t (2 : Fin 3) = 0 :=
  (by decide +kernel : ∀ t : Fin grid0.N, _)
theorem index0_11 : ∀ t : Fin cfg0.N, win0_11.index t (0 : Fin 3) = 0 ∧ win0_11.index t (1 : Fin 3) = t.val / 8 ∧ win0_11.index t (2 : Fin 3) = 0 :=
  (by decide +kernel : ∀ t : Fin grid0.N, _)

/-! ## The input windows' blocks as rows of the arrays

Row p of a window's block at point t is row 128 · (the point's tile) + p of the window's array; the batch and
component coordinates are the array's own. The argument arrays are found as launched; the float mask is the host
conversion's result, read below. -/
/-- Window 0 (query positions): the block of point t is rows 128 · (t / 8) … of its array. -/
theorem iblk0_at (c : Dev nD) (t : Fin cfg0.N) (b : Fin 8) (p : Fin 128) (k : Fin 3) :
    iblk m c 0 t (ix3 b p k) = m ((c : Thread nD τ).loc main_arg0) (ix3 b ⟨128 * (t.val / 8) + p.val, by have := pt_lt t; omega⟩ k) := by
  rw [← V_main_arg0 m c]
  show V m c main_arg0 (((cfg0.win 0).blk t).view.emb (ix3 b p k)) = _
  refine congrArg _ ?_
  obtain ⟨e0, e1, e2⟩ := index0_0 t
  funext a; apply Fin.ext
  match a with
  | ⟨0, _⟩ => show win0_0.index t (0 : Fin 3) * 8 + 1 * b.val = b.val; omega
  | ⟨1, _⟩ => show win0_0.index t (1 : Fin 3) * 128 + 1 * p.val = 128 * (t.val / 8) + p.val; omega
  | ⟨2, _⟩ => show win0_0.index t (2 : Fin 3) * 3 + 1 * k.val = k.val; omega

/-- Window 1 (query float mask): the block of point t is rows 128 · (t / 8) … of its array. -/
theorem iblk1_at (c : Dev nD) (t : Fin cfg0.N) (b : Fin 8) (p : Fin 128) :
    iblk m c 1 t (ix2 b p) = V m c main_call0_v0 (ix2 b ⟨128 * (t.val / 8) + p.val, by have := pt_lt t; omega⟩) := by
  show V m c main_call0_v0 (((cfg0.win 1).blk t).view.emb (ix2 b p)) = _
  refine congrArg _ ?_
  obtain ⟨e0, e1⟩ := index0_1 t
  funext a; apply Fin.ext
  match a with
  | ⟨0, _⟩ => show win0_1.index t (0 : Fin 2) * 8 + 1 * b.val = b.val; omega
  | ⟨1, _⟩ => show win0_1.index t (1 : Fin 2) * 128 + 1 * p.val = 128 * (t.val / 8) + p.val; omega

/-- Window 2 (key positions): the block of point t is rows 128 · (t % 8) … of its array. -/
theorem iblk2_at (c : Dev nD) (t : Fin cfg0.N) (b : Fin 8) (q : Fin 128) (k : Fin 3) :
    iblk m c 2 t (ix3 b q k) = m ((c : Thread nD τ).loc main_arg0) (ix3 b ⟨128 * (t.val % 8) + q.val, by omega⟩ k) := by
  rw [← V_main_arg0 m c]
  show V m c main_arg0 (((cfg0.win 2).blk t).view.emb (ix3 b q k)) = _
  refine congrArg _ ?_
  obtain ⟨e0, e1, e2⟩ := index0_2 t
  funext a; apply Fin.ext
  match a with
  | ⟨0, _⟩ => show win0_2.index t (0 : Fin 3) * 8 + 1 * b.val = b.val; omega
  | ⟨1, _⟩ => show win0_2.index t (1 : Fin 3) * 128 + 1 * q.val = 128 * (t.val % 8) + q.val; omega
  | ⟨2, _⟩ => show win0_2.index t (2 : Fin 3) * 3 + 1 * k.val = k.val; omega

/-- Window 3 (key float mask): the block of point t is rows 128 · (t % 8) … of its array. -/
theorem iblk3_at (c : Dev nD) (t : Fin cfg0.N) (b : Fin 8) (q : Fin 128) :
    iblk m c 3 t (ix2 b q) = V m c main_call0_v0 (ix2 b ⟨128 * (t.val % 8) + q.val, by omega⟩) := by
  show V m c main_call0_v0 (((cfg0.win 3).blk t).view.emb (ix2 b q)) = _
  refine congrArg _ ?_
  obtain ⟨e0, e1⟩ := index0_3 t
  funext a; apply Fin.ext
  match a with
  | ⟨0, _⟩ => show win0_3.index t (0 : Fin 2) * 8 + 1 * b.val = b.val; omega
  | ⟨1, _⟩ => show win0_3.index t (1 : Fin 2) * 128 + 1 * q.val = 128 * (t.val % 8) + q.val; omega

/-- Window 4 (first scalar charge of the key rows): the block of point t is rows 128 · (t % 8) … of its array. -/
theorem iblk4_at (c : Dev nD) (t : Fin cfg0.N) (b : Fin 8) (q : Fin 128) :
    iblk m c 4 t (ix2 b q) = m ((c : Thread nD τ).loc main_arg2) (ix2 b ⟨128 * (t.val % 8) + q.val, by omega⟩) := by
  rw [← V_main_arg2 m c]
  show V m c main_arg2 (((cfg0.win 4).blk t).view.emb (ix2 b q)) = _
  refine congrArg _ ?_
  obtain ⟨e0, e1⟩ := index0_4 t
  funext a; apply Fin.ext
  match a with
  | ⟨0, _⟩ => show win0_4.index t (0 : Fin 2) * 8 + 1 * b.val = b.val; omega
  | ⟨1, _⟩ => show win0_4.index t (1 : Fin 2) * 128 + 1 * q.val = 128 * (t.val % 8) + q.val; omega

/-- Window 5 (second scalar charge of the key rows): the block of point t is rows 128 · (t % 8) … of its array. -/
theorem iblk5_at (c : Dev nD) (t : Fin cfg0.N) (b : Fin 8) (q : Fin 128) :
    iblk m c 5 t (ix2 b q) = m ((c : Thread nD τ).loc main_arg3) (ix2 b ⟨128 * (t.val % 8) + q.val, by omega⟩) := by
  rw [← V_main_arg3 m c]
  show V m c main_arg3 (((cfg0.win 5).blk t).view.emb (ix2 b q)) = _
  refine congrArg _ ?_
  obtain ⟨e0, e1⟩ := index0_5 t
  funext a; apply Fin.ext
  match a with
  | ⟨0, _⟩ => show win0_5.index t (0 : Fin 2) * 8 + 1 * b.val = b.val; omega
  | ⟨1, _⟩ => show win0_5.index t (1 : Fin 2) * 128 + 1 * q.val = 128 * (t.val % 8) + q.val; omega

/-- Window 6 (first dipole array of the key rows): the block of point t is rows 128 · (t % 8) … of its array. -/
theorem iblk6_at (c : Dev nD) (t : Fin cfg0.N) (b : Fin 8) (q : Fin 128) (k : Fin 3) :
    iblk m c 6 t (ix3 b q k) = m ((c : Thread nD τ).loc main_arg4) (ix3 b ⟨128 * (t.val % 8) + q.val, by omega⟩ k) := by
  rw [← V_main_arg4 m c]
  show V m c main_arg4 (((cfg0.win 6).blk t).view.emb (ix3 b q k)) = _
  refine congrArg _ ?_
  obtain ⟨e0, e1, e2⟩ := index0_6 t
  funext a; apply Fin.ext
  match a with
  | ⟨0, _⟩ => show win0_6.index t (0 : Fin 3) * 8 + 1 * b.val = b.val; omega
  | ⟨1, _⟩ => show win0_6.index t (1 : Fin 3) * 128 + 1 * q.val = 128 * (t.val % 8) + q.val; omega
  | ⟨2, _⟩ => show win0_6.index t (2 : Fin 3) * 3 + 1 * k.val = k.val; omega

/-- Window 7 (second dipole array of the key rows): the block of point t is rows 128 · (t % 8) … of its array. -/
theorem iblk7_at (c : Dev nD) (t : Fin cfg0.N) (b : Fin 8) (q : Fin 128) (k : Fin 3) :
    iblk m c 7 t (ix3 b q k) = m ((c : Thread nD τ).loc main_arg5) (ix3 b ⟨128 * (t.val % 8) + q.val, by omega⟩ k) := by
  rw [← V_main_arg5 m c]
  show V m c main_arg5 (((cfg0.win 7).blk t).view.emb (ix3 b q k)) = _
  refine congrArg _ ?_
  obtain ⟨e0, e1, e2⟩ := index0_7 t
  funext a; apply Fin.ext
  match a with
  | ⟨0, _⟩ => show win0_7.index t (0 : Fin 3) * 8 + 1 * b.val = b.val; omega
  | ⟨1, _⟩ => show win0_7.index t (1 : Fin 3) * 128 + 1 * q.val = 128 * (t.val % 8) + q.val; omega
  | ⟨2, _⟩ => show win0_7.index t (2 : Fin 3) * 3 + 1 * k.val = k.val; omega

/-! ## The float mask

The one host operation before the region converts the one-bit row mask to floats; nothing else writes its result. -/

/-- The float mask the region finds is the conversion of the launched one-bit mask. -/
theorem V_mask (c : Dev nD) : V m c main_call0_v0 = uitofp .f32 (m ((c : Thread nD τ).loc main_arg1)) := by
  dsimp only [V]
  simp only [hostOps0, List.flatten_cons, List.flatten_nil, List.append_nil, List.cons_append, List.nil_append]
  after_results; rfl

/-! ## The result windows' blocks

The four result windows move with the query tile: the block of point t is rows 128 · (t / 8) … 128 · (t / 8) + 127 of
the result array, every batch (and component) coordinate. -/
/-- Result window 8: where an index of point t's block lies in the array. -/
theorem oblk8_emb (t : Fin cfg0.N) (b : Fin 8) (p : Fin 128) :
    ((cfg0.win 8).blk t).view.emb (ix2 b p) = (ix2 b ⟨128 * (t.val / 8) + p.val, by have := pt_lt t; omega⟩ : S8x1024.Idx) := by
  obtain ⟨e0, e1⟩ := index0_8 t
  funext a; apply Fin.ext
  match a with
  | ⟨0, _⟩ => show win0_8.index t (0 : Fin 2) * 8 + 1 * b.val = b.val; omega
  | ⟨1, _⟩ => show win0_8.index t (1 : Fin 2) * 128 + 1 * p.val = 128 * (t.val / 8) + p.val; omega
/-- Result window 8: an index of the array is in point t's block iff each coordinate is in the block's range on its axis. -/
theorem mem_oblk8 (t : Fin cfg0.N) (i : S8x1024.Idx) :
    i ∈ ((cfg0.win 8).blk t).view.set ↔ ∀ a : Fin 2, win0_8.index t a * S8x128.size a ≤ (i a).val ∧ (i a).val < win0_8.index t a * S8x128.size a + S8x128.size a := by
  show i ∈ ((View.whole main_v0_0).slice (win0_8.rect t)).set ↔ _
  rw [View.set_slice_whole, Rect.mem_set_unit]
  exact Iff.rfl
/-- Result window 8: … iff its row is one of the query tile's 128 rows. -/
theorem mem_oblk8_iff (t : Fin cfg0.N) (i : S8x1024.Idx) :
    i ∈ ((cfg0.win 8).blk t).view.set ↔ 128 * (t.val / 8) ≤ (i 1).val ∧ (i 1).val < 128 * (t.val / 8) + 128 := by
  rw [mem_oblk8]
  obtain ⟨e0, e1⟩ := index0_8 t
  constructor
  · intro h
    have h1 : win0_8.index t (1 : Fin 2) * 128 ≤ (i 1).val ∧ (i 1).val < win0_8.index t (1 : Fin 2) * 128 + 128 := h 1
    omega
  · intro h a
    match a with
    | ⟨0, _⟩ => show win0_8.index t (0 : Fin 2) * 8 ≤ (i 0).val ∧ (i 0).val < win0_8.index t (0 : Fin 2) * 8 + 8; have hi : (i 0).val < 8 := (i 0).isLt; omega
    | ⟨1, _⟩ => show win0_8.index t (1 : Fin 2) * 128 ≤ (i 1).val ∧ (i 1).val < win0_8.index t (1 : Fin 2) * 128 + 128; omega

/-- Result window 9: where an index of point t's block lies in the array. -/
theorem oblk9_emb (t : Fin cfg0.N) (b : Fin 8) (p : Fin 128) :
    ((cfg0.win 9).blk t).view.emb (ix2 b p) = (ix2 b ⟨128 * (t.val / 8) + p.val, by have := pt_lt t; omega⟩ : S8x1024.Idx) := by
  obtain ⟨e0, e1⟩ := index0_9 t
  funext a; apply Fin.ext
  match a with
  | ⟨0, _⟩ => show win0_9.index t (0 : Fin 2) * 8 + 1 * b.val = b.val; omega
  | ⟨1, _⟩ => show win0_9.index t (1 : Fin 2) * 128 + 1 * p.val = 128 * (t.val / 8) + p.val; omega
/-- Result window 9: an index of the array is in point t's block iff each coordinate is in the block's range on its axis. -/
theorem mem_oblk9 (t : Fin cfg0.N) (i : S8x1024.Idx) :
    i ∈ ((cfg0.win 9).blk t).view.set ↔ ∀ a : Fin 2, win0_9.index t a * S8x128.size a ≤ (i a).val ∧ (i a).val < win0_9.index t a * S8x128.size a + S8x128.size a := by
  show i ∈ ((View.whole main_v0_1).slice (win0_9.rect t)).set ↔ _
  rw [View.set_slice_whole, Rect.mem_set_unit]
  exact Iff.rfl
/-- Result window 9: … iff its row is one of the query tile's 128 rows. -/
theorem mem_oblk9_iff (t : Fin cfg0.N) (i : S8x1024.Idx) :
    i ∈ ((cfg0.win 9).blk t).view.set ↔ 128 * (t.val / 8) ≤ (i 1).val ∧ (i 1).val < 128 * (t.val / 8) + 128 := by
  rw [mem_oblk9]
  obtain ⟨e0, e1⟩ := index0_9 t
  constructor
  · intro h
    have h1 : win0_9.index t (1 : Fin 2) * 128 ≤ (i 1).val ∧ (i 1).val < win0_9.index t (1 : Fin 2) * 128 + 128 := h 1
    omega
  · intro h a
    match a with
    | ⟨0, _⟩ => show win0_9.index t (0 : Fin 2) * 8 ≤ (i 0).val ∧ (i 0).val < win0_9.index t (0 : Fin 2) * 8 + 8; have hi : (i 0).val < 8 := (i 0).isLt; omega
    | ⟨1, _⟩ => show win0_9.index t (1 : Fin 2) * 128 ≤ (i 1).val ∧ (i 1).val < win0_9.index t (1 : Fin 2) * 128 + 128; omega

/-- Result window 10: where an index of point t's block lies in the array. -/
theorem oblk10_emb (t : Fin cfg0.N) (b : Fin 8) (p : Fin 128) (k : Fin 3) :
    ((cfg0.win 10).blk t).view.emb (ix3 b p k) = (ix3 b ⟨128 * (t.val / 8) + p.val, by have := pt_lt t; omega⟩ k : S8x1024x3.Idx) := by
  obtain ⟨e0, e1, e2⟩ := index0_10 t
  funext a; apply Fin.ext
  match a with
  | ⟨0, _⟩ => show win0_10.index t (0 : Fin 3) * 8 + 1 * b.val = b.val; omega
  | ⟨1, _⟩ => show win0_10.index t (1 : Fin 3) * 128 + 1 * p.val = 128 * (t.val / 8) + p.val; omega
  | ⟨2, _⟩ => show win0_10.index t (2 : Fin 3) * 3 + 1 * k.val = k.val; omega
/-- Result window 10: an index of the array is in point t's block iff each coordinate is in the block's range on its axis. -/
theorem mem_oblk10 (t : Fin cfg0.N) (i : S8x1024x3.Idx) :
    i ∈ ((cfg0.win 10).blk t).view.set ↔ ∀ a : Fin 3, win0_10.index t a * S8x128x3.size a ≤ (i a).val ∧ (i a).val < win0_10.index t a * S8x128x3.size a + S8x128x3.size a := by
  show i ∈ ((View.whole main_v0_2).slice (win0_10.rect t)).set ↔ _
  rw [View.set_slice_whole, Rect.mem_set_unit]
  exact Iff.rfl
/-- Result window 10: … iff its row is one of the query tile's 128 rows. -/
theorem mem_oblk10_iff (t : Fin cfg0.N) (i : S8x1024x3.Idx) :
    i ∈ ((cfg0.win 10).blk t).view.set ↔ 128 * (t.val / 8) ≤ (i 1).val ∧ (i 1).val < 128 * (t.val / 8) + 128 := by
  rw [mem_oblk10]
  obtain ⟨e0, e1, e2⟩ := index0_10 t
  constructor
  · intro h
    have h1 : win0_10.index t (1 : Fin 3) * 128 ≤ (i 1).val ∧ (i 1).val < win0_10.index t (1 : Fin 3) * 128 + 128 := h 1
    omega
  · intro h a
    match a with
    | ⟨0, _⟩ => show win0_10.index t (0 : Fin 3) * 8 ≤ (i 0).val ∧ (i 0).val < win0_10.index t (0 : Fin 3) * 8 + 8; have hi : (i 0).val < 8 := (i 0).isLt; omega
    | ⟨1, _⟩ => show win0_10.index t (1 : Fin 3) * 128 ≤ (i 1).val ∧ (i 1).val < win0_10.index t (1 : Fin 3) * 128 + 128; omega
    | ⟨2, _⟩ => show win0_10.index t (2 : Fin 3) * 3 ≤ (i 2).val ∧ (i 2).val < win0_10.index t (2 : Fin 3) * 3 + 3; have hi : (i 2).val < 3 := (i 2).isLt; omega

/-- Result window 11: where an index of point t's block lies in the array. -/
theorem oblk11_emb (t : Fin cfg0.N) (b : Fin 8) (p : Fin 128) (k : Fin 3) :
    ((cfg0.win 11).blk t).view.emb (ix3 b p k) = (ix3 b ⟨128 * (t.val / 8) + p.val, by have := pt_lt t; omega⟩ k : S8x1024x3.Idx) := by
  obtain ⟨e0, e1, e2⟩ := index0_11 t
  funext a; apply Fin.ext
  match a with
  | ⟨0, _⟩ => show win0_11.index t (0 : Fin 3) * 8 + 1 * b.val = b.val; omega
  | ⟨1, _⟩ => show win0_11.index t (1 : Fin 3) * 128 + 1 * p.val = 128 * (t.val / 8) + p.val; omega
  | ⟨2, _⟩ => show win0_11.index t (2 : Fin 3) * 3 + 1 * k.val = k.val; omega
/-- Result window 11: an index of the array is in point t's block iff each coordinate is in the block's range on its axis. -/
theorem mem_oblk11 (t : Fin cfg0.N) (i : S8x1024x3.Idx) :
    i ∈ ((cfg0.win 11).blk t).view.set ↔ ∀ a : Fin 3, win0_11.index t a * S8x128x3.size a ≤ (i a).val ∧ (i a).val < win0_11.index t a * S8x128x3.size a + S8x128x3.size a := by
  show i ∈ ((View.whole main_v0_3).slice (win0_11.rect t)).set ↔ _
  rw [View.set_slice_whole, Rect.mem_set_unit]
  exact Iff.rfl
/-- Result window 11: … iff its row is one of the query tile's 128 rows. -/
theorem mem_oblk11_iff (t : Fin cfg0.N) (i : S8x1024x3.Idx) :
    i ∈ ((cfg0.win 11).blk t).view.set ↔ 128 * (t.val / 8) ≤ (i 1).val ∧ (i 1).val < 128 * (t.val / 8) + 128 := by
  rw [mem_oblk11]
  obtain ⟨e0, e1, e2⟩ := index0_11 t
  constructor
  · intro h
    have h1 : win0_11.index t (1 : Fin 3) * 128 ≤ (i 1).val ∧ (i 1).val < win0_11.index t (1 : Fin 3) * 128 + 128 := h 1
    omega
  · intro h a
    match a with
    | ⟨0, _⟩ => show win0_11.index t (0 : Fin 3) * 8 ≤ (i 0).val ∧ (i 0).val < win0_11.index t (0 : Fin 3) * 8 + 8; have hi : (i 0).val < 8 := (i 0).isLt; omega
    | ⟨1, _⟩ => show win0_11.index t (1 : Fin 3) * 128 ≤ (i 1).val ∧ (i 1).val < win0_11.index t (1 : Fin 3) * 128 + 128; omega
    | ⟨2, _⟩ => show win0_11.index t (2 : Fin 3) * 3 ≤ (i 2).val ∧ (i 2).val < win0_11.index t (2 : Fin 3) * 3 + 3; have hi : (i 2).val < 3 := (i 2).isLt; omega

/-! ## The float mask at an index, over the extended reals -/

/-- The float mask the region finds, read at an index, is the 0/1 value of the launched mask bit there. -/
theorem V_mask_at (m : (ℓ : Loc nD τ sig) → Buf (Elt Ideal) ℓ) (c : Dev nD) (y : Cert.Spec.SR.Idx) :
    V m c main_call0_v0 y = Cert.Spec.maskF (m ((c : Thread nD τ).loc main_arg1)) y := by
  rw [V_mask]; exact Cert.Spec.uitofp_apply _ y

end Cert.KernelIdeal.Fr

end
-- ==== Proof.TileValue.lean ====
/-
  The sixteen lane reductions of one tile pair, read at an index, in the specification's words: under the ties between
  the sixteen loaded vectors and the whole arrays (query tile I, key tile J), the monopole and dipole sums at (b, p)
  are the sums over the 128 key rows of tile J of the specification's per-pair terms at query row 128·I + p.
-/
import proofs.«173063_j80805514707451_1_alg».proof.Proof.FrameKernelIdeal.Tile
import proofs.«173063_j80805514707451_1_alg».proof.Proof.SpecLaws
import Idealize.ShloMosaic.Lib.Pipeline.Value
import Idealize.ShloMosaic.PureOps.Ideal.Laws

noncomputable section

open scoped BigOperators

namespace Cert.KernelIdeal.TileValue

open Idealize.ShloMosaic Idealize.ShloMosaic.ValueIdx Idealize.SL.Sem
open Cert.KernelIdeal Cert.KernelIdeal.Gen Cert.KernelIdeal.Fr

/-! ## Layout operations at the literal shapes -/

section Layout
variable {α : Type}

/-- A plane [8,128,1] read as a row [8,128]. -/
theorem plane_row (v : S8x128x1.Idx → α) (b : Fin 8) (p : Fin 128) :
    shapeCast S8x128 v shapeCasts_S8x128x1_S8x128 (ix2 b p) = v (ix3 b p 0) :=
  shapeCast_apply v shapeCasts_S8x128x1_S8x128 (ix2 b p) (ix3 b p 0) (by
    rw [Shape.rowMajor_val_three, Shape.rowMajor_val_two]
    show (b.val * 128 + p.val) * 1 + 0 = b.val * 128 + p.val
    omega)

/-- A row [8,128] as a column block [8,128,1]. -/
theorem row_col (v : S8x128.Idx → α) (b : Fin 8) (p : Fin 128) (z : Fin 1) :
    shapeCast S8x128x1 v shapeCasts_S8x128_S8x128x1 (ix3 b p z) = v (ix2 b p) :=
  shapeCast_apply v shapeCasts_S8x128_S8x128x1 (ix3 b p z) (ix2 b p) (by
    rw [Shape.rowMajor_val_three, Shape.rowMajor_val_two]
    show b.val * 128 + p.val = (b.val * 128 + p.val) * 1 + z.val
    omega)

/-- A row [8,128] as a row block [8,1,128]. -/
theorem row_lane (v : S8x128.Idx → α) (b : Fin 8) (z : Fin 1) (q : Fin 128) :
    shapeCast S8x1x128 v shapeCasts_S8x128_S8x1x128 (ix3 b z q) = v (ix2 b q) :=
  shapeCast_apply v shapeCasts_S8x128_S8x1x128 (ix3 b z q) (ix2 b q) (by
    rw [Shape.rowMajor_val_three, Shape.rowMajor_val_two]
    show b.val * 128 + q.val = (b.val * 1 + z.val) * 128 + q.val
    omega)

/-- A column block spread over the key rows. -/
theorem spread_col (x : S8x128x1.Idx → α) (b : Fin 8) (p q : Fin 128) :
    broadcastTo S8x128x128 x broadcasts_S8x128x1_S8x128x128 (ix3 b p q) = x (ix3 b p 0) :=
  broadcastTo_apply x broadcasts_S8x128x1_S8x128x128 (ix3 b p q) (ix3 b p 0) (fun a =>
    match a with
    | ⟨0, _⟩ => rfl
    | ⟨1, _⟩ => rfl
    | ⟨2, _⟩ => rfl)

/-- A row block spread over the query rows. -/
theorem spread_lane (x : S8x1x128.Idx → α) (b : Fin 8) (p q : Fin 128) :
    broadcastTo S8x128x128 x broadcasts_S8x1x128_S8x128x128 (ix3 b p q) = x (ix3 b 0 q) :=
  broadcastTo_apply x broadcasts_S8x1x128_S8x128x128 (ix3 b p q) (ix3 b 0 q) (fun a =>
    match a with
    | ⟨0, _⟩ => rfl
    | ⟨1, _⟩ => rfl
    | ⟨2, _⟩ => rfl)

/-- A query row spread over the pairs reads the query row's entry. -/
theorem query_spread (v : S8x128.Idx → α) (b : Fin 8) (p q : Fin 128) :
    broadcastTo S8x128x128 (shapeCast S8x128x1 v shapeCasts_S8x128_S8x128x1) broadcasts_S8x128x1_S8x128x128 (ix3 b p q)
      = v (ix2 b p) :=
  (spread_col _ b p q).trans (row_col v b p 0)

/-- A key row spread over the pairs reads the key row's entry. -/
theorem key_spread (v : S8x128.Idx → α) (b : Fin 8) (p q : Fin 128) :
    broadcastTo S8x128x128 (shapeCast S8x1x128 v shapeCasts_S8x128_S8x1x128) broadcasts_S8x1x128_S8x128x128 (ix3 b p q)
      = v (ix2 b q) :=
  (spread_lane _ b p q).trans (row_lane v b 0 q)

end Layout

/-- A lane sum of an [8,128,128] vector at (b, p): the sum over the 128 key rows. -/
theorem laneSum_apply (src : FVec Ideal S8x128x128 .f32) (b : Fin 8) (p : Fin 128) :
    multiReduction (F := Ideal) .add [2] S8x128 src 0x00000000#32 reduces_S8x128x128_S8x128 (.inl rfl) rfl (ix2 b p)
      = ∑ q : Fin 128, src (ix3 b p q) := by
  refine (Ideal.multiReduction_add_single src 0x00000000#32 reduces_S8x128x128_S8x128 (.inl rfl) rfl (ix2 b p)).trans ?_
  refine Finset.sum_congr rfl fun q _ => congrArg src ?_
  funext a
  match a with
  | ⟨0, _⟩ => rfl
  | ⟨1, _⟩ => rfl
  | ⟨2, _⟩ => rfl

/-! ## The payloads on generic vectors, at a pair (b, p, q) -/

section Payloads
variable (b : Fin 8) (p q : Fin 128)

/-- A coordinate difference: the query row's entry minus the key row's. -/
theorem pay34_apply (a c : FVec Ideal S8x128 .f32) :
    k0_pay34 a c (ix3 b p q) = a (ix2 b p) - c (ix2 b q) := by
  show broadcastTo S8x128x128 (shapeCast S8x128x1 a shapeCasts_S8x128_S8x128x1) broadcasts_S8x128x1_S8x128x128 (ix3 b p q)
      - broadcastTo S8x128x128 (shapeCast S8x1x128 c shapeCasts_S8x128_S8x1x128) broadcasts_S8x1x128_S8x128x128 (ix3 b p q) = _
  rw [query_spread, key_spread]

theorem pay35_apply (a c : FVec Ideal S8x128 .f32) :
    k0_pay35 a c (ix3 b p q) = a (ix2 b p) - c (ix2 b q) := pay34_apply b p q a c

theorem pay36_apply (a c : FVec Ideal S8x128 .f32) :
    k0_pay36 a c (ix3 b p q) = a (ix2 b p) - c (ix2 b q) := pay34_apply b p q a c

/-- The safe distance from the three differences. -/
theorem pay37_apply (x y z x' y' z' : FVec Ideal S8x128 .f32) :
    k0_pay37 x y z x' y' z' (ix3 b p q)
      = Spec.dist (x (ix2 b p) - x' (ix2 b q)) (y (ix2 b p) - y' (ix2 b q)) (z (ix2 b p) - z' (ix2 b q)) := by
  show Spec.dist (k0_pay34 x x' (ix3 b p q)) (k0_pay35 y y' (ix3 b p q)) (k0_pay36 z z' (ix3 b p q)) = _
  rw [pay34_apply, pay35_apply, pay36_apply]

/-- The reciprocal of the clamped distance. -/
theorem pay38_apply (x y z x' y' z' : FVec Ideal S8x128 .f32) :
    k0_pay38 x y z x' y' z' (ix3 b p q) = Spec.invd (k0_pay37 x y z x' y' z' (ix3 b p q)) := rfl

/-- The mask product: the query row's mask times the key row's. -/
theorem pay42_apply (a c : FVec Ideal S8x128 .f32) :
    k0_pay42 a c (ix3 b p q) = a (ix2 b p) * c (ix2 b q) := by
  show broadcastTo S8x128x128 (shapeCast S8x128x1 a shapeCasts_S8x128_S8x128x1) broadcasts_S8x128x1_S8x128x128 (ix3 b p q)
      * broadcastTo S8x128x128 (shapeCast S8x1x128 c shapeCasts_S8x128_S8x1x128) broadcasts_S8x1x128_S8x128x128 (ix3 b p q) = _
  rw [query_spread, key_spread]

/-- The softened inverse distance. -/
theorem pay43_apply (d : FVec Ideal S8x128x128 .f32) (j : S8x128x128.Idx) :
    k0_pay43 d j = Spec.invr (d j) := rfl

/-- The pair weight times one softened inverse distance. -/
theorem pay44_apply (d m : FVec Ideal S8x128x128 .f32) (j : S8x128x128.Idx) (vi vj : EReal) (hm : m j = vi * vj) :
    k0_pay44 d m j = Spec.wgt (d j) vi vj * Spec.invr (d j) := by
  show ((((Spec.cHalf * (Ideal.cos (Spec.cPi * Ideal.div (d j) Spec.cCut) + Spec.cOne))
          * (sitofp (F := Ideal) .f32 (extui 32 (cmpf .ole d (broadcast S8x128x128 Spec.cCut)) natLt_1_32)) j)
        * ((m j * (sitofp (F := Ideal) .f32 (extui 32 (cmpf .ogt d (broadcast S8x128x128 Spec.cEps)) natLt_1_32)) j)
          * (sitofp (F := Ideal) .f32 (extui 32 (cmpf .ole d (broadcast S8x128x128 Spec.cCut)) natLt_1_32)) j))
      * Ideal.exp (Spec.cNegHalf * (Ideal.div (d j) Spec.cSig * Ideal.div (d j) Spec.cSig))) * Spec.invr (d j) = _
  rw [Spec.sitofp_extui_apply, Spec.sitofp_extui_apply, hm]
  rfl

/-- A key row spread over the pairs, through its [8,1,128] block. -/
theorem charge_apply (v : Vec Ideal S8x128 .f32) :
    (broadcastTo S8x128x128 (k0_pay47 v) broadcasts_S8x1x128_S8x128x128 : FVec Ideal S8x128x128 .f32) (ix3 b p q)
      = v (ix2 b q) :=
  key_spread v b p q

/-- A dipole against the unit vector. -/
theorem pay60_apply (mx my mz : FVec Ideal S8x128 .f32) (ux uy uz : FVec Ideal S8x128x128 .f32) :
    k0_pay60 mx my mz ux uy uz (ix3 b p q)
      = (mx (ix2 b q) * ux (ix3 b p q) + my (ix2 b q) * uy (ix3 b p q)) + mz (ix2 b q) * uz (ix3 b p q) := by
  show (broadcastTo S8x128x128 (shapeCast S8x1x128 mx shapeCasts_S8x128_S8x1x128) broadcasts_S8x1x128_S8x128x128 (ix3 b p q) * ux (ix3 b p q)
      + broadcastTo S8x128x128 (shapeCast S8x1x128 my shapeCasts_S8x128_S8x1x128) broadcasts_S8x1x128_S8x128x128 (ix3 b p q) * uy (ix3 b p q))
      + broadcastTo S8x128x128 (shapeCast S8x1x128 mz shapeCasts_S8x128_S8x1x128) broadcasts_S8x1x128_S8x128x128 (ix3 b p q) * uz (ix3 b p q) = _
  rw [key_spread, key_spread, key_spread]

theorem pay61_apply (mx my mz : FVec Ideal S8x128 .f32) (ux uy uz : FVec Ideal S8x128x128 .f32) :
    k0_pay61 mx my mz ux uy uz (ix3 b p q)
      = (mx (ix2 b q) * ux (ix3 b p q) + my (ix2 b q) * uy (ix3 b p q)) + mz (ix2 b q) * uz (ix3 b p q) :=
  pay60_apply b p q mx my mz ux uy uz

end Payloads

/-! ## The ties between the loaded vectors and the whole arrays -/

/-- Row `p` of tile `I` among the 1024 rows. -/
abbrev row (I : Fin 8) (p : Fin 128) : Fin 1024 := ⟨128 * I.val + p.val, by omega⟩

/-- The sixteen loads of the tile pair (query tile `I`, key tile `J`) are the blocks of the whole arrays: positions
    `P`, float row mask `M`, the two charge arrays `sq` `sm` and the two dipole arrays `μq` `μm`. -/
structure Ties (P : Spec.SP.Idx → EReal) (M : Spec.SR.Idx → EReal) (sq sm : Spec.SR.Idx → EReal)
    (μq μm : Spec.SP.Idx → EReal) (I J : Fin 8) (l : Loads Ideal) : Prop where
  h3 : ∀ (b : Fin 8) (p : Fin 128), l.v3 (ix3 b p (0 : Fin 1)) = P (ix3 b (row I p) (0 : Fin 3))
  h5 : ∀ (b : Fin 8) (p : Fin 128), l.v5 (ix3 b p (0 : Fin 1)) = P (ix3 b (row I p) (1 : Fin 3))
  h7 : ∀ (b : Fin 8) (p : Fin 128), l.v7 (ix3 b p (0 : Fin 1)) = P (ix3 b (row I p) (2 : Fin 3))
  h9 : ∀ (b : Fin 8) (q : Fin 128), l.v9 (ix3 b q (0 : Fin 1)) = P (ix3 b (row J q) (0 : Fin 3))
  h11 : ∀ (b : Fin 8) (q : Fin 128), l.v11 (ix3 b q (0 : Fin 1)) = P (ix3 b (row J q) (1 : Fin 3))
  h13 : ∀ (b : Fin 8) (q : Fin 128), l.v13 (ix3 b q (0 : Fin 1)) = P (ix3 b (row J q) (2 : Fin 3))
  h15 : ∀ (b : Fin 8) (p : Fin 128), l.v15 (ix2 b p) = M (ix2 b (row I p))
  h17 : ∀ (b : Fin 8) (q : Fin 128), l.v17 (ix2 b q) = M (ix2 b (row J q))
  h19 : ∀ (b : Fin 8) (q : Fin 128), l.v19 (ix2 b q) = sq (ix2 b (row J q))
  h20 : ∀ (b : Fin 8) (q : Fin 128), l.v20 (ix2 b q) = sm (ix2 b (row J q))
  h21 : ∀ (b : Fin 8) (q : Fin 128), l.v21 (ix3 b q (0 : Fin 1)) = μq (ix3 b (row J q) (0 : Fin 3))
  h23 : ∀ (b : Fin 8) (q : Fin 128), l.v23 (ix3 b q (0 : Fin 1)) = μq (ix3 b (row J q) (1 : Fin 3))
  h25 : ∀ (b : Fin 8) (q : Fin 128), l.v25 (ix3 b q (0 : Fin 1)) = μq (ix3 b (row J q) (2 : Fin 3))
  h27 : ∀ (b : Fin 8) (q : Fin 128), l.v27 (ix3 b q (0 : Fin 1)) = μm (ix3 b (row J q) (0 : Fin 3))
  h29 : ∀ (b : Fin 8) (q : Fin 128), l.v29 (ix3 b q (0 : Fin 1)) = μm (ix3 b (row J q) (1 : Fin 3))
  h31 : ∀ (b : Fin 8) (q : Fin 128), l.v31 (ix3 b q (0 : Fin 1)) = μm (ix3 b (row J q) (2 : Fin 3))

section Tied
variable {P : Spec.SP.Idx → EReal} {M : Spec.SR.Idx → EReal} {sq sm : Spec.SR.Idx → EReal}
  {μq μm : Spec.SP.Idx → EReal} {I J : Fin 8} {l : Loads Ideal} (T : Ties P M sq sm μq μm I J l)
include T

/-! ### The rows -/

theorem qx_apply (b : Fin 8) (p : Fin 128) : qx l (ix2 b p) = P (ix3 b (row I p) (0 : Fin 3)) :=
  (plane_row l.v3 b p).trans (T.h3 b p)
theorem qy_apply (b : Fin 8) (p : Fin 128) : qy l (ix2 b p) = P (ix3 b (row I p) (1 : Fin 3)) :=
  (plane_row l.v5 b p).trans (T.h5 b p)
theorem qz_apply (b : Fin 8) (p : Fin 128) : qz l (ix2 b p) = P (ix3 b (row I p) (2 : Fin 3)) :=
  (plane_row l.v7 b p).trans (T.h7 b p)
theorem kx_apply (b : Fin 8) (q : Fin 128) : kx l (ix2 b q) = P (ix3 b (row J q) (0 : Fin 3)) :=
  (plane_row l.v9 b q).trans (T.h9 b q)
theorem ky_apply (b : Fin 8) (q : Fin 128) : ky l (ix2 b q) = P (ix3 b (row J q) (1 : Fin 3)) :=
  (plane_row l.v11 b q).trans (T.h11 b q)
theorem kz_apply (b : Fin 8) (q : Fin 128) : kz l (ix2 b q) = P (ix3 b (row J q) (2 : Fin 3)) :=
  (plane_row l.v13 b q).trans (T.h13 b q)
theorem qmask_apply (b : Fin 8) (p : Fin 128) : qmask l (ix2 b p) = M (ix2 b (row I p)) :=
  (congrFun (shapeCast_self l.v15 shapeCasts_S8x128_S8x128) (ix2 b p)).trans (T.h15 b p)
theorem kmask_apply (b : Fin 8) (q : Fin 128) : kmask l (ix2 b q) = M (ix2 b (row J q)) :=
  (congrFun (shapeCast_self l.v17 shapeCasts_S8x128_S8x128) (ix2 b q)).trans (T.h17 b q)
theorem muqx_apply (b : Fin 8) (q : Fin 128) : muqx l (ix2 b q) = μq (ix3 b (row J q) (0 : Fin 3)) :=
  (plane_row l.v21 b q).trans (T.h21 b q)
theorem muqy_apply (b : Fin 8) (q : Fin 128) : muqy l (ix2 b q) = μq (ix3 b (row J q) (1 : Fin 3)) :=
  (plane_row l.v23 b q).trans (T.h23 b q)
theorem muqz_apply (b : Fin 8) (q : Fin 128) : muqz l (ix2 b q) = μq (ix3 b (row J q) (2 : Fin 3)) :=
  (plane_row l.v25 b q).trans (T.h25 b q)
theorem mumx_apply (b : Fin 8) (q : Fin 128) : mumx l (ix2 b q) = μm (ix3 b (row J q) (0 : Fin 3)) :=
  (plane_row l.v27 b q).trans (T.h27 b q)
theorem mumy_apply (b : Fin 8) (q : Fin 128) : mumy l (ix2 b q) = μm (ix3 b (row J q) (1 : Fin 3)) :=
  (plane_row l.v29 b q).trans (T.h29 b q)
theorem mumz_apply (b : Fin 8) (q : Fin 128) : mumz l (ix2 b q) = μm (ix3 b (row J q) (2 : Fin 3)) :=
  (plane_row l.v31 b q).trans (T.h31 b q)

/-! ### The pair quantities at (b, p, q) -/

variable (b : Fin 8) (p q : Fin 128)

/-- The safe distance of query row 128·I + p and key row 128·J + q. -/
theorem distance_apply : distance l (ix3 b p q) = Spec.dd P b (row I p) (row J q) := by
  show k0_pay37 (qx l) (qy l) (qz l) (kx l) (ky l) (kz l) (ix3 b p q) = _
  rw [pay37_apply, qx_apply T, qy_apply T, qz_apply T, kx_apply T, ky_apply T, kz_apply T]
  rfl

/-- The unit vector's coordinates. -/
theorem unitx_apply : unitx l (ix3 b p q) = Spec.uu P b (row I p) (row J q) (0 : Fin 3) := by
  show k0_pay34 (qx l) (kx l) (ix3 b p q) * Spec.invd (distance l (ix3 b p q)) = _
  rw [pay34_apply, distance_apply T, qx_apply T, kx_apply T]
  rfl
theorem unity_apply : unity l (ix3 b p q) = Spec.uu P b (row I p) (row J q) (1 : Fin 3) := by
  show k0_pay35 (qy l) (ky l) (ix3 b p q) * Spec.invd (distance l (ix3 b p q)) = _
  rw [pay35_apply, distance_apply T, qy_apply T, ky_apply T]
  rfl
theorem unitz_apply : unitz l (ix3 b p q) = Spec.uu P b (row I p) (row J q) (2 : Fin 3) := by
  show k0_pay36 (qz l) (kz l) (ix3 b p q) * Spec.invd (distance l (ix3 b p q)) = _
  rw [pay36_apply, distance_apply T, qz_apply T, kz_apply T]
  rfl

/-- The product of the two row masks. -/
theorem maskprod_apply : maskprod l (ix3 b p q) = M (ix2 b (row I p)) * M (ix2 b (row J q)) := by
  show k0_pay42 (qmask l) (kmask l) (ix3 b p q) = _
  rw [pay42_apply, qmask_apply T, kmask_apply T]

/-- The pair weight times one, two and three softened inverse distances. -/
theorem weight1_apply : k0_pay44 (distance l) (maskprod l) (ix3 b p q) = Spec.w1 P M b (row I p) (row J q) := by
  rw [pay44_apply (distance l) (maskprod l) (ix3 b p q) _ _ (maskprod_apply T b p q), distance_apply T]
  rfl
theorem weight2_apply : weight2 l (ix3 b p q) = Spec.w2 P M b (row I p) (row J q) := by
  show k0_pay44 (distance l) (maskprod l) (ix3 b p q) * Spec.invr (distance l (ix3 b p q)) = _
  rw [weight1_apply T, distance_apply T]
  rfl
theorem weight3_apply : weight3 l (ix3 b p q) = Spec.w3 P M b (row I p) (row J q) := by
  show weight2 l (ix3 b p q) * Spec.invr (distance l (ix3 b p q)) = _
  rw [weight2_apply T, distance_apply T]
  rfl

/-- The two key dipoles against the unit vector. -/
theorem dotq_apply : k0_pay60 (muqx l) (muqy l) (muqz l) (unitx l) (unity l) (unitz l) (ix3 b p q)
    = Spec.dotu P μq b (row I p) (row J q) := by
  rw [pay60_apply, muqx_apply T, muqy_apply T, muqz_apply T, unitx_apply T, unity_apply T, unitz_apply T]
  rfl
theorem dotm_apply : k0_pay61 (mumx l) (mumy l) (mumz l) (unitx l) (unity l) (unitz l) (ix3 b p q)
    = Spec.dotu P μm b (row I p) (row J q) := by
  rw [pay61_apply, mumx_apply T, mumy_apply T, mumz_apply T, unitx_apply T, unity_apply T, unitz_apply T]
  rfl

/-- The two key charges spread over the pairs. -/
theorem chargeq_apply : (broadcastTo S8x128x128 (k0_pay47 l.v19) broadcasts_S8x1x128_S8x128x128 : FVec Ideal S8x128x128 .f32) (ix3 b p q)
    = sq (ix2 b (row J q)) :=
  (charge_apply b p q l.v19).trans (T.h19 b q)
theorem chargem_apply : chargem l (ix3 b p q) = sm (ix2 b (row J q)) :=
  (charge_apply b p q l.v20).trans (T.h20 b q)

end Tied

/-! ## The sixteen reductions at (b, p): sums over the 128 key rows of tile J -/

section Sums
variable {P : Spec.SP.Idx → EReal} {M : Spec.SR.Idx → EReal} {sq sm : Spec.SR.Idx → EReal}
  {μq μm : Spec.SP.Idx → EReal} {I J : Fin 8} {l : Loads Ideal} (T : Ties P M sq sm μq μm I J l)
  (b : Fin 8) (p : Fin 128)
include T

/-- The potential's monopole and dipole sums, first pair. -/
theorem mono0_apply : mono0 l (ix2 b p) = ∑ q : Fin 128, Spec.potMono P M sq b (row I p) (row J q) := by
  show multiReduction (F := Ideal) .add [2] S8x128 (mulf (k0_pay44 (distance l) (maskprod l)) (broadcastTo S8x128x128 (k0_pay47 l.v19) broadcasts_S8x1x128_S8x128x128)) 0x00000000#32 reduces_S8x128x128_S8x128 (.inl rfl) rfl (ix2 b p) = _
  rw [laneSum_apply]
  refine Finset.sum_congr rfl fun q _ => ?_
  rw [mulf_apply, weight1_apply T, chargeq_apply T]
  rfl
theorem dip0_apply : dip0 l (ix2 b p) = ∑ q : Fin 128, Spec.potDip P M μq b (row I p) (row J q) := by
  show multiReduction (F := Ideal) .add [2] S8x128 (mulf (weight2 l) (k0_pay60 (muqx l) (muqy l) (muqz l) (unitx l) (unity l) (unitz l))) 0x00000000#32 reduces_S8x128x128_S8x128 (.inl rfl) rfl (ix2 b p) = _
  rw [laneSum_apply]
  refine Finset.sum_congr rfl fun q _ => ?_
  rw [mulf_apply, weight2_apply T, dotq_apply T]
  rfl
/-- The potential's monopole and dipole sums, second pair. -/
theorem mono1_apply : mono1 l (ix2 b p) = ∑ q : Fin 128, Spec.potMono P M sm b (row I p) (row J q) := by
  show multiReduction (F := Ideal) .add [2] S8x128 (mulf (k0_pay44 (distance l) (maskprod l)) (chargem l)) 0x00000000#32 reduces_S8x128x128_S8x128 (.inl rfl) rfl (ix2 b p) = _
  rw [laneSum_apply]
  refine Finset.sum_congr rfl fun q _ => ?_
  rw [mulf_apply, weight1_apply T, chargem_apply T]
  rfl
theorem dip1_apply : dip1 l (ix2 b p) = ∑ q : Fin 128, Spec.potDip P M μm b (row I p) (row J q) := by
  show multiReduction (F := Ideal) .add [2] S8x128 (mulf (weight2 l) (k0_pay61 (mumx l) (mumy l) (mumz l) (unitx l) (unity l) (unitz l))) 0x00000000#32 reduces_S8x128x128_S8x128 (.inl rfl) rfl (ix2 b p) = _
  rw [laneSum_apply]
  refine Finset.sum_congr rfl fun q _ => ?_
  rw [mulf_apply, weight2_apply T, dotm_apply T]
  rfl
/-- The field's monopole sums, first pair, components x, y, z. -/
theorem mono2_apply : mono2 l (ix2 b p) = ∑ q : Fin 128, Spec.fldMono P M sq b (row I p) (row J q) (0 : Fin 3) := by
  show multiReduction (F := Ideal) .add [2] S8x128 (mulf (mulf (weight2 l) (broadcastTo S8x128x128 (k0_pay47 l.v19) broadcasts_S8x1x128_S8x128x128)) (unitx l)) 0x00000000#32 reduces_S8x128x128_S8x128 (.inl rfl) rfl (ix2 b p) = _
  rw [laneSum_apply]
  refine Finset.sum_congr rfl fun q _ => ?_
  rw [mulf_apply, mulf_apply, weight2_apply T, chargeq_apply T, unitx_apply T]
  rfl
theorem mono3_apply : mono3 l (ix2 b p) = ∑ q : Fin 128, Spec.fldMono P M sq b (row I p) (row J q) (1 : Fin 3) := by
  show multiReduction (F := Ideal) .add [2] S8x128 (mulf (mulf (weight2 l) (broadcastTo S8x128x128 (k0_pay47 l.v19) broadcasts_S8x1x128_S8x128x128)) (unity l)) 0x00000000#32 reduces_S8x128x128_S8x128 (.inl rfl) rfl (ix2 b p) = _
  rw [laneSum_apply]
  refine Finset.sum_congr rfl fun q _ => ?_
  rw [mulf_apply, mulf_apply, weight2_apply T, chargeq_apply T, unity_apply T]
  rfl
theorem mono4_apply : mono4 l (ix2 b p) = ∑ q : Fin 128, Spec.fldMono P M sq b (row I p) (row J q) (2 : Fin 3) := by
  show multiReduction (F := Ideal) .add [2] S8x128 (mulf (mulf (weight2 l) (broadcastTo S8x128x128 (k0_pay47 l.v19) broadcasts_S8x1x128_S8x128x128)) (unitz l)) 0x00000000#32 reduces_S8x128x128_S8x128 (.inl rfl) rfl (ix2 b p) = _
  rw [laneSum_apply]
  refine Finset.sum_congr rfl fun q _ => ?_
  rw [mulf_apply, mulf_apply, weight2_apply T, chargeq_apply T, unitz_apply T]
  rfl
/-- The field's dipole sums, first pair, components x, y, z. -/
theorem dip2_apply : dip2 l (ix2 b p) = ∑ q : Fin 128, Spec.fldDip P M μq b (row I p) (row J q) (0 : Fin 3) := by
  show multiReduction (F := Ideal) .add [2] S8x128 (mulf (mulf (weight3 l) (k0_pay60 (muqx l) (muqy l) (muqz l) (unitx l) (unity l) (unitz l))) (unitx l)) 0x00000000#32 reduces_S8x128x128_S8x128 (.inl rfl) rfl (ix2 b p) = _
  rw [laneSum_apply]
  refine Finset.sum_congr rfl fun q _ => ?_
  rw [mulf_apply, mulf_apply, weight3_apply T, dotq_apply T, unitx_apply T]
  rfl
theorem dip3_apply : dip3 l (ix2 b p) = ∑ q : Fin 128, Spec.fldDip P M μq b (row I p) (row J q) (1 : Fin 3) := by
  show multiReduction (F := Ideal) .add [2] S8x128 (mulf (mulf (weight3 l) (k0_pay60 (muqx l) (muqy l) (muqz l) (unitx l) (unity l) (unitz l))) (unity l)) 0x00000000#32 reduces_S8x128x128_S8x128 (.inl rfl) rfl (ix2 b p) = _
  rw [laneSum_apply]
  refine Finset.sum_congr rfl fun q _ => ?_
  rw [mulf_apply, mulf_apply, weight3_apply T, dotq_apply T, unity_apply T]
  rfl
theorem dip4_apply : dip4 l (ix2 b p) = ∑ q : Fin 128, Spec.fldDip P M μq b (row I p) (row J q) (2 : Fin 3) := by
  show multiReduction (F := Ideal) .add [2] S8x128 (mulf (mulf (weight3 l) (k0_pay60 (muqx l) (muqy l) (muqz l) (unitx l) (unity l) (unitz l))) (unitz l)) 0x00000000#32 reduces_S8x128x128_S8x128 (.inl rfl) rfl (ix2 b p) = _
  rw [laneSum_apply]
  refine Finset.sum_congr rfl fun q _ => ?_
  rw [mulf_apply, mulf_apply, weight3_apply T, dotq_apply T, unitz_apply T]
  rfl
/-- The field's monopole sums, second pair, components x, y, z. -/
theorem mono5_apply : mono5 l (ix2 b p) = ∑ q : Fin 128, Spec.fldMono P M sm b (row I p) (row J q) (0 : Fin 3) := by
  show multiReduction (F := Ideal) .add [2] S8x128 (mulf (mulf (weight2 l) (chargem l)) (unitx l)) 0x00000000#32 reduces_S8x128x128_S8x128 (.inl rfl) rfl (ix2 b p) = _
  rw [laneSum_apply]
  refine Finset.sum_congr rfl fun q _ => ?_
  rw [mulf_apply, mulf_apply, weight2_apply T, chargem_apply T, unitx_apply T]
  rfl
theorem mono6_apply : mono6 l (ix2 b p) = ∑ q : Fin 128, Spec.fldMono P M sm b (row I p) (row J q) (1 : Fin 3) := by
  show multiReduction (F := Ideal) .add [2] S8x128 (mulf (mulf (weight2 l) (chargem l)) (unity l)) 0x00000000#32 reduces_S8x128x128_S8x128 (.inl rfl) rfl (ix2 b p) = _
  rw [laneSum_apply]
  refine Finset.sum_congr rfl fun q _ => ?_
  rw [mulf_apply, mulf_apply, weight2_apply T, chargem_apply T, unity_apply T]
  rfl
theorem mono7_apply : mono7 l (ix2 b p) = ∑ q : Fin 128, Spec.fldMono P M sm b (row I p) (row J q) (2 : Fin 3) := by
  show multiReduction (F := Ideal) .add [2] S8x128 (mulf (mulf (weight2 l) (chargem l)) (unitz l)) 0x00000000#32 reduces_S8x128x128_S8x128 (.inl rfl) rfl (ix2 b p) = _
  rw [laneSum_apply]
  refine Finset.sum_congr rfl fun q _ => ?_
  rw [mulf_apply, mulf_apply, weight2_apply T, chargem_apply T, unitz_apply T]
  rfl
/-- The field's dipole sums, second pair, components x, y, z. -/
theorem dip5_apply : dip5 l (ix2 b p) = ∑ q : Fin 128, Spec.fldDip P M μm b (row I p) (row J q) (0 : Fin 3) := by
  show multiReduction (F := Ideal) .add [2] S8x128 (mulf (mulf (weight3 l) (k0_pay61 (mumx l) (mumy l) (mumz l) (unitx l) (unity l) (unitz l))) (unitx l)) 0x00000000#32 reduces_S8x128x128_S8x128 (.inl rfl) rfl (ix2 b p) = _
  rw [laneSum_apply]
  refine Finset.sum_congr rfl fun q _ => ?_
  rw [mulf_apply, mulf_apply, weight3_apply T, dotm_apply T, unitx_apply T]
  rfl
theorem dip6_apply : dip6 l (ix2 b p) = ∑ q : Fin 128, Spec.fldDip P M μm b (row I p) (row J q) (1 : Fin 3) := by
  show multiReduction (F := Ideal) .add [2] S8x128 (mulf (mulf (weight3 l) (k0_pay61 (mumx l) (mumy l) (mumz l) (unitx l) (unity l) (unitz l))) (unity l)) 0x00000000#32 reduces_S8x128x128_S8x128 (.inl rfl) rfl (ix2 b p) = _
  rw [laneSum_apply]
  refine Finset.sum_congr rfl fun q _ => ?_
  rw [mulf_apply, mulf_apply, weight3_apply T, dotm_apply T, unity_apply T]
  rfl
theorem dip7_apply : dip7 l (ix2 b p) = ∑ q : Fin 128, Spec.fldDip P M μm b (row I p) (row J q) (2 : Fin 3) := by
  show multiReduction (F := Ideal) .add [2] S8x128 (mulf (mulf (weight3 l) (k0_pay61 (mumx l) (mumy l) (mumz l) (unitx l) (unity l) (unitz l))) (unitz l)) 0x00000000#32 reduces_S8x128x128_S8x128 (.inl rfl) rfl (ix2 b p) = _
  rw [laneSum_apply]
  refine Finset.sum_congr rfl fun q _ => ?_
  rw [mulf_apply, mulf_apply, weight3_apply T, dotm_apply T, unitz_apply T]
  rfl

end Sums

end Cert.KernelIdeal.TileValue

end
-- ==== Proof.Sums.lean ====
/-
  The eight running sums in closed form, over the extended reals.

  Point t = 8 I + J of the grid adds to each running sum the contribution of key tile J to the 128 query rows of tile
  I: a monopole and a dipole lane sum over the tile's 128 key rows. The sums are cleared where J = 0, so after point
  8 I + J each holds the contributions of key tiles 0 … J, added in that order to zero; after the last key tile that is
  the sum over all 1024 key rows, the potential or field component of the query row.
-/
import proofs.«173063_j80805514707451_1_alg».proof.Proof.FrameKernelIdeal.Data
import proofs.«173063_j80805514707451_1_alg».proof.Proof.FrameKernelIdeal.Pieces
import proofs.«173063_j80805514707451_1_alg».proof.Proof.FrameKernelIdeal.Blocks
import proofs.«173063_j80805514707451_1_alg».proof.Proof.TileValue

set_option maxRecDepth 16384

noncomputable section

open scoped BigOperators

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec (potMono potDip fldMono fldDip pot fld accum maskF)

open Cert.KernelIdeal.TileValue (row Ties)

/-! ## Points, tiles and positions -/

/-- Point j of query tile I is a point of the grid. -/
theorem Sums.tile_lt (I : Fin 8) (j : ℕ) (hj : j < 8) : 8 * I.val + j < cfg0.N := by
  show 8 * I.val + j < grid0.N
  rw [N_0]; omega

/-- The running sums at equal positions. -/
theorem Sums.scAt_congr {F : FTy → Type} [FloatOps F] (m : (ℓ : Loc nD τ sig) → Buf (Elt F) ℓ) (c : Dev nD) {n n' : ℕ} (h : n = n')
    (hn : n < cfg0.N) (hn' : n' < cfg0.N) : scAt m c n hn = scAt m c n' hn' := by
  subst h; rfl

/-- The tied loads at equal tiles. -/
theorem Sums.ties_cast {P : Cert.Spec.SP.Idx → EReal} {M sq sm : Cert.Spec.SR.Idx → EReal} {μq μm : Cert.Spec.SP.Idx → EReal}
    {I I' J J' : Fin 8} {l : Loads Ideal} (T : Ties P M sq sm μq μm I J l) (hI : I = I') (hJ : J = J') :
    Ties P M sq sm μq μm I' J' l := by
  subst hI hJ; exact T

/-- The cleared sum is zero at every index. -/
theorem Sums.zeroS_at (i : S8x128.Idx) : (zeroS : FVec Ideal S8x128 .f32) i = 0 := by
  show (shapeCast S8x128 (broadcast S8x128 (Scalar.ofBits .f32 0x00000000#32 : Ideal .f32)) shapeCasts_S8x128_S8x128 : FVec Ideal S8x128 .f32) i = 0
  rw [shapeCast_self, broadcast_apply]
  exact Cert.Spec.zero_word

variable (m : (ℓ : Loc nD τ sig) → Buf (Elt Ideal) ℓ) (c : Dev nD)

set_option quotPrecheck false

local notation "aP" => m ((c : Thread nD τ).loc main_arg0)
local notation "aM" => maskF (m ((c : Thread nD τ).loc main_arg1))
local notation "aSq" => m ((c : Thread nD τ).loc main_arg2)
local notation "aSm" => m ((c : Thread nD τ).loc main_arg3)
local notation "aUq" => m ((c : Thread nD τ).loc main_arg4)
local notation "aUm" => m ((c : Thread nD τ).loc main_arg5)

/-! ## The loads of a point are the rows of its two tiles -/

/-- At point t the body loads rows 128·(t / 8) … of the query-side arrays and rows 128·(t % 8) … of the key-side arrays. -/
theorem ties_at (t : Fin cfg0.N) :
    Ties aP aM aSq aSm aUq aUm ⟨t.val / 8, by have := pt_lt t; omega⟩ ⟨t.val % 8, by omega⟩ (loadsAt m c t) where
  h3 b p := by rw [loadsAt_v3, iblk0_at]
  h5 b p := by rw [loadsAt_v5, iblk0_at]
  h7 b p := by rw [loadsAt_v7, iblk0_at]
  h9 b q := by rw [loadsAt_v9, iblk2_at]
  h11 b q := by rw [loadsAt_v11, iblk2_at]
  h13 b q := by rw [loadsAt_v13, iblk2_at]
  h15 b p := by rw [loadsAt_v15, iblk1_at, V_mask_at]
  h17 b q := by rw [loadsAt_v17, iblk3_at, V_mask_at]
  h19 b q := by rw [loadsAt_v19, iblk4_at]
  h20 b q := by rw [loadsAt_v20, iblk5_at]
  h21 b q := by rw [loadsAt_v21, iblk6_at]
  h23 b q := by rw [loadsAt_v23, iblk6_at]
  h25 b q := by rw [loadsAt_v25, iblk6_at]
  h27 b q := by rw [loadsAt_v27, iblk7_at]
  h29 b q := by rw [loadsAt_v29, iblk7_at]
  h31 b q := by rw [loadsAt_v31, iblk7_at]

/-- The same at point j of query tile I: query tile I, key tile j. -/
theorem Sums.ties_tile (I : Fin 8) (j : ℕ) (hj : j < 8) :
    Ties aP aM aSq aSm aUq aUm I ⟨j, hj⟩ (loadsAt m c ⟨8 * I.val + j, Sums.tile_lt I j hj⟩) :=
  Sums.ties_cast (ties_at m c ⟨8 * I.val + j, Sums.tile_lt I j hj⟩)
    (Fin.ext (by show (8 * I.val + j) / 8 = I.val; omega)) (Fin.ext (by show (8 * I.val + j) % 8 = j; omega))

/-! ## One running sum along a query tile's eight points -/

/-- A quantity read off the eight sums at one index, which every point increases by the point's own amount — from zero
    where the sums are cleared — is, along the points of query tile I, the running sum of those amounts. -/
theorem Sums.run_accum (sel : Scr Ideal → Vec Ideal S8x128 .f32) (i : S8x128.Idx) (g : Fin cfg0.N → EReal)
    (hA : ∀ t h0, sel (soutA m c t h0) i = 0 + g t)
    (hB : ∀ t h0 h1 xs, sel (soutB m c t h0 h1 xs) i = sel xs i + g t)
    (hC : ∀ t h1 xs, sel (soutC m c t h1 xs) i = sel xs i + g t)
    (I : Fin 8) (a d : Fin 8 → EReal)
    (hg : ∀ (j : ℕ) (hj : j < 8), g ⟨8 * I.val + j, Sums.tile_lt I j hj⟩ = a ⟨j, hj⟩ + d ⟨j, hj⟩) :
    ∀ (j : ℕ) (hj : j < 8), sel (scAt m c (8 * I.val + j) (Sums.tile_lt I j hj)) i = accum a d j hj := by
  intro j
  induction j with
  | zero =>
    intro hj
    have h0 : (⟨8 * I.val + 0, Sums.tile_lt I 0 hj⟩ : Fin cfg0.N).val % 8 = 0 := by
      show (8 * I.val + 0) % 8 = 0; omega
    rw [show scAt m c (8 * I.val + 0) (Sums.tile_lt I 0 hj) = soutA m c ⟨8 * I.val + 0, Sums.tile_lt I 0 hj⟩ h0 from
      scAt_A m c ⟨8 * I.val + 0, Sums.tile_lt I 0 hj⟩ h0, hA, hg 0 hj]
    rfl
  | succ j ih =>
    intro hj
    have hj' : j < 8 := by omega
    have h0 : ¬(⟨8 * I.val + (j + 1), Sums.tile_lt I (j + 1) hj⟩ : Fin cfg0.N).val % 8 = 0 := by
      show ¬(8 * I.val + (j + 1)) % 8 = 0; omega
    have hp : scPrev m c ⟨8 * I.val + (j + 1), Sums.tile_lt I (j + 1) hj⟩ = scAt m c (8 * I.val + j) (Sums.tile_lt I j hj') :=
      Sums.scAt_congr m c (by show 8 * I.val + (j + 1) - 1 = 8 * I.val + j; omega) _ _
    by_cases h1 : (⟨8 * I.val + (j + 1), Sums.tile_lt I (j + 1) hj⟩ : Fin cfg0.N).val % 8 = 7
    · rw [show scAt m c (8 * I.val + (j + 1)) (Sums.tile_lt I (j + 1) hj) = soutC m c ⟨8 * I.val + (j + 1), Sums.tile_lt I (j + 1) hj⟩ h1 (scPrev m c ⟨8 * I.val + (j + 1), Sums.tile_lt I (j + 1) hj⟩) from
        scAt_C m c ⟨8 * I.val + (j + 1), Sums.tile_lt I (j + 1) hj⟩ h1, hC, hp, ih hj', hg (j + 1) hj]
      rfl
    · rw [show scAt m c (8 * I.val + (j + 1)) (Sums.tile_lt I (j + 1) hj) = soutB m c ⟨8 * I.val + (j + 1), Sums.tile_lt I (j + 1) hj⟩ h0 h1 (scPrev m c ⟨8 * I.val + (j + 1), Sums.tile_lt I (j + 1) hj⟩) from
        scAt_B m c ⟨8 * I.val + (j + 1), Sums.tile_lt I (j + 1) hj⟩ h0 h1, hB, hp, ih hj', hg (j + 1) hj]
      rfl

/-! ## The eight sums along a query tile -/

/-- Running sum 0 (the first potential) after point j of query tile I, at batch b and the tile's row p: the contributions of
    key tiles 0 … j, each a monopole and a dipole sum over the tile's 128 key rows. -/
theorem scAt_s0_tile (I : Fin 8) (b : Fin 8) (p : Fin 128) (j : ℕ) (hj : j < 8) :
    (scAt m c (8 * I.val + j) (Sums.tile_lt I j hj)).s0 (ix2 b p)
      = accum (fun J => ∑ q : Fin 128, potMono aP aM aSq b (row I p) (row J q)) (fun J => ∑ q : Fin 128, potDip aP aM aUq b (row I p) (row J q)) j hj :=
  Sums.run_accum m c (fun xs => xs.s0) (ix2 b p)
    (fun t => mono0 (loadsAt m c t) (ix2 b p) + dip0 (loadsAt m c t) (ix2 b p))
    (fun t h0 => by dsimp only [soutA]; rw [soutA0_eq, upd0_apply, Sums.zeroS_at])
    (fun t h0 h1 xs => by dsimp only [soutB]; rw [soutB0_eq, upd0_apply])
    (fun t h1 xs => by dsimp only [soutC]; rw [soutC0_eq, upd0_apply])
    I _ _
    (fun j hj => by
      rw [TileValue.mono0_apply (Sums.ties_tile m c I j hj) b p, TileValue.dip0_apply (Sums.ties_tile m c I j hj) b p])
    j hj

/-- Running sum 1 (the second potential) after point j of query tile I, at batch b and the tile's row p: the contributions of
    key tiles 0 … j, each a monopole and a dipole sum over the tile's 128 key rows. -/
theorem scAt_s1_tile (I : Fin 8) (b : Fin 8) (p : Fin 128) (j : ℕ) (hj : j < 8) :
    (scAt m c (8 * I.val + j) (Sums.tile_lt I j hj)).s1 (ix2 b p)
      = accum (fun J => ∑ q : Fin 128, potMono aP aM aSm b (row I p) (row J q)) (fun J => ∑ q : Fin 128, potDip aP aM aUm b (row I p) (row J q)) j hj :=
  Sums.run_accum m c (fun xs => xs.s1) (ix2 b p)
    (fun t => mono1 (loadsAt m c t) (ix2 b p) + dip1 (loadsAt m c t) (ix2 b p))
    (fun t h0 => by dsimp only [soutA]; rw [soutA1_eq, upd1_apply, Sums.zeroS_at])
    (fun t h0 h1 xs => by dsimp only [soutB]; rw [soutB1_eq, upd1_apply])
    (fun t h1 xs => by dsimp only [soutC]; rw [soutC1_eq, upd1_apply])
    I _ _
    (fun j hj => by
      rw [TileValue.mono1_apply (Sums.ties_tile m c I j hj) b p, TileValue.dip1_apply (Sums.ties_tile m c I j hj) b p])
    j hj

/-- Running sum 2 (component 0 of the first field) after point j of query tile I, at batch b and the tile's row p: the contributions of
    key tiles 0 … j, each a monopole and a dipole sum over the tile's 128 key rows. -/
theorem scAt_s2_tile (I : Fin 8) (b : Fin 8) (p : Fin 128) (j : ℕ) (hj : j < 8) :
    (scAt m c (8 * I.val + j) (Sums.tile_lt I j hj)).s2 (ix2 b p)
      = accum (fun J => ∑ q : Fin 128, fldMono aP aM aSq b (row I p) (row J q) (0 : Fin 3)) (fun J => ∑ q : Fin 128, fldDip aP aM aUq b (row I p) (row J q) (0 : Fin 3)) j hj :=
  Sums.run_accum m c (fun xs => xs.s2) (ix2 b p)
    (fun t => mono2 (loadsAt m c t) (ix2 b p) + dip2 (loadsAt m c t) (ix2 b p))
    (fun t h0 => by dsimp only [soutA]; rw [soutA2_eq, upd2_apply, Sums.zeroS_at])
    (fun t h0 h1 xs => by dsimp only [soutB]; rw [soutB2_eq, upd2_apply])
    (fun t h1 xs => by dsimp only [soutC]; rw [soutC2_eq, upd2_apply])
    I _ _
    (fun j hj => by
      rw [TileValue.mono2_apply (Sums.ties_tile m c I j hj) b p, TileValue.dip2_apply (Sums.ties_tile m c I j hj) b p])
    j hj

/-- Running sum 3 (component 1 of the first field) after point j of query tile I, at batch b and the tile's row p: the contributions of
    key tiles 0 … j, each a monopole and a dipole sum over the tile's 128 key rows. -/
theorem scAt_s3_tile (I : Fin 8) (b : Fin 8) (p : Fin 128) (j : ℕ) (hj : j < 8) :
    (scAt m c (8 * I.val + j) (Sums.tile_lt I j hj)).s3 (ix2 b p)
      = accum (fun J => ∑ q : Fin 128, fldMono aP aM aSq b (row I p) (row J q) (1 : Fin 3)) (fun J => ∑ q : Fin 128, fldDip aP aM aUq b (row I p) (row J q) (1 : Fin 3)) j hj :=
  Sums.run_accum m c (fun xs => xs.s3) (ix2 b p)
    (fun t => mono3 (loadsAt m c t) (ix2 b p) + dip3 (loadsAt m c t) (ix2 b p))
    (fun t h0 => by dsimp only [soutA]; rw [soutA3_eq, upd3_apply, Sums.zeroS_at])
    (fun t h0 h1 xs => by dsimp only [soutB]; rw [soutB3_eq, upd3_apply])
    (fun t h1 xs => by dsimp only [soutC]; rw [soutC3_eq, upd3_apply])
    I _ _
    (fun j hj => by
      rw [TileValue.mono3_apply (Sums.ties_tile m c I j hj) b p, TileValue.dip3_apply (Sums.ties_tile m c I j hj) b p])
    j hj

/-- Running sum 4 (component 2 of the first field) after point j of query tile I, at batch b and the tile's row p: the contributions of
    key tiles 0 … j, each a monopole and a dipole sum over the tile's 128 key rows. -/
theorem scAt_s4_tile (I : Fin 8) (b : Fin 8) (p : Fin 128) (j : ℕ) (hj : j < 8) :
    (scAt m c (8 * I.val + j) (Sums.tile_lt I j hj)).s4 (ix2 b p)
      = accum (fun J => ∑ q : Fin 128, fldMono aP aM aSq b (row I p) (row J q) (2 : Fin 3)) (fun J => ∑ q : Fin 128, fldDip aP aM aUq b (row I p) (row J q) (2 : Fin 3)) j hj :=
  Sums.run_accum m c (fun xs => xs.s4) (ix2 b p)
    (fun t => mono4 (loadsAt m c t) (ix2 b p) + dip4 (loadsAt m c t) (ix2 b p))
    (fun t h0 => by dsimp only [soutA]; rw [soutA4_eq, upd4_apply, Sums.zeroS_at])
    (fun t h0 h1 xs => by dsimp only [soutB]; rw [soutB4_eq, upd4_apply])
    (fun t h1 xs => by dsimp only [soutC]; rw [soutC4_eq, upd4_apply])
    I _ _
    (fun j hj => by
      rw [TileValue.mono4_apply (Sums.ties_tile m c I j hj) b p, TileValue.dip4_apply (Sums.ties_tile m c I j hj) b p])
    j hj

/-- Running sum 5 (component 0 of the second field) after point j of query tile I, at batch b and the tile's row p: the contributions of
    key tiles 0 … j, each a monopole and a dipole sum over the tile's 128 key rows. -/
theorem scAt_s5_tile (I : Fin 8) (b : Fin 8) (p : Fin 128) (j : ℕ) (hj : j < 8) :
    (scAt m c (8 * I.val + j) (Sums.tile_lt I j hj)).s5 (ix2 b p)
      = accum (fun J => ∑ q : Fin 128, fldMono aP aM aSm b (row I p) (row J q) (0 : Fin 3)) (fun J => ∑ q : Fin 128, fldDip aP aM aUm b (row I p) (row J q) (0 : Fin 3)) j hj :=
  Sums.run_accum m c (fun xs => xs.s5) (ix2 b p)
    (fun t => mono5 (loadsAt m c t) (ix2 b p) + dip5 (loadsAt m c t) (ix2 b p))
    (fun t h0 => by dsimp only [soutA]; rw [soutA5_eq, upd5_apply, Sums.zeroS_at])
    (fun t h0 h1 xs => by dsimp only [soutB]; rw [soutB5_eq, upd5_apply])
    (fun t h1 xs => by dsimp only [soutC]; rw [soutC5_eq, upd5_apply])
    I _ _
    (fun j hj => by
      rw [TileValue.mono5_apply (Sums.ties_tile m c I j hj) b p, TileValue.dip5_apply (Sums.ties_tile m c I j hj) b p])
    j hj

/-- Running sum 6 (component 1 of the second field) after point j of query tile I, at batch b and the tile's row p: the contributions of
    key tiles 0 … j, each a monopole and a dipole sum over the tile's 128 key rows. -/
theorem scAt_s6_tile (I : Fin 8) (b : Fin 8) (p : Fin 128) (j : ℕ) (hj : j < 8) :
    (scAt m c (8 * I.val + j) (Sums.tile_lt I j hj)).s6 (ix2 b p)
      = accum (fun J => ∑ q : Fin 128, fldMono aP aM aSm b (row I p) (row J q) (1 : Fin 3)) (fun J => ∑ q : Fin 128, fldDip aP aM aUm b (row I p) (row J q) (1 : Fin 3)) j hj :=
  Sums.run_accum m c (fun xs => xs.s6) (ix2 b p)
    (fun t => mono6 (loadsAt m c t) (ix2 b p) + dip6 (loadsAt m c t) (ix2 b p))
    (fun t h0 => by dsimp only [soutA]; rw [soutA6_eq, upd6_apply, Sums.zeroS_at])
    (fun t h0 h1 xs => by dsimp only [soutB]; rw [soutB6_eq, upd6_apply])
    (fun t h1 xs => by dsimp only [soutC]; rw [soutC6_eq, upd6_apply])
    I _ _
    (fun j hj => by
      rw [TileValue.mono6_apply (Sums.ties_tile m c I j hj) b p, TileValue.dip6_apply (Sums.ties_tile m c I j hj) b p])
    j hj

/-- Running sum 7 (component 2 of the second field) after point j of query tile I, at batch b and the tile's row p: the contributions of
    key tiles 0 … j, each a monopole and a dipole sum over the tile's 128 key rows. -/
theorem scAt_s7_tile (I : Fin 8) (b : Fin 8) (p : Fin 128) (j : ℕ) (hj : j < 8) :
    (scAt m c (8 * I.val + j) (Sums.tile_lt I j hj)).s7 (ix2 b p)
      = accum (fun J => ∑ q : Fin 128, fldMono aP aM aSm b (row I p) (row J q) (2 : Fin 3)) (fun J => ∑ q : Fin 128, fldDip aP aM aUm b (row I p) (row J q) (2 : Fin 3)) j hj :=
  Sums.run_accum m c (fun xs => xs.s7) (ix2 b p)
    (fun t => mono7 (loadsAt m c t) (ix2 b p) + dip7 (loadsAt m c t) (ix2 b p))
    (fun t h0 => by dsimp only [soutA]; rw [soutA7_eq, upd7_apply, Sums.zeroS_at])
    (fun t h0 h1 xs => by dsimp only [soutB]; rw [soutB7_eq, upd7_apply])
    (fun t h1 xs => by dsimp only [soutC]; rw [soutC7_eq, upd7_apply])
    I _ _
    (fun j hj => by
      rw [TileValue.mono7_apply (Sums.ties_tile m c I j hj) b p, TileValue.dip7_apply (Sums.ties_tile m c I j hj) b p])
    j hj

/-! ## The eight sums after any point -/

/-- Running sum 0 after point t, at batch b and row p of the point's query tile. -/
theorem scAt_s0 (t : Fin cfg0.N) (b : Fin 8) (p : Fin 128) :
    (scAt m c t.val t.isLt).s0 (ix2 b p)
      = accum (fun J => ∑ q : Fin 128, potMono aP aM aSq b (row ⟨t.val / 8, by have := pt_lt t; omega⟩ p) (row J q)) (fun J => ∑ q : Fin 128, potDip aP aM aUq b (row ⟨t.val / 8, by have := pt_lt t; omega⟩ p) (row J q)) (t.val % 8) (Nat.mod_lt _ (by decide)) :=
  (congrArg (fun xs : Scr Ideal => xs.s0 (ix2 b p)) (Sums.scAt_congr m c (show t.val = 8 * (t.val / 8) + t.val % 8 by omega) t.isLt
    (Sums.tile_lt ⟨t.val / 8, by have := pt_lt t; omega⟩ (t.val % 8) (Nat.mod_lt _ (by decide))))).trans
    (scAt_s0_tile m c ⟨t.val / 8, by have := pt_lt t; omega⟩ b p (t.val % 8) (Nat.mod_lt _ (by decide)))

/-- Running sum 1 after point t, at batch b and row p of the point's query tile. -/
theorem scAt_s1 (t : Fin cfg0.N) (b : Fin 8) (p : Fin 128) :
    (scAt m c t.val t.isLt).s1 (ix2 b p)
      = accum (fun J => ∑ q : Fin 128, potMono aP aM aSm b (row ⟨t.val / 8, by have := pt_lt t; omega⟩ p) (row J q)) (fun J => ∑ q : Fin 128, potDip aP aM aUm b (row ⟨t.val / 8, by have := pt_lt t; omega⟩ p) (row J q)) (t.val % 8) (Nat.mod_lt _ (by decide)) :=
  (congrArg (fun xs : Scr Ideal => xs.s1 (ix2 b p)) (Sums.scAt_congr m c (show t.val = 8 * (t.val / 8) + t.val % 8 by omega) t.isLt
    (Sums.tile_lt ⟨t.val / 8, by have := pt_lt t; omega⟩ (t.val % 8) (Nat.mod_lt _ (by decide))))).trans
    (scAt_s1_tile m c ⟨t.val / 8, by have := pt_lt t; omega⟩ b p (t.val % 8) (Nat.mod_lt _ (by decide)))

/-- Running sum 2 after point t, at batch b and row p of the point's query tile. -/
theorem scAt_s2 (t : Fin cfg0.N) (b : Fin 8) (p : Fin 128) :
    (scAt m c t.val t.isLt).s2 (ix2 b p)
      = accum (fun J => ∑ q : Fin 128, fldMono aP aM aSq b (row ⟨t.val / 8, by have := pt_lt t; omega⟩ p) (row J q) (0 : Fin 3)) (fun J => ∑ q : Fin 128, fldDip aP aM aUq b (row ⟨t.val / 8, by have := pt_lt t; omega⟩ p) (row J q) (0 : Fin 3)) (t.val % 8) (Nat.mod_lt _ (by decide)) :=
  (congrArg (fun xs : Scr Ideal => xs.s2 (ix2 b p)) (Sums.scAt_congr m c (show t.val = 8 * (t.val / 8) + t.val % 8 by omega) t.isLt
    (Sums.tile_lt ⟨t.val / 8, by have := pt_lt t; omega⟩ (t.val % 8) (Nat.mod_lt _ (by decide))))).trans
    (scAt_s2_tile m c ⟨t.val / 8, by have := pt_lt t; omega⟩ b p (t.val % 8) (Nat.mod_lt _ (by decide)))

/-- Running sum 3 after point t, at batch b and row p of the point's query tile. -/
theorem scAt_s3 (t : Fin cfg0.N) (b : Fin 8) (p : Fin 128) :
    (scAt m c t.val t.isLt).s3 (ix2 b p)
      = accum (fun J => ∑ q : Fin 128, fldMono aP aM aSq b (row ⟨t.val / 8, by have := pt_lt t; omega⟩ p) (row J q) (1 : Fin 3)) (fun J => ∑ q : Fin 128, fldDip aP aM aUq b (row ⟨t.val / 8, by have := pt_lt t; omega⟩ p) (row J q) (1 : Fin 3)) (t.val % 8) (Nat.mod_lt _ (by decide)) :=
  (congrArg (fun xs : Scr Ideal => xs.s3 (ix2 b p)) (Sums.scAt_congr m c (show t.val = 8 * (t.val / 8) + t.val % 8 by omega) t.isLt
    (Sums.tile_lt ⟨t.val / 8, by have := pt_lt t; omega⟩ (t.val % 8) (Nat.mod_lt _ (by decide))))).trans
    (scAt_s3_tile m c ⟨t.val / 8, by have := pt_lt t; omega⟩ b p (t.val % 8) (Nat.mod_lt _ (by decide)))

/-- Running sum 4 after point t, at batch b and row p of the point's query tile. -/
theorem scAt_s4 (t : Fin cfg0.N) (b : Fin 8) (p : Fin 128) :
    (scAt m c t.val t.isLt).s4 (ix2 b p)
      = accum (fun J => ∑ q : Fin 128, fldMono aP aM aSq b (row ⟨t.val / 8, by have := pt_lt t; omega⟩ p) (row J q) (2 : Fin 3)) (fun J => ∑ q : Fin 128, fldDip aP aM aUq b (row ⟨t.val / 8, by have := pt_lt t; omega⟩ p) (row J q) (2 : Fin 3)) (t.val % 8) (Nat.mod_lt _ (by decide)) :=
  (congrArg (fun xs : Scr Ideal => xs.s4 (ix2 b p)) (Sums.scAt_congr m c (show t.val = 8 * (t.val / 8) + t.val % 8 by omega) t.isLt
    (Sums.tile_lt ⟨t.val / 8, by have := pt_lt t; omega⟩ (t.val % 8) (Nat.mod_lt _ (by decide))))).trans
    (scAt_s4_tile m c ⟨t.val / 8, by have := pt_lt t; omega⟩ b p (t.val % 8) (Nat.mod_lt _ (by decide)))

/-- Running sum 5 after point t, at batch b and row p of the point's query tile. -/
theorem scAt_s5 (t : Fin cfg0.N) (b : Fin 8) (p : Fin 128) :
    (scAt m c t.val t.isLt).s5 (ix2 b p)
      = accum (fun J => ∑ q : Fin 128, fldMono aP aM aSm b (row ⟨t.val / 8, by have := pt_lt t; omega⟩ p) (row J q) (0 : Fin 3)) (fun J => ∑ q : Fin 128, fldDip aP aM aUm b (row ⟨t.val / 8, by have := pt_lt t; omega⟩ p) (row J q) (0 : Fin 3)) (t.val % 8) (Nat.mod_lt _ (by decide)) :=
  (congrArg (fun xs : Scr Ideal => xs.s5 (ix2 b p)) (Sums.scAt_congr m c (show t.val = 8 * (t.val / 8) + t.val % 8 by omega) t.isLt
    (Sums.tile_lt ⟨t.val / 8, by have := pt_lt t; omega⟩ (t.val % 8) (Nat.mod_lt _ (by decide))))).trans
    (scAt_s5_tile m c ⟨t.val / 8, by have := pt_lt t; omega⟩ b p (t.val % 8) (Nat.mod_lt _ (by decide)))

/-- Running sum 6 after point t, at batch b and row p of the point's query tile. -/
theorem scAt_s6 (t : Fin cfg0.N) (b : Fin 8) (p : Fin 128) :
    (scAt m c t.val t.isLt).s6 (ix2 b p)
      = accum (fun J => ∑ q : Fin 128, fldMono aP aM aSm b (row ⟨t.val / 8, by have := pt_lt t; omega⟩ p) (row J q) (1 : Fin 3)) (fun J => ∑ q : Fin 128, fldDip aP aM aUm b (row ⟨t.val / 8, by have := pt_lt t; omega⟩ p) (row J q) (1 : Fin 3)) (t.val % 8) (Nat.mod_lt _ (by decide)) :=
  (congrArg (fun xs : Scr Ideal => xs.s6 (ix2 b p)) (Sums.scAt_congr m c (show t.val = 8 * (t.val / 8) + t.val % 8 by omega) t.isLt
    (Sums.tile_lt ⟨t.val / 8, by have := pt_lt t; omega⟩ (t.val % 8) (Nat.mod_lt _ (by decide))))).trans
    (scAt_s6_tile m c ⟨t.val / 8, by have := pt_lt t; omega⟩ b p (t.val % 8) (Nat.mod_lt _ (by decide)))

/-- Running sum 7 after point t, at batch b and row p of the point's query tile. -/
theorem scAt_s7 (t : Fin cfg0.N) (b : Fin 8) (p : Fin 128) :
    (scAt m c t.val t.isLt).s7 (ix2 b p)
      = accum (fun J => ∑ q : Fin 128, fldMono aP aM aSm b (row ⟨t.val / 8, by have := pt_lt t; omega⟩ p) (row J q) (2 : Fin 3)) (fun J => ∑ q : Fin 128, fldDip aP aM aUm b (row ⟨t.val / 8, by have := pt_lt t; omega⟩ p) (row J q) (2 : Fin 3)) (t.val % 8) (Nat.mod_lt _ (by decide)) :=
  (congrArg (fun xs : Scr Ideal => xs.s7 (ix2 b p)) (Sums.scAt_congr m c (show t.val = 8 * (t.val / 8) + t.val % 8 by omega) t.isLt
    (Sums.tile_lt ⟨t.val / 8, by have := pt_lt t; omega⟩ (t.val % 8) (Nat.mod_lt _ (by decide))))).trans
    (scAt_s7_tile m c ⟨t.val / 8, by have := pt_lt t; omega⟩ b p (t.val % 8) (Nat.mod_lt _ (by decide)))

/-! ## The eight sums after a query tile's last point: the results at the tile's rows -/

/-- After the last key tile, running sum 0 is the first potential at the query row. -/
theorem scAt_s0_last (I : Fin 8) (b : Fin 8) (p : Fin 128) :
    (scAt m c (8 * I.val + 7) (Sums.tile_lt I 7 (by omega))).s0 (ix2 b p) = pot aP aM aSq aUq (ix2 b (row I p)) := by
  rw [scAt_s0_tile m c I b p 7 (by omega), Cert.Spec.accum_last]
  unfold pot
  rw [Cert.Spec.sum_tiles, Cert.Spec.sum_tiles]

/-- After the last key tile, running sum 1 is the second potential at the query row. -/
theorem scAt_s1_last (I : Fin 8) (b : Fin 8) (p : Fin 128) :
    (scAt m c (8 * I.val + 7) (Sums.tile_lt I 7 (by omega))).s1 (ix2 b p) = pot aP aM aSm aUm (ix2 b (row I p)) := by
  rw [scAt_s1_tile m c I b p 7 (by omega), Cert.Spec.accum_last]
  unfold pot
  rw [Cert.Spec.sum_tiles, Cert.Spec.sum_tiles]

/-- After the last key tile, running sum 2 is component 0 of the first field at the query row. -/
theorem scAt_s2_last (I : Fin 8) (b : Fin 8) (p : Fin 128) :
    (scAt m c (8 * I.val + 7) (Sums.tile_lt I 7 (by omega))).s2 (ix2 b p) = fld aP aM aSq aUq (ix3 b (row I p) (0 : Fin 3)) := by
  rw [scAt_s2_tile m c I b p 7 (by omega), Cert.Spec.accum_last]
  unfold fld
  rw [Cert.Spec.sum_tiles, Cert.Spec.sum_tiles]

/-- After the last key tile, running sum 3 is component 1 of the first field at the query row. -/
theorem scAt_s3_last (I : Fin 8) (b : Fin 8) (p : Fin 128) :
    (scAt m c (8 * I.val + 7) (Sums.tile_lt I 7 (by omega))).s3 (ix2 b p) = fld aP aM aSq aUq (ix3 b (row I p) (1 : Fin 3)) := by
  rw [scAt_s3_tile m c I b p 7 (by omega), Cert.Spec.accum_last]
  unfold fld
  rw [Cert.Spec.sum_tiles, Cert.Spec.sum_tiles]

/-- After the last key tile, running sum 4 is component 2 of the first field at the query row. -/
theorem scAt_s4_last (I : Fin 8) (b : Fin 8) (p : Fin 128) :
    (scAt m c (8 * I.val + 7) (Sums.tile_lt I 7 (by omega))).s4 (ix2 b p) = fld aP aM aSq aUq (ix3 b (row I p) (2 : Fin 3)) := by
  rw [scAt_s4_tile m c I b p 7 (by omega), Cert.Spec.accum_last]
  unfold fld
  rw [Cert.Spec.sum_tiles, Cert.Spec.sum_tiles]

/-- After the last key tile, running sum 5 is component 0 of the second field at the query row. -/
theorem scAt_s5_last (I : Fin 8) (b : Fin 8) (p : Fin 128) :
    (scAt m c (8 * I.val + 7) (Sums.tile_lt I 7 (by omega))).s5 (ix2 b p) = fld aP aM aSm aUm (ix3 b (row I p) (0 : Fin 3)) := by
  rw [scAt_s5_tile m c I b p 7 (by omega), Cert.Spec.accum_last]
  unfold fld
  rw [Cert.Spec.sum_tiles, Cert.Spec.sum_tiles]

/-- After the last key tile, running sum 6 is component 1 of the second field at the query row. -/
theorem scAt_s6_last (I : Fin 8) (b : Fin 8) (p : Fin 128) :
    (scAt m c (8 * I.val + 7) (Sums.tile_lt I 7 (by omega))).s6 (ix2 b p) = fld aP aM aSm aUm (ix3 b (row I p) (1 : Fin 3)) := by
  rw [scAt_s6_tile m c I b p 7 (by omega), Cert.Spec.accum_last]
  unfold fld
  rw [Cert.Spec.sum_tiles, Cert.Spec.sum_tiles]

/-- After the last key tile, running sum 7 is component 2 of the second field at the query row. -/
theorem scAt_s7_last (I : Fin 8) (b : Fin 8) (p : Fin 128) :
    (scAt m c (8 * I.val + 7) (Sums.tile_lt I 7 (by omega))).s7 (ix2 b p) = fld aP aM aSm aUm (ix3 b (row I p) (2 : Fin 3)) := by
  rw [scAt_s7_tile m c I b p 7 (by omega), Cert.Spec.accum_last]
  unfold fld
  rw [Cert.Spec.sum_tiles, Cert.Spec.sum_tiles]

end Cert.KernelIdeal.Fr

end
-- ==== Proof.KernelValue.lean ====
/-
  The kernel's four result arrays after its run, in closed form.

  The grid's 64 points are t = 8 i + j: query tile i, key tile j. A result window's block at point t is rows
  128 i … 128 i + 127 of its array, and it is written back at the points j = 7 only. There the block holds the
  copy of the running sums, which after the eighth key tile are the specification's potential and field at the query
  tile's rows. So what each such point writes back is its block of one array — the potential or the field of a
  charge pair — and the eight blocks cover the array: the array ends holding it. The run of the program is then read
  off the frame run: the four results at the potential and the field of the two charge pairs, the six arguments as
  launched.
-/
import proofs.«173063_j80805514707451_1_alg».proof.Proof.FrameKernelIdeal.Body
import proofs.«173063_j80805514707451_1_alg».proof.Proof.Sums
import Idealize.ShloMosaic.Lib.Pipeline.Value
import Idealize.ShloMosaic.Lib.ValueIdx

set_option maxRecDepth 16384

noncomputable section

namespace Cert.KernelIdeal.KV

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Fr

/-! ## What a result block holds at a copying point, for any float instance -/

section Generic
variable {F : FTy → Type} [FloatOps F]
variable (m : (ℓ : Loc nD τ sig) → Buf (Elt F) ℓ)

/-- The running sums at two equal positions are equal. -/
theorem scAt_congr (c : Dev nD) {n n' : ℕ} (h : n = n') (hn : n < cfg0.N) (hn' : n' < cfg0.N) :
    scAt m c n hn = scAt m c n' hn' := by
  subst h; rfl

/-- The last point of a query tile is a point of the grid. -/
theorem lastPt_lt (I : Fin 8) : 8 * I.val + 7 < cfg0.N := by
  have hN : cfg0.N = 64 := N_0
  have := I.isLt
  omega

/-- A point of the last key tile is the last point of its query tile. -/
theorem pt_last (t : Fin cfg0.N) (h7 : t.val % 8 = 7) : t.val = 8 * (t.val / 8) + 7 := by omega

/-- The eight sums a point of the last key tile leaves, one by one. -/
theorem soutC_s0 (c : Dev nD) (t : Fin cfg0.N) (h1 : t.val % 8 = 7) (xs : Scr F) : (soutC m c t h1 xs).s0 = soutC0 m c t h1 xs := rfl
theorem soutC_s1 (c : Dev nD) (t : Fin cfg0.N) (h1 : t.val % 8 = 7) (xs : Scr F) : (soutC m c t h1 xs).s1 = soutC1 m c t h1 xs := rfl
theorem soutC_s2 (c : Dev nD) (t : Fin cfg0.N) (h1 : t.val % 8 = 7) (xs : Scr F) : (soutC m c t h1 xs).s2 = soutC2 m c t h1 xs := rfl
theorem soutC_s3 (c : Dev nD) (t : Fin cfg0.N) (h1 : t.val % 8 = 7) (xs : Scr F) : (soutC m c t h1 xs).s3 = soutC3 m c t h1 xs := rfl
theorem soutC_s4 (c : Dev nD) (t : Fin cfg0.N) (h1 : t.val % 8 = 7) (xs : Scr F) : (soutC m c t h1 xs).s4 = soutC4 m c t h1 xs := rfl
theorem soutC_s5 (c : Dev nD) (t : Fin cfg0.N) (h1 : t.val % 8 = 7) (xs : Scr F) : (soutC m c t h1 xs).s5 = soutC5 m c t h1 xs := rfl
theorem soutC_s6 (c : Dev nD) (t : Fin cfg0.N) (h1 : t.val % 8 = 7) (xs : Scr F) : (soutC m c t h1 xs).s6 = soutC6 m c t h1 xs := rfl
theorem soutC_s7 (c : Dev nD) (t : Fin cfg0.N) (h1 : t.val % 8 = 7) (xs : Scr F) : (soutC m c t h1 xs).s7 = soutC7 m c t h1 xs := rfl

/-- At a point of the last key tile the first result block is the first running sum after that point. -/
theorem outAt8_last (c : Dev nD) (t : Fin cfg0.N) (h7 : t.val % 8 = 7) :
    outAt8 m c t = (scAt m c t.val t.isLt).s0 := by
  rw [outAt8_C m c t h7, outC8_eq, scAt_C m c t h7, soutC_s0]
/-- … the second result block is the second running sum. -/
theorem outAt9_last (c : Dev nD) (t : Fin cfg0.N) (h7 : t.val % 8 = 7) :
    outAt9 m c t = (scAt m c t.val t.isLt).s1 := by
  rw [outAt9_C m c t h7, outC9_eq, scAt_C m c t h7, soutC_s1]
/-- … component k of the third result block is running sum 2 + k. -/
theorem outAt10_last (c : Dev nD) (t : Fin cfg0.N) (h7 : t.val % 8 = 7) (b : Fin 8) (p : Fin 128) :
    outAt10 m c t (ix3 b p 0) = (scAt m c t.val t.isLt).s2 (ix2 b p) ∧ outAt10 m c t (ix3 b p 1) = (scAt m c t.val t.isLt).s3 (ix2 b p)
      ∧ outAt10 m c t (ix3 b p 2) = (scAt m c t.val t.isLt).s4 (ix2 b p) := by
  obtain ⟨g0, g1, g2⟩ := outC10_at m c t h7 (scPrev m c t) b p
  rw [outAt10_C m c t h7, scAt_C m c t h7, soutC_s2, soutC_s3, soutC_s4]
  exact ⟨g0, g1, g2⟩
/-- … component k of the fourth result block is running sum 5 + k. -/
theorem outAt11_last (c : Dev nD) (t : Fin cfg0.N) (h7 : t.val % 8 = 7) (b : Fin 8) (p : Fin 128) :
    outAt11 m c t (ix3 b p 0) = (scAt m c t.val t.isLt).s5 (ix2 b p) ∧ outAt11 m c t (ix3 b p 1) = (scAt m c t.val t.isLt).s6 (ix2 b p)
      ∧ outAt11 m c t (ix3 b p 2) = (scAt m c t.val t.isLt).s7 (ix2 b p) := by
  obtain ⟨g0, g1, g2⟩ := outC11_at m c t h7 (scPrev m c t) b p
  rw [outAt11_C m c t h7, scAt_C m c t h7, soutC_s5, soutC_s6, soutC_s7]
  exact ⟨g0, g1, g2⟩

/-- The three components. -/
theorem fin3_cases : ∀ k : Fin 3, k = 0 ∨ k = 1 ∨ k = 2 := by decide

end Generic

/-! ## The four result arrays after the run, over the extended reals -/

section AtIdeal
variable (m : (ℓ : Loc nD τ sig) → Buf (Elt Ideal) ℓ) (ρ : Dev nD → PrngReg)

/-- The potential and the field of the two charge pairs, as contents of the four result arrays. -/
abbrev pot0 (c : Dev nD) : Buf (Elt Ideal) ((c.tc : Thread nD τ).loc main_v0_0) := Cert.Spec.pot (m ((c.tc : Thread nD τ).loc main_arg0)) (Cert.Spec.maskF (m ((c.tc : Thread nD τ).loc main_arg1))) (m ((c.tc : Thread nD τ).loc main_arg2)) (m ((c.tc : Thread nD τ).loc main_arg4))
abbrev pot1 (c : Dev nD) : Buf (Elt Ideal) ((c.tc : Thread nD τ).loc main_v0_1) := Cert.Spec.pot (m ((c.tc : Thread nD τ).loc main_arg0)) (Cert.Spec.maskF (m ((c.tc : Thread nD τ).loc main_arg1))) (m ((c.tc : Thread nD τ).loc main_arg3)) (m ((c.tc : Thread nD τ).loc main_arg5))
abbrev fld0 (c : Dev nD) : Buf (Elt Ideal) ((c.tc : Thread nD τ).loc main_v0_2) := Cert.Spec.fld (m ((c.tc : Thread nD τ).loc main_arg0)) (Cert.Spec.maskF (m ((c.tc : Thread nD τ).loc main_arg1))) (m ((c.tc : Thread nD τ).loc main_arg2)) (m ((c.tc : Thread nD τ).loc main_arg4))
abbrev fld1 (c : Dev nD) : Buf (Elt Ideal) ((c.tc : Thread nD τ).loc main_v0_3) := Cert.Spec.fld (m ((c.tc : Thread nD τ).loc main_arg0)) (Cert.Spec.maskF (m ((c.tc : Thread nD τ).loc main_arg1))) (m ((c.tc : Thread nD τ).loc main_arg3)) (m ((c.tc : Thread nD τ).loc main_arg5))

/-- The running sums after the last point of query tile t / 8, as the sums after point t of the last key tile. -/
theorem scAt_last (c : Dev nD) (t : Fin cfg0.N) (h7 : t.val % 8 = 7) :
    scAt m c t.val t.isLt = scAt m c (8 * (⟨t.val / 8, by have := pt_lt t; omega⟩ : Fin 8).val + 7) (lastPt_lt _) :=
  scAt_congr m c (pt_last t h7) _ _

/-! ### The first result -/

/-- What a point of the last key tile writes back is its block of the potential. -/
theorem flushed8_eq (c : Dev nD) (t : Fin cfg0.N) (hf : (cfg0.win 8).flush t = true) :
    (dats m 0 c).flushed 8 t = ((cfg0.win 8).blk t).view.read (Elt Ideal) (pot0 m c) := by
  have h7 : t.val % 8 = 7 := (flush0_8 t).mp hf
  show (cfg0.win 8).cut (grid0.coords t) ((dats m 0 c).after 8 t) = _
  funext y
  obtain ⟨b, p, rfl⟩ : ∃ (b : Fin 8) (p : Fin 128), y = ix2 b p := ⟨y 0, y 1, eq_ix2 y⟩
  show (dats m 0 c).after 8 t (ix2 b p) = _
  rw [after0_8, outAt8_last m c t h7, View.read_apply, oblk8_emb t b p, scAt_last m c t h7, scAt_s0_last m c _ b p]
  rfl

/-- Every index of the array is in the block of the last point of its row's query tile. -/
theorem cover8 (i : S8x1024.Idx) : ∃ t : Fin cfg0.N, (cfg0.win 8).flush t = true ∧ i ∈ ((cfg0.win 8).blk t).view.set := by
  have hi : (i 1).val < 1024 := (i 1).isLt
  have hN : cfg0.N = 64 := N_0
  refine ⟨⟨8 * ((i 1).val / 128) + 7, by omega⟩, (flush0_8 _).mpr (by show (8 * ((i 1).val / 128) + 7) % 8 = 7; omega), ?_⟩
  rw [mem_oblk8_iff]
  show 128 * ((8 * ((i 1).val / 128) + 7) / 8) ≤ (i 1).val ∧ (i 1).val < 128 * ((8 * ((i 1).val / 128) + 7) / 8) + 128
  omega

/-- The array ends holding the potential. -/
theorem final8 (c : Dev nD) : (dats m 0 c).arrAt 8 cfg0.N = pot0 m c :=
  (dats m 0 c).arrAt_eq_of_cover 8 (pot0 m c) (flushed8_eq m c) cover8

/-! ### The second result -/

/-- What a point of the last key tile writes back is its block of the potential. -/
theorem flushed9_eq (c : Dev nD) (t : Fin cfg0.N) (hf : (cfg0.win 9).flush t = true) :
    (dats m 0 c).flushed 9 t = ((cfg0.win 9).blk t).view.read (Elt Ideal) (pot1 m c) := by
  have h7 : t.val % 8 = 7 := (flush0_9 t).mp hf
  show (cfg0.win 9).cut (grid0.coords t) ((dats m 0 c).after 9 t) = _
  funext y
  obtain ⟨b, p, rfl⟩ : ∃ (b : Fin 8) (p : Fin 128), y = ix2 b p := ⟨y 0, y 1, eq_ix2 y⟩
  show (dats m 0 c).after 9 t (ix2 b p) = _
  rw [after0_9, outAt9_last m c t h7, View.read_apply, oblk9_emb t b p, scAt_last m c t h7, scAt_s1_last m c _ b p]
  rfl

/-- Every index of the array is in the block of the last point of its row's query tile. -/
theorem cover9 (i : S8x1024.Idx) : ∃ t : Fin cfg0.N, (cfg0.win 9).flush t = true ∧ i ∈ ((cfg0.win 9).blk t).view.set := by
  have hi : (i 1).val < 1024 := (i 1).isLt
  have hN : cfg0.N = 64 := N_0
  refine ⟨⟨8 * ((i 1).val / 128) + 7, by omega⟩, (flush0_9 _).mpr (by show (8 * ((i 1).val / 128) + 7) % 8 = 7; omega), ?_⟩
  rw [mem_oblk9_iff]
  show 128 * ((8 * ((i 1).val / 128) + 7) / 8) ≤ (i 1).val ∧ (i 1).val < 128 * ((8 * ((i 1).val / 128) + 7) / 8) + 128
  omega

/-- The array ends holding the potential. -/
theorem final9 (c : Dev nD) : (dats m 0 c).arrAt 9 cfg0.N = pot1 m c :=
  (dats m 0 c).arrAt_eq_of_cover 9 (pot1 m c) (flushed9_eq m c) cover9

/-! ### The third result -/

/-- What a point of the last key tile writes back is its block of the field. -/
theorem flushed10_eq (c : Dev nD) (t : Fin cfg0.N) (hf : (cfg0.win 10).flush t = true) :
    (dats m 0 c).flushed 10 t = ((cfg0.win 10).blk t).view.read (Elt Ideal) (fld0 m c) := by
  have h7 : t.val % 8 = 7 := (flush0_10 t).mp hf
  show (cfg0.win 10).cut (grid0.coords t) ((dats m 0 c).after 10 t) = _
  funext y
  obtain ⟨b, p, k, rfl⟩ : ∃ (b : Fin 8) (p : Fin 128) (k : Fin 3), y = ix3 b p k := ⟨y 0, y 1, y 2, eq_ix3 y⟩
  obtain ⟨g0, g1, g2⟩ := outAt10_last m c t h7 b p
  show (dats m 0 c).after 10 t (ix3 b p k) = _
  rw [after0_10, View.read_apply, oblk10_emb t b p k]
  rcases fin3_cases k with rfl | rfl | rfl
  · rw [g0, scAt_last m c t h7, scAt_s2_last m c _ b p]
    rfl
  · rw [g1, scAt_last m c t h7, scAt_s3_last m c _ b p]
    rfl
  · rw [g2, scAt_last m c t h7, scAt_s4_last m c _ b p]
    rfl

/-- Every index of the array is in the block of the last point of its row's query tile. -/
theorem cover10 (i : S8x1024x3.Idx) : ∃ t : Fin cfg0.N, (cfg0.win 10).flush t = true ∧ i ∈ ((cfg0.win 10).blk t).view.set := by
  have hi : (i 1).val < 1024 := (i 1).isLt
  have hN : cfg0.N = 64 := N_0
  refine ⟨⟨8 * ((i 1).val / 128) + 7, by omega⟩, (flush0_10 _).mpr (by show (8 * ((i 1).val / 128) + 7) % 8 = 7; omega), ?_⟩
  rw [mem_oblk10_iff]
  show 128 * ((8 * ((i 1).val / 128) + 7) / 8) ≤ (i 1).val ∧ (i 1).val < 128 * ((8 * ((i 1).val / 128) + 7) / 8) + 128
  omega

/-- The array ends holding the field. -/
theorem final10 (c : Dev nD) : (dats m 0 c).arrAt 10 cfg0.N = fld0 m c :=
  (dats m 0 c).arrAt_eq_of_cover 10 (fld0 m c) (flushed10_eq m c) cover10

/-! ### The fourth result -/

/-- What a point of the last key tile writes back is its block of the field. -/
theorem flushed11_eq (c : Dev nD) (t : Fin cfg0.N) (hf : (cfg0.win 11).flush t = true) :
    (dats m 0 c).flushed 11 t = ((cfg0.win 11).blk t).view.read (Elt Ideal) (fld1 m c) := by
  have h7 : t.val % 8 = 7 := (flush0_11 t).mp hf
  show (cfg0.win 11).cut (grid0.coords t) ((dats m 0 c).after 11 t) = _
  funext y
  obtain ⟨b, p, k, rfl⟩ : ∃ (b : Fin 8) (p : Fin 128) (k : Fin 3), y = ix3 b p k := ⟨y 0, y 1, y 2, eq_ix3 y⟩
  obtain ⟨g0, g1, g2⟩ := outAt11_last m c t h7 b p
  show (dats m 0 c).after 11 t (ix3 b p k) = _
  rw [after0_11, View.read_apply, oblk11_emb t b p k]
  rcases fin3_cases k with rfl | rfl | rfl
  · rw [g0, scAt_last m c t h7, scAt_s5_last m c _ b p]
    rfl
  · rw [g1, scAt_last m c t h7, scAt_s6_last m c _ b p]
    rfl
  · rw [g2, scAt_last m c t h7, scAt_s7_last m c _ b p]
    rfl

/-- Every index of the array is in the block of the last point of its row's query tile. -/
theorem cover11 (i : S8x1024x3.Idx) : ∃ t : Fin cfg0.N, (cfg0.win 11).flush t = true ∧ i ∈ ((cfg0.win 11).blk t).view.set := by
  have hi : (i 1).val < 1024 := (i 1).isLt
  have hN : cfg0.N = 64 := N_0
  refine ⟨⟨8 * ((i 1).val / 128) + 7, by omega⟩, (flush0_11 _).mpr (by show (8 * ((i 1).val / 128) + 7) % 8 = 7; omega), ?_⟩
  rw [mem_oblk11_iff]
  show 128 * ((8 * ((i 1).val / 128) + 7) / 8) ≤ (i 1).val ∧ (i 1).val < 128 * ((8 * ((i 1).val / 128) + 7) / 8) + 128
  omega

/-- The array ends holding the field. -/
theorem final11 (c : Dev nD) : (dats m 0 c).arrAt 11 cfg0.N = fld1 m c :=
  (dats m 0 c).arrAt_eq_of_cover 11 (fld1 m c) (flushed11_eq m c) cover11

/-! ## The run -/

/-- Every weakly fair execution of the program from a memory with zero counters terminates with the four result arrays
    at the potential and the field of the two charge pairs, and the six arguments as launched. -/
theorem value_run : θ_run (defs (F := Ideal)) (onTc (τ := τ) (main (F := Ideal))) ⟨m, fun _ => 0, ρ⟩ (fun r => ∀ c : Dev nD,
      r.2.mem ((c.tc : Thread nD τ).loc main_v0_0) = Cert.Spec.pot (m ((c.tc : Thread nD τ).loc main_arg0)) (Cert.Spec.maskF (m ((c.tc : Thread nD τ).loc main_arg1))) (m ((c.tc : Thread nD τ).loc main_arg2)) (m ((c.tc : Thread nD τ).loc main_arg4))
      ∧ r.2.mem ((c.tc : Thread nD τ).loc main_v0_1) = Cert.Spec.pot (m ((c.tc : Thread nD τ).loc main_arg0)) (Cert.Spec.maskF (m ((c.tc : Thread nD τ).loc main_arg1))) (m ((c.tc : Thread nD τ).loc main_arg3)) (m ((c.tc : Thread nD τ).loc main_arg5))
      ∧ r.2.mem ((c.tc : Thread nD τ).loc main_v0_2) = Cert.Spec.fld (m ((c.tc : Thread nD τ).loc main_arg0)) (Cert.Spec.maskF (m ((c.tc : Thread nD τ).loc main_arg1))) (m ((c.tc : Thread nD τ).loc main_arg2)) (m ((c.tc : Thread nD τ).loc main_arg4))
      ∧ r.2.mem ((c.tc : Thread nD τ).loc main_v0_3) = Cert.Spec.fld (m ((c.tc : Thread nD τ).loc main_arg0)) (Cert.Spec.maskF (m ((c.tc : Thread nD τ).loc main_arg1))) (m ((c.tc : Thread nD τ).loc main_arg3)) (m ((c.tc : Thread nD τ).loc main_arg5))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)
      ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) :=
  (θ_run defs _ _).mono (fun _ h c =>
    ⟨((h c).1 8).trans (final8 m c), ((h c).1 9).trans (final9 m c), ((h c).1 10).trans (final10 m c), ((h c).1 11).trans (final11 m c),
     ((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).1 4).trans (((dats m 0 c).arrAt_in 4 rfl _).trans ((A_eq m c 4).trans (V_main_arg2 m c))),
     ((h c).1 5).trans (((dats m 0 c).arrAt_in 5 rfl _).trans ((A_eq m c 5).trans (V_main_arg3 m c))),
     ((h c).1 6).trans (((dats m 0 c).arrAt_in 6 rfl _).trans ((A_eq m c 6).trans (V_main_arg4 m c))),
     ((h c).1 7).trans (((dats m 0 c).arrAt_in 7 rfl _).trans ((A_eq m c 7).trans (V_main_arg5 m c)))⟩) (run_main m ρ)

end AtIdeal
end Cert.KernelIdeal.KV

end
-- ==== Proof.lean ====
/-
  The certificate of the pairwise multipole-field kernel against its reference.

  Both programs take positions P [8,1024,3], a one-bit row mask [8,1024], two scalar charge arrays q, m [8,1024] and
  two dipole arrays μ_q, μ_m [8,1024,3]. For a batch b, a query row i and a key row j they form the coordinate
  differences r = P[b,i] − P[b,j], the safe distance d = √max(r·r, 1e-16), the unit vector u = r / max(d, 1e-8), the
  pair weight w = ½(cos(π·d/5) + 1)·[d ≤ 5] · (M[b,i]·M[b,j]·[d > 1e-8]·[d ≤ 5]) · exp(−½ (d/0.6)²) and the softened
  inverse distance ρ = 1/√(d² + 0.0225). The potential at (b,i) is Σ_j w·ρ·s[b,j] + Σ_j w·ρ²·(μ[b,j]·u), and
  component c of the field at (b,i) is Σ_j (w·ρ²·s[b,j])·u_c + Σ_j (w·ρ³·(μ[b,j]·u))·u_c; the four results are the
  potential and the field for (s, μ) = (q, μ_q) and for (s, μ) = (m, μ_m). The kernel goes over the key rows tile by
  tile, multiplies by the reciprocal of the clamped distance where the reference divides by it, and adds up one pair of
  partial sums per tile; over the extended reals these are the same sums. Every literal is the extended real its binary
  word denotes, the same word on both sides.

  The five claims:
  • each of the three programs runs to its end from every launch memory and leaves its six argument arrays as they
    were: the word-level kernel and the idealized kernel by their frames, the reference by its run with the results
    dropped;
  • the idealization rewrote no operation of the kernel: there is nothing to preserve;
  • from memories that agree on the six arguments, the idealized kernel and the idealized reference both end with the
    specification's potential and field arrays of those arguments, so with equal results, and with their arguments
    unchanged.
  The precondition on the inputs is not used: no law on the way needs finiteness.
-/
import proofs.«173063_j80805514707451_1_alg».proof.Defs
import proofs.«173063_j80805514707451_1_alg».proof.Proof.Gen.Kernel
import proofs.«173063_j80805514707451_1_alg».proof.Proof.Gen.Kernel.Skeleton
import proofs.«173063_j80805514707451_1_alg».proof.Proof.Gen.Kernel.Launch
import proofs.«173063_j80805514707451_1_alg».proof.Proof.Gen.Kernel.Points
import proofs.«173063_j80805514707451_1_alg».proof.Proof.Gen.KernelIdeal
import proofs.«173063_j80805514707451_1_alg».proof.Proof.Gen.KernelIdeal.Skeleton
import proofs.«173063_j80805514707451_1_alg».proof.Proof.Gen.KernelIdeal.Launch
import proofs.«173063_j80805514707451_1_alg».proof.Proof.Gen.KernelIdeal.Points
import proofs.«173063_j80805514707451_1_alg».proof.Proof.Gen.ReferenceIdeal
import proofs.«173063_j80805514707451_1_alg».proof.Proof.Gen.ReferenceIdeal.Run
import proofs.«173063_j80805514707451_1_alg».proof.Proof.Gen.ReferenceIdeal.Read
import proofs.«173063_j80805514707451_1_alg».proof.Proof.Gen.Pre_finite_inputs
import proofs.«173063_j80805514707451_1_alg».proof.Proof.Spec
import proofs.«173063_j80805514707451_1_alg».proof.Proof.RefRun
import proofs.«173063_j80805514707451_1_alg».proof.Proof.FrameKernel.Body
import proofs.«173063_j80805514707451_1_alg».proof.Proof.FrameKernelIdeal.Body
import proofs.«173063_j80805514707451_1_alg».proof.Proof.KernelValue
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  -- the word-level kernel runs and leaves its arguments
  fun m ρ _ => Cert.Kernel.Fr.frame (F := Bits) m ρ,
  -- the idealized kernel runs and leaves its arguments
  fun m ρ _ => Cert.KernelIdeal.Fr.frame (F := Ideal) m ρ,
  -- the idealized reference runs and leaves its arguments: its run with the four results dropped
  fun m ρ _ => (θ_run Cert.ReferenceIdeal.defs _ _).mono (fun _ h c => (h c).2.2.2.2)
    (Cert.ReferenceIdeal.Value.run (F := Ideal) m ρ),
  -- the idealization rewrote nothing
  trivial,
  -- both idealized programs end at the specification's potentials and fields of the arguments
  fun m ρ m' ρ' _ hagree =>
    ⟨fun c => Cert.Spec.pot (m ((c.tc : Thread Cert.KernelIdeal.nD Cert.KernelIdeal.τ).loc Cert.KernelIdeal.main_arg0)) (Cert.Spec.maskF (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg4)),
      fun c => Cert.Spec.pot (m ((c.tc : Thread Cert.KernelIdeal.nD Cert.KernelIdeal.τ).loc Cert.KernelIdeal.main_arg0)) (Cert.Spec.maskF (m ((c.tc : Thread Cert.KernelIdeal.nD Cert.KernelIdeal.τ).loc Cert.KernelIdeal.main_arg1))) (m ((c.tc : Thread Cert.KernelIdeal.nD Cert.KernelIdeal.τ).loc Cert.KernelIdeal.main_arg3)) (m ((c.tc : Thread Cert.KernelIdeal.nD Cert.KernelIdeal.τ).loc Cert.KernelIdeal.main_arg5)),
      fun c => Cert.Spec.fld (m ((c.tc : Thread Cert.KernelIdeal.nD Cert.KernelIdeal.τ).loc Cert.KernelIdeal.main_arg0)) (Cert.Spec.maskF (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg4)),
      fun c => Cert.Spec.fld (m ((c.tc : Thread Cert.KernelIdeal.nD Cert.KernelIdeal.τ).loc Cert.KernelIdeal.main_arg0)) (Cert.Spec.maskF (m ((c.tc : Thread Cert.KernelIdeal.nD Cert.KernelIdeal.τ).loc Cert.KernelIdeal.main_arg1))) (m ((c.tc : Thread Cert.KernelIdeal.nD Cert.KernelIdeal.τ).loc Cert.KernelIdeal.main_arg3)) (m ((c.tc : Thread Cert.KernelIdeal.nD Cert.KernelIdeal.τ).loc Cert.KernelIdeal.main_arg5)),
      Cert.KernelIdeal.KV.value_run m ρ,
      (θ_run Cert.ReferenceIdeal.defs _ _).mono (fun _ h c =>
          ⟨(h c).1.trans (by rw [(hagree c).1, (hagree c).2.1, (hagree c).2.2.1, (hagree c).2.2.2.2.1]),
            (h c).2.1.trans (by rw [(hagree c).1, (hagree c).2.1, (hagree c).2.2.2.1, (hagree c).2.2.2.2.2]),
            (h c).2.2.1.trans (by rw [(hagree c).1, (hagree c).2.1, (hagree c).2.2.1, (hagree c).2.2.2.2.1]),
            (h c).2.2.2.1.trans (by rw [(hagree c).1, (hagree c).2.1, (hagree c).2.2.2.1, (hagree c).2.2.2.2.2]),
            (h c).2.2.2.2⟩)
        (Cert.ReferenceIdeal.RefValue.ref_run m' ρ')⟩⟩

end Cert.Proof

end
